-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S64x2 .f32) (main_arg24 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x2 .f32 := Host.absf main_arg23
  let main_cst_40 : FVec F S_ .f32 := constant S_ .f32 0x7F800000#32
  let main_v105 : FVec F S64x2 .f32 := broadcastInDim S64x2 ![] bcast_S_S64x2 main_cst_40
  let main_v106 : IVec S64x2 1 := cmpf .olt main_v104 main_v105
  let main_c_41 : IVec S_ 1 := constantI S_ 1 1#1
  let main_v107 : IVec S_ 1 := (fun x v => Host.reduce IntOp.andi x v reducesTo_S64x2_S_d0_1 h_S_) main_v106 main_c_41
  let main_v108 : IVec S_ 1 := andi main_v103 main_v107
  let main_v109 : FVec F S2 .f32 := Host.absf main_arg24
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg20 : FVec F S64 .f32) (main_arg21 : FVec F S64x64 .f32) (main_arg22 : FVec F S64 .f32) (main_arg23 : FVec F S64x2 .f32) (main_arg24 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x2 .f32) (main_arg24 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x2 .f32) (main_arg24 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x2 .f32) (main_arg24 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x2 .f32) (main_arg24 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x8 .f32) (main_arg1 : IVec S2x3200000 32) (main_arg2 : IVec S100000 32) (main_arg3 : FVec F S8x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64x2 .f32) (main_arg24 : FVec F S2 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg3
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x8 : Shape := ⟨2, ![5000, 8]⟩
abbrev S5000x64 : Shape := ⟨2, ![5000, 64]⟩
abbrev S3300000x64 : Shape := ⟨2, ![3300000, 64]⟩
abbrev S1x64 : Shape := ⟨2, ![1, 64]⟩
abbrev S100000x1 : Shape := ⟨2, ![100000, 1]⟩
abbrev S256x64 : Shape := ⟨2, ![256, 64]⟩
abbrev S5000x1 : Shape := ⟨2, ![5000, 1]⟩
abbrev S5000x256 : Shape := ⟨2, ![5000, 256]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 151
  | .vmem => 54
  | .smem => 0
  | _ => 0

abbrev hbmTy0_0 (i : Nat) : BufTy := match i % 128 with
  | 0 => ⟨S100000x8, .f32⟩
  | 1 => ⟨S2x3200000, .i32⟩
  | 2 => ⟨S100000, .i32⟩
  | 3 => ⟨S8x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64x2, .f32⟩
  | 24 => ⟨S2, .f32⟩
  | 25 => ⟨S100000, .i32⟩
  | 26 => ⟨S1x3200000, .i32⟩
  | 27 => ⟨S3200000, .i32⟩
  | 28 => ⟨S3300000, .i32⟩
  | 29 => ⟨S1x3200000, .i32⟩
  | 30 => ⟨S3200000, .i32⟩
  | 31 => ⟨S3300000, .i32⟩
  | 32 => ⟨S_, .f32⟩
  | 33 => ⟨S3300000, .f32⟩
  | 34 => ⟨S_, .f32⟩
  | 35 => ⟨S100000, .f32⟩
  | 36 => ⟨S3300000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S3300000, .f32⟩
  | 65 => ⟨S100000x64, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x64, .f32⟩
  | 75 => ⟨S3300000x1, .f32⟩
  | 76 => ⟨S3300000x64, .f32⟩
  | 77 => ⟨S3300000x64, .f32⟩
  | 78 => ⟨S_, .f32⟩
  | 79 => ⟨S100000x64, .f32⟩
  | 80 => ⟨S3300000x1, .i32⟩
  | 81 => ⟨S100000x64, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S100000x64, .f32⟩
  | 88 => ⟨S100000x64, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000x64, .f32⟩
  | 98 => ⟨S3300000x1, .f32⟩
  | 99 => ⟨S3300000x64, .f32⟩
  | 100 => ⟨S3300000x64, .f32⟩
  | 101 => ⟨S_, .f32⟩
  | 102 => ⟨S100000x64, .f32⟩
  | 103 => ⟨S3300000x1, .i32⟩
  | 104 => ⟨S100000x64, .f32⟩
  | 105 => ⟨S1x64, .f32⟩
  | 106 => ⟨S1x64, .f32⟩
  | 107 => ⟨S1x64, .f32⟩
  | 108 => ⟨S1x64, .f32⟩
  | 109 => ⟨S1x64, .f32⟩
  | 110 => ⟨S100000x64, .f32⟩
  | 111 => ⟨S100000x64, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x64, .f32⟩
  | 121 => ⟨S3300000x1, .f32⟩
  | 122 => ⟨S3300000x64, .f32⟩
  | 123 => ⟨S3300000x64, .f32⟩
  | 124 => ⟨S_, .f32⟩
  | 125 => ⟨S100000x64, .f32⟩
  | 126 => ⟨S3300000x1, .i32⟩
  | 127 => ⟨S100000x64, .f32⟩
  | _ => ⟨S100000x8, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S100000x64, .f32⟩
  | 6 => ⟨S100000x1, .i32⟩
  | 7 => ⟨S256x64, .f32⟩
  | 8 => ⟨S_, .f32⟩
  | 9 => ⟨S100000, .f32⟩
  | 10 => ⟨S_, .f32⟩
  | 11 => ⟨S256, .f32⟩
  | 12 => ⟨S100000x1, .i32⟩
  | 13 => ⟨S256, .f32⟩
  | 14 => ⟨S_, .f32⟩
  | 15 => ⟨S256, .f32⟩
  | 16 => ⟨S256, .f32⟩
  | 17 => ⟨S256x1, .f32⟩
  | 18 => ⟨S256x64, .f32⟩
  | 19 => ⟨S256x64, .f32⟩
  | 20 => ⟨S1x64, .f32⟩
  | 21 => ⟨S1x2, .f32⟩
  | 22 => ⟨S256x2, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S256x64, .f32⟩
  | .local _ .vmem, ⟨47, _⟩ => ⟨S256x64, .f32⟩
  | .local _ .vmem, ⟨48, _⟩ => ⟨S256x64, .f32⟩
  | .local _ .vmem, ⟨49, _⟩ => ⟨S64x64, .f32⟩
  | .local _ .vmem, ⟨50, _⟩ => ⟨S1x64, .f32⟩
  | .local _ .vmem, ⟨51, _⟩ => ⟨S64x2, .f32⟩
  | .local _ .vmem, ⟨52, _⟩ => ⟨S1x2, .f32⟩
  | .local _ .vmem, ⟨53, _⟩ => ⟨S256x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_9 : Ref sig .tc := ⟨.hbm, 89, rfl⟩
abbrev main_v51 : Ref sig .tc := ⟨.hbm, 90, rfl⟩
abbrev main_v52 : Ref sig .tc := ⟨.hbm, 91, rfl⟩
abbrev main_c_10 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_12 : Ref sig .tc := ⟨.hbm, 112, rfl⟩
abbrev main_v71 : Ref sig .tc := ⟨.hbm, 113, rfl⟩
abbrev main_v72 : Ref sig .tc := ⟨.hbm, 114, rfl⟩
abbrev main_c_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_14 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_15 : Ref sig .tc := ⟨.hbm, 136, rfl⟩
abbrev main_v92 : Ref sig .tc := ⟨.hbm, 137, rfl⟩
abbrev main_cst_16 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_17 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc7_sem0_0 : DmaSem sig := 47
abbrev cc7_sem1_0 : DmaSem sig := 48
abbrev cc7_sem2_0 : DmaSem sig := 49
abbrev cc7_sem3_0 : DmaSem sig := 50
abbrev cc7_sem4_0 : DmaSem sig := 51
abbrev cc7_sem5_0 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x2 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S2_S1x2 : S2.ShapeCasts S1x2
  broadcasts_S1x64_S256x64 : S1x64.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x8_S8x64_S5000x64_1_0_0_1_n_n_wf : DotDims.WF S5000x8 S8x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x64.size a ≤ S256x64.size a
  hwx6_2 : ∀ i : grid6.Coords, EltTy.bits .f32 = 32 ∨ (Rect.block (s := S256x64) S256x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S256x64.size a ≤ S256x64.size a
  hwx7_0 : ∀ i : grid7.Coords, EltTy.bits .f32 = 32 ∨ (Rect.block (s := S256x64) S256x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x2.size a ≤ S64x2.size a
  hwx7_3 : ∀ i : grid7.Coords, EltTy.bits .f32 = 32 ∨ (Rect.block (s := S64x2) S64x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x2.size a ≤ S1x2.size a
  hwx7_4 : ∀ i : grid7.Coords, EltTy.bits .f32 = 32 ∨ (Rect.block (s := S1x2) S1x2.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x2.size a ≤ S256x2.size a
  hwx7_5 : ∀ i : grid7.Coords, EltTy.bits .f32 = 32 ∨ (Rect.block (s := S256x2) S256x2.size (cc7_transform_5 i) (hinb7_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v89) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v89) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v91) S256x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v100) S256x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg21) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg23) S64x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102) S1x2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S256x2.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 209
  | .vmem => 0
  | .smem => 0
  | _ => 0

abbrev hbmTy0_0 (i : Nat) : BufTy := match i % 128 with
  | 0 => ⟨S100000x8, .f32⟩
  | 1 => ⟨S2x3200000, .i32⟩
  | 2 => ⟨S100000, .i32⟩
  | 3 => ⟨S8x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64x2, .f32⟩
  | 24 => ⟨S2, .f32⟩
  | 25 => ⟨S100000, .i32⟩
  | 26 => ⟨S1x3200000, .i32⟩
  | 27 => ⟨S3200000, .i32⟩
  | 28 => ⟨S3300000, .i32⟩
  | 29 => ⟨S1x3200000, .i32⟩
  | 30 => ⟨S3200000, .i32⟩
  | 31 => ⟨S3300000, .i32⟩
  | 32 => ⟨S_, .f32⟩
  | 33 => ⟨S3300000, .f32⟩
  | 34 => ⟨S_, .f32⟩
  | 35 => ⟨S100000, .f32⟩
  | 36 => ⟨S3300000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S3300000, .f32⟩
  | 65 => ⟨S100000x64, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x64, .f32⟩
  | 75 => ⟨S3300000x1, .f32⟩
  | 76 => ⟨S3300000x64, .f32⟩
  | 77 => ⟨S3300000x64, .f32⟩
  | 78 => ⟨S_, .f32⟩
  | 79 => ⟨S100000x64, .f32⟩
  | 80 => ⟨S3300000x1, .i32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x64, .f32⟩
  | 114 => ⟨S3300000x1, .f32⟩
  | 115 => ⟨S3300000x64, .f32⟩
  | 116 => ⟨S3300000x64, .f32⟩
  | 117 => ⟨S_, .f32⟩
  | 118 => ⟨S100000x64, .f32⟩
  | 119 => ⟨S3300000x1, .i32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x8, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000x64, .f32⟩
  | 25 => ⟨S3300000x1, .f32⟩
  | 26 => ⟨S3300000x64, .f32⟩
  | 27 => ⟨S3300000x64, .f32⟩
  | 28 => ⟨S_, .f32⟩
  | 29 => ⟨S100000x64, .f32⟩
  | 30 => ⟨S3300000x1, .i32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S256x64, .f32⟩
  | 56 => ⟨S100000x1, .i32⟩
  | 57 => ⟨S256x64, .f32⟩
  | 58 => ⟨S_, .f32⟩
  | 59 => ⟨S100000, .f32⟩
  | 60 => ⟨S_, .f32⟩
  | 61 => ⟨S256, .f32⟩
  | 62 => ⟨S100000x1, .i32⟩
  | 63 => ⟨S256, .f32⟩
  | 64 => ⟨S_, .f32⟩
  | 65 => ⟨S256, .f32⟩
  | 66 => ⟨S256, .f32⟩
  | 67 => ⟨S256x1, .f32⟩
  | 68 => ⟨S256x64, .f32⟩
  | 69 => ⟨S256x64, .f32⟩
  | 70 => ⟨S256x64, .f32⟩
  | 71 => ⟨S1x64, .f32⟩
  | 72 => ⟨S256x64, .f32⟩
  | 73 => ⟨S256x64, .f32⟩
  | 74 => ⟨S_, .f32⟩
  | 75 => ⟨S256x64, .f32⟩
  | 76 => ⟨S256x64, .f32⟩
  | 77 => ⟨S256x2, .f32⟩
  | 78 => ⟨S1x2, .f32⟩
  | 79 => ⟨S256x2, .f32⟩
  | 80 => ⟨S256x2, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call1_cst : Ref sig .tc := ⟨.hbm, 101, rfl⟩
abbrev main_call1_v0 : Ref sig .tc := ⟨.hbm, 102, rfl⟩
abbrev main_v62 : Ref sig .tc := ⟨.hbm, 103, rfl⟩
abbrev main_v63 : Ref sig .tc := ⟨.hbm, 104, rfl⟩
abbrev main_c_10 : Ref sig .tc := ⟨.hbm, 105, rfl⟩
abbrev main_v64 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_12 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_13 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call2_cst : Ref sig .tc := ⟨.hbm, 140, rfl⟩
abbrev main_call2_v0 : Ref sig .tc := ⟨.hbm, 141, rfl⟩
abbrev main_v95 : Ref sig .tc := ⟨.hbm, 142, rfl⟩
abbrev main_v96 : Ref sig .tc := ⟨.hbm, 143, rfl⟩
abbrev main_c_14 : Ref sig .tc := ⟨.hbm, 144, rfl⟩
abbrev main_v97 : Ref sig .tc := ⟨.hbm, 145, rfl⟩
abbrev main_v98 : Ref sig .tc := ⟨.hbm, 146, rfl⟩
abbrev main_c_15 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_16 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_17 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_call3_cst : Ref sig .tc := ⟨.hbm, 179, rfl⟩
abbrev main_call3_v0 : Ref sig .tc := ⟨.hbm, 180, rfl⟩
abbrev main_v128 : Ref sig .tc := ⟨.hbm, 181, rfl⟩
abbrev main_cst_18 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_19 : Ref sig .tc := ⟨.hbm, 186, rfl⟩
abbrev main_v132 : Ref sig .tc := ⟨.hbm, 187, rfl⟩
abbrev main_cst_20 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_21 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_call4_cst : Ref sig .tc := ⟨.hbm, 202, rfl⟩
abbrev main_call4_v0 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x8_S8x64_S100000x64_1_0_0_1_n_n_wf : DotDims.WF S100000x8 S8x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.Kernel.Lin1.lean ====
/-
  The first linear layer, `x · W₁`, as a pipelined region over twenty row tiles of 5000 rows.
  At each tile the body loads the tile of `x` and the whole of `W₁`, multiplies them on the matrix unit into a zero
  accumulator and stores the product over the whole output tile. Stated for any float instance `F` and at any
  contents `V` of the core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 output tile, the one rectangle the body stores through. -/
abbrev whole : Rect S5000x64 := Rect.unit (s := S5000x64) ![0, 0] S5000x64.size inb_S5000x64_S5000x64_0_0
abbrev wholeX : Rect S5000x8 := Rect.unit (s := S5000x8) ![0, 0] S5000x8.size inb_S5000x8_S5000x8_0_0
abbrev wholeW : Rect S8x64 := Rect.unit (s := S8x64) ![0, 0] S8x64.size inb_S8x64_S8x64_0_0

/-- What the body leaves in the output tile's buffer: the product of the `x` tile and `W₁`, stored whole. -/
def prod (x : Vec F S5000x8 .f32) (w : Vec F S8x64 .f32) : Vec F S5000x64 .f32 :=
  View.canon [⟨whole, k0_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid0.Coords)
    (a1 : Memref sig .tc .vmem S5000x8 .f32) (h1 : a1.IsWhole) (a2 : Memref sig .tc .vmem S8x64 .f32) (h2 : a2.IsWhole)
    (a3 : Memref sig .tc .vmem S5000x64 .f32) (h3 : a3.IsWhole)
    (x : Vec F S5000x8 .f32) (w : Vec F S8x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => prod (tile V c 0 t) (tile V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = tile V c 0 t := by dsimp only [dat]
theorem after_w (c : Dev nD) (t : Fin cfg0.N) : (dat V c).after 1 t = tile V c 1 t := by dsimp only [dat]
theorem after_out (c : Dev nD) (t : Fin cfg0.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg0.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg0.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at V c t

end Cert.Kernel.Lin1

end
-- ==== Proof.Kernel.Act1.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Act1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k1_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid1.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc1__bias_bn_relu_kernel i a1 h1 a2 h2 a3 h3 a4 h4 a5 h5 a6 h6 a7 h7) K := by
  simp only [cc1__bias_bn_relu_kernel_eq_skeleton]; unfold cc1__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = tile V c 0 t := by dsimp only [dat]
theorem after_p1 (c : Dev nD) (t : Fin cfg1.N) : (dat V c).after 1 t = tile V c 1 t := by dsimp only [dat]
theorem after_p2 (c : Dev nD) (t : Fin cfg1.N) : (dat V c).after 2 t = tile V c 2 t := by dsimp only [dat]
theorem after_p3 (c : Dev nD) (t : Fin cfg1.N) : (dat V c).after 3 t = tile V c 3 t := by dsimp only [dat]
theorem after_p4 (c : Dev nD) (t : Fin cfg1.N) : (dat V c).after 4 t = tile V c 4 t := by dsimp only [dat]
theorem after_p5 (c : Dev nD) (t : Fin cfg1.N) : (dat V c).after 5 t = tile V c 5 t := by dsimp only [dat]
theorem after_out (c : Dev nD) (t : Fin cfg1.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg1.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg1.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg1.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg1.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg1.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg1.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W1, bigSep_W1]
  exact body_at V c t

end Cert.Kernel.Act1

end
-- ==== Proof.Kernel.Lin2.lean ====
/-
  The second linear layer, `x · W₂`, as a pipelined region over twenty row tiles of 5000 rows.
  At each tile the body loads the tile of `x` and the whole of `W₂`, multiplies them on the matrix unit into a zero
  accumulator and stores the product over the whole output tile. Stated for any float instance `F` and at any
  contents `V` of the core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000 × 64 output tile, the one rectangle the body stores through. -/
abbrev whole : Rect S5000x64 := Rect.unit (s := S5000x64) ![0, 0] S5000x64.size inb_S5000x64_S5000x64_0_0
abbrev wholeX : Rect S5000x64 := Rect.unit (s := S5000x64) ![0, 0] S5000x64.size inb_S5000x64_S5000x64_0_0
abbrev wholeW : Rect S64x64 := Rect.unit (s := S64x64) ![0, 0] S64x64.size inb_S64x64_S64x64_0_0

/-- What the body leaves in the output tile's buffer: the product of the `x` tile and `W₂`, stored whole. -/
def prod (x : Vec F S5000x64 .f32) (w : Vec F S64x64 .f32) : Vec F S5000x64 .f32 :=
  View.canon [⟨whole, k2_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid2.Coords)
    (a1 : Memref sig .tc .vmem S5000x64 .f32) (h1 : a1.IsWhole) (a2 : Memref sig .tc .vmem S64x64 .f32) (h2 : a2.IsWhole)
    (a3 : Memref sig .tc .vmem S5000x64 .f32) (h3 : a3.IsWhole)
    (x : Vec F S5000x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => prod (tile V c 0 t) (tile V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_x (c : Dev nD) (t : Fin cfg2.N) : (dat V c).after 0 t = tile V c 0 t := by dsimp only [dat]
theorem after_w (c : Dev nD) (t : Fin cfg2.N) : (dat V c).after 1 t = tile V c 1 t := by dsimp only [dat]
theorem after_out (c : Dev nD) (t : Fin cfg2.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg2.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg2.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact body_at V c t

end Cert.Kernel.Lin2

end
-- ==== Proof.Kernel.Act2.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Act2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k3_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid3.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc3__bias_bn_relu_kernel i a1 h1 a2 h2 a3 h3 a4 h4 a5 h5 a6 h6 a7 h7) K := by
  simp only [cc3__bias_bn_relu_kernel_eq_skeleton]; unfold cc3__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg3 c where
  A w := V c (Pipeline.arrRef spec3 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec3 c
  q _ := fullShare
  owed _ := 0

theorem dat_A (c : Dev nD) (w : Fin cfg3.W) : (dat V c).A w = V c (Pipeline.arrRef spec3 w) := by
  dsimp only [dat]

theorem after_x (c : Dev nD) (t : Fin cfg3.N) : (dat V c).after 0 t = tile V c 0 t := by dsimp only [dat]
theorem after_p1 (c : Dev nD) (t : Fin cfg3.N) : (dat V c).after 1 t = tile V c 1 t := by dsimp only [dat]
theorem after_p2 (c : Dev nD) (t : Fin cfg3.N) : (dat V c).after 2 t = tile V c 2 t := by dsimp only [dat]
theorem after_p3 (c : Dev nD) (t : Fin cfg3.N) : (dat V c).after 3 t = tile V c 3 t := by dsimp only [dat]
theorem after_p4 (c : Dev nD) (t : Fin cfg3.N) : (dat V c).after 4 t = tile V c 4 t := by dsimp only [dat]
theorem after_p5 (c : Dev nD) (t : Fin cfg3.N) : (dat V c).after 5 t = tile V c 5 t := by dsimp only [dat]
theorem after_out (c : Dev nD) (t : Fin cfg3.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg3.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg3.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg3.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg3.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg3.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg3.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact body_at V c t

end Cert.Kernel.Act2

end
-- ==== Proof.Kernel.Lin3.lean ====
/-
  The third linear layer, `x · W₃`, as a pipelined region over twenty row tiles of 5000 rows.
  At each tile the body loads the tile of `x` and the whole of `W₃`, multiplies them on the matrix unit into a zero
  accumulator and stores the product over the whole output tile. Stated for any float instance `F` and at any
  contents `V` of the core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Lin3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole 5000 × 64 output tile, the one rectangle the body stores through. -/
abbrev whole : Rect S5000x64 := Rect.unit (s := S5000x64) ![0, 0] S5000x64.size inb_S5000x64_S5000x64_0_0
abbrev wholeX : Rect S5000x64 := Rect.unit (s := S5000x64) ![0, 0] S5000x64.size inb_S5000x64_S5000x64_0_0
abbrev wholeW : Rect S64x64 := Rect.unit (s := S64x64) ![0, 0] S64x64.size inb_S64x64_S64x64_0_0

/-- What the body leaves in the output tile's buffer: the product of the `x` tile and `W₃`, stored whole. -/
def prod (x : Vec F S5000x64 .f32) (w : Vec F S64x64 .f32) : Vec F S5000x64 .f32 :=
  View.canon [⟨whole, k4_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid4.Coords)
    (a1 : Memref sig .tc .vmem S5000x64 .f32) (h1 : a1.IsWhole) (a2 : Memref sig .tc .vmem S64x64 .f32) (h2 : a2.IsWhole)
    (a3 : Memref sig .tc .vmem S5000x64 .f32) (h3 : a3.IsWhole)
    (x : Vec F S5000x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg4 c where
  A w := V c (Pipeline.arrRef spec4 w)
  after w t := match w with
    | ⟨0, _⟩ => tile V c 0 t
    | ⟨1, _⟩ => tile V c 1 t
    | ⟨2, _⟩ => prod (tile V c 0 t) (tile V c 1 t)
  Φ _ := Pipeline.ΦA spec4 c
  q _ := fullShare
  owed _ := 0

theorem dat_A (c : Dev nD) (w : Fin cfg4.W) : (dat V c).A w = V c (Pipeline.arrRef spec4 w) := by
  dsimp only [dat]

theorem after_x (c : Dev nD) (t : Fin cfg4.N) : (dat V c).after 0 t = tile V c 0 t := by dsimp only [dat]
theorem after_w (c : Dev nD) (t : Fin cfg4.N) : (dat V c).after 1 t = tile V c 1 t := by dsimp only [dat]
theorem after_out (c : Dev nD) (t : Fin cfg4.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg4.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg4.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W4, bigSep_W4]
  exact body_at V c t

end Cert.Kernel.Lin3

end
-- ==== Proof.Kernel.Act3.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Act3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k5_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid5.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc5__bias_bn_relu_kernel i a1 h1 a2 h2 a3 h3 a4 h4 a5 h5 a6 h6 a7 h7) K := by
  simp only [cc5__bias_bn_relu_kernel_eq_skeleton]; unfold cc5__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg5 c where
  A w := V c (Pipeline.arrRef spec5 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec5 c
  q _ := fullShare
  owed _ := 0

theorem dat_A (c : Dev nD) (w : Fin cfg5.W) : (dat V c).A w = V c (Pipeline.arrRef spec5 w) := by
  dsimp only [dat]

theorem after_x (c : Dev nD) (t : Fin cfg5.N) : (dat V c).after 0 t = tile V c 0 t := by dsimp only [dat]
theorem after_p1 (c : Dev nD) (t : Fin cfg5.N) : (dat V c).after 1 t = tile V c 1 t := by dsimp only [dat]
theorem after_p2 (c : Dev nD) (t : Fin cfg5.N) : (dat V c).after 2 t = tile V c 2 t := by dsimp only [dat]
theorem after_p3 (c : Dev nD) (t : Fin cfg5.N) : (dat V c).after 3 t = tile V c 3 t := by dsimp only [dat]
theorem after_p4 (c : Dev nD) (t : Fin cfg5.N) : (dat V c).after 4 t = tile V c 4 t := by dsimp only [dat]
theorem after_p5 (c : Dev nD) (t : Fin cfg5.N) : (dat V c).after 5 t = tile V c 5 t := by dsimp only [dat]
theorem after_out (c : Dev nD) (t : Fin cfg5.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg5.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg5.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg5.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg5.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg5.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg5.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d))
    ∗ (∃ d, owns (c : Thread nD τ) (st5_6 t) fullShare ((dat V c).before 6 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t)
    ∗ owns (c : Thread nD τ) (st5_6 t) fullShare ((dat V c).after 6 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W5, bigSep_W5]
  exact body_at V c t

end Cert.Kernel.Act3

end
-- ==== Proof.Kernel.PoolAcc.lean ====
/-
  The pooling region's running sum, as a recursion over its twenty row tiles.
  At the first tile the accumulator is reset to zero; at every tile the one-hot of the tile's graph ids, contracted
  with the tile's rows over the row axis, is added to it. `accum h b n` is the accumulator after tile `n`, as a
  function of the whole node array `h` and the whole id column `b`, for any float instance.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points

noncomputable section

namespace Cert.Kernel.PoolAcc

open Cert.Kernel Cert.Kernel.Gen
open Idealize.ShloMosaic Idealize.ShloMosaic.TcCoe Idealize.SL.Sem

variable {F : FTy → Type} [FloatOps F]

/-- Rows `5000·t … 5000·t + 4999` of the node array. -/
def rowsAt (h : Vec F S100000x64 .f32) (t : Fin cfg6.N) : Vec F S5000x64 .f32 :=
  ((cfg6.win 0).blk t).view.read (Elt F) h

/-- The same rows of the graph-id column. -/
def idsAt (b : Vec F S100000x1 .i32) (t : Fin cfg6.N) : Vec F S5000x1 .i32 :=
  ((cfg6.win 1).blk t).view.read (Elt F) b

/-- The accumulator after tile `n`. -/
def accum (h : Vec F S100000x64 .f32) (b : Vec F S100000x1 .i32) : (n : ℕ) → n < cfg6.N → Vec F S256x64 .f32
  | 0, hn => k6_pay2 (idsAt b ⟨0, hn⟩) (rowsAt h ⟨0, hn⟩) (k6_pay1 (F := F))
  | n + 1, hn => k6_pay2 (idsAt b ⟨n + 1, hn⟩) (rowsAt h ⟨n + 1, hn⟩) (accum h b n (Nat.lt_of_succ_lt hn))

theorem accum_zero (h : Vec F S100000x64 .f32) (b : Vec F S100000x1 .i32) (hn : 0 < cfg6.N) :
    accum h b 0 hn = k6_pay2 (idsAt b ⟨0, hn⟩) (rowsAt h ⟨0, hn⟩) (k6_pay1 (F := F)) := rfl

theorem accum_succ (h : Vec F S100000x64 .f32) (b : Vec F S100000x1 .i32) (n : ℕ) (hn : n + 1 < cfg6.N) :
    accum h b (n + 1) hn = k6_pay2 (idsAt b ⟨n + 1, hn⟩) (rowsAt h ⟨n + 1, hn⟩) (accum h b n (Nat.lt_of_succ_lt hn)) := rfl

end Cert.Kernel.PoolAcc

end
-- ==== Proof.Kernel.Pool.lean ====
/-
  The pooling region: the one-hot of the graph ids, contracted with the node features over the rows, summed over
  twenty row tiles of 5000 rows into a 256 × 64 accumulator the kernel keeps in a scratch buffer between tiles.
  At the first tile the body zeroes the scratch; at every tile it loads the tile's ids and rows and the scratch and
  stores the scratch plus the tile's product back; at the last tile it copies the scratch over the output's buffer,
  which is written back there and nowhere else. Stated for any float instance `F` and at any contents `V` of the
  core's buffers when the region is entered: after tile `n` the scratch holds `PoolAcc.accum` at `n`, and the
  output array ends holding it at the last tile.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import proofs.«412454_j38594576122130_1_alg».proof.Proof.Kernel.PoolAcc
import Idealize.ShloMosaic.Lib.Pipeline.FrameBody
import Idealize.ShloMosaic.Lib.Pipeline.RegionsLoop
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first branch's condition as the body computes it from the point's coordinate. -/
abbrev isFirst (i : grid6.Coords) : Prop :=
  (Scalar.cmpi .ne (Scalar.extui (Scalar.cmpi .eq (BitVec.ofNat 32 (i 0).val) 0#32)) 0#32) = 1#1

/-- It holds at the first of the twenty points only; -/
theorem isFirst_iff : ∀ t : Fin cfg6.N, isFirst (grid6.coords t) ↔ t.val = 0 :=
  (by decide +kernel : ∀ t : Fin grid6.N, isFirst (grid6.coords t) ↔ t.val = 0)
/-- the second branch's at the last only. -/
theorem isLast_iff : ∀ t : Fin cfg6.N, k6_cond2 (grid6.coords t) = 1#1 ↔ t.val = 19 :=
  (by decide +kernel : ∀ t : Fin grid6.N, k6_cond2 (grid6.coords t) = 1#1 ↔ t.val = 19)

/-- The whole 256 × 64 rectangle covers every index, whatever is stored under it. -/
theorem covers (p : Vec F S256x64 .f32) (L : List (View.Piece (Elt F) S256x64 .f32)) (y : S256x64.Idx) :
    ∃ pc ∈ ((⟨Rect.unit (s := S256x64) ![0, 0] S256x64.size inb_S256x64_S256x64_0_0, p⟩ : View.Piece (Elt F) S256x64 .f32) :: L), y ∈ pc.1.set :=
  ⟨_, List.mem_cons_self, View.mem_set_unit_zero hz inb_S256x64_S256x64_0_0 y⟩

set_option maxHeartbeats 1000000 in
/-- The body at the first point, on whole buffers: the scratch, whatever it held, is zeroed and ends at the first
    tile's product added to zero; the inputs and the output's buffer are kept. -/
theorem body_first (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : isFirst i) (hc2 : ¬k6_cond2 i = 1#1)
    (x : Vec F S5000x64 .f32) (b : Vec F S5000x1 .i32) (o : Vec F S256x64 .f32) (K : PUnit → sProp 𝕄) :
    iprop(owns (c : Thread nD τ) a1 fullShare x ∗ owns (c : Thread nD τ) a2 fullShare b ∗ owns (c : Thread nD τ) a3 fullShare o
        ∗ (∃ d, owns (c : Thread nD τ) a4 fullShare d)
        ∗ (iprop(owns (c : Thread nD τ) a1 fullShare x ∗ owns (c : Thread nD τ) a2 fullShare b ∗ owns (c : Thread nD τ) a3 fullShare o
            ∗ owns (c : Thread nD τ) a4 fullShare (k6_pay2 b x (k6_pay1 (F := F)))) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (covers _ _)]
  rw [View.canon_cons_unit_zero (S := S256x64) hz, View.readCov_unit_zero (S := S256x64) _ hz]
  simp only [View.readAt_eq_ld, View.ld_unit_zero (S := S5000x64) hz, View.ld_unit_zero (S := S5000x1) hz]

set_option maxHeartbeats 1000000 in
/-- The body at a middle point: the scratch holding `s` ends at `s` plus the tile's product. -/
theorem body_mid (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : ¬isFirst i) (hc2 : ¬k6_cond2 i = 1#1)
    (x : Vec F S5000x64 .f32) (b : Vec F S5000x1 .i32) (o : Vec F S256x64 .f32) (s : Vec F S256x64 .f32) (K : PUnit → sProp 𝕄) :
    iprop(owns (c : Thread nD τ) a1 fullShare x ∗ owns (c : Thread nD τ) a2 fullShare b ∗ owns (c : Thread nD τ) a3 fullShare o
        ∗ owns (c : Thread nD τ) a4 fullShare s
        ∗ (iprop(owns (c : Thread nD τ) a1 fullShare x ∗ owns (c : Thread nD τ) a2 fullShare b ∗ owns (c : Thread nD τ) a3 fullShare o
            ∗ owns (c : Thread nD τ) a4 fullShare (k6_pay2 b x s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (covers _ _)]
  rw [View.canon_cons_unit_zero (S := S256x64) hz]
  simp only [View.readAt_eq_ld, View.ld_unit_zero (S := S5000x64) hz, View.ld_unit_zero (S := S5000x1) hz, View.ld_unit_zero (S := S256x64) hz]

set_option maxHeartbeats 1000000 in
/-- The body at the last point: the scratch holding `s` ends at `s` plus the tile's product, and the output's buffer,
    whatever it held, ends at the same. -/
theorem body_last (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : ¬isFirst i) (hc2 : k6_cond2 i = 1#1)
    (x : Vec F S5000x64 .f32) (b : Vec F S5000x1 .i32) (s : Vec F S256x64 .f32) (K : PUnit → sProp 𝕄) :
    iprop(owns (c : Thread nD τ) a1 fullShare x ∗ owns (c : Thread nD τ) a2 fullShare b ∗ (∃ d, owns (c : Thread nD τ) a3 fullShare d)
        ∗ owns (c : Thread nD τ) a4 fullShare s
        ∗ (iprop(owns (c : Thread nD τ) a1 fullShare x ∗ owns (c : Thread nD τ) a2 fullShare b ∗ owns (c : Thread nD τ) a3 fullShare (k6_pay2 b x s)
            ∗ owns (c : Thread nD τ) a4 fullShare (k6_pay2 b x s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (covers _ _)]
    rw [View.canon_cons_unit_zero (S := S256x64) hz, View.readCov_unit_zero (S := S256x64) _ hz]
    simp only [View.readAt_eq_ld, View.ld_unit_zero (S := S5000x64) hz, View.ld_unit_zero (S := S5000x1) hz, View.ld_unit_zero (S := S256x64) hz]
  iexists _; isplitr
  swap; · iexact H4
  ipureintro
  sl_unfold_words
  rw [View.read_writes_eq_canon _ _ _ (covers _ _)]
  rw [View.canon_cons_unit_zero (S := S256x64) hz]
  simp only [View.readAt_eq_ld, View.ld_unit_zero (S := S5000x64) hz, View.ld_unit_zero (S := S5000x1) hz, View.ld_unit_zero (S := S256x64) hz]

/-! ## The proof data -/

variable (V : (c : Dev nD) → (b : Ref sig .tc) → Buf (Elt F) ((c : Thread nD τ).loc b))

/-- The node features and the graph ids as the region finds them. -/
abbrev feats (c : Dev nD) : Vec F S100000x64 .f32 := V c main_v89
abbrev gids (c : Dev nD) : Vec F S100000x1 .i32 := V c main_v90

/-- The tile of window `w`'s array that grid point `t` works on, read off the entry contents. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem tile_rows (c : Dev nD) (t : Fin cfg6.N) : tile V c 0 t = PoolAcc.rowsAt (feats V c) t := rfl
theorem tile_ids (c : Dev nD) (t : Fin cfg6.N) : tile V c 1 t = PoolAcc.idsAt (gids V c) t := rfl

/-- The accumulator after tile `n`, over the entry contents. -/
abbrev acc (c : Dev nD) (n : ℕ) (hn : n < cfg6.N) : Vec F S256x64 .f32 := PoolAcc.accum (feats V c) (gids V c) n hn

/-- At the first tile it is the tile's product added to zero; -/
theorem acc_first (c : Dev nD) (t : Fin cfg6.N) (h0 : t.val = 0) :
    acc V c t.val t.isLt = k6_pay2 (tile V c 1 t) (tile V c 0 t) (k6_pay1 (F := F)) := by
  obtain ⟨n, hn⟩ := t
  cases n with
  | zero => rfl
  | succ n => exact absurd h0 (Nat.succ_ne_zero n)

/-- at a later tile, the tile's product added to the accumulator after the tile before. -/
theorem acc_step (c : Dev nD) (t : Fin cfg6.N) (h0 : t.val ≠ 0) :
    acc V c t.val t.isLt = k6_pay2 (tile V c 1 t) (tile V c 0 t) (acc V c (t.val - 1) (Nat.lt_of_le_of_lt (Nat.sub_le _ _) t.isLt)) := by
  obtain ⟨n, hn⟩ := t
  cases n with
  | zero => exact absurd rfl h0
  | succ n => rfl

/-- The scratch the kernel carries between tiles. -/
abbrev scratch : Memref sig .tc .vmem S256x64 .f32 := Memref.whole cc6_scratch0

/-- The region's invariant before position `n`: before the first tile what every region is entered with (the
    scratch at anything); afterwards the scratch at the accumulator after the tile before, the rest of the scoped
    buffers and the generator register as they come. -/
def phi (c : Dev nD) : (n : ℕ) → n ≤ cfg6.N → sProp 𝕄
  | 0, _ => Pipeline.ΦA spec6 c
  | n + 1, hn => iprop(owns (c : Thread nD τ) scratch fullShare (acc V c n hn)
      ∗ Pipeline.scopedRestBut (Ix := Unit) (Name := ℕ) (U := UR sig nD τ) (Lvl := ℕ) (Val := Elt F) spec6 c [cc6_scratch0]
      ∗ (∃ r, prngReg c r))

theorem phi_at_zero (c : Dev nD) (n : ℕ) (h : n ≤ cfg6.N) (hz : n = 0) : phi V c n h = Pipeline.ΦA spec6 c := by
  subst hz; rfl

theorem phi_succ (c : Dev nD) (n : ℕ) (hn : n < cfg6.N) :
    phi V c (n + 1) hn = iprop(owns (c : Thread nD τ) scratch fullShare (acc V c n hn)
      ∗ Pipeline.scopedRestBut (Ix := Unit) (Name := ℕ) (U := UR sig nD τ) (Lvl := ℕ) (Val := Elt F) spec6 c [cc6_scratch0]
      ∗ (∃ r, prngReg c r)) := rfl

theorem phi_pos (c : Dev nD) (n : ℕ) (h : n ≤ cfg6.N) (hz : n ≠ 0) :
    phi V c n h = iprop(owns (c : Thread nD τ) scratch fullShare (acc V c (n - 1) (by omega))
      ∗ Pipeline.scopedRestBut (Ix := Unit) (Name := ℕ) (U := UR sig nD τ) (Lvl := ℕ) (Val := Elt F) spec6 c [cc6_scratch0]
      ∗ (∃ r, prngReg c r)) := by
  cases n with
  | zero => exact absurd rfl hz
  | succ n => rfl

/-- What the region is entered with, the scratch taken out of the scoped rest and owned as a memref at some contents. -/
theorem PhiA_eq (c : Dev nD) :
    (Pipeline.ΦA spec6 c : sProp 𝕄)
      = iprop(iprop(iprop(∃ d, owns (c : Thread nD τ) scratch fullShare d)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scratch, owns_whole]; try rfl

/-- After the body at tile `t`: the two inputs' buffers still hold their tiles; the output's holds the accumulator
    after `t` — what the body stores there at the last tile, the one point that writes it back; at the other points
    the body stores nothing there and the window is idle. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => acc V c t.val t.isLt
  Φ t := phi V c t.val (Nat.le_of_lt_succ t.isLt)
  q _ := fullShare
  owed _ := 0

theorem dat_A (c : Dev nD) (w : Fin cfg6.W) : (dat V c).A w = V c (Pipeline.arrRef spec6 w) := by
  dsimp only [dat]

theorem after_rows (c : Dev nD) (t : Fin cfg6.N) : (dat V c).after 0 t = tile V c 0 t := by dsimp only [dat]
theorem after_ids (c : Dev nD) (t : Fin cfg6.N) : (dat V c).after 1 t = tile V c 1 t := by dsimp only [dat]
theorem after_out (c : Dev nD) (t : Fin cfg6.N) : (dat V c).after 2 t = acc V c t.val t.isLt := by dsimp only [dat]

theorem phi_castSucc (c : Dev nD) (t : Fin cfg6.N) : (dat V c).Φ t.castSucc = phi V c t.val (Nat.le_of_lt t.isLt) := by
  dsimp only [dat]; simp only [Fin.coe_castSucc]

/-- Before the first tile the invariant is what every region is entered with; -/
theorem phi_zero (c : Dev nD) : (dat V c).Φ 0 = Pipeline.ΦA spec6 c := rfl

/-- after the last it gives that back: the scratch's contents are forgotten. -/
theorem phi_last (c : Dev nD) : (dat V c).Φ (Fin.last cfg6.N) ⊢ Pipeline.ΦA spec6 c := by
  rw [show (dat V c).Φ (Fin.last cfg6.N) = phi V c (Fin.last cfg6.N).val (Nat.le_of_lt_succ (Fin.last cfg6.N).isLt) from rfl,
    phi_pos V c _ _ (by rw [Fin.val_last]; have : cfg6.N = 20 := N_6; omega), PhiA_eq]
  iintro ⟨HS, HR, Hg⟩
  isplitl [HS HR]
  · isplitl [HS]
    · iexists _; iexact HS
    iexact HR
  iexact Hg

/-- An input's buffer holds its tile when the body starts. -/
theorem before_rows (c : Dev nD) (t : Fin cfg6.N) (d) : (dat V c).before 0 t d = tile V c 0 t :=
  ((dat V c).before_in_eq_fetched 0 rfl (fun _ => rfl) (fun _ _ _ => rfl)
    (fun t => by rw [after_rows]; unfold Dat.blockOf tile; rw [dat_A]; try rfl) t d).trans
    (by unfold Dat.fetched Dat.blockOf tile; rw [dat_A]; try rfl)
theorem before_ids (c : Dev nD) (t : Fin cfg6.N) (d) : (dat V c).before 1 t d = tile V c 1 t :=
  ((dat V c).before_in_eq_fetched 1 rfl (fun _ => rfl) (fun _ _ _ => rfl)
    (fun t => by rw [after_ids]; unfold Dat.blockOf tile; rw [dat_A]; try rfl) t d).trans
    (by unfold Dat.fetched Dat.blockOf tile; rw [dat_A]; try rfl)

/-! ## Where the windows are idle -/

theorem live_rows : ∀ t : Fin cfg6.N, cfg6.idle 0 (grid6.coords t) = false := fun _ => rfl
theorem live_ids : ∀ t : Fin cfg6.N, cfg6.idle 1 (grid6.coords t) = false := fun _ => rfl
/-- The output's window is idle at every tile but the last, -/
theorem idle_out : ∀ t : Fin cfg6.N, t.val ≠ 19 → cfg6.idle 2 (grid6.coords t) = true :=
  (by decide +kernel : ∀ t : Fin grid6.N, t.val ≠ 19 → idle6 2 (grid6.coords t) = true)
/-- where the body stores into it, -/
theorem live_out : ∀ t : Fin cfg6.N, t.val = 19 → cfg6.idle 2 (grid6.coords t) = false :=
  (by decide +kernel : ∀ t : Fin grid6.N, t.val = 19 → idle6 2 (grid6.coords t) = false)
/-- and is not written back before the last. -/
theorem noflush_out : ∀ t : Fin cfg6.N, t.val ≠ 19 → (cfg6.win 2).flush t = false :=
  (by decide +kernel : ∀ t : Fin grid6.N, t.val ≠ 19 → win6_2.flush t = false)

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1000000 in
/-- The body at any tile, by the three cases of its two conditions: the invariant hands it the scratch (at anything
    at the first tile, else at the accumulator after the tile before) and takes it back at this tile's accumulator;
    the output's buffer is handed back as found, but at the last tile, where it ends at the accumulator. -/
theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_rows, before_ids]
  rw [show (dat V c).owesAt () t.succ = (dat V c).owesAt () t.castSucc from rfl]
  rw [show (dat V c).Φ t.succ = phi V c (t.val + 1) t.isLt from rfl, phi_succ]
  rw [show (dat V c).leavesExact 0 t = owns (c : Thread nD τ) (st6_0 t) fullShare ((dat V c).after 0 t) from by
    unfold Dat.leavesExact; rw [live_rows t], after_rows]
  rw [show (dat V c).leavesExact 1 t = owns (c : Thread nD τ) (st6_1 t) fullShare ((dat V c).after 1 t) from by
    unfold Dat.leavesExact; rw [live_ids t], after_ids]
  have hN : t.val < 20 := lt_of_lt_of_eq t.isLt (show cfg6.N = 20 from N_6)
  by_cases h0 : t.val = 0
  · have hc1 : isFirst (grid6.coords t) := (isFirst_iff t).mpr h0
    have hc2 : ¬k6_cond2 (grid6.coords t) = 1#1 := fun h => by have := (isLast_iff t).mp h; omega
    rw [Dat.leavesExact_idle (dat V c) 2 t (idle_out t (by omega)) (noflush_out t (by omega))]
    rw [phi_castSucc V c t, phi_at_zero V c _ _ h0, PhiA_eq, acc_first V c t h0]
    iintro ⟨⟨⟨HS, HR⟩, Hg⟩, Ho, ⟨%d0, H0⟩, ⟨%d1, H1⟩, ⟨%d2, H2⟩⟩
    iapply (body_first c Set.univ _ _ _ _ _ _ _ _ _ hc1 hc2 (tile V c 0 t) (tile V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hc1 : ¬isFirst (grid6.coords t) := fun h => h0 ((isFirst_iff t).mp h)
    rw [phi_castSucc V c t, phi_pos V c _ _ h0, acc_step V c t h0]
    by_cases h19 : t.val = 19
    · have hc2 : k6_cond2 (grid6.coords t) = 1#1 := (isLast_iff t).mpr h19
      rw [show (dat V c).leavesExact 2 t = owns (c : Thread nD τ) (st6_2 t) fullShare ((dat V c).after 2 t) from by
        unfold Dat.leavesExact; rw [live_out t h19], after_out, acc_step V c t h0]
      iintro ⟨⟨HS, HR, Hg⟩, Ho, ⟨%d0, H0⟩, ⟨%d1, H1⟩, ⟨%d2, H2⟩⟩
      iapply (body_last c Set.univ _ _ _ _ _ _ _ _ _ hc1 hc2 (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬k6_cond2 (grid6.coords t) = 1#1 := fun h => h19 ((isLast_iff t).mp h)
      rw [Dat.leavesExact_idle (dat V c) 2 t (idle_out t h19) (noflush_out t h19)]
      iintro ⟨⟨HS, HR, Hg⟩, Ho, ⟨%d0, H0⟩, ⟨%d1, H1⟩, ⟨%d2, H2⟩⟩
      iapply (body_mid c Set.univ _ _ _ _ _ _ _ _ _ hc1 hc2 (tile V c 0 t) (tile V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W6, bigSep_W6]
  exact body_at V c t

/-! ## The value: the pooled array after the region -/

/-- The last of the twenty points, the one whose write-back fills the pooled array. -/
abbrev tLast : Fin cfg6.N := ⟨19, by rw [show cfg6.N = 20 from N_6]; decide⟩

/-- What the region leaves in the pooled array: the accumulator after the last tile. -/
abbrev pooled (c : Dev nD) : Buf (Elt F) ((c : Thread nD τ).loc main_v91) := acc V c 19 tLast.isLt

theorem flushes_last (t : Fin cfg6.N) (hf : (cfg6.win 2).flush t = true) : t = tLast := by
  have hN : cfg6.N = 20 := N_6
  have h := (flush6_2 t).mp hf
  have := t.isLt
  exact Fin.ext (by show t.val = 19; omega)

/-- The output's block never moves: at the last point it starts at row 0, column 0 and has the array's own extents. -/
theorem out_block_origin : (fun a => win6_2.index tLast a * main_v91.ty.shape.size a) = fun _ => 0 :=
  funext fun a => by fin_cases a <;> decide +kernel

/-- So the block at the last point spans the whole array. -/
theorem out_block_extent : ∀ a : Fin main_v91.ty.shape.rank,
    win6_2.index tLast a * win6_2.size a = 0 ∧ win6_2.xsize (grid6.coords tLast) a = main_v91.ty.shape.size a := by
  decide +kernel

/-- What the one write-back writes is the accumulator after the last tile: the output's window is uncut and its
    block at zero offsets is the array. -/
theorem flushed_eq (c : Dev nD) (t : Fin cfg6.N) (hf : (cfg6.win 2).flush t = true) :
    (dat V c).flushed 2 t = ((cfg6.win 2).blk t).view.read (Elt F) (pooled V c) := by
  obtain rfl := flushes_last t hf
  show (cfg6.win 2).cut (grid6.coords tLast) ((dat V c).after 2 tLast) = _
  rw [after_out]
  exact (Memref.read_access_unit_zero (Elt F) main_v91 out_block_origin
    (fun a => by rw [congrFun out_block_origin a]; simp) (pooled V c)).symm

/-- The pooled array after the region is the accumulator after the last tile: the last point is the only one that
    writes back, and its block covers the array. -/
theorem final (c : Dev nD) : (dat V c).arrAt 2 cfg6.N = pooled V c :=
  (dat V c).arrAt_eq_of_cover 2 (pooled V c) (flushed_eq V c) fun i =>
    ⟨tLast, (flush6_2 tLast).mpr rfl, by
      show i ∈ ((View.whole main_v91).slice (win6_2.rect tLast)).set
      rw [View.set_slice_whole, Rect.mem_set_unit]
      intro a
      obtain ⟨e0, e1⟩ := out_block_extent a
      rw [e0, e1, Nat.zero_add]
      exact ⟨Nat.zero_le _, (i a).isLt⟩⟩

end Cert.Kernel.Pool
end
-- ==== Proof.Kernel.Head.lean ====
/-
  The classifier head, a two-layer perceptron on the pooled features, as a pipelined region of a single grid point.
  The body loads the pooled features [256,64], the first weight [64,64] and its bias row [1,64], the second weight
  [64,2] and its bias row [1,2], reads its own output buffer, and stores
  relu(x · W₁ + b₁) · W₂ + b₂ (operands rounded to bf16 before each product) over the whole [256,2] output buffer.
  Stated for any float instance F and at any contents V of the core's buffers when the region is entered.
-/
import proofs.«412454_j38594576122130_1_alg».proof.Proof.Gen.Kernel.Launch
import proofs.«412454_j38594576122130_1_alg».proof.Proof.Gen.Kernel.Skeleton
import proofs.«412454_j38594576122130_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window w's array that grid point t works on, read off the entry contents. -/
def tile (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole 256 × 2 output buffer, the one rectangle the body stores through, and the whole of each input. -/
abbrev whole : Rect S256x2 := Rect.unit (s := S256x2) ![0, 0] S256x2.size inb_S256x2_S256x2_0_0
abbrev wholeX : Rect S256x64 := Rect.unit (s := S256x64) ![0, 0] S256x64.size inb_S256x64_S256x64_0_0
abbrev wholeW1 : Rect S64x64 := Rect.unit (s := S64x64) ![0, 0] S64x64.size inb_S64x64_S64x64_0_0
abbrev wholeB1 : Rect S1x64 := Rect.unit (s := S1x64) ![0, 0] S1x64.size inb_S1x64_S1x64_0_0
abbrev wholeW2 : Rect S64x2 := Rect.unit (s := S64x2) ![0, 0] S64x2.size inb_S64x2_S64x2_0_0
abbrev wholeB2 : Rect S1x2 := Rect.unit (s := S1x2) ![0, 0] S1x2.size inb_S1x2_S1x2_0_0

/-- What the body leaves in the output buffer: relu(x · W₁ + b₁) · W₂ + b₂, stored whole. -/
def head (x : Vec F S256x64 .f32) (w1 : Vec F S64x64 .f32) (b1 : Vec F S1x64 .f32) (w2 : Vec F S64x2 .f32)
    (b2 : Vec F S1x2 .f32) : Vec F S256x2 .f32 :=
  View.canon [⟨whole, k7_pay1 (View.ld x wholeX) (View.ld w1 wholeW1) (View.ld b1 wholeB1) (View.ld w2 wholeW2)
    (View.ld b2 wholeB2)⟩]

theorem covers (p : Vec F S256x2 .f32) (y : S256x2.Idx) :
    ∃ pc ∈ ([⟨whole, p⟩] : List (View.Piece (Elt F) S256x2 .f32)), y ∈ pc.1.set :=
  View.cover_of_tiled [⟨whole, p⟩] S256x2.size (by rfl) y

set_option maxHeartbeats 1000000 in
/-- The body on whole buffers: the five inputs are read and kept, the output buffer ends at head. -/
theorem body_triple (c : Dev nD) (E : Set ℕ) (i : grid7.Coords)
    (a1 : Memref sig .tc .vmem S256x64 .f32) (h1 : a1.IsWhole) (a2 : Memref sig .tc .vmem S64x64 .f32) (h2 : a2.IsWhole)
    (a3 : Memref sig .tc .vmem S1x64 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (x : Vec F S256x64 .f32) (w1 : Vec F S64x64 .f32) (b1 : Vec F S1x64 .f32) (w2 : Vec F S64x2 .f32)
    (b2 : Vec F S1x2 .f32) (K : PUnit → sProp 𝕄) :
    iprop(owns (c : Thread nD τ) a1 fullShare x ∗ owns (c : Thread nD τ) a2 fullShare w1
        ∗ owns (c : Thread nD τ) a3 fullShare b1 ∗ owns (c : Thread nD τ) a4 fullShare w2
        ∗ owns (c : Thread nD τ) a5 fullShare b2 ∗ (∃ d, owns (c : Thread nD τ) a6 fullShare d)
        ∗ (iprop(owns (c : Thread nD τ) a1 fullShare x ∗ owns (c : Thread nD τ) a2 fullShare w1
            ∗ owns (c : Thread nD τ) a3 fullShare b1 ∗ owns (c : Thread nD τ) a4 fullShare w2
            ∗ owns (c : Thread nD τ) a5 fullShare b2
            ∗ owns (c : Thread nD τ) a6 fullShare (head x w1 b1 w2 b2)) -∗ K ⟨⟩))
      ⊢ wp frame (wpE (defs₀ (F := F)) Variants.none c none) E
          (cc7__mlp_kernel i a1 h1 a2 h2 a3 h3 a4 h4 a5 h5 a6 h6) K := by
  simp only [cc7__mlp_kernel_eq_skeleton]; unfold cc7__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers _)

/-! ## The proof data -/

/-- After the body at the one point: the five inputs' buffers still hold their tiles, the output's holds the head's
    value. The region keeps no state of its own beyond the scoped rest and the generator register. -/
def dat (c : Dev nD) : Dat τ (Elt F) Unit ℕ (UR sig nD τ) ℕ cfg7 c where
  A w := V c (Pipeline.arrRef spec7 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => head (tile V c 0 t) (tile V c 1 t) (tile V c 2 t) (tile V c 3 t) (tile V c 4 t)
  Φ _ := Pipeline.ΦA spec7 c
  q _ := fullShare
  owed _ := 0

theorem dat_A (c : Dev nD) (w : Fin cfg7.W) : (dat V c).A w = V c (Pipeline.arrRef spec7 w) := by
  dsimp only [dat]

theorem after_x (c : Dev nD) (t : Fin cfg7.N) : (dat V c).after 0 t = tile V c 0 t := by dsimp only [dat]
theorem after_w1 (c : Dev nD) (t : Fin cfg7.N) : (dat V c).after 1 t = tile V c 1 t := by dsimp only [dat]
theorem after_b1 (c : Dev nD) (t : Fin cfg7.N) : (dat V c).after 2 t = tile V c 2 t := by dsimp only [dat]
theorem after_w2 (c : Dev nD) (t : Fin cfg7.N) : (dat V c).after 3 t = tile V c 3 t := by dsimp only [dat]
theorem after_b2 (c : Dev nD) (t : Fin cfg7.N) : (dat V c).after 4 t = tile V c 4 t := by dsimp only [dat]
theorem after_out (c : Dev nD) (t : Fin cfg7.N) :
    (dat V c).after 5 t = head (tile V c 0 t) (tile V c 1 t) (tile V c 2 t) (tile V c 3 t) (tile V c 4 t) := by
  dsimp only [dat]

/-- An input's buffer holds its tile when the body starts, whether the pipeline fetched it at this point or it was
    fetched earlier and the tile index has not moved since. -/
theorem before_x (c : Dev nD) (t : Fin cfg7.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w1 (c : Dev nD) (t : Fin cfg7.N) (d) : (dat V c).before 1 t d = tile V c 1 t :=
  ((dat V c).before_in_eq_fetched 1 rfl (fun _ => rfl) (fun _ _ _ => rfl)
    (fun t => by rw [after_w1]; unfold Dat.blockOf tile; rw [dat_A]; try rfl) t d).trans
    (by unfold Dat.fetched Dat.blockOf tile; rw [dat_A]; try rfl)
theorem before_b1 (c : Dev nD) (t : Fin cfg7.N) (d) : (dat V c).before 2 t d = tile V c 2 t :=
  ((dat V c).before_in_eq_fetched 2 rfl (fun _ => rfl) (fun _ _ _ => rfl)
    (fun t => by rw [after_b1]; unfold Dat.blockOf tile; rw [dat_A]; try rfl) t d).trans
    (by unfold Dat.fetched Dat.blockOf tile; rw [dat_A]; try rfl)
theorem before_w2 (c : Dev nD) (t : Fin cfg7.N) (d) : (dat V c).before 3 t d = tile V c 3 t :=
  ((dat V c).before_in_eq_fetched 3 rfl (fun _ => rfl) (fun _ _ _ => rfl)
    (fun t => by rw [after_w2]; unfold Dat.blockOf tile; rw [dat_A]; try rfl) t d).trans
    (by unfold Dat.fetched Dat.blockOf tile; rw [dat_A]; try rfl)
theorem before_b2 (c : Dev nD) (t : Fin cfg7.N) (d) : (dat V c).before 4 t d = tile V c 4 t :=
  ((dat V c).before_in_eq_fetched 4 rfl (fun _ => rfl) (fun _ _ _ => rfl)
    (fun t => by rw [after_b2]; unfold Dat.blockOf tile; rw [dat_A]; try rfl) t d).trans
    (by unfold Dat.fetched Dat.blockOf tile; rw [dat_A]; try rfl)

/-! ## The body obligation -/

def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

theorem body_at (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_x, before_w1, before_b1, before_w2, before_b2]
  rw [show (dat V c).Φ t.succ = (dat V c).Φ t.castSucc from rfl,
    show (dat V c).owesAt () t.succ = (dat V c).owesAt () t.castSucc from rfl,
    after_x, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _
    (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W7, bigSep_W7]
  exact body_at V c t

end Cert.Kernel.Head

end
-- ==== Proof.Kernel.Run.lean ====
/-
  The whole program's run. Between two items of @main a core holds every unscoped buffer at known contents:
  the launch contents, then after each stretch of host operations their results, then after each pipelined region
  its output array at what the region's tiles leave and every other buffer as it was. Each region is entered from
  those contents and left at the next ones; the launch composes the sixteen items, and every weakly fair execution
  ends with every unscoped buffer at the last contents. Stated for any float instance.
-/
import proofs.«412454_j38594576122130_1_alg».proof.Proof.Gen.Kernel.Regions
import proofs.«412454_j38594576122130_1_alg».proof.Proof.Kernel.Lin1
import proofs.«412454_j38594576122130_1_alg».proof.Proof.Kernel.Act1
import proofs.«412454_j38594576122130_1_alg».proof.Proof.Kernel.Lin2
import proofs.«412454_j38594576122130_1_alg».proof.Proof.Kernel.Act2
import proofs.«412454_j38594576122130_1_alg».proof.Proof.Kernel.Lin3
import proofs.«412454_j38594576122130_1_alg».proof.Proof.Kernel.Act3
import proofs.«412454_j38594576122130_1_alg».proof.Proof.Kernel.Pool
import proofs.«412454_j38594576122130_1_alg».proof.Proof.Kernel.Head
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The contents between items -/

/-- A valuation read at the TensorCore's references. -/
abbrev rd (W : Dev nD → Valuation τ sig (Elt F)) : (c : Dev nD) → (b : Ref sig .tc) → Buf (Elt F) ((c : Thread nD τ).loc b) :=
  fun c b => W c b

/-- After the first linear layer: its output array at what its tiles leave. -/
def W4 (c : Dev nD) : Valuation τ sig (Elt F) :=
  Function.update (V3 m c) main_v30 ((Lin1.dat (rd (V3 m)) c).arrAt 2 cfg0.N)
def W5 (c : Dev nD) : Valuation τ sig (Elt F) := StableHlo.after hostOps1 (W4 m c)
def W6 (c : Dev nD) : Valuation τ sig (Elt F) :=
  Function.update (W5 m c) main_v49 ((Act1.dat (rd (W5 m)) c).arrAt 6 cfg1.N)
def W7 (c : Dev nD) : Valuation τ sig (Elt F) :=
  Function.update (W6 m c) main_v50 ((Lin2.dat (rd (W6 m)) c).arrAt 2 cfg2.N)
def W8 (c : Dev nD) : Valuation τ sig (Elt F) := StableHlo.after hostOps3 (W7 m c)
def W9 (c : Dev nD) : Valuation τ sig (Elt F) :=
  Function.update (W8 m c) main_v69 ((Act2.dat (rd (W8 m)) c).arrAt 6 cfg3.N)
def W10 (c : Dev nD) : Valuation τ sig (Elt F) :=
  Function.update (W9 m c) main_v70 ((Lin3.dat (rd (W9 m)) c).arrAt 2 cfg4.N)
def W11 (c : Dev nD) : Valuation τ sig (Elt F) := StableHlo.after hostOps5 (W10 m c)
def W12 (c : Dev nD) : Valuation τ sig (Elt F) :=
  Function.update (W11 m c) main_v89 ((Act3.dat (rd (W11 m)) c).arrAt 6 cfg5.N)
def W13 (c : Dev nD) : Valuation τ sig (Elt F) := StableHlo.after hostOps6 (W12 m c)
def W14 (c : Dev nD) : Valuation τ sig (Elt F) :=
  Function.update (W13 m c) main_v91 ((Pool.dat (rd (W13 m)) c).arrAt 2 cfg6.N)
def W15 (c : Dev nD) : Valuation τ sig (Elt F) := StableHlo.after hostOps7 (W14 m c)
def W16 (c : Dev nD) : Valuation τ sig (Elt F) :=
  Function.update (W15 m c) main_v103 ((Head.dat (rd (W15 m)) c).arrAt 5 cfg7.N)

/-- What each region leaves in the buffers it may change, read off the chain. -/
def outs : Outs (F := F) := fun J r c => match J with
  | 4 => W4 m c r | 6 => W6 m c r | 7 => W7 m c r | 9 => W9 m c r | 10 => W10 m c r
  | 12 => W12 m c r | 14 => W14 m c r | 16 => W16 m c r | _ => V0 m c r

theorem V4_eq (c : Dev nD) : V4 m (outs m) c = W4 m c := by
  show Function.update (V3 m c) main_v30 (W4 m c main_v30) = W4 m c
  unfold W4; rw [Function.update_self]
theorem V5_eq (c : Dev nD) : V5 m (outs m) c = W5 m c := by
  show StableHlo.after hostOps1 (V4 m (outs m) c) = _; rw [V4_eq]; rfl
theorem V6_eq (c : Dev nD) : V6 m (outs m) c = W6 m c := by
  show Function.update (V5 m (outs m) c) main_v49 (W6 m c main_v49) = W6 m c
  rw [V5_eq]; unfold W6; rw [Function.update_self]
theorem V7_eq (c : Dev nD) : V7 m (outs m) c = W7 m c := by
  show Function.update (V6 m (outs m) c) main_v50 (W7 m c main_v50) = W7 m c
  rw [V6_eq]; unfold W7; rw [Function.update_self]
theorem V8_eq (c : Dev nD) : V8 m (outs m) c = W8 m c := by
  show StableHlo.after hostOps3 (V7 m (outs m) c) = _; rw [V7_eq]; rfl
theorem V9_eq (c : Dev nD) : V9 m (outs m) c = W9 m c := by
  show Function.update (V8 m (outs m) c) main_v69 (W9 m c main_v69) = W9 m c
  rw [V8_eq]; unfold W9; rw [Function.update_self]
theorem V10_eq (c : Dev nD) : V10 m (outs m) c = W10 m c := by
  show Function.update (V9 m (outs m) c) main_v70 (W10 m c main_v70) = W10 m c
  rw [V9_eq]; unfold W10; rw [Function.update_self]
theorem V11_eq (c : Dev nD) : V11 m (outs m) c = W11 m c := by
  show StableHlo.after hostOps5 (V10 m (outs m) c) = _; rw [V10_eq]; rfl
theorem V12_eq (c : Dev nD) : V12 m (outs m) c = W12 m c := by
  show Function.update (V11 m (outs m) c) main_v89 (W12 m c main_v89) = W12 m c
  rw [V11_eq]; unfold W12; rw [Function.update_self]
theorem V13_eq (c : Dev nD) : V13 m (outs m) c = W13 m c := by
  show StableHlo.after hostOps6 (V12 m (outs m) c) = _; rw [V12_eq]; rfl
theorem V14_eq (c : Dev nD) : V14 m (outs m) c = W14 m c := by
  show Function.update (V13 m (outs m) c) main_v91 (W14 m c main_v91) = W14 m c
  rw [V13_eq]; unfold W14; rw [Function.update_self]
theorem V15_eq (c : Dev nD) : V15 m (outs m) c = W15 m c := by
  show StableHlo.after hostOps7 (V14 m (outs m) c) = _; rw [V14_eq]; rfl
theorem V16_eq (c : Dev nD) : V16 m (outs m) c = W16 m c := by
  show Function.update (V15 m (outs m) c) main_v103 (W16 m c main_v103) = W16 m c
  rw [V15_eq]; unfold W16; rw [Function.update_self]

/-! ## A region as a segment of @main -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- A buffer other than the updated one keeps its contents; the updated one holds the new contents. -/
theorem upd_ne (W : Valuation τ sig (Elt F)) (o : Ref sig .tc) (x) (b : Ref sig .tc) (h : b ≠ o) :
    Function.update W o x b = W b :=
  Function.update_of_ne (StableHlo.devRef_ne_of_ne h) _ _
theorem upd_self (W : Valuation τ sig (Elt F)) (o : Ref sig .tc) (x) : Function.update W o x o = x :=
  Function.update_self ..

set_option backward.isDefEq.respectTransparency.types false in
/-- A region whose invariant is the scoped rest and the generator register at both ends, entered with every
    unscoped buffer at `Win` and left with them at `Wout`: its arrays are split out of the unscoped buffers at entry and
    put back at exit at what the tiles leave; nothing is owed; the kernel has no semaphore of its own. -/
def regOf (pdats : (p : Fin 8) → (c : Dev nD) → Dat τ (Elt F) Unit ℕ (UR sig nD τ) ℕ (cfgs p) c) (p : Fin 8)
    (lf : Pipeline.LaunchFacts (nD := nD) (τ := τ) cfgs p)
    (Win Wout : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = rd Win c (Pipeline.arrRef (cfgs p).spec w))
    (hΦ0 : ∀ c, (iprop(Pipeline.scopedRest (Ix := Unit) (Name := ℕ) (U := UR sig nD τ) (Lvl := ℕ) (Val := Elt F) (cfgs p).spec c ∗ ∃ r, prngReg c r) : sProp 𝕄) ⊢ (pdats p c).Φ 0)
    (hΦN : ∀ c, (pdats p c).Φ (Fin.last (cfgs p).N) ⊢ (iprop(Pipeline.scopedRest (Ix := Unit) (Name := ℕ) (U := UR sig nD τ) (Lvl := ℕ) (Val := Elt F) (cfgs p).spec c ∗ ∃ r, prngReg c r) : sProp 𝕄))
    (hF : ∀ c w, (pdats p c).arrAt w (cfgs p).N = rd Wout c (Pipeline.arrRef (cfgs p).spec w))
    (hrest : ∀ c b, b ∉ Finset.univ.image (Pipeline.arrRef (cfgs p).spec) → rd Wout c b = rd Win c b) :
    RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Win c)
  hentry c := by
    rw [Pipeline.ownSems0_none]
    have hsplit := Pipeline.arrays_of_unscopedBufs (p := p) (pcfgs (F := F)) adm pdats lf.win lf.arr_whole c
      ((pdats p c).share_full (hq c)) (rd Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hΦ0 c)
    isplitl [Hr]; · iexact Hr
    iexact Hp
  hout c := by
    rw [Pipeline.ownSems0_none]
    iintro HΦ
    ihave H := (hΦN c) $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (rd Win c) (rd Wout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## Each region's arrays after it, and every other buffer as entered -/

set_option maxHeartbeats 1000000 in
theorem hF0 (c : Dev nD) : ∀ w : Fin cfg0.W, (Lin1.dat (rd (V3 m)) c).arrAt w cfg0.N = rd (W4 m) c (Pipeline.arrRef spec0 w)
    | ⟨0, _⟩ => by
      show (Lin1.dat (rd (V3 m)) c).arrAt 0 cfg0.N = W4 m c (Pipeline.arrRef spec0 0)
      rw [(Lin1.dat (rd (V3 m)) c).arrAt_in 0 rfl _, Lin1.dat_A]
      unfold W4
      exact (upd_ne (V3 m c) main_v30 _ (Pipeline.arrRef spec0 0) (by decide)).symm
    | ⟨1, _⟩ => by
      show (Lin1.dat (rd (V3 m)) c).arrAt 1 cfg0.N = W4 m c (Pipeline.arrRef spec0 1)
      rw [(Lin1.dat (rd (V3 m)) c).arrAt_in 1 rfl _, Lin1.dat_A]
      unfold W4
      exact (upd_ne (V3 m c) main_v30 _ (Pipeline.arrRef spec0 1) (by decide)).symm
    | ⟨2, _⟩ => by
      show _ = W4 m c main_v30
      unfold W4; rw [upd_self]; rfl
theorem hrest0 (c : Dev nD) (b : Ref sig .tc) (hb : b ∉ Finset.univ.image (Pipeline.arrRef spec0)) : rd (W4 m) c b = rd (V3 m) c b := by
  show W4 m c b = V3 m c b
  unfold W4
  exact upd_ne (V3 m c) main_v30 _ b fun e => hb (Finset.mem_image.mpr ⟨2, Finset.mem_univ _, e.symm⟩)

set_option maxHeartbeats 1000000 in
theorem hF1 (c : Dev nD) : ∀ w : Fin cfg1.W, (Act1.dat (rd (W5 m)) c).arrAt w cfg1.N = rd (W6 m) c (Pipeline.arrRef spec1 w)
    | ⟨0, _⟩ => by
      show (Act1.dat (rd (W5 m)) c).arrAt 0 cfg1.N = W6 m c (Pipeline.arrRef spec1 0)
      rw [(Act1.dat (rd (W5 m)) c).arrAt_in 0 rfl _, Act1.dat_A]
      unfold W6
      exact (upd_ne (W5 m c) main_v49 _ (Pipeline.arrRef spec1 0) (by decide)).symm
    | ⟨1, _⟩ => by
      show (Act1.dat (rd (W5 m)) c).arrAt 1 cfg1.N = W6 m c (Pipeline.arrRef spec1 1)
      rw [(Act1.dat (rd (W5 m)) c).arrAt_in 1 rfl _, Act1.dat_A]
      unfold W6
      exact (upd_ne (W5 m c) main_v49 _ (Pipeline.arrRef spec1 1) (by decide)).symm
    | ⟨2, _⟩ => by
      show (Act1.dat (rd (W5 m)) c).arrAt 2 cfg1.N = W6 m c (Pipeline.arrRef spec1 2)
      rw [(Act1.dat (rd (W5 m)) c).arrAt_in 2 rfl _, Act1.dat_A]
      unfold W6
      exact (upd_ne (W5 m c) main_v49 _ (Pipeline.arrRef spec1 2) (by decide)).symm
    | ⟨3, _⟩ => by
      show (Act1.dat (rd (W5 m)) c).arrAt 3 cfg1.N = W6 m c (Pipeline.arrRef spec1 3)
      rw [(Act1.dat (rd (W5 m)) c).arrAt_in 3 rfl _, Act1.dat_A]
      unfold W6
      exact (upd_ne (W5 m c) main_v49 _ (Pipeline.arrRef spec1 3) (by decide)).symm
    | ⟨4, _⟩ => by
      show (Act1.dat (rd (W5 m)) c).arrAt 4 cfg1.N = W6 m c (Pipeline.arrRef spec1 4)
      rw [(Act1.dat (rd (W5 m)) c).arrAt_in 4 rfl _, Act1.dat_A]
      unfold W6
      exact (upd_ne (W5 m c) main_v49 _ (Pipeline.arrRef spec1 4) (by decide)).symm
    | ⟨5, _⟩ => by
      show (Act1.dat (rd (W5 m)) c).arrAt 5 cfg1.N = W6 m c (Pipeline.arrRef spec1 5)
      rw [(Act1.dat (rd (W5 m)) c).arrAt_in 5 rfl _, Act1.dat_A]
      unfold W6
      exact (upd_ne (W5 m c) main_v49 _ (Pipeline.arrRef spec1 5) (by decide)).symm
    | ⟨6, _⟩ => by
      show _ = W6 m c main_v49
      unfold W6; rw [upd_self]; rfl
theorem hrest1 (c : Dev nD) (b : Ref sig .tc) (hb : b ∉ Finset.univ.image (Pipeline.arrRef spec1)) : rd (W6 m) c b = rd (W5 m) c b := by
  show W6 m c b = W5 m c b
  unfold W6
  exact upd_ne (W5 m c) main_v49 _ b fun e => hb (Finset.mem_image.mpr ⟨6, Finset.mem_univ _, e.symm⟩)

set_option maxHeartbeats 1000000 in
theorem hF2 (c : Dev nD) : ∀ w : Fin cfg2.W, (Lin2.dat (rd (W6 m)) c).arrAt w cfg2.N = rd (W7 m) c (Pipeline.arrRef spec2 w)
    | ⟨0, _⟩ => by
      show (Lin2.dat (rd (W6 m)) c).arrAt 0 cfg2.N = W7 m c (Pipeline.arrRef spec2 0)
      rw [(Lin2.dat (rd (W6 m)) c).arrAt_in 0 rfl _, Lin2.dat_A]
      unfold W7
      exact (upd_ne (W6 m c) main_v50 _ (Pipeline.arrRef spec2 0) (by decide)).symm
    | ⟨1, _⟩ => by
      show (Lin2.dat (rd (W6 m)) c).arrAt 1 cfg2.N = W7 m c (Pipeline.arrRef spec2 1)
      rw [(Lin2.dat (rd (W6 m)) c).arrAt_in 1 rfl _, Lin2.dat_A]
      unfold W7
      exact (upd_ne (W6 m c) main_v50 _ (Pipeline.arrRef spec2 1) (by decide)).symm
    | ⟨2, _⟩ => by
      show _ = W7 m c main_v50
      unfold W7; rw [upd_self]; rfl
theorem hrest2 (c : Dev nD) (b : Ref sig .tc) (hb : b ∉ Finset.univ.image (Pipeline.arrRef spec2)) : rd (W7 m) c b = rd (W6 m) c b := by
  show W7 m c b = W6 m c b
  unfold W7
  exact upd_ne (W6 m c) main_v50 _ b fun e => hb (Finset.mem_image.mpr ⟨2, Finset.mem_univ _, e.symm⟩)

set_option maxHeartbeats 1000000 in
theorem hF3 (c : Dev nD) : ∀ w : Fin cfg3.W, (Act2.dat (rd (W8 m)) c).arrAt w cfg3.N = rd (W9 m) c (Pipeline.arrRef spec3 w)
    | ⟨0, _⟩ => by
      show (Act2.dat (rd (W8 m)) c).arrAt 0 cfg3.N = W9 m c (Pipeline.arrRef spec3 0)
      rw [(Act2.dat (rd (W8 m)) c).arrAt_in 0 rfl _, Act2.dat_A]
      unfold W9
      exact (upd_ne (W8 m c) main_v69 _ (Pipeline.arrRef spec3 0) (by decide)).symm
    | ⟨1, _⟩ => by
      show (Act2.dat (rd (W8 m)) c).arrAt 1 cfg3.N = W9 m c (Pipeline.arrRef spec3 1)
      rw [(Act2.dat (rd (W8 m)) c).arrAt_in 1 rfl _, Act2.dat_A]
      unfold W9
      exact (upd_ne (W8 m c) main_v69 _ (Pipeline.arrRef spec3 1) (by decide)).symm
    | ⟨2, _⟩ => by
      show (Act2.dat (rd (W8 m)) c).arrAt 2 cfg3.N = W9 m c (Pipeline.arrRef spec3 2)
      rw [(Act2.dat (rd (W8 m)) c).arrAt_in 2 rfl _, Act2.dat_A]
      unfold W9
      exact (upd_ne (W8 m c) main_v69 _ (Pipeline.arrRef spec3 2) (by decide)).symm
    | ⟨3, _⟩ => by
      show (Act2.dat (rd (W8 m)) c).arrAt 3 cfg3.N = W9 m c (Pipeline.arrRef spec3 3)
      rw [(Act2.dat (rd (W8 m)) c).arrAt_in 3 rfl _, Act2.dat_A]
      unfold W9
      exact (upd_ne (W8 m c) main_v69 _ (Pipeline.arrRef spec3 3) (by decide)).symm
    | ⟨4, _⟩ => by
      show (Act2.dat (rd (W8 m)) c).arrAt 4 cfg3.N = W9 m c (Pipeline.arrRef spec3 4)
      rw [(Act2.dat (rd (W8 m)) c).arrAt_in 4 rfl _, Act2.dat_A]
      unfold W9
      exact (upd_ne (W8 m c) main_v69 _ (Pipeline.arrRef spec3 4) (by decide)).symm
    | ⟨5, _⟩ => by
      show (Act2.dat (rd (W8 m)) c).arrAt 5 cfg3.N = W9 m c (Pipeline.arrRef spec3 5)
      rw [(Act2.dat (rd (W8 m)) c).arrAt_in 5 rfl _, Act2.dat_A]
      unfold W9
      exact (upd_ne (W8 m c) main_v69 _ (Pipeline.arrRef spec3 5) (by decide)).symm
    | ⟨6, _⟩ => by
      show _ = W9 m c main_v69
      unfold W9; rw [upd_self]; rfl
theorem hrest3 (c : Dev nD) (b : Ref sig .tc) (hb : b ∉ Finset.univ.image (Pipeline.arrRef spec3)) : rd (W9 m) c b = rd (W8 m) c b := by
  show W9 m c b = W8 m c b
  unfold W9
  exact upd_ne (W8 m c) main_v69 _ b fun e => hb (Finset.mem_image.mpr ⟨6, Finset.mem_univ _, e.symm⟩)

set_option maxHeartbeats 1000000 in
theorem hF4 (c : Dev nD) : ∀ w : Fin cfg4.W, (Lin3.dat (rd (W9 m)) c).arrAt w cfg4.N = rd (W10 m) c (Pipeline.arrRef spec4 w)
    | ⟨0, _⟩ => by
      show (Lin3.dat (rd (W9 m)) c).arrAt 0 cfg4.N = W10 m c (Pipeline.arrRef spec4 0)
      rw [(Lin3.dat (rd (W9 m)) c).arrAt_in 0 rfl _, Lin3.dat_A]
      unfold W10
      exact (upd_ne (W9 m c) main_v70 _ (Pipeline.arrRef spec4 0) (by decide)).symm
    | ⟨1, _⟩ => by
      show (Lin3.dat (rd (W9 m)) c).arrAt 1 cfg4.N = W10 m c (Pipeline.arrRef spec4 1)
      rw [(Lin3.dat (rd (W9 m)) c).arrAt_in 1 rfl _, Lin3.dat_A]
      unfold W10
      exact (upd_ne (W9 m c) main_v70 _ (Pipeline.arrRef spec4 1) (by decide)).symm
    | ⟨2, _⟩ => by
      show _ = W10 m c main_v70
      unfold W10; rw [upd_self]; rfl
theorem hrest4 (c : Dev nD) (b : Ref sig .tc) (hb : b ∉ Finset.univ.image (Pipeline.arrRef spec4)) : rd (W10 m) c b = rd (W9 m) c b := by
  show W10 m c b = W9 m c b
  unfold W10
  exact upd_ne (W9 m c) main_v70 _ b fun e => hb (Finset.mem_image.mpr ⟨2, Finset.mem_univ _, e.symm⟩)

set_option maxHeartbeats 1000000 in
theorem hF5 (c : Dev nD) : ∀ w : Fin cfg5.W, (Act3.dat (rd (W11 m)) c).arrAt w cfg5.N = rd (W12 m) c (Pipeline.arrRef spec5 w)
    | ⟨0, _⟩ => by
      show (Act3.dat (rd (W11 m)) c).arrAt 0 cfg5.N = W12 m c (Pipeline.arrRef spec5 0)
      rw [(Act3.dat (rd (W11 m)) c).arrAt_in 0 rfl _, Act3.dat_A]
      unfold W12
      exact (upd_ne (W11 m c) main_v89 _ (Pipeline.arrRef spec5 0) (by decide)).symm
    | ⟨1, _⟩ => by
      show (Act3.dat (rd (W11 m)) c).arrAt 1 cfg5.N = W12 m c (Pipeline.arrRef spec5 1)
      rw [(Act3.dat (rd (W11 m)) c).arrAt_in 1 rfl _, Act3.dat_A]
      unfold W12
      exact (upd_ne (W11 m c) main_v89 _ (Pipeline.arrRef spec5 1) (by decide)).symm
    | ⟨2, _⟩ => by
      show (Act3.dat (rd (W11 m)) c).arrAt 2 cfg5.N = W12 m c (Pipeline.arrRef spec5 2)
      rw [(Act3.dat (rd (W11 m)) c).arrAt_in 2 rfl _, Act3.dat_A]
      unfold W12
      exact (upd_ne (W11 m c) main_v89 _ (Pipeline.arrRef spec5 2) (by decide)).symm
    | ⟨3, _⟩ => by
      show (Act3.dat (rd (W11 m)) c).arrAt 3 cfg5.N = W12 m c (Pipeline.arrRef spec5 3)
      rw [(Act3.dat (rd (W11 m)) c).arrAt_in 3 rfl _, Act3.dat_A]
      unfold W12
      exact (upd_ne (W11 m c) main_v89 _ (Pipeline.arrRef spec5 3) (by decide)).symm
    | ⟨4, _⟩ => by
      show (Act3.dat (rd (W11 m)) c).arrAt 4 cfg5.N = W12 m c (Pipeline.arrRef spec5 4)
      rw [(Act3.dat (rd (W11 m)) c).arrAt_in 4 rfl _, Act3.dat_A]
      unfold W12
      exact (upd_ne (W11 m c) main_v89 _ (Pipeline.arrRef spec5 4) (by decide)).symm
    | ⟨5, _⟩ => by
      show (Act3.dat (rd (W11 m)) c).arrAt 5 cfg5.N = W12 m c (Pipeline.arrRef spec5 5)
      rw [(Act3.dat (rd (W11 m)) c).arrAt_in 5 rfl _, Act3.dat_A]
      unfold W12
      exact (upd_ne (W11 m c) main_v89 _ (Pipeline.arrRef spec5 5) (by decide)).symm
    | ⟨6, _⟩ => by
      show _ = W12 m c main_v89
      unfold W12; rw [upd_self]; rfl
theorem hrest5 (c : Dev nD) (b : Ref sig .tc) (hb : b ∉ Finset.univ.image (Pipeline.arrRef spec5)) : rd (W12 m) c b = rd (W11 m) c b := by
  show W12 m c b = W11 m c b
  unfold W12
  exact upd_ne (W11 m c) main_v89 _ b fun e => hb (Finset.mem_image.mpr ⟨6, Finset.mem_univ _, e.symm⟩)

set_option maxHeartbeats 1000000 in
theorem hF6 (c : Dev nD) : ∀ w : Fin cfg6.W, (Pool.dat (rd (W13 m)) c).arrAt w cfg6.N = rd (W14 m) c (Pipeline.arrRef spec6 w)
    | ⟨0, _⟩ => by
      show (Pool.dat (rd (W13 m)) c).arrAt 0 cfg6.N = W14 m c (Pipeline.arrRef spec6 0)
      rw [(Pool.dat (rd (W13 m)) c).arrAt_in 0 rfl _, Pool.dat_A]
      unfold W14
      exact (upd_ne (W13 m c) main_v91 _ (Pipeline.arrRef spec6 0) (by decide)).symm
    | ⟨1, _⟩ => by
      show (Pool.dat (rd (W13 m)) c).arrAt 1 cfg6.N = W14 m c (Pipeline.arrRef spec6 1)
      rw [(Pool.dat (rd (W13 m)) c).arrAt_in 1 rfl _, Pool.dat_A]
      unfold W14
      exact (upd_ne (W13 m c) main_v91 _ (Pipeline.arrRef spec6 1) (by decide)).symm
    | ⟨2, _⟩ => by
      show _ = W14 m c main_v91
      unfold W14; rw [upd_self]; rfl
theorem hrest6 (c : Dev nD) (b : Ref sig .tc) (hb : b ∉ Finset.univ.image (Pipeline.arrRef spec6)) : rd (W14 m) c b = rd (W13 m) c b := by
  show W14 m c b = W13 m c b
  unfold W14
  exact upd_ne (W13 m c) main_v91 _ b fun e => hb (Finset.mem_image.mpr ⟨2, Finset.mem_univ _, e.symm⟩)

set_option maxHeartbeats 1000000 in
theorem hF7 (c : Dev nD) : ∀ w : Fin cfg7.W, (Head.dat (rd (W15 m)) c).arrAt w cfg7.N = rd (W16 m) c (Pipeline.arrRef spec7 w)
    | ⟨0, _⟩ => by
      show (Head.dat (rd (W15 m)) c).arrAt 0 cfg7.N = W16 m c (Pipeline.arrRef spec7 0)
      rw [(Head.dat (rd (W15 m)) c).arrAt_in 0 rfl _, Head.dat_A]
      unfold W16
      exact (upd_ne (W15 m c) main_v103 _ (Pipeline.arrRef spec7 0) (by decide)).symm
    | ⟨1, _⟩ => by
      show (Head.dat (rd (W15 m)) c).arrAt 1 cfg7.N = W16 m c (Pipeline.arrRef spec7 1)
      rw [(Head.dat (rd (W15 m)) c).arrAt_in 1 rfl _, Head.dat_A]
      unfold W16
      exact (upd_ne (W15 m c) main_v103 _ (Pipeline.arrRef spec7 1) (by decide)).symm
    | ⟨2, _⟩ => by
      show (Head.dat (rd (W15 m)) c).arrAt 2 cfg7.N = W16 m c (Pipeline.arrRef spec7 2)
      rw [(Head.dat (rd (W15 m)) c).arrAt_in 2 rfl _, Head.dat_A]
      unfold W16
      exact (upd_ne (W15 m c) main_v103 _ (Pipeline.arrRef spec7 2) (by decide)).symm
    | ⟨3, _⟩ => by
      show (Head.dat (rd (W15 m)) c).arrAt 3 cfg7.N = W16 m c (Pipeline.arrRef spec7 3)
      rw [(Head.dat (rd (W15 m)) c).arrAt_in 3 rfl _, Head.dat_A]
      unfold W16
      exact (upd_ne (W15 m c) main_v103 _ (Pipeline.arrRef spec7 3) (by decide)).symm
    | ⟨4, _⟩ => by
      show (Head.dat (rd (W15 m)) c).arrAt 4 cfg7.N = W16 m c (Pipeline.arrRef spec7 4)
      rw [(Head.dat (rd (W15 m)) c).arrAt_in 4 rfl _, Head.dat_A]
      unfold W16
      exact (upd_ne (W15 m c) main_v103 _ (Pipeline.arrRef spec7 4) (by decide)).symm
    | ⟨5, _⟩ => by
      show _ = W16 m c main_v103
      unfold W16; rw [upd_self]; rfl
theorem hrest7 (c : Dev nD) (b : Ref sig .tc) (hb : b ∉ Finset.univ.image (Pipeline.arrRef spec7)) : rd (W16 m) c b = rd (W15 m) c b := by
  show W16 m c b = W15 m c b
  unfold W16
  exact upd_ne (W15 m c) main_v103 _ b fun e => hb (Finset.mem_image.mpr ⟨5, Finset.mem_univ _, e.symm⟩)

/-! ## The proof data of every region, each at its entry contents -/

def pdats : (p : Fin 8) → (c : Dev nD) → Dat τ (Elt F) Unit ℕ (UR sig nD τ) ℕ (cfgs p) c
  | ⟨0, _⟩ => fun c => Lin1.dat (rd (V3 m)) c
  | ⟨1, _⟩ => fun c => Act1.dat (rd (W5 m)) c
  | ⟨2, _⟩ => fun c => Lin2.dat (rd (W6 m)) c
  | ⟨3, _⟩ => fun c => Act2.dat (rd (W8 m)) c
  | ⟨4, _⟩ => fun c => Lin3.dat (rd (W9 m)) c
  | ⟨5, _⟩ => fun c => Act3.dat (rd (W11 m)) c
  | ⟨6, _⟩ => fun c => Pool.dat (rd (W13 m)) c
  | ⟨7, _⟩ => fun c => Head.dat (rd (W15 m)) c

def reg0 : RegionSeg (pcfgs (F := F)) adm (pdats m) () defs₀ 𝒱₀ L lv 0 :=
  regOf (pdats m) 0 launch0 (V3 m) (W4 m) (fun c => Lin1.body_obligation _ c) (fun _ _ => rfl) (fun _ _ => rfl) (fun _ _ => rfl)
    (fun c w => Lin1.dat_A _ c w) (fun _ => .rfl) (fun _ => .rfl) (hF0 m) (hrest0 m)
def reg1 : RegionSeg (pcfgs (F := F)) adm (pdats m) () defs₀ 𝒱₀ L lv 1 :=
  regOf (pdats m) 1 launch1 (W5 m) (W6 m) (fun c => Act1.body_obligation _ c) (fun _ _ => rfl) (fun _ _ => rfl) (fun _ _ => rfl)
    (fun c w => Act1.dat_A _ c w) (fun _ => .rfl) (fun _ => .rfl) (hF1 m) (hrest1 m)
def reg2 : RegionSeg (pcfgs (F := F)) adm (pdats m) () defs₀ 𝒱₀ L lv 2 :=
  regOf (pdats m) 2 launch2 (W6 m) (W7 m) (fun c => Lin2.body_obligation _ c) (fun _ _ => rfl) (fun _ _ => rfl) (fun _ _ => rfl)
    (fun c w => Lin2.dat_A _ c w) (fun _ => .rfl) (fun _ => .rfl) (hF2 m) (hrest2 m)
def reg3 : RegionSeg (pcfgs (F := F)) adm (pdats m) () defs₀ 𝒱₀ L lv 3 :=
  regOf (pdats m) 3 launch3 (W8 m) (W9 m) (fun c => Act2.body_obligation _ c) (fun _ _ => rfl) (fun _ _ => rfl) (fun _ _ => rfl)
    (fun c w => Act2.dat_A _ c w) (fun _ => .rfl) (fun _ => .rfl) (hF3 m) (hrest3 m)
def reg4 : RegionSeg (pcfgs (F := F)) adm (pdats m) () defs₀ 𝒱₀ L lv 4 :=
  regOf (pdats m) 4 launch4 (W9 m) (W10 m) (fun c => Lin3.body_obligation _ c) (fun _ _ => rfl) (fun _ _ => rfl) (fun _ _ => rfl)
    (fun c w => Lin3.dat_A _ c w) (fun _ => .rfl) (fun _ => .rfl) (hF4 m) (hrest4 m)
def reg5 : RegionSeg (pcfgs (F := F)) adm (pdats m) () defs₀ 𝒱₀ L lv 5 :=
  regOf (pdats m) 5 launch5 (W11 m) (W12 m) (fun c => Act3.body_obligation _ c) (fun _ _ => rfl) (fun _ _ => rfl) (fun _ _ => rfl)
    (fun c w => Act3.dat_A _ c w) (fun _ => .rfl) (fun _ => .rfl) (hF5 m) (hrest5 m)
def reg6 : RegionSeg (pcfgs (F := F)) adm (pdats m) () defs₀ 𝒱₀ L lv 6 :=
  regOf (pdats m) 6 launch6 (W13 m) (W14 m) (fun c => Pool.body_obligation _ c) (fun _ _ => rfl) (fun _ _ => rfl) (fun _ _ => rfl)
    (fun c w => Pool.dat_A _ c w) (fun _ => .rfl) (fun c => Pool.phi_last _ c) (hF6 m) (hrest6 m)
def reg7 : RegionSeg (pcfgs (F := F)) adm (pdats m) () defs₀ 𝒱₀ L lv 7 :=
  regOf (pdats m) 7 launch7 (W15 m) (W16 m) (fun c => Head.body_obligation _ c) (fun _ _ => rfl) (fun _ _ => rfl) (fun _ _ => rfl)
    (fun c w => Head.dat_A _ c w) (fun _ => .rfl) (fun _ => .rfl) (hF7 m) (hrest7 m)

/-! ## The launch -/

/-- @main's sixteen items: the generated host stretches, the eight regions' records. -/
abbrev items : Dev nD → List (Seg (pcfgs (F := F)) adm (pdats m) () defs₀ 𝒱₀ L lv) :=
  segs m (outs m) 𝒱₀ L lv (fun _ c => R c) () (pdats m) (reg0 m) (reg1 m) (reg2 m) (reg3 m) (reg4 m) (reg5 m) (reg6 m) (reg7 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state moves along an equation of contents. -/
theorem step_eq {W W' : Valuation τ sig (Elt F)} (h : W = W') (c : Dev nD) :
    (iprop(StableHlo.held (c : Thread nD τ) (Pipeline.ucRefs τ sig) W ∗ R c) : sProp 𝕄)
      ⊢ iprop(StableHlo.held (c : Thread nD τ) (Pipeline.ucRefs τ sig) W' ∗ R c) := by
  subst h; exact .rfl

/-- After the last region: the buffers and the generator register on one side, the core owing nothing on the other. -/
theorem last_step (c : Dev nD) :
    (iprop(StableHlo.held (c : Thread nD τ) (Pipeline.ucRefs τ sig) (W16 m c) ∗ R c) : sProp 𝕄)
      ⊢ iprop((StableHlo.held (c : Thread nD τ) (Pipeline.ucRefs τ sig) (W16 m c) ∗ ∃ r, prngReg c r)
          ∗ ∃ W, owes (c : Thread nD τ) (0 : CellTallies nD τ sig Unit) W) := by
  iintro ⟨Hh, Hp, HO⟩
  isplitl [Hh Hp]
  · isplitl [Hh]
    · iexact Hh
    iexact Hp
  iexact HO

set_option backward.isDefEq.respectTransparency.types false in
/-- From any memory with zero counters every weakly fair execution of @main terminates, and every final memory
    holds every unscoped buffer at the last contents of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W16 m c b) := by
  refine Pipeline.θ_run_regions_kit_dev (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [items, segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W16 m c) ∗ ∃ r, prngReg c r))
    (hch := fun c => ⟨.rfl, .rfl, .rfl, .rfl, step_eq (V4_eq m c).symm c, step_eq (V5_eq m c) c, .rfl, step_eq (V7_eq m c).symm c,
      step_eq (V8_eq m c) c, .rfl, step_eq (V10_eq m c).symm c, step_eq (V11_eq m c) c, step_eq (V12_eq m c).symm c,
      step_eq (V13_eq m c) c, step_eq (V14_eq m c).symm c, step_eq (V15_eq m c) c, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun _ h => h)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c _ (mem_uc main_arg0 (by decide))).trans ((congrFun (V16_eq m c).symm _).trans (V16_main_arg0 m (outs m) c)),
      (h c _ (mem_uc main_arg1 (by decide))).trans ((congrFun (V16_eq m c).symm _).trans (V16_main_arg1 m (outs m) c)),
      (h c _ (mem_uc main_arg2 (by decide))).trans ((congrFun (V16_eq m c).symm _).trans (V16_main_arg2 m (outs m) c)),
      (h c _ (mem_uc main_arg3 (by decide))).trans ((congrFun (V16_eq m c).symm _).trans (V16_main_arg3 m (outs m) c)),
      (h c _ (mem_uc main_arg4 (by decide))).trans ((congrFun (V16_eq m c).symm _).trans (V16_main_arg4 m (outs m) c)),
      (h c _ (mem_uc main_arg5 (by decide))).trans ((congrFun (V16_eq m c).symm _).trans (V16_main_arg5 m (outs m) c)),
      (h c _ (mem_uc main_arg6 (by decide))).trans ((congrFun (V16_eq m c).symm _).trans (V16_main_arg6 m (outs m) c)),
      (h c _ (mem_uc main_arg7 (by decide))).trans ((congrFun (V16_eq m c).symm _).trans (V16_main_arg7 m (outs m) c)),
      (h c _ (mem_uc main_arg8 (by decide))).trans ((congrFun (V16_eq m c).symm _).trans (V16_main_arg8 m (outs m) c)),
      (h c _ (mem_uc main_arg9 (by decide))).trans ((congrFun (V16_eq m c).symm _).trans (V16_main_arg9 m (outs m) c)),
      (h c _ (mem_uc main_arg10 (by decide))).trans ((congrFun (V16_eq m c).symm _).trans (V16_main_arg10 m (outs m) c)),
      (h c _ (mem_uc main_arg11 (by decide))).trans ((congrFun (V16_eq m c).symm _).trans (V16_main_arg11 m (outs m) c)),
      (h c _ (mem_uc main_arg12 (by decide))).trans ((congrFun (V16_eq m c).symm _).trans (V16_main_arg12 m (outs m) c)),
      (h c _ (mem_uc main_arg13 (by decide))).trans ((congrFun (V16_eq m c).symm _).trans (V16_main_arg13 m (outs m) c)),
      (h c _ (mem_uc main_arg14 (by decide))).trans ((congrFun (V16_eq m c).symm _).trans (V16_main_arg14 m (outs m) c)),
      (h c _ (mem_uc main_arg15 (by decide))).trans ((congrFun (V16_eq m c).symm _).trans (V16_main_arg15 m (outs m) c)),
      (h c _ (mem_uc main_arg16 (by decide))).trans ((congrFun (V16_eq m c).symm _).trans (V16_main_arg16 m (outs m) c)),
      (h c _ (mem_uc main_arg17 (by decide))).trans ((congrFun (V16_eq m c).symm _).trans (V16_main_arg17 m (outs m) c)),
      (h c _ (mem_uc main_arg18 (by decide))).trans ((congrFun (V16_eq m c).symm _).trans (V16_main_arg18 m (outs m) c)),
      (h c _ (mem_uc main_arg19 (by decide))).trans ((congrFun (V16_eq m c).symm _).trans (V16_main_arg19 m (outs m) c)),
      (h c _ (mem_uc main_arg20 (by decide))).trans ((congrFun (V16_eq m c).symm _).trans (V16_main_arg20 m (outs m) c)),
      (h c _ (mem_uc main_arg21 (by decide))).trans ((congrFun (V16_eq m c).symm _).trans (V16_main_arg21 m (outs m) c)),
      (h c _ (mem_uc main_arg22 (by decide))).trans ((congrFun (V16_eq m c).symm _).trans (V16_main_arg22 m (outs m) c)),
      (h c _ (mem_uc main_arg23 (by decide))).trans ((congrFun (V16_eq m c).symm _).trans (V16_main_arg23 m (outs m) c)),
      (h c _ (mem_uc main_arg24 (by decide))).trans ((congrFun (V16_eq m c).symm _).trans (V16_main_arg24 m (outs m) c))⟩) (run_all m ρ)

/-- The result array at the end of every execution. -/
theorem result (ρ : Dev nD → PrngReg) :
    θ_run defs (onTc (τ := τ) (main (F := F))) ⟨m, fun _ => 0, ρ⟩ (fun r => ∀ c : Dev nD,
      r.2.mem ((c.tc : Thread nD τ).loc main_v103) = W16 m c main_v103) :=
  (θ_run defs _ _).mono (fun r h c => h c _ (mem_uc main_v103 (by decide))) (run_all m ρ)

/-- The result array and the frame together, in the order the equivalence claim states them. -/
theorem run_named (ρ : Dev nD → PrngReg) :
    θ_run defs (onTc (τ := τ) (main (F := F))) ⟨m, fun _ => 0, ρ⟩ (fun r => ∀ c : Dev nD,
      r.2.mem ((c.tc : Thread nD τ).loc main_v103) = W16 m c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨h c _ (mem_uc main_v103 (by decide)),
      (h c _ (mem_uc main_arg0 (by decide))).trans ((congrFun (V16_eq m c).symm _).trans (V16_main_arg0 m (outs m) c)),
      (h c _ (mem_uc main_arg1 (by decide))).trans ((congrFun (V16_eq m c).symm _).trans (V16_main_arg1 m (outs m) c)),
      (h c _ (mem_uc main_arg2 (by decide))).trans ((congrFun (V16_eq m c).symm _).trans (V16_main_arg2 m (outs m) c)),
      (h c _ (mem_uc main_arg3 (by decide))).trans ((congrFun (V16_eq m c).symm _).trans (V16_main_arg3 m (outs m) c)),
      (h c _ (mem_uc main_arg4 (by decide))).trans ((congrFun (V16_eq m c).symm _).trans (V16_main_arg4 m (outs m) c)),
      (h c _ (mem_uc main_arg5 (by decide))).trans ((congrFun (V16_eq m c).symm _).trans (V16_main_arg5 m (outs m) c)),
      (h c _ (mem_uc main_arg6 (by decide))).trans ((congrFun (V16_eq m c).symm _).trans (V16_main_arg6 m (outs m) c)),
      (h c _ (mem_uc main_arg7 (by decide))).trans ((congrFun (V16_eq m c).symm _).trans (V16_main_arg7 m (outs m) c)),
      (h c _ (mem_uc main_arg8 (by decide))).trans ((congrFun (V16_eq m c).symm _).trans (V16_main_arg8 m (outs m) c)),
      (h c _ (mem_uc main_arg9 (by decide))).trans ((congrFun (V16_eq m c).symm _).trans (V16_main_arg9 m (outs m) c)),
      (h c _ (mem_uc main_arg10 (by decide))).trans ((congrFun (V16_eq m c).symm _).trans (V16_main_arg10 m (outs m) c)),
      (h c _ (mem_uc main_arg11 (by decide))).trans ((congrFun (V16_eq m c).symm _).trans (V16_main_arg11 m (outs m) c)),
      (h c _ (mem_uc main_arg12 (by decide))).trans ((congrFun (V16_eq m c).symm _).trans (V16_main_arg12 m (outs m) c)),
      (h c _ (mem_uc main_arg13 (by decide))).trans ((congrFun (V16_eq m c).symm _).trans (V16_main_arg13 m (outs m) c)),
      (h c _ (mem_uc main_arg14 (by decide))).trans ((congrFun (V16_eq m c).symm _).trans (V16_main_arg14 m (outs m) c)),
      (h c _ (mem_uc main_arg15 (by decide))).trans ((congrFun (V16_eq m c).symm _).trans (V16_main_arg15 m (outs m) c)),
      (h c _ (mem_uc main_arg16 (by decide))).trans ((congrFun (V16_eq m c).symm _).trans (V16_main_arg16 m (outs m) c)),
      (h c _ (mem_uc main_arg17 (by decide))).trans ((congrFun (V16_eq m c).symm _).trans (V16_main_arg17 m (outs m) c)),
      (h c _ (mem_uc main_arg18 (by decide))).trans ((congrFun (V16_eq m c).symm _).trans (V16_main_arg18 m (outs m) c)),
      (h c _ (mem_uc main_arg19 (by decide))).trans ((congrFun (V16_eq m c).symm _).trans (V16_main_arg19 m (outs m) c)),
      (h c _ (mem_uc main_arg20 (by decide))).trans ((congrFun (V16_eq m c).symm _).trans (V16_main_arg20 m (outs m) c)),
      (h c _ (mem_uc main_arg21 (by decide))).trans ((congrFun (V16_eq m c).symm _).trans (V16_main_arg21 m (outs m) c)),
      (h c _ (mem_uc main_arg22 (by decide))).trans ((congrFun (V16_eq m c).symm _).trans (V16_main_arg22 m (outs m) c)),
      (h c _ (mem_uc main_arg23 (by decide))).trans ((congrFun (V16_eq m c).symm _).trans (V16_main_arg23 m (outs m) c)),
      (h c _ (mem_uc main_arg24 (by decide))).trans ((congrFun (V16_eq m c).symm _).trans (V16_main_arg24 m (outs m) c))⟩) (run_all m ρ)

end Cert.Kernel.Run

end
-- ==== Proof.KernelIdeal.Lin1.lean ====
/-
  The first linear layer, `x · W₁`, as a pipelined region over twenty row tiles of 5000 rows.
  At each tile the body loads the tile of `x` and the whole of `W₁`, multiplies them on the matrix unit into a zero
  accumulator and stores the product over the whole output tile. Stated for any float instance `F` and at any
  contents `V` of the core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 output tile, the one rectangle the body stores through. -/
abbrev whole : Rect S5000x64 := Rect.unit (s := S5000x64) ![0, 0] S5000x64.size inb_S5000x64_S5000x64_0_0
abbrev wholeX : Rect S5000x8 := Rect.unit (s := S5000x8) ![0, 0] S5000x8.size inb_S5000x8_S5000x8_0_0
abbrev wholeW : Rect S8x64 := Rect.unit (s := S8x64) ![0, 0] S8x64.size inb_S8x64_S8x64_0_0

/-- What the body leaves in the output tile's buffer: the product of the `x` tile and `W₁`, stored whole. -/
def prod (x : Vec F S5000x8 .f32) (w : Vec F S8x64 .f32) : Vec F S5000x64 .f32 :=
  View.canon [⟨whole, k0_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid0.Coords)
    (a1 : Memref sig .tc .vmem S5000x8 .f32) (h1 : a1.IsWhole) (a2 : Memref sig .tc .vmem S8x64 .f32) (h2 : a2.IsWhole)
    (a3 : Memref sig .tc .vmem S5000x64 .f32) (h3 : a3.IsWhole)
    (x : Vec F S5000x8 .f32) (w : Vec F S8x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => prod (tile V c 0 t) (tile V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = tile V c 0 t := by dsimp only [dat]
theorem after_w (c : Dev nD) (t : Fin cfg0.N) : (dat V c).after 1 t = tile V c 1 t := by dsimp only [dat]
theorem after_out (c : Dev nD) (t : Fin cfg0.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg0.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg0.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at V c t

end Cert.KernelIdeal.Lin1

end
-- ==== Proof.KernelIdeal.Act1.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Act1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k1_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid1.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc1__bias_bn_relu_kernel i a1 h1 a2 h2 a3 h3 a4 h4 a5 h5 a6 h6 a7 h7) K := by
  simp only [cc1__bias_bn_relu_kernel_eq_skeleton]; unfold cc1__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = tile V c 0 t := by dsimp only [dat]
theorem after_p1 (c : Dev nD) (t : Fin cfg1.N) : (dat V c).after 1 t = tile V c 1 t := by dsimp only [dat]
theorem after_p2 (c : Dev nD) (t : Fin cfg1.N) : (dat V c).after 2 t = tile V c 2 t := by dsimp only [dat]
theorem after_p3 (c : Dev nD) (t : Fin cfg1.N) : (dat V c).after 3 t = tile V c 3 t := by dsimp only [dat]
theorem after_p4 (c : Dev nD) (t : Fin cfg1.N) : (dat V c).after 4 t = tile V c 4 t := by dsimp only [dat]
theorem after_p5 (c : Dev nD) (t : Fin cfg1.N) : (dat V c).after 5 t = tile V c 5 t := by dsimp only [dat]
theorem after_out (c : Dev nD) (t : Fin cfg1.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg1.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg1.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg1.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg1.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg1.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg1.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W1, bigSep_W1]
  exact body_at V c t

end Cert.KernelIdeal.Act1

end
-- ==== Proof.KernelIdeal.Lin2.lean ====
/-
  The second linear layer, `x · W₂`, as a pipelined region over twenty row tiles of 5000 rows.
  At each tile the body loads the tile of `x` and the whole of `W₂`, multiplies them on the matrix unit into a zero
  accumulator and stores the product over the whole output tile. Stated for any float instance `F` and at any
  contents `V` of the core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000 × 64 output tile, the one rectangle the body stores through. -/
abbrev whole : Rect S5000x64 := Rect.unit (s := S5000x64) ![0, 0] S5000x64.size inb_S5000x64_S5000x64_0_0
abbrev wholeX : Rect S5000x64 := Rect.unit (s := S5000x64) ![0, 0] S5000x64.size inb_S5000x64_S5000x64_0_0
abbrev wholeW : Rect S64x64 := Rect.unit (s := S64x64) ![0, 0] S64x64.size inb_S64x64_S64x64_0_0

/-- What the body leaves in the output tile's buffer: the product of the `x` tile and `W₂`, stored whole. -/
def prod (x : Vec F S5000x64 .f32) (w : Vec F S64x64 .f32) : Vec F S5000x64 .f32 :=
  View.canon [⟨whole, k2_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid2.Coords)
    (a1 : Memref sig .tc .vmem S5000x64 .f32) (h1 : a1.IsWhole) (a2 : Memref sig .tc .vmem S64x64 .f32) (h2 : a2.IsWhole)
    (a3 : Memref sig .tc .vmem S5000x64 .f32) (h3 : a3.IsWhole)
    (x : Vec F S5000x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => prod (tile V c 0 t) (tile V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_x (c : Dev nD) (t : Fin cfg2.N) : (dat V c).after 0 t = tile V c 0 t := by dsimp only [dat]
theorem after_w (c : Dev nD) (t : Fin cfg2.N) : (dat V c).after 1 t = tile V c 1 t := by dsimp only [dat]
theorem after_out (c : Dev nD) (t : Fin cfg2.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg2.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg2.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact body_at V c t

end Cert.KernelIdeal.Lin2

end
-- ==== Proof.KernelIdeal.Act2.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Act2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k3_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid3.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc3__bias_bn_relu_kernel i a1 h1 a2 h2 a3 h3 a4 h4 a5 h5 a6 h6 a7 h7) K := by
  simp only [cc3__bias_bn_relu_kernel_eq_skeleton]; unfold cc3__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg3 c where
  A w := V c (Pipeline.arrRef spec3 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec3 c
  q _ := fullShare
  owed _ := 0

theorem dat_A (c : Dev nD) (w : Fin cfg3.W) : (dat V c).A w = V c (Pipeline.arrRef spec3 w) := by
  dsimp only [dat]

theorem after_x (c : Dev nD) (t : Fin cfg3.N) : (dat V c).after 0 t = tile V c 0 t := by dsimp only [dat]
theorem after_p1 (c : Dev nD) (t : Fin cfg3.N) : (dat V c).after 1 t = tile V c 1 t := by dsimp only [dat]
theorem after_p2 (c : Dev nD) (t : Fin cfg3.N) : (dat V c).after 2 t = tile V c 2 t := by dsimp only [dat]
theorem after_p3 (c : Dev nD) (t : Fin cfg3.N) : (dat V c).after 3 t = tile V c 3 t := by dsimp only [dat]
theorem after_p4 (c : Dev nD) (t : Fin cfg3.N) : (dat V c).after 4 t = tile V c 4 t := by dsimp only [dat]
theorem after_p5 (c : Dev nD) (t : Fin cfg3.N) : (dat V c).after 5 t = tile V c 5 t := by dsimp only [dat]
theorem after_out (c : Dev nD) (t : Fin cfg3.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg3.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg3.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg3.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg3.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg3.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg3.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact body_at V c t

end Cert.KernelIdeal.Act2

end
-- ==== Proof.KernelIdeal.Lin3.lean ====
/-
  The third linear layer, `x · W₃`, as a pipelined region over twenty row tiles of 5000 rows.
  At each tile the body loads the tile of `x` and the whole of `W₃`, multiplies them on the matrix unit into a zero
  accumulator and stores the product over the whole output tile. Stated for any float instance `F` and at any
  contents `V` of the core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Lin3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole 5000 × 64 output tile, the one rectangle the body stores through. -/
abbrev whole : Rect S5000x64 := Rect.unit (s := S5000x64) ![0, 0] S5000x64.size inb_S5000x64_S5000x64_0_0
abbrev wholeX : Rect S5000x64 := Rect.unit (s := S5000x64) ![0, 0] S5000x64.size inb_S5000x64_S5000x64_0_0
abbrev wholeW : Rect S64x64 := Rect.unit (s := S64x64) ![0, 0] S64x64.size inb_S64x64_S64x64_0_0

/-- What the body leaves in the output tile's buffer: the product of the `x` tile and `W₃`, stored whole. -/
def prod (x : Vec F S5000x64 .f32) (w : Vec F S64x64 .f32) : Vec F S5000x64 .f32 :=
  View.canon [⟨whole, k4_pay1 (View.ld x wholeX) (View.ld w wholeW)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the two inputs are read and kept, the output buffer ends at `prod`. -/
theorem body_triple (c : Dev nD) (E : Set ℕ) (i : grid4.Coords)
    (a1 : Memref sig .tc .vmem S5000x64 .f32) (h1 : a1.IsWhole) (a2 : Memref sig .tc .vmem S64x64 .f32) (h2 : a2.IsWhole)
    (a3 : Memref sig .tc .vmem S5000x64 .f32) (h3 : a3.IsWhole)
    (x : Vec F S5000x64 .f32) (w : Vec F S64x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- After the body at tile `t`: the two inputs' buffers still hold their tiles, the output's holds the product.
    The region keeps no state of its own between tiles beyond the scoped rest and the generator register. -/
def dat (c : Dev nD) : Dat τ (Elt F) Unit ℕ (UR sig nD τ) ℕ cfg4 c where
  A w := V c (Pipeline.arrRef spec4 w)
  after w t := match w with
    | ⟨0, _⟩ => tile V c 0 t
    | ⟨1, _⟩ => tile V c 1 t
    | ⟨2, _⟩ => prod (tile V c 0 t) (tile V c 1 t)
  Φ _ := Pipeline.ΦA spec4 c
  q _ := fullShare
  owed _ := 0

theorem dat_A (c : Dev nD) (w : Fin cfg4.W) : (dat V c).A w = V c (Pipeline.arrRef spec4 w) := by
  dsimp only [dat]

theorem after_x (c : Dev nD) (t : Fin cfg4.N) : (dat V c).after 0 t = tile V c 0 t := by dsimp only [dat]
theorem after_w (c : Dev nD) (t : Fin cfg4.N) : (dat V c).after 1 t = tile V c 1 t := by dsimp only [dat]
theorem after_out (c : Dev nD) (t : Fin cfg4.N) : (dat V c).after 2 t = prod (tile V c 0 t) (tile V c 1 t) := by dsimp only [dat]

/-- An input's buffer holds its tile when the body starts, whether the pipeline fetched it at this point or it was
    fetched earlier and the tile index has not moved since. -/
theorem before_x (c : Dev nD) (t : Fin cfg4.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w (c : Dev nD) (t : Fin cfg4.N) (d) : (dat V c).before 1 t d = tile V c 1 t :=
  ((dat V c).before_in_eq_fetched 1 rfl (fun _ => rfl) (fun _ _ _ => rfl)
    (fun t => by rw [after_w]; unfold Dat.blockOf tile; rw [dat_A]; try rfl) t d).trans
    (by unfold Dat.fetched Dat.blockOf tile; rw [dat_A]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_x, before_w]
  rw [show (dat V c).Φ t.succ = (dat V c).Φ t.castSucc from rfl,
    show (dat V c).owesAt () t.succ = (dat V c).owesAt () t.castSucc from rfl,
    after_x, after_w, after_out]
  iintro ⟨HΦ, Ho, ⟨%d0, H0⟩, ⟨%d1, H1⟩, ⟨%d2, H2⟩⟩
  iapply (body_triple c Set.univ _ _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W4, bigSep_W4]
  exact body_at V c t

end Cert.KernelIdeal.Lin3

end
-- ==== Proof.KernelIdeal.Act3.lean ====
/-
  The bias / batch-norm / ReLU layer as a pipelined region over twenty row tiles of 5000 rows.
  At each tile the body loads the tile of aggregated features and the five 1 × 64 parameter rows (bias, scale, shift,
  running mean, running variance), computes  max (((x + b) − μ) · rsqrt (σ² + ε) · γ + β, 0)  row-broadcast over the
  tile, and stores it over the whole output tile. Stated for any float instance `F` and at any contents `V` of the
  core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Act3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the entry contents. -/
def tile (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 5000 × 64 tile, the one rectangle the body loads the features through and stores the result through. -/
abbrev whole : Rect S5000x64 := Rect.unit (s := S5000x64) ![0, 0] S5000x64.size inb_S5000x64_S5000x64_0_0
/-- The whole 1 × 64 parameter row. -/
abbrev row : Rect S1x64 := Rect.unit (s := S1x64) ![0, 0] S1x64.size inb_S1x64_S1x64_0_0

/-- What the body leaves in the output tile's buffer: the activation of the feature tile `x0` under the five
    parameter rows `x1 … x5` (in window order), stored whole. The payload takes its loads in program order:
    window 1, then window 5, window 4, window 2, window 3. -/
def act (x0 : Vec F S5000x64 .f32) (x1 x2 x3 x4 x5 : Vec F S1x64 .f32) : Vec F S5000x64 .f32 :=
  View.canon [⟨whole, k5_pay1 (View.ld x0 whole) (View.ld x1 row) (View.ld x5 row) (View.ld x4 row) (View.ld x2 row) (View.ld x3 row)⟩]

theorem covers (p : Vec F S5000x64 .f32) (y : S5000x64.Idx) :
    ∃ pc ∈ ([⟨whole, p⟩] : List (View.Piece (Elt F) S5000x64 .f32)), y ∈ pc.1.set :=
  View.cover_of_tiled [⟨whole, p⟩] S5000x64.size (by rfl) y

set_option maxHeartbeats 1000000 in
/-- The body on whole buffers: the six inputs are read and kept, the output buffer (whatever it held) ends at `act`. -/
theorem body_triple (c : Dev nD) (E : Set ℕ) (i : grid5.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S5000x64 .f32) (h7 : a7.IsWhole)
    (x0 : Vec F S5000x64 .f32) (x1 x2 x3 x4 x5 : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (act x0 x1 x2 x3 x4 x5)) -∗ K ⟨⟩))
      ⊢ wp frame (wpE (defs₀ (F := F)) Variants.none c none) E (cc5__bias_bn_relu_kernel i a1 h1 a2 h2 a3 h3 a4 h4 a5 h5 a6 h6 a7 h7) K := by
  simp only [cc5__bias_bn_relu_kernel_eq_skeleton]; unfold cc5__bias_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers _)

/-! ## The proof data -/

/-- After the body at tile `t`: the six inputs' buffers still hold their tiles, the output's holds the activation.
    The region keeps no state of its own between tiles beyond the scoped rest and the generator register. -/
def dat (c : Dev nD) : Dat τ (Elt F) Unit ℕ (UR sig nD τ) ℕ cfg5 c where
  A w := V c (Pipeline.arrRef spec5 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => act (tile V c 0 t) (tile V c 1 t) (tile V c 2 t) (tile V c 3 t) (tile V c 4 t) (tile V c 5 t)
  Φ _ := Pipeline.ΦA spec5 c
  q _ := fullShare
  owed _ := 0

theorem dat_A (c : Dev nD) (w : Fin cfg5.W) : (dat V c).A w = V c (Pipeline.arrRef spec5 w) := by
  dsimp only [dat]

theorem after_x (c : Dev nD) (t : Fin cfg5.N) : (dat V c).after 0 t = tile V c 0 t := by dsimp only [dat]
theorem after_p1 (c : Dev nD) (t : Fin cfg5.N) : (dat V c).after 1 t = tile V c 1 t := by dsimp only [dat]
theorem after_p2 (c : Dev nD) (t : Fin cfg5.N) : (dat V c).after 2 t = tile V c 2 t := by dsimp only [dat]
theorem after_p3 (c : Dev nD) (t : Fin cfg5.N) : (dat V c).after 3 t = tile V c 3 t := by dsimp only [dat]
theorem after_p4 (c : Dev nD) (t : Fin cfg5.N) : (dat V c).after 4 t = tile V c 4 t := by dsimp only [dat]
theorem after_p5 (c : Dev nD) (t : Fin cfg5.N) : (dat V c).after 5 t = tile V c 5 t := by dsimp only [dat]
theorem after_out (c : Dev nD) (t : Fin cfg5.N) : (dat V c).after 6 t
    = act (tile V c 0 t) (tile V c 1 t) (tile V c 2 t) (tile V c 3 t) (tile V c 4 t) (tile V c 5 t) := by dsimp only [dat]

/-- An input's buffer holds its tile when the body starts, whether the pipeline fetched it at this point or it was
    fetched earlier and the tile index has not moved since. -/
theorem before_x (c : Dev nD) (t : Fin cfg5.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_p1 (c : Dev nD) (t : Fin cfg5.N) (d) : (dat V c).before 1 t d = tile V c 1 t :=
  ((dat V c).before_in_eq_fetched 1 rfl (fun _ => rfl) (fun _ _ _ => rfl)
    (fun t => by rw [after_p1]; unfold Dat.blockOf tile; rw [dat_A]; try rfl) t d).trans
    (by unfold Dat.fetched Dat.blockOf tile; rw [dat_A]; try rfl)
theorem before_p2 (c : Dev nD) (t : Fin cfg5.N) (d) : (dat V c).before 2 t d = tile V c 2 t :=
  ((dat V c).before_in_eq_fetched 2 rfl (fun _ => rfl) (fun _ _ _ => rfl)
    (fun t => by rw [after_p2]; unfold Dat.blockOf tile; rw [dat_A]; try rfl) t d).trans
    (by unfold Dat.fetched Dat.blockOf tile; rw [dat_A]; try rfl)
theorem before_p3 (c : Dev nD) (t : Fin cfg5.N) (d) : (dat V c).before 3 t d = tile V c 3 t :=
  ((dat V c).before_in_eq_fetched 3 rfl (fun _ => rfl) (fun _ _ _ => rfl)
    (fun t => by rw [after_p3]; unfold Dat.blockOf tile; rw [dat_A]; try rfl) t d).trans
    (by unfold Dat.fetched Dat.blockOf tile; rw [dat_A]; try rfl)
theorem before_p4 (c : Dev nD) (t : Fin cfg5.N) (d) : (dat V c).before 4 t d = tile V c 4 t :=
  ((dat V c).before_in_eq_fetched 4 rfl (fun _ => rfl) (fun _ _ _ => rfl)
    (fun t => by rw [after_p4]; unfold Dat.blockOf tile; rw [dat_A]; try rfl) t d).trans
    (by unfold Dat.fetched Dat.blockOf tile; rw [dat_A]; try rfl)
theorem before_p5 (c : Dev nD) (t : Fin cfg5.N) (d) : (dat V c).before 5 t d = tile V c 5 t :=
  ((dat V c).before_in_eq_fetched 5 rfl (fun _ => rfl) (fun _ _ _ => rfl)
    (fun t => by rw [after_p5]; unfold Dat.blockOf tile; rw [dat_A]; try rfl) t d).trans
    (by unfold Dat.fetched Dat.blockOf tile; rw [dat_A]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d))
    ∗ (∃ d, owns (c : Thread nD τ) (st5_6 t) fullShare ((dat V c).before 6 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t)
    ∗ owns (c : Thread nD τ) (st5_6 t) fullShare ((dat V c).after 6 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_x, before_p1, before_p2, before_p3, before_p4, before_p5]
  rw [show (dat V c).Φ t.succ = (dat V c).Φ t.castSucc from rfl,
    show (dat V c).owesAt () t.succ = (dat V c).owesAt () t.castSucc from rfl,
    after_x, after_p1, after_p2, after_p3, after_p4, after_p5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (tile V c 0 t) (tile V c 1 t) (tile V c 2 t) (tile V c 3 t) (tile V c 4 t) (tile V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W5, bigSep_W5]
  exact body_at V c t

end Cert.KernelIdeal.Act3

end
-- ==== Proof.KernelIdeal.PoolAcc.lean ====
/-
  The pooling region's running sum, as a recursion over its twenty row tiles.
  At the first tile the accumulator is reset to zero; at every tile the one-hot of the tile's graph ids, contracted
  with the tile's rows over the row axis, is added to it. `accum h b n` is the accumulator after tile `n`, as a
  function of the whole node array `h` and the whole id column `b`, for any float instance.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points

noncomputable section

namespace Cert.KernelIdeal.PoolAcc

open Cert.KernelIdeal Cert.KernelIdeal.Gen
open Idealize.ShloMosaic Idealize.ShloMosaic.TcCoe Idealize.SL.Sem

variable {F : FTy → Type} [FloatOps F]

/-- Rows `5000·t … 5000·t + 4999` of the node array. -/
def rowsAt (h : Vec F S100000x64 .f32) (t : Fin cfg6.N) : Vec F S5000x64 .f32 :=
  ((cfg6.win 0).blk t).view.read (Elt F) h

/-- The same rows of the graph-id column. -/
def idsAt (b : Vec F S100000x1 .i32) (t : Fin cfg6.N) : Vec F S5000x1 .i32 :=
  ((cfg6.win 1).blk t).view.read (Elt F) b

/-- The accumulator after tile `n`. -/
def accum (h : Vec F S100000x64 .f32) (b : Vec F S100000x1 .i32) : (n : ℕ) → n < cfg6.N → Vec F S256x64 .f32
  | 0, hn => k6_pay2 (idsAt b ⟨0, hn⟩) (rowsAt h ⟨0, hn⟩) (k6_pay1 (F := F))
  | n + 1, hn => k6_pay2 (idsAt b ⟨n + 1, hn⟩) (rowsAt h ⟨n + 1, hn⟩) (accum h b n (Nat.lt_of_succ_lt hn))

theorem accum_zero (h : Vec F S100000x64 .f32) (b : Vec F S100000x1 .i32) (hn : 0 < cfg6.N) :
    accum h b 0 hn = k6_pay2 (idsAt b ⟨0, hn⟩) (rowsAt h ⟨0, hn⟩) (k6_pay1 (F := F)) := rfl

theorem accum_succ (h : Vec F S100000x64 .f32) (b : Vec F S100000x1 .i32) (n : ℕ) (hn : n + 1 < cfg6.N) :
    accum h b (n + 1) hn = k6_pay2 (idsAt b ⟨n + 1, hn⟩) (rowsAt h ⟨n + 1, hn⟩) (accum h b n (Nat.lt_of_succ_lt hn)) := rfl

end Cert.KernelIdeal.PoolAcc

end
-- ==== Proof.KernelIdeal.Pool.lean ====
/-
  The pooling region: the one-hot of the graph ids, contracted with the node features over the rows, summed over
  twenty row tiles of 5000 rows into a 256 × 64 accumulator the kernel keeps in a scratch buffer between tiles.
  At the first tile the body zeroes the scratch; at every tile it loads the tile's ids and rows and the scratch and
  stores the scratch plus the tile's product back; at the last tile it copies the scratch over the output's buffer,
  which is written back there and nowhere else. Stated for any float instance `F` and at any contents `V` of the
  core's buffers when the region is entered: after tile `n` the scratch holds `PoolAcc.accum` at `n`, and the
  output array ends holding it at the last tile.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import proofs.«412454_j38594576122130_1_alg».proof.Proof.KernelIdeal.PoolAcc
import Idealize.ShloMosaic.Lib.Pipeline.FrameBody
import Idealize.ShloMosaic.Lib.Pipeline.RegionsLoop
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first branch's condition as the body computes it from the point's coordinate. -/
abbrev isFirst (i : grid6.Coords) : Prop :=
  (Scalar.cmpi .ne (Scalar.extui (Scalar.cmpi .eq (BitVec.ofNat 32 (i 0).val) 0#32)) 0#32) = 1#1

/-- It holds at the first of the twenty points only; -/
theorem isFirst_iff : ∀ t : Fin cfg6.N, isFirst (grid6.coords t) ↔ t.val = 0 :=
  (by decide +kernel : ∀ t : Fin grid6.N, isFirst (grid6.coords t) ↔ t.val = 0)
/-- the second branch's at the last only. -/
theorem isLast_iff : ∀ t : Fin cfg6.N, k6_cond2 (grid6.coords t) = 1#1 ↔ t.val = 19 :=
  (by decide +kernel : ∀ t : Fin grid6.N, k6_cond2 (grid6.coords t) = 1#1 ↔ t.val = 19)

/-- The whole 256 × 64 rectangle covers every index, whatever is stored under it. -/
theorem covers (p : Vec F S256x64 .f32) (L : List (View.Piece (Elt F) S256x64 .f32)) (y : S256x64.Idx) :
    ∃ pc ∈ ((⟨Rect.unit (s := S256x64) ![0, 0] S256x64.size inb_S256x64_S256x64_0_0, p⟩ : View.Piece (Elt F) S256x64 .f32) :: L), y ∈ pc.1.set :=
  ⟨_, List.mem_cons_self, View.mem_set_unit_zero hz inb_S256x64_S256x64_0_0 y⟩

set_option maxHeartbeats 1000000 in
/-- The body at the first point, on whole buffers: the scratch, whatever it held, is zeroed and ends at the first
    tile's product added to zero; the inputs and the output's buffer are kept. -/
theorem body_first (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : isFirst i) (hc2 : ¬k6_cond2 i = 1#1)
    (x : Vec F S5000x64 .f32) (b : Vec F S5000x1 .i32) (o : Vec F S256x64 .f32) (K : PUnit → sProp 𝕄) :
    iprop(owns (c : Thread nD τ) a1 fullShare x ∗ owns (c : Thread nD τ) a2 fullShare b ∗ owns (c : Thread nD τ) a3 fullShare o
        ∗ (∃ d, owns (c : Thread nD τ) a4 fullShare d)
        ∗ (iprop(owns (c : Thread nD τ) a1 fullShare x ∗ owns (c : Thread nD τ) a2 fullShare b ∗ owns (c : Thread nD τ) a3 fullShare o
            ∗ owns (c : Thread nD τ) a4 fullShare (k6_pay2 b x (k6_pay1 (F := F)))) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (covers _ _)]
  rw [View.canon_cons_unit_zero (S := S256x64) hz, View.readCov_unit_zero (S := S256x64) _ hz]
  simp only [View.readAt_eq_ld, View.ld_unit_zero (S := S5000x64) hz, View.ld_unit_zero (S := S5000x1) hz]

set_option maxHeartbeats 1000000 in
/-- The body at a middle point: the scratch holding `s` ends at `s` plus the tile's product. -/
theorem body_mid (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : ¬isFirst i) (hc2 : ¬k6_cond2 i = 1#1)
    (x : Vec F S5000x64 .f32) (b : Vec F S5000x1 .i32) (o : Vec F S256x64 .f32) (s : Vec F S256x64 .f32) (K : PUnit → sProp 𝕄) :
    iprop(owns (c : Thread nD τ) a1 fullShare x ∗ owns (c : Thread nD τ) a2 fullShare b ∗ owns (c : Thread nD τ) a3 fullShare o
        ∗ owns (c : Thread nD τ) a4 fullShare s
        ∗ (iprop(owns (c : Thread nD τ) a1 fullShare x ∗ owns (c : Thread nD τ) a2 fullShare b ∗ owns (c : Thread nD τ) a3 fullShare o
            ∗ owns (c : Thread nD τ) a4 fullShare (k6_pay2 b x s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (covers _ _)]
  rw [View.canon_cons_unit_zero (S := S256x64) hz]
  simp only [View.readAt_eq_ld, View.ld_unit_zero (S := S5000x64) hz, View.ld_unit_zero (S := S5000x1) hz, View.ld_unit_zero (S := S256x64) hz]

set_option maxHeartbeats 1000000 in
/-- The body at the last point: the scratch holding `s` ends at `s` plus the tile's product, and the output's buffer,
    whatever it held, ends at the same. -/
theorem body_last (c : Dev nD) (E : Set ℕ) (i : grid6.Coords)
    (a1 : Memref sig .tc .vmem S5000x64 .f32) (h1 : a1.IsWhole) (a2 : Memref sig .tc .vmem S5000x1 .i32) (h2 : a2.IsWhole)
    (a3 : Memref sig .tc .vmem S256x64 .f32) (h3 : a3.IsWhole) (a4 : Memref sig .tc .vmem S256x64 .f32) (h4 : a4.IsWhole)
    (hc1 : ¬isFirst i) (hc2 : k6_cond2 i = 1#1)
    (x : Vec F S5000x64 .f32) (b : Vec F S5000x1 .i32) (s : Vec F S256x64 .f32) (K : PUnit → sProp 𝕄) :
    iprop(owns (c : Thread nD τ) a1 fullShare x ∗ owns (c : Thread nD τ) a2 fullShare b ∗ (∃ d, owns (c : Thread nD τ) a3 fullShare d)
        ∗ owns (c : Thread nD τ) a4 fullShare s
        ∗ (iprop(owns (c : Thread nD τ) a1 fullShare x ∗ owns (c : Thread nD τ) a2 fullShare b ∗ owns (c : Thread nD τ) a3 fullShare (k6_pay2 b x s)
            ∗ owns (c : Thread nD τ) a4 fullShare (k6_pay2 b x s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (covers _ _)]
    rw [View.canon_cons_unit_zero (S := S256x64) hz, View.readCov_unit_zero (S := S256x64) _ hz]
    simp only [View.readAt_eq_ld, View.ld_unit_zero (S := S5000x64) hz, View.ld_unit_zero (S := S5000x1) hz, View.ld_unit_zero (S := S256x64) hz]
  iexists _; isplitr
  swap; · iexact H4
  ipureintro
  sl_unfold_words
  rw [View.read_writes_eq_canon _ _ _ (covers _ _)]
  rw [View.canon_cons_unit_zero (S := S256x64) hz]
  simp only [View.readAt_eq_ld, View.ld_unit_zero (S := S5000x64) hz, View.ld_unit_zero (S := S5000x1) hz, View.ld_unit_zero (S := S256x64) hz]

/-! ## The proof data -/

variable (V : (c : Dev nD) → (b : Ref sig .tc) → Buf (Elt F) ((c : Thread nD τ).loc b))

/-- The node features and the graph ids as the region finds them. -/
abbrev feats (c : Dev nD) : Vec F S100000x64 .f32 := V c main_v89
abbrev gids (c : Dev nD) : Vec F S100000x1 .i32 := V c main_v90

/-- The tile of window `w`'s array that grid point `t` works on, read off the entry contents. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem tile_rows (c : Dev nD) (t : Fin cfg6.N) : tile V c 0 t = PoolAcc.rowsAt (feats V c) t := rfl
theorem tile_ids (c : Dev nD) (t : Fin cfg6.N) : tile V c 1 t = PoolAcc.idsAt (gids V c) t := rfl

/-- The accumulator after tile `n`, over the entry contents. -/
abbrev acc (c : Dev nD) (n : ℕ) (hn : n < cfg6.N) : Vec F S256x64 .f32 := PoolAcc.accum (feats V c) (gids V c) n hn

/-- At the first tile it is the tile's product added to zero; -/
theorem acc_first (c : Dev nD) (t : Fin cfg6.N) (h0 : t.val = 0) :
    acc V c t.val t.isLt = k6_pay2 (tile V c 1 t) (tile V c 0 t) (k6_pay1 (F := F)) := by
  obtain ⟨n, hn⟩ := t
  cases n with
  | zero => rfl
  | succ n => exact absurd h0 (Nat.succ_ne_zero n)

/-- at a later tile, the tile's product added to the accumulator after the tile before. -/
theorem acc_step (c : Dev nD) (t : Fin cfg6.N) (h0 : t.val ≠ 0) :
    acc V c t.val t.isLt = k6_pay2 (tile V c 1 t) (tile V c 0 t) (acc V c (t.val - 1) (Nat.lt_of_le_of_lt (Nat.sub_le _ _) t.isLt)) := by
  obtain ⟨n, hn⟩ := t
  cases n with
  | zero => exact absurd rfl h0
  | succ n => rfl

/-- The scratch the kernel carries between tiles. -/
abbrev scratch : Memref sig .tc .vmem S256x64 .f32 := Memref.whole cc6_scratch0

/-- The region's invariant before position `n`: before the first tile what every region is entered with (the
    scratch at anything); afterwards the scratch at the accumulator after the tile before, the rest of the scoped
    buffers and the generator register as they come. -/
def phi (c : Dev nD) : (n : ℕ) → n ≤ cfg6.N → sProp 𝕄
  | 0, _ => Pipeline.ΦA spec6 c
  | n + 1, hn => iprop(owns (c : Thread nD τ) scratch fullShare (acc V c n hn)
      ∗ Pipeline.scopedRestBut (Ix := Unit) (Name := ℕ) (U := UR sig nD τ) (Lvl := ℕ) (Val := Elt F) spec6 c [cc6_scratch0]
      ∗ (∃ r, prngReg c r))

theorem phi_at_zero (c : Dev nD) (n : ℕ) (h : n ≤ cfg6.N) (hz : n = 0) : phi V c n h = Pipeline.ΦA spec6 c := by
  subst hz; rfl

theorem phi_succ (c : Dev nD) (n : ℕ) (hn : n < cfg6.N) :
    phi V c (n + 1) hn = iprop(owns (c : Thread nD τ) scratch fullShare (acc V c n hn)
      ∗ Pipeline.scopedRestBut (Ix := Unit) (Name := ℕ) (U := UR sig nD τ) (Lvl := ℕ) (Val := Elt F) spec6 c [cc6_scratch0]
      ∗ (∃ r, prngReg c r)) := rfl

theorem phi_pos (c : Dev nD) (n : ℕ) (h : n ≤ cfg6.N) (hz : n ≠ 0) :
    phi V c n h = iprop(owns (c : Thread nD τ) scratch fullShare (acc V c (n - 1) (by omega))
      ∗ Pipeline.scopedRestBut (Ix := Unit) (Name := ℕ) (U := UR sig nD τ) (Lvl := ℕ) (Val := Elt F) spec6 c [cc6_scratch0]
      ∗ (∃ r, prngReg c r)) := by
  cases n with
  | zero => exact absurd rfl hz
  | succ n => rfl

/-- What the region is entered with, the scratch taken out of the scoped rest and owned as a memref at some contents. -/
theorem PhiA_eq (c : Dev nD) :
    (Pipeline.ΦA spec6 c : sProp 𝕄)
      = iprop(iprop(iprop(∃ d, owns (c : Thread nD τ) scratch fullShare d)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scratch, owns_whole]; try rfl

/-- After the body at tile `t`: the two inputs' buffers still hold their tiles; the output's holds the accumulator
    after `t` — what the body stores there at the last tile, the one point that writes it back; at the other points
    the body stores nothing there and the window is idle. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => acc V c t.val t.isLt
  Φ t := phi V c t.val (Nat.le_of_lt_succ t.isLt)
  q _ := fullShare
  owed _ := 0

theorem dat_A (c : Dev nD) (w : Fin cfg6.W) : (dat V c).A w = V c (Pipeline.arrRef spec6 w) := by
  dsimp only [dat]

theorem after_rows (c : Dev nD) (t : Fin cfg6.N) : (dat V c).after 0 t = tile V c 0 t := by dsimp only [dat]
theorem after_ids (c : Dev nD) (t : Fin cfg6.N) : (dat V c).after 1 t = tile V c 1 t := by dsimp only [dat]
theorem after_out (c : Dev nD) (t : Fin cfg6.N) : (dat V c).after 2 t = acc V c t.val t.isLt := by dsimp only [dat]

theorem phi_castSucc (c : Dev nD) (t : Fin cfg6.N) : (dat V c).Φ t.castSucc = phi V c t.val (Nat.le_of_lt t.isLt) := by
  dsimp only [dat]; simp only [Fin.coe_castSucc]

/-- Before the first tile the invariant is what every region is entered with; -/
theorem phi_zero (c : Dev nD) : (dat V c).Φ 0 = Pipeline.ΦA spec6 c := rfl

/-- after the last it gives that back: the scratch's contents are forgotten. -/
theorem phi_last (c : Dev nD) : (dat V c).Φ (Fin.last cfg6.N) ⊢ Pipeline.ΦA spec6 c := by
  rw [show (dat V c).Φ (Fin.last cfg6.N) = phi V c (Fin.last cfg6.N).val (Nat.le_of_lt_succ (Fin.last cfg6.N).isLt) from rfl,
    phi_pos V c _ _ (by rw [Fin.val_last]; have : cfg6.N = 20 := N_6; omega), PhiA_eq]
  iintro ⟨HS, HR, Hg⟩
  isplitl [HS HR]
  · isplitl [HS]
    · iexists _; iexact HS
    iexact HR
  iexact Hg

/-- An input's buffer holds its tile when the body starts. -/
theorem before_rows (c : Dev nD) (t : Fin cfg6.N) (d) : (dat V c).before 0 t d = tile V c 0 t :=
  ((dat V c).before_in_eq_fetched 0 rfl (fun _ => rfl) (fun _ _ _ => rfl)
    (fun t => by rw [after_rows]; unfold Dat.blockOf tile; rw [dat_A]; try rfl) t d).trans
    (by unfold Dat.fetched Dat.blockOf tile; rw [dat_A]; try rfl)
theorem before_ids (c : Dev nD) (t : Fin cfg6.N) (d) : (dat V c).before 1 t d = tile V c 1 t :=
  ((dat V c).before_in_eq_fetched 1 rfl (fun _ => rfl) (fun _ _ _ => rfl)
    (fun t => by rw [after_ids]; unfold Dat.blockOf tile; rw [dat_A]; try rfl) t d).trans
    (by unfold Dat.fetched Dat.blockOf tile; rw [dat_A]; try rfl)

/-! ## Where the windows are idle -/

theorem live_rows : ∀ t : Fin cfg6.N, cfg6.idle 0 (grid6.coords t) = false := fun _ => rfl
theorem live_ids : ∀ t : Fin cfg6.N, cfg6.idle 1 (grid6.coords t) = false := fun _ => rfl
/-- The output's window is idle at every tile but the last, -/
theorem idle_out : ∀ t : Fin cfg6.N, t.val ≠ 19 → cfg6.idle 2 (grid6.coords t) = true :=
  (by decide +kernel : ∀ t : Fin grid6.N, t.val ≠ 19 → idle6 2 (grid6.coords t) = true)
/-- where the body stores into it, -/
theorem live_out : ∀ t : Fin cfg6.N, t.val = 19 → cfg6.idle 2 (grid6.coords t) = false :=
  (by decide +kernel : ∀ t : Fin grid6.N, t.val = 19 → idle6 2 (grid6.coords t) = false)
/-- and is not written back before the last. -/
theorem noflush_out : ∀ t : Fin cfg6.N, t.val ≠ 19 → (cfg6.win 2).flush t = false :=
  (by decide +kernel : ∀ t : Fin grid6.N, t.val ≠ 19 → win6_2.flush t = false)

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1000000 in
/-- The body at any tile, by the three cases of its two conditions: the invariant hands it the scratch (at anything
    at the first tile, else at the accumulator after the tile before) and takes it back at this tile's accumulator;
    the output's buffer is handed back as found, but at the last tile, where it ends at the accumulator. -/
theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_rows, before_ids]
  rw [show (dat V c).owesAt () t.succ = (dat V c).owesAt () t.castSucc from rfl]
  rw [show (dat V c).Φ t.succ = phi V c (t.val + 1) t.isLt from rfl, phi_succ]
  rw [show (dat V c).leavesExact 0 t = owns (c : Thread nD τ) (st6_0 t) fullShare ((dat V c).after 0 t) from by
    unfold Dat.leavesExact; rw [live_rows t], after_rows]
  rw [show (dat V c).leavesExact 1 t = owns (c : Thread nD τ) (st6_1 t) fullShare ((dat V c).after 1 t) from by
    unfold Dat.leavesExact; rw [live_ids t], after_ids]
  have hN : t.val < 20 := lt_of_lt_of_eq t.isLt (show cfg6.N = 20 from N_6)
  by_cases h0 : t.val = 0
  · have hc1 : isFirst (grid6.coords t) := (isFirst_iff t).mpr h0
    have hc2 : ¬k6_cond2 (grid6.coords t) = 1#1 := fun h => by have := (isLast_iff t).mp h; omega
    rw [Dat.leavesExact_idle (dat V c) 2 t (idle_out t (by omega)) (noflush_out t (by omega))]
    rw [phi_castSucc V c t, phi_at_zero V c _ _ h0, PhiA_eq, acc_first V c t h0]
    iintro ⟨⟨⟨HS, HR⟩, Hg⟩, Ho, ⟨%d0, H0⟩, ⟨%d1, H1⟩, ⟨%d2, H2⟩⟩
    iapply (body_first c Set.univ _ _ _ _ _ _ _ _ _ hc1 hc2 (tile V c 0 t) (tile V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hc1 : ¬isFirst (grid6.coords t) := fun h => h0 ((isFirst_iff t).mp h)
    rw [phi_castSucc V c t, phi_pos V c _ _ h0, acc_step V c t h0]
    by_cases h19 : t.val = 19
    · have hc2 : k6_cond2 (grid6.coords t) = 1#1 := (isLast_iff t).mpr h19
      rw [show (dat V c).leavesExact 2 t = owns (c : Thread nD τ) (st6_2 t) fullShare ((dat V c).after 2 t) from by
        unfold Dat.leavesExact; rw [live_out t h19], after_out, acc_step V c t h0]
      iintro ⟨⟨HS, HR, Hg⟩, Ho, ⟨%d0, H0⟩, ⟨%d1, H1⟩, ⟨%d2, H2⟩⟩
      iapply (body_last c Set.univ _ _ _ _ _ _ _ _ _ hc1 hc2 (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬k6_cond2 (grid6.coords t) = 1#1 := fun h => h19 ((isLast_iff t).mp h)
      rw [Dat.leavesExact_idle (dat V c) 2 t (idle_out t h19) (noflush_out t h19)]
      iintro ⟨⟨HS, HR, Hg⟩, Ho, ⟨%d0, H0⟩, ⟨%d1, H1⟩, ⟨%d2, H2⟩⟩
      iapply (body_mid c Set.univ _ _ _ _ _ _ _ _ _ hc1 hc2 (tile V c 0 t) (tile V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W6, bigSep_W6]
  exact body_at V c t

/-! ## The value: the pooled array after the region -/

/-- The last of the twenty points, the one whose write-back fills the pooled array. -/
abbrev tLast : Fin cfg6.N := ⟨19, by rw [show cfg6.N = 20 from N_6]; decide⟩

/-- What the region leaves in the pooled array: the accumulator after the last tile. -/
abbrev pooled (c : Dev nD) : Buf (Elt F) ((c : Thread nD τ).loc main_v91) := acc V c 19 tLast.isLt

theorem flushes_last (t : Fin cfg6.N) (hf : (cfg6.win 2).flush t = true) : t = tLast := by
  have hN : cfg6.N = 20 := N_6
  have h := (flush6_2 t).mp hf
  have := t.isLt
  exact Fin.ext (by show t.val = 19; omega)

/-- The output's block never moves: at the last point it starts at row 0, column 0 and has the array's own extents. -/
theorem out_block_origin : (fun a => win6_2.index tLast a * main_v91.ty.shape.size a) = fun _ => 0 :=
  funext fun a => by fin_cases a <;> decide +kernel

/-- So the block at the last point spans the whole array. -/
theorem out_block_extent : ∀ a : Fin main_v91.ty.shape.rank,
    win6_2.index tLast a * win6_2.size a = 0 ∧ win6_2.xsize (grid6.coords tLast) a = main_v91.ty.shape.size a := by
  decide +kernel

/-- What the one write-back writes is the accumulator after the last tile: the output's window is uncut and its
    block at zero offsets is the array. -/
theorem flushed_eq (c : Dev nD) (t : Fin cfg6.N) (hf : (cfg6.win 2).flush t = true) :
    (dat V c).flushed 2 t = ((cfg6.win 2).blk t).view.read (Elt F) (pooled V c) := by
  obtain rfl := flushes_last t hf
  show (cfg6.win 2).cut (grid6.coords tLast) ((dat V c).after 2 tLast) = _
  rw [after_out]
  exact (Memref.read_access_unit_zero (Elt F) main_v91 out_block_origin
    (fun a => by rw [congrFun out_block_origin a]; simp) (pooled V c)).symm

/-- The pooled array after the region is the accumulator after the last tile: the last point is the only one that
    writes back, and its block covers the array. -/
theorem final (c : Dev nD) : (dat V c).arrAt 2 cfg6.N = pooled V c :=
  (dat V c).arrAt_eq_of_cover 2 (pooled V c) (flushed_eq V c) fun i =>
    ⟨tLast, (flush6_2 tLast).mpr rfl, by
      show i ∈ ((View.whole main_v91).slice (win6_2.rect tLast)).set
      rw [View.set_slice_whole, Rect.mem_set_unit]
      intro a
      obtain ⟨e0, e1⟩ := out_block_extent a
      rw [e0, e1, Nat.zero_add]
      exact ⟨Nat.zero_le _, (i a).isLt⟩⟩

end Cert.KernelIdeal.Pool
end
-- ==== Proof.KernelIdeal.Head.lean ====
/-
  The classifier head, a two-layer perceptron on the pooled features, as a pipelined region of a single grid point.
  The body loads the pooled features [256,64], the first weight [64,64] and its bias row [1,64], the second weight
  [64,2] and its bias row [1,2], reads its own output buffer, and stores
  relu(x · W₁ + b₁) · W₂ + b₂ (operands rounded to bf16 before each product) over the whole [256,2] output buffer.
  Stated for any float instance F and at any contents V of the core's buffers when the region is entered.
-/
import proofs.«412454_j38594576122130_1_alg».proof.Proof.Gen.KernelIdeal.Launch
import proofs.«412454_j38594576122130_1_alg».proof.Proof.Gen.KernelIdeal.Skeleton
import proofs.«412454_j38594576122130_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window w's array that grid point t works on, read off the entry contents. -/
def tile (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole 256 × 2 output buffer, the one rectangle the body stores through, and the whole of each input. -/
abbrev whole : Rect S256x2 := Rect.unit (s := S256x2) ![0, 0] S256x2.size inb_S256x2_S256x2_0_0
abbrev wholeX : Rect S256x64 := Rect.unit (s := S256x64) ![0, 0] S256x64.size inb_S256x64_S256x64_0_0
abbrev wholeW1 : Rect S64x64 := Rect.unit (s := S64x64) ![0, 0] S64x64.size inb_S64x64_S64x64_0_0
abbrev wholeB1 : Rect S1x64 := Rect.unit (s := S1x64) ![0, 0] S1x64.size inb_S1x64_S1x64_0_0
abbrev wholeW2 : Rect S64x2 := Rect.unit (s := S64x2) ![0, 0] S64x2.size inb_S64x2_S64x2_0_0
abbrev wholeB2 : Rect S1x2 := Rect.unit (s := S1x2) ![0, 0] S1x2.size inb_S1x2_S1x2_0_0

/-- What the body leaves in the output buffer: relu(x · W₁ + b₁) · W₂ + b₂, stored whole. -/
def head (x : Vec F S256x64 .f32) (w1 : Vec F S64x64 .f32) (b1 : Vec F S1x64 .f32) (w2 : Vec F S64x2 .f32)
    (b2 : Vec F S1x2 .f32) : Vec F S256x2 .f32 :=
  View.canon [⟨whole, k7_pay1 (View.ld x wholeX) (View.ld w1 wholeW1) (View.ld b1 wholeB1) (View.ld w2 wholeW2)
    (View.ld b2 wholeB2)⟩]

theorem covers (p : Vec F S256x2 .f32) (y : S256x2.Idx) :
    ∃ pc ∈ ([⟨whole, p⟩] : List (View.Piece (Elt F) S256x2 .f32)), y ∈ pc.1.set :=
  View.cover_of_tiled [⟨whole, p⟩] S256x2.size (by rfl) y

set_option maxHeartbeats 1000000 in
/-- The body on whole buffers: the five inputs are read and kept, the output buffer ends at head. -/
theorem body_triple (c : Dev nD) (E : Set ℕ) (i : grid7.Coords)
    (a1 : Memref sig .tc .vmem S256x64 .f32) (h1 : a1.IsWhole) (a2 : Memref sig .tc .vmem S64x64 .f32) (h2 : a2.IsWhole)
    (a3 : Memref sig .tc .vmem S1x64 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (x : Vec F S256x64 .f32) (w1 : Vec F S64x64 .f32) (b1 : Vec F S1x64 .f32) (w2 : Vec F S64x2 .f32)
    (b2 : Vec F S1x2 .f32) (K : PUnit → sProp 𝕄) :
    iprop(owns (c : Thread nD τ) a1 fullShare x ∗ owns (c : Thread nD τ) a2 fullShare w1
        ∗ owns (c : Thread nD τ) a3 fullShare b1 ∗ owns (c : Thread nD τ) a4 fullShare w2
        ∗ owns (c : Thread nD τ) a5 fullShare b2 ∗ (∃ d, owns (c : Thread nD τ) a6 fullShare d)
        ∗ (iprop(owns (c : Thread nD τ) a1 fullShare x ∗ owns (c : Thread nD τ) a2 fullShare w1
            ∗ owns (c : Thread nD τ) a3 fullShare b1 ∗ owns (c : Thread nD τ) a4 fullShare w2
            ∗ owns (c : Thread nD τ) a5 fullShare b2
            ∗ owns (c : Thread nD τ) a6 fullShare (head x w1 b1 w2 b2)) -∗ K ⟨⟩))
      ⊢ wp frame (wpE (defs₀ (F := F)) Variants.none c none) E
          (cc7__mlp_kernel i a1 h1 a2 h2 a3 h3 a4 h4 a5 h5 a6 h6) K := by
  simp only [cc7__mlp_kernel_eq_skeleton]; unfold cc7__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers _)

/-! ## The proof data -/

/-- After the body at the one point: the five inputs' buffers still hold their tiles, the output's holds the head's
    value. The region keeps no state of its own beyond the scoped rest and the generator register. -/
def dat (c : Dev nD) : Dat τ (Elt F) Unit ℕ (UR sig nD τ) ℕ cfg7 c where
  A w := V c (Pipeline.arrRef spec7 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => head (tile V c 0 t) (tile V c 1 t) (tile V c 2 t) (tile V c 3 t) (tile V c 4 t)
  Φ _ := Pipeline.ΦA spec7 c
  q _ := fullShare
  owed _ := 0

theorem dat_A (c : Dev nD) (w : Fin cfg7.W) : (dat V c).A w = V c (Pipeline.arrRef spec7 w) := by
  dsimp only [dat]

theorem after_x (c : Dev nD) (t : Fin cfg7.N) : (dat V c).after 0 t = tile V c 0 t := by dsimp only [dat]
theorem after_w1 (c : Dev nD) (t : Fin cfg7.N) : (dat V c).after 1 t = tile V c 1 t := by dsimp only [dat]
theorem after_b1 (c : Dev nD) (t : Fin cfg7.N) : (dat V c).after 2 t = tile V c 2 t := by dsimp only [dat]
theorem after_w2 (c : Dev nD) (t : Fin cfg7.N) : (dat V c).after 3 t = tile V c 3 t := by dsimp only [dat]
theorem after_b2 (c : Dev nD) (t : Fin cfg7.N) : (dat V c).after 4 t = tile V c 4 t := by dsimp only [dat]
theorem after_out (c : Dev nD) (t : Fin cfg7.N) :
    (dat V c).after 5 t = head (tile V c 0 t) (tile V c 1 t) (tile V c 2 t) (tile V c 3 t) (tile V c 4 t) := by
  dsimp only [dat]

/-- An input's buffer holds its tile when the body starts, whether the pipeline fetched it at this point or it was
    fetched earlier and the tile index has not moved since. -/
theorem before_x (c : Dev nD) (t : Fin cfg7.N) (d) : (dat V c).before 0 t d = tile V c 0 t :=
  ((dat V c).before_in_eq_fetched 0 rfl (fun _ => rfl) (fun _ _ _ => rfl)
    (fun t => by rw [after_x]; unfold Dat.blockOf tile; rw [dat_A]; try rfl) t d).trans
    (by unfold Dat.fetched Dat.blockOf tile; rw [dat_A]; try rfl)
theorem before_w1 (c : Dev nD) (t : Fin cfg7.N) (d) : (dat V c).before 1 t d = tile V c 1 t :=
  ((dat V c).before_in_eq_fetched 1 rfl (fun _ => rfl) (fun _ _ _ => rfl)
    (fun t => by rw [after_w1]; unfold Dat.blockOf tile; rw [dat_A]; try rfl) t d).trans
    (by unfold Dat.fetched Dat.blockOf tile; rw [dat_A]; try rfl)
theorem before_b1 (c : Dev nD) (t : Fin cfg7.N) (d) : (dat V c).before 2 t d = tile V c 2 t :=
  ((dat V c).before_in_eq_fetched 2 rfl (fun _ => rfl) (fun _ _ _ => rfl)
    (fun t => by rw [after_b1]; unfold Dat.blockOf tile; rw [dat_A]; try rfl) t d).trans
    (by unfold Dat.fetched Dat.blockOf tile; rw [dat_A]; try rfl)
theorem before_w2 (c : Dev nD) (t : Fin cfg7.N) (d) : (dat V c).before 3 t d = tile V c 3 t :=
  ((dat V c).before_in_eq_fetched 3 rfl (fun _ => rfl) (fun _ _ _ => rfl)
    (fun t => by rw [after_w2]; unfold Dat.blockOf tile; rw [dat_A]; try rfl) t d).trans
    (by unfold Dat.fetched Dat.blockOf tile; rw [dat_A]; try rfl)
theorem before_b2 (c : Dev nD) (t : Fin cfg7.N) (d) : (dat V c).before 4 t d = tile V c 4 t :=
  ((dat V c).before_in_eq_fetched 4 rfl (fun _ => rfl) (fun _ _ _ => rfl)
    (fun t => by rw [after_b2]; unfold Dat.blockOf tile; rw [dat_A]; try rfl) t d).trans
    (by unfold Dat.fetched Dat.blockOf tile; rw [dat_A]; try rfl)

/-! ## The body obligation -/

def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

theorem body_at (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_x, before_w1, before_b1, before_w2, before_b2]
  rw [show (dat V c).Φ t.succ = (dat V c).Φ t.castSucc from rfl,
    show (dat V c).owesAt () t.succ = (dat V c).owesAt () t.castSucc from rfl,
    after_x, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _
    (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W7, bigSep_W7]
  exact body_at V c t

end Cert.KernelIdeal.Head

end
-- ==== Proof.KernelIdeal.Run.lean ====
/-
  The whole program's run. Between two items of @main a core holds every unscoped buffer at known contents:
  the launch contents, then after each stretch of host operations their results, then after each pipelined region
  its output array at what the region's tiles leave and every other buffer as it was. Each region is entered from
  those contents and left at the next ones; the launch composes the sixteen items, and every weakly fair execution
  ends with every unscoped buffer at the last contents. Stated for any float instance.
-/
import proofs.«412454_j38594576122130_1_alg».proof.Proof.Gen.KernelIdeal.Regions
import proofs.«412454_j38594576122130_1_alg».proof.Proof.KernelIdeal.Lin1
import proofs.«412454_j38594576122130_1_alg».proof.Proof.KernelIdeal.Act1
import proofs.«412454_j38594576122130_1_alg».proof.Proof.KernelIdeal.Lin2
import proofs.«412454_j38594576122130_1_alg».proof.Proof.KernelIdeal.Act2
import proofs.«412454_j38594576122130_1_alg».proof.Proof.KernelIdeal.Lin3
import proofs.«412454_j38594576122130_1_alg».proof.Proof.KernelIdeal.Act3
import proofs.«412454_j38594576122130_1_alg».proof.Proof.KernelIdeal.Pool
import proofs.«412454_j38594576122130_1_alg».proof.Proof.KernelIdeal.Head
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The contents between items -/

/-- A valuation read at the TensorCore's references. -/
abbrev rd (W : Dev nD → Valuation τ sig (Elt F)) : (c : Dev nD) → (b : Ref sig .tc) → Buf (Elt F) ((c : Thread nD τ).loc b) :=
  fun c b => W c b

/-- After the first linear layer: its output array at what its tiles leave. -/
def W4 (c : Dev nD) : Valuation τ sig (Elt F) :=
  Function.update (V3 m c) main_v30 ((Lin1.dat (rd (V3 m)) c).arrAt 2 cfg0.N)
def W5 (c : Dev nD) : Valuation τ sig (Elt F) := StableHlo.after hostOps1 (W4 m c)
def W6 (c : Dev nD) : Valuation τ sig (Elt F) :=
  Function.update (W5 m c) main_v49 ((Act1.dat (rd (W5 m)) c).arrAt 6 cfg1.N)
def W7 (c : Dev nD) : Valuation τ sig (Elt F) :=
  Function.update (W6 m c) main_v50 ((Lin2.dat (rd (W6 m)) c).arrAt 2 cfg2.N)
def W8 (c : Dev nD) : Valuation τ sig (Elt F) := StableHlo.after hostOps3 (W7 m c)
def W9 (c : Dev nD) : Valuation τ sig (Elt F) :=
  Function.update (W8 m c) main_v69 ((Act2.dat (rd (W8 m)) c).arrAt 6 cfg3.N)
def W10 (c : Dev nD) : Valuation τ sig (Elt F) :=
  Function.update (W9 m c) main_v70 ((Lin3.dat (rd (W9 m)) c).arrAt 2 cfg4.N)
def W11 (c : Dev nD) : Valuation τ sig (Elt F) := StableHlo.after hostOps5 (W10 m c)
def W12 (c : Dev nD) : Valuation τ sig (Elt F) :=
  Function.update (W11 m c) main_v89 ((Act3.dat (rd (W11 m)) c).arrAt 6 cfg5.N)
def W13 (c : Dev nD) : Valuation τ sig (Elt F) := StableHlo.after hostOps6 (W12 m c)
def W14 (c : Dev nD) : Valuation τ sig (Elt F) :=
  Function.update (W13 m c) main_v91 ((Pool.dat (rd (W13 m)) c).arrAt 2 cfg6.N)
def W15 (c : Dev nD) : Valuation τ sig (Elt F) := StableHlo.after hostOps7 (W14 m c)
def W16 (c : Dev nD) : Valuation τ sig (Elt F) :=
  Function.update (W15 m c) main_v103 ((Head.dat (rd (W15 m)) c).arrAt 5 cfg7.N)

/-- What each region leaves in the buffers it may change, read off the chain. -/
def outs : Outs (F := F) := fun J r c => match J with
  | 4 => W4 m c r | 6 => W6 m c r | 7 => W7 m c r | 9 => W9 m c r | 10 => W10 m c r
  | 12 => W12 m c r | 14 => W14 m c r | 16 => W16 m c r | _ => V0 m c r

theorem V4_eq (c : Dev nD) : V4 m (outs m) c = W4 m c := by
  show Function.update (V3 m c) main_v30 (W4 m c main_v30) = W4 m c
  unfold W4; rw [Function.update_self]
theorem V5_eq (c : Dev nD) : V5 m (outs m) c = W5 m c := by
  show StableHlo.after hostOps1 (V4 m (outs m) c) = _; rw [V4_eq]; rfl
theorem V6_eq (c : Dev nD) : V6 m (outs m) c = W6 m c := by
  show Function.update (V5 m (outs m) c) main_v49 (W6 m c main_v49) = W6 m c
  rw [V5_eq]; unfold W6; rw [Function.update_self]
theorem V7_eq (c : Dev nD) : V7 m (outs m) c = W7 m c := by
  show Function.update (V6 m (outs m) c) main_v50 (W7 m c main_v50) = W7 m c
  rw [V6_eq]; unfold W7; rw [Function.update_self]
theorem V8_eq (c : Dev nD) : V8 m (outs m) c = W8 m c := by
  show StableHlo.after hostOps3 (V7 m (outs m) c) = _; rw [V7_eq]; rfl
theorem V9_eq (c : Dev nD) : V9 m (outs m) c = W9 m c := by
  show Function.update (V8 m (outs m) c) main_v69 (W9 m c main_v69) = W9 m c
  rw [V8_eq]; unfold W9; rw [Function.update_self]
theorem V10_eq (c : Dev nD) : V10 m (outs m) c = W10 m c := by
  show Function.update (V9 m (outs m) c) main_v70 (W10 m c main_v70) = W10 m c
  rw [V9_eq]; unfold W10; rw [Function.update_self]
theorem V11_eq (c : Dev nD) : V11 m (outs m) c = W11 m c := by
  show StableHlo.after hostOps5 (V10 m (outs m) c) = _; rw [V10_eq]; rfl
theorem V12_eq (c : Dev nD) : V12 m (outs m) c = W12 m c := by
  show Function.update (V11 m (outs m) c) main_v89 (W12 m c main_v89) = W12 m c
  rw [V11_eq]; unfold W12; rw [Function.update_self]
theorem V13_eq (c : Dev nD) : V13 m (outs m) c = W13 m c := by
  show StableHlo.after hostOps6 (V12 m (outs m) c) = _; rw [V12_eq]; rfl
theorem V14_eq (c : Dev nD) : V14 m (outs m) c = W14 m c := by
  show Function.update (V13 m (outs m) c) main_v91 (W14 m c main_v91) = W14 m c
  rw [V13_eq]; unfold W14; rw [Function.update_self]
theorem V15_eq (c : Dev nD) : V15 m (outs m) c = W15 m c := by
  show StableHlo.after hostOps7 (V14 m (outs m) c) = _; rw [V14_eq]; rfl
theorem V16_eq (c : Dev nD) : V16 m (outs m) c = W16 m c := by
  show Function.update (V15 m (outs m) c) main_v103 (W16 m c main_v103) = W16 m c
  rw [V15_eq]; unfold W16; rw [Function.update_self]

/-! ## A region as a segment of @main -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- A buffer other than the updated one keeps its contents; the updated one holds the new contents. -/
theorem upd_ne (W : Valuation τ sig (Elt F)) (o : Ref sig .tc) (x) (b : Ref sig .tc) (h : b ≠ o) :
    Function.update W o x b = W b :=
  Function.update_of_ne (StableHlo.devRef_ne_of_ne h) _ _
theorem upd_self (W : Valuation τ sig (Elt F)) (o : Ref sig .tc) (x) : Function.update W o x o = x :=
  Function.update_self ..

set_option backward.isDefEq.respectTransparency.types false in
/-- A region whose invariant is the scoped rest and the generator register at both ends, entered with every
    unscoped buffer at `Win` and left with them at `Wout`: its arrays are split out of the unscoped buffers at entry and
    put back at exit at what the tiles leave; nothing is owed; the kernel has no semaphore of its own. -/
def regOf (pdats : (p : Fin 8) → (c : Dev nD) → Dat τ (Elt F) Unit ℕ (UR sig nD τ) ℕ (cfgs p) c) (p : Fin 8)
    (lf : Pipeline.LaunchFacts (nD := nD) (τ := τ) cfgs p)
    (Win Wout : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = rd Win c (Pipeline.arrRef (cfgs p).spec w))
    (hΦ0 : ∀ c, (iprop(Pipeline.scopedRest (Ix := Unit) (Name := ℕ) (U := UR sig nD τ) (Lvl := ℕ) (Val := Elt F) (cfgs p).spec c ∗ ∃ r, prngReg c r) : sProp 𝕄) ⊢ (pdats p c).Φ 0)
    (hΦN : ∀ c, (pdats p c).Φ (Fin.last (cfgs p).N) ⊢ (iprop(Pipeline.scopedRest (Ix := Unit) (Name := ℕ) (U := UR sig nD τ) (Lvl := ℕ) (Val := Elt F) (cfgs p).spec c ∗ ∃ r, prngReg c r) : sProp 𝕄))
    (hF : ∀ c w, (pdats p c).arrAt w (cfgs p).N = rd Wout c (Pipeline.arrRef (cfgs p).spec w))
    (hrest : ∀ c b, b ∉ Finset.univ.image (Pipeline.arrRef (cfgs p).spec) → rd Wout c b = rd Win c b) :
    RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Win c)
  hentry c := by
    rw [Pipeline.ownSems0_none]
    have hsplit := Pipeline.arrays_of_unscopedBufs (p := p) (pcfgs (F := F)) adm pdats lf.win lf.arr_whole c
      ((pdats p c).share_full (hq c)) (rd Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hΦ0 c)
    isplitl [Hr]; · iexact Hr
    iexact Hp
  hout c := by
    rw [Pipeline.ownSems0_none]
    iintro HΦ
    ihave H := (hΦN c) $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (rd Win c) (rd Wout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## Each region's arrays after it, and every other buffer as entered -/

set_option maxHeartbeats 1000000 in
theorem hF0 (c : Dev nD) : ∀ w : Fin cfg0.W, (Lin1.dat (rd (V3 m)) c).arrAt w cfg0.N = rd (W4 m) c (Pipeline.arrRef spec0 w)
    | ⟨0, _⟩ => by
      show (Lin1.dat (rd (V3 m)) c).arrAt 0 cfg0.N = W4 m c (Pipeline.arrRef spec0 0)
      rw [(Lin1.dat (rd (V3 m)) c).arrAt_in 0 rfl _, Lin1.dat_A]
      unfold W4
      exact (upd_ne (V3 m c) main_v30 _ (Pipeline.arrRef spec0 0) (by decide)).symm
    | ⟨1, _⟩ => by
      show (Lin1.dat (rd (V3 m)) c).arrAt 1 cfg0.N = W4 m c (Pipeline.arrRef spec0 1)
      rw [(Lin1.dat (rd (V3 m)) c).arrAt_in 1 rfl _, Lin1.dat_A]
      unfold W4
      exact (upd_ne (V3 m c) main_v30 _ (Pipeline.arrRef spec0 1) (by decide)).symm
    | ⟨2, _⟩ => by
      show _ = W4 m c main_v30
      unfold W4; rw [upd_self]; rfl
theorem hrest0 (c : Dev nD) (b : Ref sig .tc) (hb : b ∉ Finset.univ.image (Pipeline.arrRef spec0)) : rd (W4 m) c b = rd (V3 m) c b := by
  show W4 m c b = V3 m c b
  unfold W4
  exact upd_ne (V3 m c) main_v30 _ b fun e => hb (Finset.mem_image.mpr ⟨2, Finset.mem_univ _, e.symm⟩)

set_option maxHeartbeats 1000000 in
theorem hF1 (c : Dev nD) : ∀ w : Fin cfg1.W, (Act1.dat (rd (W5 m)) c).arrAt w cfg1.N = rd (W6 m) c (Pipeline.arrRef spec1 w)
    | ⟨0, _⟩ => by
      show (Act1.dat (rd (W5 m)) c).arrAt 0 cfg1.N = W6 m c (Pipeline.arrRef spec1 0)
      rw [(Act1.dat (rd (W5 m)) c).arrAt_in 0 rfl _, Act1.dat_A]
      unfold W6
      exact (upd_ne (W5 m c) main_v49 _ (Pipeline.arrRef spec1 0) (by decide)).symm
    | ⟨1, _⟩ => by
      show (Act1.dat (rd (W5 m)) c).arrAt 1 cfg1.N = W6 m c (Pipeline.arrRef spec1 1)
      rw [(Act1.dat (rd (W5 m)) c).arrAt_in 1 rfl _, Act1.dat_A]
      unfold W6
      exact (upd_ne (W5 m c) main_v49 _ (Pipeline.arrRef spec1 1) (by decide)).symm
    | ⟨2, _⟩ => by
      show (Act1.dat (rd (W5 m)) c).arrAt 2 cfg1.N = W6 m c (Pipeline.arrRef spec1 2)
      rw [(Act1.dat (rd (W5 m)) c).arrAt_in 2 rfl _, Act1.dat_A]
      unfold W6
      exact (upd_ne (W5 m c) main_v49 _ (Pipeline.arrRef spec1 2) (by decide)).symm
    | ⟨3, _⟩ => by
      show (Act1.dat (rd (W5 m)) c).arrAt 3 cfg1.N = W6 m c (Pipeline.arrRef spec1 3)
      rw [(Act1.dat (rd (W5 m)) c).arrAt_in 3 rfl _, Act1.dat_A]
      unfold W6
      exact (upd_ne (W5 m c) main_v49 _ (Pipeline.arrRef spec1 3) (by decide)).symm
    | ⟨4, _⟩ => by
      show (Act1.dat (rd (W5 m)) c).arrAt 4 cfg1.N = W6 m c (Pipeline.arrRef spec1 4)
      rw [(Act1.dat (rd (W5 m)) c).arrAt_in 4 rfl _, Act1.dat_A]
      unfold W6
      exact (upd_ne (W5 m c) main_v49 _ (Pipeline.arrRef spec1 4) (by decide)).symm
    | ⟨5, _⟩ => by
      show (Act1.dat (rd (W5 m)) c).arrAt 5 cfg1.N = W6 m c (Pipeline.arrRef spec1 5)
      rw [(Act1.dat (rd (W5 m)) c).arrAt_in 5 rfl _, Act1.dat_A]
      unfold W6
      exact (upd_ne (W5 m c) main_v49 _ (Pipeline.arrRef spec1 5) (by decide)).symm
    | ⟨6, _⟩ => by
      show _ = W6 m c main_v49
      unfold W6; rw [upd_self]; rfl
theorem hrest1 (c : Dev nD) (b : Ref sig .tc) (hb : b ∉ Finset.univ.image (Pipeline.arrRef spec1)) : rd (W6 m) c b = rd (W5 m) c b := by
  show W6 m c b = W5 m c b
  unfold W6
  exact upd_ne (W5 m c) main_v49 _ b fun e => hb (Finset.mem_image.mpr ⟨6, Finset.mem_univ _, e.symm⟩)

set_option maxHeartbeats 1000000 in
theorem hF2 (c : Dev nD) : ∀ w : Fin cfg2.W, (Lin2.dat (rd (W6 m)) c).arrAt w cfg2.N = rd (W7 m) c (Pipeline.arrRef spec2 w)
    | ⟨0, _⟩ => by
      show (Lin2.dat (rd (W6 m)) c).arrAt 0 cfg2.N = W7 m c (Pipeline.arrRef spec2 0)
      rw [(Lin2.dat (rd (W6 m)) c).arrAt_in 0 rfl _, Lin2.dat_A]
      unfold W7
      exact (upd_ne (W6 m c) main_v50 _ (Pipeline.arrRef spec2 0) (by decide)).symm
    | ⟨1, _⟩ => by
      show (Lin2.dat (rd (W6 m)) c).arrAt 1 cfg2.N = W7 m c (Pipeline.arrRef spec2 1)
      rw [(Lin2.dat (rd (W6 m)) c).arrAt_in 1 rfl _, Lin2.dat_A]
      unfold W7
      exact (upd_ne (W6 m c) main_v50 _ (Pipeline.arrRef spec2 1) (by decide)).symm
    | ⟨2, _⟩ => by
      show _ = W7 m c main_v50
      unfold W7; rw [upd_self]; rfl
theorem hrest2 (c : Dev nD) (b : Ref sig .tc) (hb : b ∉ Finset.univ.image (Pipeline.arrRef spec2)) : rd (W7 m) c b = rd (W6 m) c b := by
  show W7 m c b = W6 m c b
  unfold W7
  exact upd_ne (W6 m c) main_v50 _ b fun e => hb (Finset.mem_image.mpr ⟨2, Finset.mem_univ _, e.symm⟩)

set_option maxHeartbeats 1000000 in
theorem hF3 (c : Dev nD) : ∀ w : Fin cfg3.W, (Act2.dat (rd (W8 m)) c).arrAt w cfg3.N = rd (W9 m) c (Pipeline.arrRef spec3 w)
    | ⟨0, _⟩ => by
      show (Act2.dat (rd (W8 m)) c).arrAt 0 cfg3.N = W9 m c (Pipeline.arrRef spec3 0)
      rw [(Act2.dat (rd (W8 m)) c).arrAt_in 0 rfl _, Act2.dat_A]
      unfold W9
      exact (upd_ne (W8 m c) main_v69 _ (Pipeline.arrRef spec3 0) (by decide)).symm
    | ⟨1, _⟩ => by
      show (Act2.dat (rd (W8 m)) c).arrAt 1 cfg3.N = W9 m c (Pipeline.arrRef spec3 1)
      rw [(Act2.dat (rd (W8 m)) c).arrAt_in 1 rfl _, Act2.dat_A]
      unfold W9
      exact (upd_ne (W8 m c) main_v69 _ (Pipeline.arrRef spec3 1) (by decide)).symm
    | ⟨2, _⟩ => by
      show (Act2.dat (rd (W8 m)) c).arrAt 2 cfg3.N = W9 m c (Pipeline.arrRef spec3 2)
      rw [(Act2.dat (rd (W8 m)) c).arrAt_in 2 rfl _, Act2.dat_A]
      unfold W9
      exact (upd_ne (W8 m c) main_v69 _ (Pipeline.arrRef spec3 2) (by decide)).symm
    | ⟨3, _⟩ => by
      show (Act2.dat (rd (W8 m)) c).arrAt 3 cfg3.N = W9 m c (Pipeline.arrRef spec3 3)
      rw [(Act2.dat (rd (W8 m)) c).arrAt_in 3 rfl _, Act2.dat_A]
      unfold W9
      exact (upd_ne (W8 m c) main_v69 _ (Pipeline.arrRef spec3 3) (by decide)).symm
    | ⟨4, _⟩ => by
      show (Act2.dat (rd (W8 m)) c).arrAt 4 cfg3.N = W9 m c (Pipeline.arrRef spec3 4)
      rw [(Act2.dat (rd (W8 m)) c).arrAt_in 4 rfl _, Act2.dat_A]
      unfold W9
      exact (upd_ne (W8 m c) main_v69 _ (Pipeline.arrRef spec3 4) (by decide)).symm
    | ⟨5, _⟩ => by
      show (Act2.dat (rd (W8 m)) c).arrAt 5 cfg3.N = W9 m c (Pipeline.arrRef spec3 5)
      rw [(Act2.dat (rd (W8 m)) c).arrAt_in 5 rfl _, Act2.dat_A]
      unfold W9
      exact (upd_ne (W8 m c) main_v69 _ (Pipeline.arrRef spec3 5) (by decide)).symm
    | ⟨6, _⟩ => by
      show _ = W9 m c main_v69
      unfold W9; rw [upd_self]; rfl
theorem hrest3 (c : Dev nD) (b : Ref sig .tc) (hb : b ∉ Finset.univ.image (Pipeline.arrRef spec3)) : rd (W9 m) c b = rd (W8 m) c b := by
  show W9 m c b = W8 m c b
  unfold W9
  exact upd_ne (W8 m c) main_v69 _ b fun e => hb (Finset.mem_image.mpr ⟨6, Finset.mem_univ _, e.symm⟩)

set_option maxHeartbeats 1000000 in
theorem hF4 (c : Dev nD) : ∀ w : Fin cfg4.W, (Lin3.dat (rd (W9 m)) c).arrAt w cfg4.N = rd (W10 m) c (Pipeline.arrRef spec4 w)
    | ⟨0, _⟩ => by
      show (Lin3.dat (rd (W9 m)) c).arrAt 0 cfg4.N = W10 m c (Pipeline.arrRef spec4 0)
      rw [(Lin3.dat (rd (W9 m)) c).arrAt_in 0 rfl _, Lin3.dat_A]
      unfold W10
      exact (upd_ne (W9 m c) main_v70 _ (Pipeline.arrRef spec4 0) (by decide)).symm
    | ⟨1, _⟩ => by
      show (Lin3.dat (rd (W9 m)) c).arrAt 1 cfg4.N = W10 m c (Pipeline.arrRef spec4 1)
      rw [(Lin3.dat (rd (W9 m)) c).arrAt_in 1 rfl _, Lin3.dat_A]
      unfold W10
      exact (upd_ne (W9 m c) main_v70 _ (Pipeline.arrRef spec4 1) (by decide)).symm
    | ⟨2, _⟩ => by
      show _ = W10 m c main_v70
      unfold W10; rw [upd_self]; rfl
theorem hrest4 (c : Dev nD) (b : Ref sig .tc) (hb : b ∉ Finset.univ.image (Pipeline.arrRef spec4)) : rd (W10 m) c b = rd (W9 m) c b := by
  show W10 m c b = W9 m c b
  unfold W10
  exact upd_ne (W9 m c) main_v70 _ b fun e => hb (Finset.mem_image.mpr ⟨2, Finset.mem_univ _, e.symm⟩)

set_option maxHeartbeats 1000000 in
theorem hF5 (c : Dev nD) : ∀ w : Fin cfg5.W, (Act3.dat (rd (W11 m)) c).arrAt w cfg5.N = rd (W12 m) c (Pipeline.arrRef spec5 w)
    | ⟨0, _⟩ => by
      show (Act3.dat (rd (W11 m)) c).arrAt 0 cfg5.N = W12 m c (Pipeline.arrRef spec5 0)
      rw [(Act3.dat (rd (W11 m)) c).arrAt_in 0 rfl _, Act3.dat_A]
      unfold W12
      exact (upd_ne (W11 m c) main_v89 _ (Pipeline.arrRef spec5 0) (by decide)).symm
    | ⟨1, _⟩ => by
      show (Act3.dat (rd (W11 m)) c).arrAt 1 cfg5.N = W12 m c (Pipeline.arrRef spec5 1)
      rw [(Act3.dat (rd (W11 m)) c).arrAt_in 1 rfl _, Act3.dat_A]
      unfold W12
      exact (upd_ne (W11 m c) main_v89 _ (Pipeline.arrRef spec5 1) (by decide)).symm
    | ⟨2, _⟩ => by
      show (Act3.dat (rd (W11 m)) c).arrAt 2 cfg5.N = W12 m c (Pipeline.arrRef spec5 2)
      rw [(Act3.dat (rd (W11 m)) c).arrAt_in 2 rfl _, Act3.dat_A]
      unfold W12
      exact (upd_ne (W11 m c) main_v89 _ (Pipeline.arrRef spec5 2) (by decide)).symm
    | ⟨3, _⟩ => by
      show (Act3.dat (rd (W11 m)) c).arrAt 3 cfg5.N = W12 m c (Pipeline.arrRef spec5 3)
      rw [(Act3.dat (rd (W11 m)) c).arrAt_in 3 rfl _, Act3.dat_A]
      unfold W12
      exact (upd_ne (W11 m c) main_v89 _ (Pipeline.arrRef spec5 3) (by decide)).symm
    | ⟨4, _⟩ => by
      show (Act3.dat (rd (W11 m)) c).arrAt 4 cfg5.N = W12 m c (Pipeline.arrRef spec5 4)
      rw [(Act3.dat (rd (W11 m)) c).arrAt_in 4 rfl _, Act3.dat_A]
      unfold W12
      exact (upd_ne (W11 m c) main_v89 _ (Pipeline.arrRef spec5 4) (by decide)).symm
    | ⟨5, _⟩ => by
      show (Act3.dat (rd (W11 m)) c).arrAt 5 cfg5.N = W12 m c (Pipeline.arrRef spec5 5)
      rw [(Act3.dat (rd (W11 m)) c).arrAt_in 5 rfl _, Act3.dat_A]
      unfold W12
      exact (upd_ne (W11 m c) main_v89 _ (Pipeline.arrRef spec5 5) (by decide)).symm
    | ⟨6, _⟩ => by
      show _ = W12 m c main_v89
      unfold W12; rw [upd_self]; rfl
theorem hrest5 (c : Dev nD) (b : Ref sig .tc) (hb : b ∉ Finset.univ.image (Pipeline.arrRef spec5)) : rd (W12 m) c b = rd (W11 m) c b := by
  show W12 m c b = W11 m c b
  unfold W12
  exact upd_ne (W11 m c) main_v89 _ b fun e => hb (Finset.mem_image.mpr ⟨6, Finset.mem_univ _, e.symm⟩)

set_option maxHeartbeats 1000000 in
theorem hF6 (c : Dev nD) : ∀ w : Fin cfg6.W, (Pool.dat (rd (W13 m)) c).arrAt w cfg6.N = rd (W14 m) c (Pipeline.arrRef spec6 w)
    | ⟨0, _⟩ => by
      show (Pool.dat (rd (W13 m)) c).arrAt 0 cfg6.N = W14 m c (Pipeline.arrRef spec6 0)
      rw [(Pool.dat (rd (W13 m)) c).arrAt_in 0 rfl _, Pool.dat_A]
      unfold W14
      exact (upd_ne (W13 m c) main_v91 _ (Pipeline.arrRef spec6 0) (by decide)).symm
    | ⟨1, _⟩ => by
      show (Pool.dat (rd (W13 m)) c).arrAt 1 cfg6.N = W14 m c (Pipeline.arrRef spec6 1)
      rw [(Pool.dat (rd (W13 m)) c).arrAt_in 1 rfl _, Pool.dat_A]
      unfold W14
      exact (upd_ne (W13 m c) main_v91 _ (Pipeline.arrRef spec6 1) (by decide)).symm
    | ⟨2, _⟩ => by
      show _ = W14 m c main_v91
      unfold W14; rw [upd_self]; rfl
theorem hrest6 (c : Dev nD) (b : Ref sig .tc) (hb : b ∉ Finset.univ.image (Pipeline.arrRef spec6)) : rd (W14 m) c b = rd (W13 m) c b := by
  show W14 m c b = W13 m c b
  unfold W14
  exact upd_ne (W13 m c) main_v91 _ b fun e => hb (Finset.mem_image.mpr ⟨2, Finset.mem_univ _, e.symm⟩)

set_option maxHeartbeats 1000000 in
theorem hF7 (c : Dev nD) : ∀ w : Fin cfg7.W, (Head.dat (rd (W15 m)) c).arrAt w cfg7.N = rd (W16 m) c (Pipeline.arrRef spec7 w)
    | ⟨0, _⟩ => by
      show (Head.dat (rd (W15 m)) c).arrAt 0 cfg7.N = W16 m c (Pipeline.arrRef spec7 0)
      rw [(Head.dat (rd (W15 m)) c).arrAt_in 0 rfl _, Head.dat_A]
      unfold W16
      exact (upd_ne (W15 m c) main_v103 _ (Pipeline.arrRef spec7 0) (by decide)).symm
    | ⟨1, _⟩ => by
      show (Head.dat (rd (W15 m)) c).arrAt 1 cfg7.N = W16 m c (Pipeline.arrRef spec7 1)
      rw [(Head.dat (rd (W15 m)) c).arrAt_in 1 rfl _, Head.dat_A]
      unfold W16
      exact (upd_ne (W15 m c) main_v103 _ (Pipeline.arrRef spec7 1) (by decide)).symm
    | ⟨2, _⟩ => by
      show (Head.dat (rd (W15 m)) c).arrAt 2 cfg7.N = W16 m c (Pipeline.arrRef spec7 2)
      rw [(Head.dat (rd (W15 m)) c).arrAt_in 2 rfl _, Head.dat_A]
      unfold W16
      exact (upd_ne (W15 m c) main_v103 _ (Pipeline.arrRef spec7 2) (by decide)).symm
    | ⟨3, _⟩ => by
      show (Head.dat (rd (W15 m)) c).arrAt 3 cfg7.N = W16 m c (Pipeline.arrRef spec7 3)
      rw [(Head.dat (rd (W15 m)) c).arrAt_in 3 rfl _, Head.dat_A]
      unfold W16
      exact (upd_ne (W15 m c) main_v103 _ (Pipeline.arrRef spec7 3) (by decide)).symm
    | ⟨4, _⟩ => by
      show (Head.dat (rd (W15 m)) c).arrAt 4 cfg7.N = W16 m c (Pipeline.arrRef spec7 4)
      rw [(Head.dat (rd (W15 m)) c).arrAt_in 4 rfl _, Head.dat_A]
      unfold W16
      exact (upd_ne (W15 m c) main_v103 _ (Pipeline.arrRef spec7 4) (by decide)).symm
    | ⟨5, _⟩ => by
      show _ = W16 m c main_v103
      unfold W16; rw [upd_self]; rfl
theorem hrest7 (c : Dev nD) (b : Ref sig .tc) (hb : b ∉ Finset.univ.image (Pipeline.arrRef spec7)) : rd (W16 m) c b = rd (W15 m) c b := by
  show W16 m c b = W15 m c b
  unfold W16
  exact upd_ne (W15 m c) main_v103 _ b fun e => hb (Finset.mem_image.mpr ⟨5, Finset.mem_univ _, e.symm⟩)

/-! ## The proof data of every region, each at its entry contents -/

def pdats : (p : Fin 8) → (c : Dev nD) → Dat τ (Elt F) Unit ℕ (UR sig nD τ) ℕ (cfgs p) c
  | ⟨0, _⟩ => fun c => Lin1.dat (rd (V3 m)) c
  | ⟨1, _⟩ => fun c => Act1.dat (rd (W5 m)) c
  | ⟨2, _⟩ => fun c => Lin2.dat (rd (W6 m)) c
  | ⟨3, _⟩ => fun c => Act2.dat (rd (W8 m)) c
  | ⟨4, _⟩ => fun c => Lin3.dat (rd (W9 m)) c
  | ⟨5, _⟩ => fun c => Act3.dat (rd (W11 m)) c
  | ⟨6, _⟩ => fun c => Pool.dat (rd (W13 m)) c
  | ⟨7, _⟩ => fun c => Head.dat (rd (W15 m)) c

def reg0 : RegionSeg (pcfgs (F := F)) adm (pdats m) () defs₀ 𝒱₀ L lv 0 :=
  regOf (pdats m) 0 launch0 (V3 m) (W4 m) (fun c => Lin1.body_obligation _ c) (fun _ _ => rfl) (fun _ _ => rfl) (fun _ _ => rfl)
    (fun c w => Lin1.dat_A _ c w) (fun _ => .rfl) (fun _ => .rfl) (hF0 m) (hrest0 m)
def reg1 : RegionSeg (pcfgs (F := F)) adm (pdats m) () defs₀ 𝒱₀ L lv 1 :=
  regOf (pdats m) 1 launch1 (W5 m) (W6 m) (fun c => Act1.body_obligation _ c) (fun _ _ => rfl) (fun _ _ => rfl) (fun _ _ => rfl)
    (fun c w => Act1.dat_A _ c w) (fun _ => .rfl) (fun _ => .rfl) (hF1 m) (hrest1 m)
def reg2 : RegionSeg (pcfgs (F := F)) adm (pdats m) () defs₀ 𝒱₀ L lv 2 :=
  regOf (pdats m) 2 launch2 (W6 m) (W7 m) (fun c => Lin2.body_obligation _ c) (fun _ _ => rfl) (fun _ _ => rfl) (fun _ _ => rfl)
    (fun c w => Lin2.dat_A _ c w) (fun _ => .rfl) (fun _ => .rfl) (hF2 m) (hrest2 m)
def reg3 : RegionSeg (pcfgs (F := F)) adm (pdats m) () defs₀ 𝒱₀ L lv 3 :=
  regOf (pdats m) 3 launch3 (W8 m) (W9 m) (fun c => Act2.body_obligation _ c) (fun _ _ => rfl) (fun _ _ => rfl) (fun _ _ => rfl)
    (fun c w => Act2.dat_A _ c w) (fun _ => .rfl) (fun _ => .rfl) (hF3 m) (hrest3 m)
def reg4 : RegionSeg (pcfgs (F := F)) adm (pdats m) () defs₀ 𝒱₀ L lv 4 :=
  regOf (pdats m) 4 launch4 (W9 m) (W10 m) (fun c => Lin3.body_obligation _ c) (fun _ _ => rfl) (fun _ _ => rfl) (fun _ _ => rfl)
    (fun c w => Lin3.dat_A _ c w) (fun _ => .rfl) (fun _ => .rfl) (hF4 m) (hrest4 m)
def reg5 : RegionSeg (pcfgs (F := F)) adm (pdats m) () defs₀ 𝒱₀ L lv 5 :=
  regOf (pdats m) 5 launch5 (W11 m) (W12 m) (fun c => Act3.body_obligation _ c) (fun _ _ => rfl) (fun _ _ => rfl) (fun _ _ => rfl)
    (fun c w => Act3.dat_A _ c w) (fun _ => .rfl) (fun _ => .rfl) (hF5 m) (hrest5 m)
def reg6 : RegionSeg (pcfgs (F := F)) adm (pdats m) () defs₀ 𝒱₀ L lv 6 :=
  regOf (pdats m) 6 launch6 (W13 m) (W14 m) (fun c => Pool.body_obligation _ c) (fun _ _ => rfl) (fun _ _ => rfl) (fun _ _ => rfl)
    (fun c w => Pool.dat_A _ c w) (fun _ => .rfl) (fun c => Pool.phi_last _ c) (hF6 m) (hrest6 m)
def reg7 : RegionSeg (pcfgs (F := F)) adm (pdats m) () defs₀ 𝒱₀ L lv 7 :=
  regOf (pdats m) 7 launch7 (W15 m) (W16 m) (fun c => Head.body_obligation _ c) (fun _ _ => rfl) (fun _ _ => rfl) (fun _ _ => rfl)
    (fun c w => Head.dat_A _ c w) (fun _ => .rfl) (fun _ => .rfl) (hF7 m) (hrest7 m)

/-! ## The launch -/

/-- @main's sixteen items: the generated host stretches, the eight regions' records. -/
abbrev items : Dev nD → List (Seg (pcfgs (F := F)) adm (pdats m) () defs₀ 𝒱₀ L lv) :=
  segs m (outs m) 𝒱₀ L lv (fun _ c => R c) () (pdats m) (reg0 m) (reg1 m) (reg2 m) (reg3 m) (reg4 m) (reg5 m) (reg6 m) (reg7 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state moves along an equation of contents. -/
theorem step_eq {W W' : Valuation τ sig (Elt F)} (h : W = W') (c : Dev nD) :
    (iprop(StableHlo.held (c : Thread nD τ) (Pipeline.ucRefs τ sig) W ∗ R c) : sProp 𝕄)
      ⊢ iprop(StableHlo.held (c : Thread nD τ) (Pipeline.ucRefs τ sig) W' ∗ R c) := by
  subst h; exact .rfl

/-- After the last region: the buffers and the generator register on one side, the core owing nothing on the other. -/
theorem last_step (c : Dev nD) :
    (iprop(StableHlo.held (c : Thread nD τ) (Pipeline.ucRefs τ sig) (W16 m c) ∗ R c) : sProp 𝕄)
      ⊢ iprop((StableHlo.held (c : Thread nD τ) (Pipeline.ucRefs τ sig) (W16 m c) ∗ ∃ r, prngReg c r)
          ∗ ∃ W, owes (c : Thread nD τ) (0 : CellTallies nD τ sig Unit) W) := by
  iintro ⟨Hh, Hp, HO⟩
  isplitl [Hh Hp]
  · isplitl [Hh]
    · iexact Hh
    iexact Hp
  iexact HO

set_option backward.isDefEq.respectTransparency.types false in
/-- From any memory with zero counters every weakly fair execution of @main terminates, and every final memory
    holds every unscoped buffer at the last contents of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W16 m c b) := by
  refine Pipeline.θ_run_regions_kit_dev (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [items, segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W16 m c) ∗ ∃ r, prngReg c r))
    (hch := fun c => ⟨.rfl, .rfl, .rfl, .rfl, step_eq (V4_eq m c).symm c, step_eq (V5_eq m c) c, .rfl, step_eq (V7_eq m c).symm c,
      step_eq (V8_eq m c) c, .rfl, step_eq (V10_eq m c).symm c, step_eq (V11_eq m c) c, step_eq (V12_eq m c).symm c,
      step_eq (V13_eq m c) c, step_eq (V14_eq m c).symm c, step_eq (V15_eq m c) c, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun _ h => h)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c _ (mem_uc main_arg0 (by decide))).trans ((congrFun (V16_eq m c).symm _).trans (V16_main_arg0 m (outs m) c)),
      (h c _ (mem_uc main_arg1 (by decide))).trans ((congrFun (V16_eq m c).symm _).trans (V16_main_arg1 m (outs m) c)),
      (h c _ (mem_uc main_arg2 (by decide))).trans ((congrFun (V16_eq m c).symm _).trans (V16_main_arg2 m (outs m) c)),
      (h c _ (mem_uc main_arg3 (by decide))).trans ((congrFun (V16_eq m c).symm _).trans (V16_main_arg3 m (outs m) c)),
      (h c _ (mem_uc main_arg4 (by decide))).trans ((congrFun (V16_eq m c).symm _).trans (V16_main_arg4 m (outs m) c)),
      (h c _ (mem_uc main_arg5 (by decide))).trans ((congrFun (V16_eq m c).symm _).trans (V16_main_arg5 m (outs m) c)),
      (h c _ (mem_uc main_arg6 (by decide))).trans ((congrFun (V16_eq m c).symm _).trans (V16_main_arg6 m (outs m) c)),
      (h c _ (mem_uc main_arg7 (by decide))).trans ((congrFun (V16_eq m c).symm _).trans (V16_main_arg7 m (outs m) c)),
      (h c _ (mem_uc main_arg8 (by decide))).trans ((congrFun (V16_eq m c).symm _).trans (V16_main_arg8 m (outs m) c)),
      (h c _ (mem_uc main_arg9 (by decide))).trans ((congrFun (V16_eq m c).symm _).trans (V16_main_arg9 m (outs m) c)),
      (h c _ (mem_uc main_arg10 (by decide))).trans ((congrFun (V16_eq m c).symm _).trans (V16_main_arg10 m (outs m) c)),
      (h c _ (mem_uc main_arg11 (by decide))).trans ((congrFun (V16_eq m c).symm _).trans (V16_main_arg11 m (outs m) c)),
      (h c _ (mem_uc main_arg12 (by decide))).trans ((congrFun (V16_eq m c).symm _).trans (V16_main_arg12 m (outs m) c)),
      (h c _ (mem_uc main_arg13 (by decide))).trans ((congrFun (V16_eq m c).symm _).trans (V16_main_arg13 m (outs m) c)),
      (h c _ (mem_uc main_arg14 (by decide))).trans ((congrFun (V16_eq m c).symm _).trans (V16_main_arg14 m (outs m) c)),
      (h c _ (mem_uc main_arg15 (by decide))).trans ((congrFun (V16_eq m c).symm _).trans (V16_main_arg15 m (outs m) c)),
      (h c _ (mem_uc main_arg16 (by decide))).trans ((congrFun (V16_eq m c).symm _).trans (V16_main_arg16 m (outs m) c)),
      (h c _ (mem_uc main_arg17 (by decide))).trans ((congrFun (V16_eq m c).symm _).trans (V16_main_arg17 m (outs m) c)),
      (h c _ (mem_uc main_arg18 (by decide))).trans ((congrFun (V16_eq m c).symm _).trans (V16_main_arg18 m (outs m) c)),
      (h c _ (mem_uc main_arg19 (by decide))).trans ((congrFun (V16_eq m c).symm _).trans (V16_main_arg19 m (outs m) c)),
      (h c _ (mem_uc main_arg20 (by decide))).trans ((congrFun (V16_eq m c).symm _).trans (V16_main_arg20 m (outs m) c)),
      (h c _ (mem_uc main_arg21 (by decide))).trans ((congrFun (V16_eq m c).symm _).trans (V16_main_arg21 m (outs m) c)),
      (h c _ (mem_uc main_arg22 (by decide))).trans ((congrFun (V16_eq m c).symm _).trans (V16_main_arg22 m (outs m) c)),
      (h c _ (mem_uc main_arg23 (by decide))).trans ((congrFun (V16_eq m c).symm _).trans (V16_main_arg23 m (outs m) c)),
      (h c _ (mem_uc main_arg24 (by decide))).trans ((congrFun (V16_eq m c).symm _).trans (V16_main_arg24 m (outs m) c))⟩) (run_all m ρ)

/-- The result array at the end of every execution. -/
theorem result (ρ : Dev nD → PrngReg) :
    θ_run defs (onTc (τ := τ) (main (F := F))) ⟨m, fun _ => 0, ρ⟩ (fun r => ∀ c : Dev nD,
      r.2.mem ((c.tc : Thread nD τ).loc main_v103) = W16 m c main_v103) :=
  (θ_run defs _ _).mono (fun r h c => h c _ (mem_uc main_v103 (by decide))) (run_all m ρ)

/-- The result array and the frame together, in the order the equivalence claim states them. -/
theorem run_named (ρ : Dev nD → PrngReg) :
    θ_run defs (onTc (τ := τ) (main (F := F))) ⟨m, fun _ => 0, ρ⟩ (fun r => ∀ c : Dev nD,
      r.2.mem ((c.tc : Thread nD τ).loc main_v103) = W16 m c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨h c _ (mem_uc main_v103 (by decide)),
      (h c _ (mem_uc main_arg0 (by decide))).trans ((congrFun (V16_eq m c).symm _).trans (V16_main_arg0 m (outs m) c)),
      (h c _ (mem_uc main_arg1 (by decide))).trans ((congrFun (V16_eq m c).symm _).trans (V16_main_arg1 m (outs m) c)),
      (h c _ (mem_uc main_arg2 (by decide))).trans ((congrFun (V16_eq m c).symm _).trans (V16_main_arg2 m (outs m) c)),
      (h c _ (mem_uc main_arg3 (by decide))).trans ((congrFun (V16_eq m c).symm _).trans (V16_main_arg3 m (outs m) c)),
      (h c _ (mem_uc main_arg4 (by decide))).trans ((congrFun (V16_eq m c).symm _).trans (V16_main_arg4 m (outs m) c)),
      (h c _ (mem_uc main_arg5 (by decide))).trans ((congrFun (V16_eq m c).symm _).trans (V16_main_arg5 m (outs m) c)),
      (h c _ (mem_uc main_arg6 (by decide))).trans ((congrFun (V16_eq m c).symm _).trans (V16_main_arg6 m (outs m) c)),
      (h c _ (mem_uc main_arg7 (by decide))).trans ((congrFun (V16_eq m c).symm _).trans (V16_main_arg7 m (outs m) c)),
      (h c _ (mem_uc main_arg8 (by decide))).trans ((congrFun (V16_eq m c).symm _).trans (V16_main_arg8 m (outs m) c)),
      (h c _ (mem_uc main_arg9 (by decide))).trans ((congrFun (V16_eq m c).symm _).trans (V16_main_arg9 m (outs m) c)),
      (h c _ (mem_uc main_arg10 (by decide))).trans ((congrFun (V16_eq m c).symm _).trans (V16_main_arg10 m (outs m) c)),
      (h c _ (mem_uc main_arg11 (by decide))).trans ((congrFun (V16_eq m c).symm _).trans (V16_main_arg11 m (outs m) c)),
      (h c _ (mem_uc main_arg12 (by decide))).trans ((congrFun (V16_eq m c).symm _).trans (V16_main_arg12 m (outs m) c)),
      (h c _ (mem_uc main_arg13 (by decide))).trans ((congrFun (V16_eq m c).symm _).trans (V16_main_arg13 m (outs m) c)),
      (h c _ (mem_uc main_arg14 (by decide))).trans ((congrFun (V16_eq m c).symm _).trans (V16_main_arg14 m (outs m) c)),
      (h c _ (mem_uc main_arg15 (by decide))).trans ((congrFun (V16_eq m c).symm _).trans (V16_main_arg15 m (outs m) c)),
      (h c _ (mem_uc main_arg16 (by decide))).trans ((congrFun (V16_eq m c).symm _).trans (V16_main_arg16 m (outs m) c)),
      (h c _ (mem_uc main_arg17 (by decide))).trans ((congrFun (V16_eq m c).symm _).trans (V16_main_arg17 m (outs m) c)),
      (h c _ (mem_uc main_arg18 (by decide))).trans ((congrFun (V16_eq m c).symm _).trans (V16_main_arg18 m (outs m) c)),
      (h c _ (mem_uc main_arg19 (by decide))).trans ((congrFun (V16_eq m c).symm _).trans (V16_main_arg19 m (outs m) c)),
      (h c _ (mem_uc main_arg20 (by decide))).trans ((congrFun (V16_eq m c).symm _).trans (V16_main_arg20 m (outs m) c)),
      (h c _ (mem_uc main_arg21 (by decide))).trans ((congrFun (V16_eq m c).symm _).trans (V16_main_arg21 m (outs m) c)),
      (h c _ (mem_uc main_arg22 (by decide))).trans ((congrFun (V16_eq m c).symm _).trans (V16_main_arg22 m (outs m) c)),
      (h c _ (mem_uc main_arg23 (by decide))).trans ((congrFun (V16_eq m c).symm _).trans (V16_main_arg23 m (outs m) c)),
      (h c _ (mem_uc main_arg24 (by decide))).trans ((congrFun (V16_eq m c).symm _).trans (V16_main_arg24 m (outs m) c))⟩) (run_all m ρ)

end Cert.KernelIdeal.Run

end
-- ==== Proof.KernelIdeal.Lin1Val.lean ====
/-
  The value of the first linear layer at the ideal instance. The region multiplies, tile by tile over twenty tiles of
  5000 rows, a tile of `x` by the whole of `W₁` on the matrix unit, with bf16 casts of the operands and a zero
  accumulator. On ideal values the casts are the identity and the matrix unit's product is the exact sum of the eight
  products, so every tile the region writes back is the matching block of rows of `x · W₁`, the host's `dot_general`
  of the two argument arrays; the twenty tiles cover the output array, which therefore ends holding `x · W₁`.
-/
import proofs.«412454_j38594576122130_1_alg».proof.Proof.KernelIdeal.Lin1
import proofs.«412454_j38594576122130_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Lin1Val

open Cert.KernelIdeal Cert.KernelIdeal.Gen
open Idealize.ShloMosaic Idealize.ShloMosaic.TcCoe Idealize.SL.Sem
open Idealize.ShloMosaic.ValueIdx
open Idealize.ShloMosaic.Pipeline (Dat)

/-! ## The matrix unit's product at an index -/

theorem lhs_tile_0 (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
theorem lhs_tile_1 (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
theorem rhs_tile_0 (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
theorem rhs_tile_1 (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- The payload at an index: the bf16 casts are the identity on ideal values and the matrix unit adds the eight
    products into a zero accumulator. -/
theorem pay_apply (x : Vec Ideal S5000x8 .f32) (w : Vec Ideal S8x64 .f32) (p : Fin 5000) (q : Fin 64) :
    k0_pay1 (F := Ideal) x w (ix2 p q) = ∑ k : Fin 8, x (ix2 p k) * w (ix2 k q) := by
  unfold k0_pay1
  simp only [matmul]
  rw [Ideal.matmul_constant_zero_apply, ← Equiv.sum_comp (ValueIdx.contrEquiv1 dot_S5000x8_S8x64_S5000x64_1_0_0_1_n_n 8 rfl rfl).symm]
  refine Finset.sum_congr rfl fun k _ => ?_
  have hk := ValueIdx.contrEquiv1_symm_val dot_S5000x8_S8x64_S5000x64_1_0_0_1_n_n 8 rfl rfl k
  have el : dot_S5000x8_S8x64_S5000x64_1_0_0_1_n_n.lhsIdx (ix2 p q) ((ValueIdx.contrEquiv1 dot_S5000x8_S8x64_S5000x64_1_0_0_1_n_n 8 rfl rfl).symm k) = ix2 p k := funext fun a => Fin.ext (by
    match a with
    | ⟨0, _⟩ => exact lhs_tile_0 _ _
    | ⟨1, _⟩ => exact (lhs_tile_1 _ _).trans hk)
  have er : dot_S5000x8_S8x64_S5000x64_1_0_0_1_n_n.rhsIdx (ix2 p q) ((ValueIdx.contrEquiv1 dot_S5000x8_S8x64_S5000x64_1_0_0_1_n_n 8 rfl rfl).symm k) = ix2 k q := funext fun a => Fin.ext (by
    match a with
    | ⟨0, _⟩ => exact (rhs_tile_0 _ _).trans hk
    | ⟨1, _⟩ => exact rhs_tile_1 _ _)
  rw [ValueIdx.truncf_apply, ValueIdx.truncf_apply, el, er]

/-! ## The host's product at an index -/

theorem lhs_host_0 (i : Cert.ReferenceIdeal.S100000x64.Idx) (q : Cert.ReferenceIdeal.dot_S100000x8_S8x64_S100000x64_1_0_0_1_n_n.contr.Idx) :
    (Cert.ReferenceIdeal.dot_S100000x8_S8x64_S100000x64_1_0_0_1_n_n.lhsIdx i q 0).val = (i 0).val := by
  unfold DotDims.lhsIdx
  rw [dif_neg (show ¬(0 : Fin Cert.ReferenceIdeal.S100000x8.rank) ∈ Cert.ReferenceIdeal.dot_S100000x8_S8x64_S100000x64_1_0_0_1_n_n.lhsBatch by decide), dif_pos (show (0 : Fin Cert.ReferenceIdeal.S100000x8.rank) ∈ Cert.ReferenceIdeal.dot_S100000x8_S8x64_S100000x64_1_0_0_1_n_n.lhsNonContracting by decide)]
  rfl
theorem lhs_host_1 (i : Cert.ReferenceIdeal.S100000x64.Idx) (q : Cert.ReferenceIdeal.dot_S100000x8_S8x64_S100000x64_1_0_0_1_n_n.contr.Idx) :
    (Cert.ReferenceIdeal.dot_S100000x8_S8x64_S100000x64_1_0_0_1_n_n.lhsIdx i q 1).val = (q ⟨0, by decide⟩).val :=
  Cert.ReferenceIdeal.dot_S100000x8_S8x64_S100000x64_1_0_0_1_n_n.lhsIdx_val_of_single rfl i q
theorem rhs_host_0 (i : Cert.ReferenceIdeal.S100000x64.Idx) (q : Cert.ReferenceIdeal.dot_S100000x8_S8x64_S100000x64_1_0_0_1_n_n.contr.Idx) :
    (Cert.ReferenceIdeal.dot_S100000x8_S8x64_S100000x64_1_0_0_1_n_n.rhsIdx i q 0).val = (q ⟨0, by decide⟩).val :=
  Cert.ReferenceIdeal.dot_S100000x8_S8x64_S100000x64_1_0_0_1_n_n.rhsIdx_val_of_single rfl i q
theorem rhs_host_1 (i : Cert.ReferenceIdeal.S100000x64.Idx) (q : Cert.ReferenceIdeal.dot_S100000x8_S8x64_S100000x64_1_0_0_1_n_n.contr.Idx) :
    (Cert.ReferenceIdeal.dot_S100000x8_S8x64_S100000x64_1_0_0_1_n_n.rhsIdx i q 1).val = (i 1).val := by
  unfold DotDims.rhsIdx
  rw [dif_neg (show ¬(1 : Fin Cert.ReferenceIdeal.S8x64.rank) ∈ Cert.ReferenceIdeal.dot_S100000x8_S8x64_S100000x64_1_0_0_1_n_n.rhsBatch by decide), dif_pos (show (1 : Fin Cert.ReferenceIdeal.S8x64.rank) ∈ Cert.ReferenceIdeal.dot_S100000x8_S8x64_S100000x64_1_0_0_1_n_n.rhsNonContracting by decide)]
  rfl

/-- The host's `dot_general` at an index, on ideal values: the same sum of eight products. -/
theorem host_apply (X : FVec Ideal Cert.ReferenceIdeal.S100000x8 .f32) (W : FVec Ideal Cert.ReferenceIdeal.S8x64 .f32) (r : Fin 100000) (q : Fin 64) :
    Host.dotGeneral (F := Ideal) Cert.ReferenceIdeal.dot_S100000x8_S8x64_S100000x64_1_0_0_1_n_n none X W (ix2 r q)
      = ∑ k : Fin 8, X (ix2 r k) * W (ix2 k q) := by
  simp only [Host.dotGeneral]
  rw [Ideal.dotGeneral_apply, ← Equiv.sum_comp (ValueIdx.contrEquiv1 Cert.ReferenceIdeal.dot_S100000x8_S8x64_S100000x64_1_0_0_1_n_n 8 rfl rfl).symm]
  refine Finset.sum_congr rfl fun k _ => ?_
  have hk := ValueIdx.contrEquiv1_symm_val Cert.ReferenceIdeal.dot_S100000x8_S8x64_S100000x64_1_0_0_1_n_n 8 rfl rfl k
  have el : Cert.ReferenceIdeal.dot_S100000x8_S8x64_S100000x64_1_0_0_1_n_n.lhsIdx (ix2 r q) ((ValueIdx.contrEquiv1 Cert.ReferenceIdeal.dot_S100000x8_S8x64_S100000x64_1_0_0_1_n_n 8 rfl rfl).symm k) = ix2 r k := funext fun a => Fin.ext (by
    match a with
    | ⟨0, _⟩ => exact lhs_host_0 _ _
    | ⟨1, _⟩ => exact (lhs_host_1 _ _).trans hk)
  have er : Cert.ReferenceIdeal.dot_S100000x8_S8x64_S100000x64_1_0_0_1_n_n.rhsIdx (ix2 r q) ((ValueIdx.contrEquiv1 Cert.ReferenceIdeal.dot_S100000x8_S8x64_S100000x64_1_0_0_1_n_n 8 rfl rfl).symm k) = ix2 k q := funext fun a => Fin.ext (by
    match a with
    | ⟨0, _⟩ => exact (rhs_host_0 _ _).trans hk
    | ⟨1, _⟩ => exact rhs_host_1 _ _)
  rw [el, er]

/-! ## The body's result at an index -/

theorem origin_zero : (![0, 0] : Fin 2 → Nat) = fun _ => 0 := funext fun a => by fin_cases a <;> rfl

/-- What the body leaves in the output tile, at an index: the sum of the eight products of the row of the `x` tile and
    the column of `W₁`. -/
theorem prod_apply (x : Vec Ideal S5000x8 .f32) (w : Vec Ideal S8x64 .f32) (p : Fin 5000) (q : Fin 64) :
    Lin1.prod (F := Ideal) x w (ix2 p q) = ∑ k : Fin 8, x (ix2 p k) * w (ix2 k q) := by
  unfold Lin1.prod
  rw [View.canon_unit_zero origin_zero]
  simp only [View.ld_unit_zero (S := S5000x8) origin_zero, View.ld_unit_zero (S := S8x64) origin_zero]
  exact pay_apply x w p q

/-! ## From the tiles to the array -/

variable (V : (c : Dev nD) → (b : Ref sig .tc) → Buf (Elt Ideal) ((c : Thread nD τ).loc b))

/-- The printed index maps over the twenty points: the `x` tile and the output tile are at row block `t`, column block
    zero; `W₁` is its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- Row `p` of tile `t` is row `5000 · t + p` of the array. -/
abbrev rowOf (t : Fin cfg0.N) (p : Fin 5000) : Fin 100000 := ⟨t.val * 5000 + p.val, by have := point_lt t; have := p.isLt; omega⟩

/-- The `x` tile at point `t` reads the argument's rows `5000 · t …`. -/
theorem tile_x_apply (c : Dev nD) (t : Fin cfg0.N) (p : Fin 5000) (k : Fin 8) :
    Lin1.tile (F := Ideal) V c 0 t (ix2 p k) = V c main_arg0 (ix2 (rowOf t p) k) := by
  obtain ⟨e0, e1, e2, e3, e4, e5⟩ := index_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 8 + 1 * k.val = k.val; omega

/-- The `W₁` tile at every point is the whole argument. -/
theorem tile_w_apply (c : Dev nD) (t : Fin cfg0.N) (k : Fin 8) (q : Fin 64) :
    Lin1.tile (F := Ideal) V c 1 t (ix2 k q) = V c main_arg3 (ix2 k q) := by
  obtain ⟨e0, e1, e2, e3, e4, e5⟩ := index_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 8 + 1 * k.val = k.val; omega
  | ⟨1, _⟩ => show win0_1.index t (1 : Fin 2) * 64 + 1 * q.val = q.val; omega

/-- What point `t` writes back is block `t` of `x · W₁`. -/
theorem flushed_eq (c : Dev nD) (t : Fin cfg0.N) :
    (Lin1.dat (F := Ideal) V c).flushed 2 t = ((cfg0.win 2).blk t).view.read (Elt Ideal)
      (Host.dotGeneral (F := Ideal) (φ₁ := .f32) (φ₂ := .f32) Cert.ReferenceIdeal.dot_S100000x8_S8x64_S100000x64_1_0_0_1_n_n none (V c main_arg0) (V c main_arg3)) := by
  show (cfg0.win 2).cut (grid0.coords t) ((Lin1.dat (F := Ideal) V c).after 2 t) = _
  rw [Lin1.after_out]
  obtain ⟨e0, e1, e2, e3, e4, e5⟩ := index_facts t
  funext j
  have hp : (j 0).val < 5000 := (j 0).isLt
  have hq : (j 1).val < 64 := (j 1).isLt
  have hin : (cfg0.win 2).xinj (grid0.coords t) j = ix2 (⟨(j 0).val, hp⟩ : Fin 5000) (⟨(j 1).val, hq⟩ : Fin 64) :=
    funext fun a => by match a with | ⟨0, _⟩ => rfl | ⟨1, _⟩ => rfl
  have hout : ((cfg0.win 2).blk t).view.emb j = ix2 (rowOf t ⟨(j 0).val, hp⟩) (⟨(j 1).val, hq⟩ : Fin 64) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 64 + 1 * (j 1).val = (j 1).val; omega)
  show Lin1.prod (F := Ideal) (Lin1.tile V c 0 t) (Lin1.tile V c 1 t) ((cfg0.win 2).xinj (grid0.coords t) j)
    = Host.dotGeneral (F := Ideal) (φ₁ := .f32) (φ₂ := .f32) Cert.ReferenceIdeal.dot_S100000x8_S8x64_S100000x64_1_0_0_1_n_n none (V c main_arg0) (V c main_arg3) (((cfg0.win 2).blk t).view.emb j)
  rw [hin, hout, prod_apply, host_apply]
  exact Finset.sum_congr rfl fun k _ => by rw [tile_x_apply, tile_w_apply]

/-- An index of the output array is in point `t`'s tile iff each coordinate is in the tile's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row lies in the tile of the point `row / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's output array after the run is `x · W₁`, the host's `dot_general` of the two argument arrays. -/
theorem value (c : Dev nD) :
    (Lin1.dat (F := Ideal) V c).arrAt 2 cfg0.N
      = Host.dotGeneral (F := Ideal) (φ₁ := .f32) (φ₂ := .f32) Cert.ReferenceIdeal.dot_S100000x8_S8x64_S100000x64_1_0_0_1_n_n none (V c main_arg0) (V c main_arg3) :=
  (Lin1.dat (F := Ideal) V c).arrAt_eq_of_cover 2 _ (fun t _ => flushed_eq V c t) cover

end Cert.KernelIdeal.Lin1Val

end
-- ==== Proof.KernelIdeal.Lin2Val.lean ====
/-
  The value of the first linear layer at the ideal instance. The region multiplies, tile by tile over twenty tiles of
  5000 rows, a tile of `x` by the whole of `W₂` on the matrix unit, with bf16 casts of the operands and a zero
  accumulator. On ideal values the casts are the identity and the matrix unit's product is the exact sum of the eight
  products, so every tile the region writes back is the matching block of rows of `x · W₂`, the host's `dot_general`
  of the two argument arrays; the twenty tiles cover the output array, which therefore ends holding `x · W₂`.
-/
import proofs.«412454_j38594576122130_1_alg».proof.Proof.KernelIdeal.Lin2
import proofs.«412454_j38594576122130_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Lin2Val

open Cert.KernelIdeal Cert.KernelIdeal.Gen
open Idealize.ShloMosaic Idealize.ShloMosaic.TcCoe Idealize.SL.Sem
open Idealize.ShloMosaic.ValueIdx
open Idealize.ShloMosaic.Pipeline (Dat)

/-! ## The matrix unit's product at an index -/

theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The payload at an index: the bf16 casts are the identity on ideal values and the matrix unit adds the eight
    products into a zero accumulator. -/
theorem pay_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [ValueIdx.truncf_apply, ValueIdx.truncf_apply, el, er, Idealize.ShloMosaic.shapeCast_self]

/-! ## The host's product at an index -/

theorem lhs_host_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_host_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_host_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_host_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's `dot_general` at an index, on ideal values: the same sum of sixty-four products. -/
theorem host_apply (X : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none X W (ix2 r q)
      = ∑ k : Fin 64, X (ix2 r k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((ValueIdx.contrEquiv1 Cert.ReferenceIdeal.dot_S100000x64_S64x64_S100000x64_1_0_0_1_n_n 64 rfl rfl).symm k) = ix2 r k := funext fun a => Fin.ext (by
    match a with
    | ⟨0, _⟩ => exact lhs_host_0 _ _
    | ⟨1, _⟩ => exact (lhs_host_1 _ _).trans hk)
  have er : Cert.ReferenceIdeal.dot_S100000x64_S64x64_S100000x64_1_0_0_1_n_n.rhsIdx (ix2 r q) ((ValueIdx.contrEquiv1 Cert.ReferenceIdeal.dot_S100000x64_S64x64_S100000x64_1_0_0_1_n_n 64 rfl rfl).symm k) = ix2 k q := funext fun a => Fin.ext (by
    match a with
    | ⟨0, _⟩ => exact (rhs_host_0 _ _).trans hk
    | ⟨1, _⟩ => exact rhs_host_1 _ _)
  rw [el, er]

/-! ## The body's result at an index -/

theorem origin_zero : (![0, 0] : Fin 2 → Nat) = fun _ => 0 := funext fun a => by fin_cases a <;> rfl

/-- What the body leaves in the output tile, at an index: the sum of the sixty-four products of the row of the `x` tile and
    the column of `W₂`. -/
theorem prod_apply (x : Vec Ideal S5000x64 .f32) (w : Vec Ideal S64x64 .f32) (p : Fin 5000) (q : Fin 64) :
    Lin2.prod (F := Ideal) x w (ix2 p q) = ∑ k : Fin 64, x (ix2 p k) * w (ix2 k q) := by
  unfold Lin2.prod
  rw [View.canon_unit_zero origin_zero]
  simp only [View.ld_unit_zero (S := S5000x64) origin_zero, View.ld_unit_zero (S := S64x64) origin_zero]
  exact pay_apply x w p q

/-! ## From the tiles to the array -/

variable (V : (c : Dev nD) → (b : Ref sig .tc) → Buf (Elt Ideal) ((c : Thread nD τ).loc b))

/-- The printed index maps over the twenty points: the `x` tile and the output tile are at row block `t`, column block
    zero; `W₂` is its one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 20 := lt_of_lt_of_eq t.isLt N_2

/-- Row `p` of tile `t` is row `5000 · t + p` of the array. -/
abbrev rowOf (t : Fin cfg2.N) (p : Fin 5000) : Fin 100000 := ⟨t.val * 5000 + p.val, by have := point_lt t; have := p.isLt; omega⟩

/-- The `x` tile at point `t` reads the argument's rows `5000 · t …`. -/
theorem tile_x_apply (c : Dev nD) (t : Fin cfg2.N) (p : Fin 5000) (k : Fin 64) :
    Lin2.tile (F := Ideal) V c 0 t (ix2 p k) = V c main_v49 (ix2 (rowOf t p) k) := by
  obtain ⟨e0, e1, e2, e3, e4, e5⟩ := index_facts t
  show V c main_v49 (((cfg2.win 0).blk t).view.emb (ix2 p k)) = V c main_v49 (ix2 (rowOf t p) k)
  refine congrArg (V c main_v49) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- The `W₂` tile at every point is the whole argument. -/
theorem tile_w_apply (c : Dev nD) (t : Fin cfg2.N) (k : Fin 64) (q : Fin 64) :
    Lin2.tile (F := Ideal) V c 1 t (ix2 k q) = V c main_arg9 (ix2 k q) := by
  obtain ⟨e0, e1, e2, e3, e4, e5⟩ := index_facts t
  show V c main_arg9 (((cfg2.win 1).blk t).view.emb (ix2 k q)) = V c main_arg9 (ix2 k q)
  refine congrArg (V c main_arg9) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- What point `t` writes back is block `t` of `x · W₂`. -/
theorem flushed_eq (c : Dev nD) (t : Fin cfg2.N) :
    (Lin2.dat (F := Ideal) V c).flushed 2 t = ((cfg2.win 2).blk t).view.read (Elt Ideal)
      (Host.dotGeneral (F := Ideal) (φ₁ := .f32) (φ₂ := .f32) Cert.ReferenceIdeal.dot_S100000x64_S64x64_S100000x64_1_0_0_1_n_n none (V c main_v49) (V c main_arg9)) := by
  show (cfg2.win 2).cut (grid2.coords t) ((Lin2.dat (F := Ideal) V c).after 2 t) = _
  rw [Lin2.after_out]
  obtain ⟨e0, e1, e2, e3, e4, e5⟩ := index_facts t
  funext j
  have hp : (j 0).val < 5000 := (j 0).isLt
  have hq : (j 1).val < 64 := (j 1).isLt
  have hin : (cfg2.win 2).xinj (grid2.coords t) j = ix2 (⟨(j 0).val, hp⟩ : Fin 5000) (⟨(j 1).val, hq⟩ : Fin 64) :=
    funext fun a => by match a with | ⟨0, _⟩ => rfl | ⟨1, _⟩ => rfl
  have hout : ((cfg2.win 2).blk t).view.emb j = ix2 (rowOf t ⟨(j 0).val, hp⟩) (⟨(j 1).val, hq⟩ : Fin 64) :=
    funext fun a => Fin.ext (by
      match a with
      | ⟨0, _⟩ => show win2_2.index t (0 : Fin 2) * 5000 + 1 * (j 0).val = t.val * 5000 + (j 0).val; omega
      | ⟨1, _⟩ => show win2_2.index t (1 : Fin 2) * 64 + 1 * (j 1).val = (j 1).val; omega)
  show Lin2.prod (F := Ideal) (Lin2.tile V c 0 t) (Lin2.tile V c 1 t) ((cfg2.win 2).xinj (grid2.coords t) j)
    = Host.dotGeneral (F := Ideal) (φ₁ := .f32) (φ₂ := .f32) Cert.ReferenceIdeal.dot_S100000x64_S64x64_S100000x64_1_0_0_1_n_n none (V c main_v49) (V c main_arg9) (((cfg2.win 2).blk t).view.emb j)
  rw [hin, hout, prod_apply, host_apply]
  exact Finset.sum_congr rfl fun k _ => by rw [tile_x_apply, tile_w_apply]

/-- An index of the output array is in point `t`'s tile iff each coordinate is in the tile's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- Every row lies in the tile of the point `row / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := index_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's output array after the run is `x · W₂`, the host's `dot_general` of the two argument arrays. -/
theorem value (c : Dev nD) :
    (Lin2.dat (F := Ideal) V c).arrAt 2 cfg2.N
      = Host.dotGeneral (F := Ideal) (φ₁ := .f32) (φ₂ := .f32) Cert.ReferenceIdeal.dot_S100000x64_S64x64_S100000x64_1_0_0_1_n_n none (V c main_v49) (V c main_arg9) :=
  (Lin2.dat (F := Ideal) V c).arrAt_eq_of_cover 2 _ (fun t _ => flushed_eq V c t) cover

end Cert.KernelIdeal.Lin2Val

end
-- ==== Proof.KernelIdeal.Lin3Val.lean ====
/-
  The value of the first linear layer at the ideal instance. The region multiplies, tile by tile over twenty tiles of
  5000 rows, a tile of `x` by the whole of `W₃` on the matrix unit, with bf16 casts of the operands and a zero
  accumulator. On ideal values the casts are the identity and the matrix unit's product is the exact sum of the eight
  products, so every tile the region writes back is the matching block of rows of `x · W₃`, the host's `dot_general`
  of the two argument arrays; the twenty tiles cover the output array, which therefore ends holding `x · W₃`.
-/
import proofs.«412454_j38594576122130_1_alg».proof.Proof.KernelIdeal.Lin3
import proofs.«412454_j38594576122130_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Lin3Val

open Cert.KernelIdeal Cert.KernelIdeal.Gen
open Idealize.ShloMosaic Idealize.ShloMosaic.TcCoe Idealize.SL.Sem
open Idealize.ShloMosaic.ValueIdx
open Idealize.ShloMosaic.Pipeline (Dat)

/-! ## The matrix unit's product at an index -/

theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The payload at an index: the bf16 casts are the identity on ideal values and the matrix unit adds the eight
    products into a zero accumulator. -/
theorem pay_apply (x : Vec Ideal S5000x64 .f32) (w : Vec Ideal S64x64 .f32) (p : Fin 5000) (q : Fin 64) :
    k4_pay1 (F := Ideal) x w (ix2 p q) = ∑ k : Fin 64, x (ix2 p k) * w (ix2 k q) := by
  unfold k4_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [ValueIdx.truncf_apply, ValueIdx.truncf_apply, el, er, Idealize.ShloMosaic.shapeCast_self]

/-! ## The host's product at an index -/

theorem lhs_host_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_host_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_host_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_host_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's `dot_general` at an index, on ideal values: the same sum of sixty-four products. -/
theorem host_apply (X : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none X W (ix2 r q)
      = ∑ k : Fin 64, X (ix2 r k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((ValueIdx.contrEquiv1 Cert.ReferenceIdeal.dot_S100000x64_S64x64_S100000x64_1_0_0_1_n_n 64 rfl rfl).symm k) = ix2 r k := funext fun a => Fin.ext (by
    match a with
    | ⟨0, _⟩ => exact lhs_host_0 _ _
    | ⟨1, _⟩ => exact (lhs_host_1 _ _).trans hk)
  have er : Cert.ReferenceIdeal.dot_S100000x64_S64x64_S100000x64_1_0_0_1_n_n.rhsIdx (ix2 r q) ((ValueIdx.contrEquiv1 Cert.ReferenceIdeal.dot_S100000x64_S64x64_S100000x64_1_0_0_1_n_n 64 rfl rfl).symm k) = ix2 k q := funext fun a => Fin.ext (by
    match a with
    | ⟨0, _⟩ => exact (rhs_host_0 _ _).trans hk
    | ⟨1, _⟩ => exact rhs_host_1 _ _)
  rw [el, er]

/-! ## The body's result at an index -/

theorem origin_zero : (![0, 0] : Fin 2 → Nat) = fun _ => 0 := funext fun a => by fin_cases a <;> rfl

/-- What the body leaves in the output tile, at an index: the sum of the sixty-four products of the row of the `x` tile and
    the column of `W₃`. -/
theorem prod_apply (x : Vec Ideal S5000x64 .f32) (w : Vec Ideal S64x64 .f32) (p : Fin 5000) (q : Fin 64) :
    Lin3.prod (F := Ideal) x w (ix2 p q) = ∑ k : Fin 64, x (ix2 p k) * w (ix2 k q) := by
  unfold Lin3.prod
  rw [View.canon_unit_zero origin_zero]
  simp only [View.ld_unit_zero (S := S5000x64) origin_zero, View.ld_unit_zero (S := S64x64) origin_zero]
  exact pay_apply x w p q

/-! ## From the tiles to the array -/

variable (V : (c : Dev nD) → (b : Ref sig .tc) → Buf (Elt Ideal) ((c : Thread nD τ).loc b))

/-- The printed index maps over the twenty points: the `x` tile and the output tile are at row block `t`, column block
    zero; `W₃` is its one block. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 20 := lt_of_lt_of_eq t.isLt N_4

/-- Row `p` of tile `t` is row `5000 · t + p` of the array. -/
abbrev rowOf (t : Fin cfg4.N) (p : Fin 5000) : Fin 100000 := ⟨t.val * 5000 + p.val, by have := point_lt t; have := p.isLt; omega⟩

/-- The `x` tile at point `t` reads the argument's rows `5000 · t …`. -/
theorem tile_x_apply (c : Dev nD) (t : Fin cfg4.N) (p : Fin 5000) (k : Fin 64) :
    Lin3.tile (F := Ideal) V c 0 t (ix2 p k) = V c main_v69 (ix2 (rowOf t p) k) := by
  obtain ⟨e0, e1, e2, e3, e4, e5⟩ := index_facts t
  show V c main_v69 (((cfg4.win 0).blk t).view.emb (ix2 p k)) = V c main_v69 (ix2 (rowOf t p) k)
  refine congrArg (V c main_v69) (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * k.val = k.val; omega

/-- The `W₃` tile at every point is the whole argument. -/
theorem tile_w_apply (c : Dev nD) (t : Fin cfg4.N) (k : Fin 64) (q : Fin 64) :
    Lin3.tile (F := Ideal) V c 1 t (ix2 k q) = V c main_arg15 (ix2 k q) := by
  obtain ⟨e0, e1, e2, e3, e4, e5⟩ := index_facts t
  show V c main_arg15 (((cfg4.win 1).blk t).view.emb (ix2 k q)) = V c main_arg15 (ix2 k q)
  refine congrArg (V c main_arg15) (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-- What point `t` writes back is block `t` of `x · W₃`. -/
theorem flushed_eq (c : Dev nD) (t : Fin cfg4.N) :
    (Lin3.dat (F := Ideal) V c).flushed 2 t = ((cfg4.win 2).blk t).view.read (Elt Ideal)
      (Host.dotGeneral (F := Ideal) (φ₁ := .f32) (φ₂ := .f32) Cert.ReferenceIdeal.dot_S100000x64_S64x64_S100000x64_1_0_0_1_n_n none (V c main_v69) (V c main_arg15)) := by
  show (cfg4.win 2).cut (grid4.coords t) ((Lin3.dat (F := Ideal) V c).after 2 t) = _
  rw [Lin3.after_out]
  obtain ⟨e0, e1, e2, e3, e4, e5⟩ := index_facts t
  funext j
  have hp : (j 0).val < 5000 := (j 0).isLt
  have hq : (j 1).val < 64 := (j 1).isLt
  have hin : (cfg4.win 2).xinj (grid4.coords t) j = ix2 (⟨(j 0).val, hp⟩ : Fin 5000) (⟨(j 1).val, hq⟩ : Fin 64) :=
    funext fun a => by match a with | ⟨0, _⟩ => rfl | ⟨1, _⟩ => rfl
  have hout : ((cfg4.win 2).blk t).view.emb j = ix2 (rowOf t ⟨(j 0).val, hp⟩) (⟨(j 1).val, hq⟩ : Fin 64) :=
    funext fun a => Fin.ext (by
      match a with
      | ⟨0, _⟩ => show win4_2.index t (0 : Fin 2) * 5000 + 1 * (j 0).val = t.val * 5000 + (j 0).val; omega
      | ⟨1, _⟩ => show win4_2.index t (1 : Fin 2) * 64 + 1 * (j 1).val = (j 1).val; omega)
  show Lin3.prod (F := Ideal) (Lin3.tile V c 0 t) (Lin3.tile V c 1 t) ((cfg4.win 2).xinj (grid4.coords t) j)
    = Host.dotGeneral (F := Ideal) (φ₁ := .f32) (φ₂ := .f32) Cert.ReferenceIdeal.dot_S100000x64_S64x64_S100000x64_1_0_0_1_n_n none (V c main_v69) (V c main_arg15) (((cfg4.win 2).blk t).view.emb j)
  rw [hin, hout, prod_apply, host_apply]
  exact Finset.sum_congr rfl fun k _ => by rw [tile_x_apply, tile_w_apply]

/-- An index of the output array is in point `t`'s tile iff each coordinate is in the tile's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v70).slice (win4_2.rect t)).set ↔ _
  rw [View.set_slice_whole, Rect.mem_set_unit]
  exact Iff.rfl

/-- Every row lies in the tile of the point `row / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  have ht : t.val = (i 0).val / 5000 := rfl
  obtain ⟨e0, e1, e2, e3, e4, e5⟩ := index_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The region's output array after the run is `x · W₃`, the host's `dot_general` of the two argument arrays. -/
theorem value (c : Dev nD) :
    (Lin3.dat (F := Ideal) V c).arrAt 2 cfg4.N
      = Host.dotGeneral (F := Ideal) (φ₁ := .f32) (φ₂ := .f32) Cert.ReferenceIdeal.dot_S100000x64_S64x64_S100000x64_1_0_0_1_n_n none (V c main_v69) (V c main_arg15) :=
  (Lin3.dat (F := Ideal) V c).arrAt_eq_of_cover 2 _ (fun t _ => flushed_eq V c t) cover

end Cert.KernelIdeal.Lin3Val

end
-- ==== Proof.KernelIdeal.Act1Val.lean ====
/-
  The value of the bias / batch-norm / ReLU region at the ideal instance, where floats are extended reals and every
  operation is exact. `actRef` is the reference's term for the layer, operation for operation in the printed order:
  max (((((a + b) − μ) · rsqrt (σ² + ε)) · γ) + β, 0), each parameter vector broadcast [64] → [1, 64] → [100000, 64].
  The region's output array after its twenty points is that term of the arrays the region finds: at row `r`, column `q`
  both sides are the same expression of a (r, q), b q, μ q, σ² q, γ q, β q, so no algebra is needed; the tiles of 5000
  rows cover the array, row `r` lying in tile `r / 5000`.
-/
import proofs.«412454_j38594576122130_1_alg».proof.Proof.KernelIdeal.Act1
import proofs.«412454_j38594576122130_1_alg».proof.ReferenceIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Act1Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

/-- The reference's bias, batch-norm and ReLU of one layer, operation for operation as the reference program prints it. -/
def actRef (a : Vec Ideal S100000x64 .f32) (b g be rm rv : Vec Ideal S64 .f32) : Vec Ideal S100000x64 .f32 :=
  maximumf
    (addf
      (mulf
        (mulf
          (subf
            (addf a
              (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b)))
            (broadcastInDim Cert.ReferenceIdeal.S100000x64 ![0, 1] Cert.ReferenceIdeal.Facts₀.bcast_S1x64_S100000x64_0_1
              (broadcastInDim Cert.ReferenceIdeal.S1x64 ![1] Cert.ReferenceIdeal.Facts₀.bcast_S64_S1x64_1 rm)))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (Host.rsqrt (F := Ideal)
                (addf rv (broadcastInDim Cert.ReferenceIdeal.S64 ![] Cert.ReferenceIdeal.Facts₀.bcast_S_S64
                  (constant (F := Ideal) Cert.ReferenceIdeal.S_ .f32 0x3727C5AC#32)))))))
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 g)))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 be)))
    (broadcastInDim Cert.ReferenceIdeal.S100000x64 ![] Cert.ReferenceIdeal.Facts₀.bcast_S_S100000x64
      (constant (F := Ideal) Cert.ReferenceIdeal.S_ .f32 0x00000000#32))

/-! ## The reference's broadcasts read at an index -/

/-- A vector of 64 made a 1 × 64 row reads, at `(z, q)`, the vector at `q`. -/
theorem row_apply {α : Type} (x : S64.Idx → α) (z : Fin 1) (q : Fin 64) :
    broadcastInDim Cert.ReferenceIdeal.S1x64 ![1] Cert.ReferenceIdeal.Facts₀.bcast_S64_S1x64_1 x (ix2 z q) = x (ix1 q) :=
  broadcastInDim_apply _ _ x (ix2 z q) (ix1 q) (fun a => match a with
    | ⟨0, _⟩ => by show q.val = if (64 : Nat) = 1 then 0 else q.val; rw [if_neg (by decide)])

/-- A 1 × 64 row repeated over 100000 rows reads, at `(r, q)`, the row at `(0, q)`. -/
theorem rows_apply {α : Type} (y : S1x64.Idx → α) (r : Fin 100000) (q : Fin 64) :
    broadcastInDim Cert.ReferenceIdeal.S100000x64 ![0, 1] Cert.ReferenceIdeal.Facts₀.bcast_S1x64_S100000x64_0_1 y (ix2 r q)
      = y (ix2 (0 : Fin 1) q) :=
  broadcastInDim_apply _ _ y (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- A scalar repeated over a vector of 64 reads the scalar everywhere. -/
theorem splat64_apply {α : Type} (x : S_.Idx → α) (i : S64.Idx) :
    broadcastInDim Cert.ReferenceIdeal.S64 ![] Cert.ReferenceIdeal.Facts₀.bcast_S_S64 x i = x ix0 :=
  broadcastInDim_apply _ _ x i ix0 (fun a => a.elim0)

/-- A scalar repeated over the whole 100000 × 64 array reads the scalar everywhere. -/
theorem splat_apply {α : Type} (x : S_.Idx → α) (i : S100000x64.Idx) :
    broadcastInDim Cert.ReferenceIdeal.S100000x64 ![] Cert.ReferenceIdeal.Facts₀.bcast_S_S100000x64 x i = x ix0 :=
  broadcastInDim_apply _ _ x i ix0 (fun a => a.elim0)

/-- The reference's term at row `r`, column `q`. -/
theorem actRef_apply (a : Vec Ideal S100000x64 .f32) (b g be rm rv : Vec Ideal S64 .f32) (r : Fin 100000) (q : Fin 64) :
    actRef a b g be rm rv (ix2 r q)
      = max (((((a (ix2 r q) + b (ix1 q)) - rm (ix1 q)) * Ideal.rsqrt (rv (ix1 q) + Ideal.ofBits .f32 0x3727C5AC#32)) * g (ix1 q)) + be (ix1 q))
          (Ideal.ofBits .f32 0x00000000#32) := by
  unfold actRef
  simp only [maximumf_apply, addf_apply, mulf_apply, subf_apply]
  rw [rows_apply, rows_apply, rows_apply, rows_apply, rows_apply, row_apply, row_apply, row_apply, row_apply, row_apply, splat_apply]
  rfl

/-! ## The body's payload read at an index -/

/-- The payload at row `p`, column `q` of the tile: the same tree of operations, each parameter row read at `(0, q)`. -/
theorem pay_apply (v0 : Vec Ideal S5000x64 .f32) (v2 v6 v11 v17 v21 : Vec Ideal S1x64 .f32) (p : Fin 5000) (q : Fin 64) :
    k1_pay1 v0 v2 v6 v11 v17 v21 (ix2 p q)
      = max (((((v0 (ix2 p q) + v2 (ix2 (0 : Fin 1) q)) - v11 (ix2 (0 : Fin 1) q))
              * Ideal.rsqrt (v6 (ix2 (0 : Fin 1) q) + Ideal.ofBits .f32 0x3727C5AC#32)) * v17 (ix2 (0 : Fin 1) q)) + v21 (ix2 (0 : Fin 1) q))
          (Ideal.ofBits .f32 0x00000000#32) := by
  unfold k1_pay1
  simp only [shapeCast_self]
  simp only [maximumf_apply, addf_apply, mulf_apply, subf_apply]
  rw [broadcastTo_1b_ab_apply, broadcastTo_1b_ab_apply, broadcastTo_1b_ab_apply, broadcastTo_1b_ab_apply, broadcastTo_1b_ab_apply]
  rfl

/-! ## What each point writes back -/

theorem hz2 : (![0, 0] : Fin 2 → Nat) = fun _ => 0 := funext fun a => by fin_cases a <;> rfl

/-- The printed index maps, decided over the grid: the feature tile moves with the output tile along the rows, the
    five parameter rows stay at block (0, 0), and the output's row-block index stays below twenty. -/
theorem idx_facts : ∀ t : Fin cfg1.N,
    win1_0.index t (0 : Fin 2) = win1_6.index t (0 : Fin 2) ∧ win1_0.index t (1 : Fin 2) = 0 ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 :=
  (by decide +kernel : ∀ t : Fin grid1.N, _)

/-- Every row block of the output is some point's. -/
theorem idx_onto : ∀ q0 : Fin 20, ∃ t : Fin cfg1.N, win1_6.index t = ![q0.val, 0] :=
  (by decide +kernel : ∀ q0 : Fin 20, ∃ t : Fin grid1.N, win1_6.index t = ![q0.val, 0])

variable (V : (c : Dev nD) → (b : Ref sig .tc) → Buf (Elt Ideal) ((c : Thread nD τ).loc b))

set_option maxHeartbeats 2000000 in
/-- What point `t` writes back is block `t` of the reference's term of the arrays the region finds. -/
theorem flushed_eq (c : Dev nD) (t : Fin cfg1.N) (a : Vec Ideal S100000x64 .f32) (b g be rm rv : Vec Ideal S64 .f32)
    (ha : V c main_v43 = a) (hb : ∀ j : Fin 64, V c main_v44 (ix2 (0 : Fin 1) j) = b (ix1 j))
    (hg : ∀ j : Fin 64, V c main_v45 (ix2 (0 : Fin 1) j) = g (ix1 j)) (hbe : ∀ j : Fin 64, V c main_v46 (ix2 (0 : Fin 1) j) = be (ix1 j))
    (hrm : ∀ j : Fin 64, V c main_v47 (ix2 (0 : Fin 1) j) = rm (ix1 j)) (hrv : ∀ j : Fin 64, V c main_v48 (ix2 (0 : Fin 1) j) = rv (ix1 j)) :
    (Act1.dat (F := Ideal) V c).flushed 6 t = ((cfg1.win 6).blk t).view.read (Elt Ideal) (actRef a b g be rm rv) := by
  show (cfg1.win 6).cut (grid1.coords t) ((Act1.dat V c).after 6 t) = _
  rw [Act1.after_out]
  unfold Act1.act
  rw [View.canon_unit_zero hz2]
  simp only [View.ld_unit_zero (S := S5000x64) hz2, View.ld_unit_zero (S := S1x64) hz2]
  obtain ⟨e0, e01, e61, e10, e11, e20, e21, e30, e31, e40, e41, e50, e51, e6⟩ := idx_facts t
  funext j
  obtain ⟨p, q, rfl⟩ : ∃ (p : Fin 5000) (q : Fin 64), j = ix2 p q := ⟨j 0, j 1, eq_ix2 j⟩
  have hR : win1_6.index t (0 : Fin 2) * 5000 + p.val < 100000 := by have := p.isLt; omega
  have he6 : ((cfg1.win 6).blk t).view.emb (ix2 p q) = ix2 (⟨win1_6.index t (0 : Fin 2) * 5000 + p.val, hR⟩ : Fin 100000) q := by
    funext ax; apply Fin.ext
    match ax with
    | ⟨0, _⟩ => show win1_6.index t (0 : Fin 2) * 5000 + 1 * p.val = win1_6.index t (0 : Fin 2) * 5000 + p.val; omega
    | ⟨1, _⟩ => show win1_6.index t (1 : Fin 2) * 64 + 1 * q.val = q.val; omega
  have h0 : Act1.tile V c 0 t (ix2 p q) = a (ix2 (⟨win1_6.index t (0 : Fin 2) * 5000 + p.val, hR⟩ : Fin 100000) q) := by
    show V c main_v43 (((cfg1.win 0).blk t).view.emb (ix2 p q)) = _
    rw [ha]
    refine congrArg _ ?_
    funext ax; apply Fin.ext
    match ax with
    | ⟨0, _⟩ => show win1_0.index t (0 : Fin 2) * 5000 + 1 * p.val = win1_6.index t (0 : Fin 2) * 5000 + p.val; omega
    | ⟨1, _⟩ => show win1_0.index t (1 : Fin 2) * 64 + 1 * q.val = q.val; omega
  have h1 : Act1.tile V c 1 t (ix2 (0 : Fin 1) q) = b (ix1 q) := by
    show V c main_v44 (((cfg1.win 1).blk t).view.emb (ix2 (0 : Fin 1) q)) = _
    rw [← hb q]
    refine congrArg _ ?_
    funext ax; apply Fin.ext
    match ax with
    | ⟨0, _⟩ => show win1_1.index t (0 : Fin 2) * 1 + 1 * 0 = 0; omega
    | ⟨1, _⟩ => show win1_1.index t (1 : Fin 2) * 64 + 1 * q.val = q.val; omega
  have h2 : Act1.tile V c 2 t (ix2 (0 : Fin 1) q) = g (ix1 q) := by
    show V c main_v45 (((cfg1.win 2).blk t).view.emb (ix2 (0 : Fin 1) q)) = _
    rw [← hg q]
    refine congrArg _ ?_
    funext ax; apply Fin.ext
    match ax with
    | ⟨0, _⟩ => show win1_2.index t (0 : Fin 2) * 1 + 1 * 0 = 0; omega
    | ⟨1, _⟩ => show win1_2.index t (1 : Fin 2) * 64 + 1 * q.val = q.val; omega
  have h3 : Act1.tile V c 3 t (ix2 (0 : Fin 1) q) = be (ix1 q) := by
    show V c main_v46 (((cfg1.win 3).blk t).view.emb (ix2 (0 : Fin 1) q)) = _
    rw [← hbe q]
    refine congrArg _ ?_
    funext ax; apply Fin.ext
    match ax with
    | ⟨0, _⟩ => show win1_3.index t (0 : Fin 2) * 1 + 1 * 0 = 0; omega
    | ⟨1, _⟩ => show win1_3.index t (1 : Fin 2) * 64 + 1 * q.val = q.val; omega
  have h4 : Act1.tile V c 4 t (ix2 (0 : Fin 1) q) = rm (ix1 q) := by
    show V c main_v47 (((cfg1.win 4).blk t).view.emb (ix2 (0 : Fin 1) q)) = _
    rw [← hrm q]
    refine congrArg _ ?_
    funext ax; apply Fin.ext
    match ax with
    | ⟨0, _⟩ => show win1_4.index t (0 : Fin 2) * 1 + 1 * 0 = 0; omega
    | ⟨1, _⟩ => show win1_4.index t (1 : Fin 2) * 64 + 1 * q.val = q.val; omega
  have h5 : Act1.tile V c 5 t (ix2 (0 : Fin 1) q) = rv (ix1 q) := by
    show V c main_v48 (((cfg1.win 5).blk t).view.emb (ix2 (0 : Fin 1) q)) = _
    rw [← hrv q]
    refine congrArg _ ?_
    funext ax; apply Fin.ext
    match ax with
    | ⟨0, _⟩ => show win1_5.index t (0 : Fin 2) * 1 + 1 * 0 = 0; omega
    | ⟨1, _⟩ => show win1_5.index t (1 : Fin 2) * 64 + 1 * q.val = q.val; omega
  show k1_pay1 (Act1.tile V c 0 t) (Act1.tile V c 1 t) (Act1.tile V c 5 t) (Act1.tile V c 4 t) (Act1.tile V c 2 t) (Act1.tile V c 3 t) (ix2 p q)
    = actRef a b g be rm rv (((cfg1.win 6).blk t).view.emb (ix2 p q))
  rw [he6, actRef_apply, pay_apply, h0, h1, h2, h3, h4, h5]

/-! ## The output's blocks tile the array -/

/-- An index of the array is in point `t`'s block iff each coordinate is in the block's range on its axis. -/
theorem mem_blk (t : Fin cfg1.N) (i : S100000x64.Idx) :
    i ∈ ((cfg1.win 6).blk t).view.set ↔ ∀ ax : Fin 2, win1_6.index t ax * S5000x64.size ax ≤ (i ax).val
      ∧ (i ax).val < win1_6.index t ax * S5000x64.size ax + S5000x64.size ax := by
  show i ∈ ((View.whole main_v49).slice (win1_6.rect t)).set ↔ _
  rw [View.set_slice_whole, Rect.mem_set_unit]
  exact Iff.rfl

/-- Row `r` lies in the tile of point `r / 5000`: every index of the array is in some point's block. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro ax
  match ax with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-! ## The array after the run -/

/-- The output array of the region, after its twenty points, is the reference's term of the arrays the region finds:
    the feature array whole, and the five parameter rows read as vectors of 64. -/
theorem value (c : Dev nD) (a : Vec Ideal S100000x64 .f32) (b g be rm rv : Vec Ideal S64 .f32)
    (ha : V c main_v43 = a) (hb : ∀ j : Fin 64, V c main_v44 (ix2 (0 : Fin 1) j) = b (ix1 j))
    (hg : ∀ j : Fin 64, V c main_v45 (ix2 (0 : Fin 1) j) = g (ix1 j)) (hbe : ∀ j : Fin 64, V c main_v46 (ix2 (0 : Fin 1) j) = be (ix1 j))
    (hrm : ∀ j : Fin 64, V c main_v47 (ix2 (0 : Fin 1) j) = rm (ix1 j)) (hrv : ∀ j : Fin 64, V c main_v48 (ix2 (0 : Fin 1) j) = rv (ix1 j)) :
    (Act1.dat (F := Ideal) V c).arrAt 6 cfg1.N = actRef a b g be rm rv :=
  (Act1.dat (F := Ideal) V c).arrAt_eq_of_cover 6 (actRef a b g be rm rv)
    (fun t _ => flushed_eq V c t a b g be rm rv ha hb hg hbe hrm hrv) covered

end Cert.KernelIdeal.Act1Val

end
-- ==== Proof.KernelIdeal.Act2Val.lean ====
/-
  The value of the bias / batch-norm / ReLU region at the ideal instance, where floats are extended reals and every
  operation is exact. `actRef` is the reference's term for the layer, operation for operation in the printed order:
  max (((((a + b) − μ) · rsqrt (σ² + ε)) · γ) + β, 0), each parameter vector broadcast [64] → [1, 64] → [100000, 64].
  The region's output array after its twenty points is that term of the arrays the region finds: at row `r`, column `q`
  both sides are the same expression of a (r, q), b q, μ q, σ² q, γ q, β q, so no algebra is needed; the tiles of 5000
  rows cover the array, row `r` lying in tile `r / 5000`.
-/
import proofs.«412454_j38594576122130_1_alg».proof.Proof.KernelIdeal.Act2
import proofs.«412454_j38594576122130_1_alg».proof.ReferenceIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Act2Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

/-- The reference's bias, batch-norm and ReLU of one layer, operation for operation as the reference program prints it. -/
def actRef (a : Vec Ideal S100000x64 .f32) (b g be rm rv : Vec Ideal S64 .f32) : Vec Ideal S100000x64 .f32 :=
  maximumf
    (addf
      (mulf
        (mulf
          (subf
            (addf a
              (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b)))
            (broadcastInDim Cert.ReferenceIdeal.S100000x64 ![0, 1] Cert.ReferenceIdeal.Facts₀.bcast_S1x64_S100000x64_0_1
              (broadcastInDim Cert.ReferenceIdeal.S1x64 ![1] Cert.ReferenceIdeal.Facts₀.bcast_S64_S1x64_1 rm)))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (Host.rsqrt (F := Ideal)
                (addf rv (broadcastInDim Cert.ReferenceIdeal.S64 ![] Cert.ReferenceIdeal.Facts₀.bcast_S_S64
                  (constant (F := Ideal) Cert.ReferenceIdeal.S_ .f32 0x3727C5AC#32)))))))
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 g)))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 be)))
    (broadcastInDim Cert.ReferenceIdeal.S100000x64 ![] Cert.ReferenceIdeal.Facts₀.bcast_S_S100000x64
      (constant (F := Ideal) Cert.ReferenceIdeal.S_ .f32 0x00000000#32))

/-! ## The reference's broadcasts read at an index -/

/-- A vector of 64 made a 1 × 64 row reads, at `(z, q)`, the vector at `q`. -/
theorem row_apply {α : Type} (x : S64.Idx → α) (z : Fin 1) (q : Fin 64) :
    broadcastInDim Cert.ReferenceIdeal.S1x64 ![1] Cert.ReferenceIdeal.Facts₀.bcast_S64_S1x64_1 x (ix2 z q) = x (ix1 q) :=
  broadcastInDim_apply _ _ x (ix2 z q) (ix1 q) (fun a => match a with
    | ⟨0, _⟩ => by show q.val = if (64 : Nat) = 1 then 0 else q.val; rw [if_neg (by decide)])

/-- A 1 × 64 row repeated over 100000 rows reads, at `(r, q)`, the row at `(0, q)`. -/
theorem rows_apply {α : Type} (y : S1x64.Idx → α) (r : Fin 100000) (q : Fin 64) :
    broadcastInDim Cert.ReferenceIdeal.S100000x64 ![0, 1] Cert.ReferenceIdeal.Facts₀.bcast_S1x64_S100000x64_0_1 y (ix2 r q)
      = y (ix2 (0 : Fin 1) q) :=
  broadcastInDim_apply _ _ y (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- A scalar repeated over a vector of 64 reads the scalar everywhere. -/
theorem splat64_apply {α : Type} (x : S_.Idx → α) (i : S64.Idx) :
    broadcastInDim Cert.ReferenceIdeal.S64 ![] Cert.ReferenceIdeal.Facts₀.bcast_S_S64 x i = x ix0 :=
  broadcastInDim_apply _ _ x i ix0 (fun a => a.elim0)

/-- A scalar repeated over the whole 100000 × 64 array reads the scalar everywhere. -/
theorem splat_apply {α : Type} (x : S_.Idx → α) (i : S100000x64.Idx) :
    broadcastInDim Cert.ReferenceIdeal.S100000x64 ![] Cert.ReferenceIdeal.Facts₀.bcast_S_S100000x64 x i = x ix0 :=
  broadcastInDim_apply _ _ x i ix0 (fun a => a.elim0)

/-- The reference's term at row `r`, column `q`. -/
theorem actRef_apply (a : Vec Ideal S100000x64 .f32) (b g be rm rv : Vec Ideal S64 .f32) (r : Fin 100000) (q : Fin 64) :
    actRef a b g be rm rv (ix2 r q)
      = max (((((a (ix2 r q) + b (ix1 q)) - rm (ix1 q)) * Ideal.rsqrt (rv (ix1 q) + Ideal.ofBits .f32 0x3727C5AC#32)) * g (ix1 q)) + be (ix1 q))
          (Ideal.ofBits .f32 0x00000000#32) := by
  unfold actRef
  simp only [maximumf_apply, addf_apply, mulf_apply, subf_apply]
  rw [rows_apply, rows_apply, rows_apply, rows_apply, rows_apply, row_apply, row_apply, row_apply, row_apply, row_apply, splat_apply]
  rfl

/-! ## The body's payload read at an index -/

/-- The payload at row `p`, column `q` of the tile: the same tree of operations, each parameter row read at `(0, q)`. -/
theorem pay_apply (v0 : Vec Ideal S5000x64 .f32) (v2 v6 v11 v17 v21 : Vec Ideal S1x64 .f32) (p : Fin 5000) (q : Fin 64) :
    k3_pay1 v0 v2 v6 v11 v17 v21 (ix2 p q)
      = max (((((v0 (ix2 p q) + v2 (ix2 (0 : Fin 1) q)) - v11 (ix2 (0 : Fin 1) q))
              * Ideal.rsqrt (v6 (ix2 (0 : Fin 1) q) + Ideal.ofBits .f32 0x3727C5AC#32)) * v17 (ix2 (0 : Fin 1) q)) + v21 (ix2 (0 : Fin 1) q))
          (Ideal.ofBits .f32 0x00000000#32) := by
  unfold k3_pay1
  simp only [shapeCast_self]
  simp only [maximumf_apply, addf_apply, mulf_apply, subf_apply]
  rw [broadcastTo_1b_ab_apply, broadcastTo_1b_ab_apply, broadcastTo_1b_ab_apply, broadcastTo_1b_ab_apply, broadcastTo_1b_ab_apply]
  rfl

/-! ## What each point writes back -/

theorem hz2 : (![0, 0] : Fin 2 → Nat) = fun _ => 0 := funext fun a => by fin_cases a <;> rfl

/-- The printed index maps, decided over the grid: the feature tile moves with the output tile along the rows, the
    five parameter rows stay at block (0, 0), and the output's row-block index stays below twenty. -/
theorem idx_facts : ∀ t : Fin cfg3.N,
    win3_0.index t (0 : Fin 2) = win3_6.index t (0 : Fin 2) ∧ win3_0.index t (1 : Fin 2) = 0 ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 19 :=
  (by decide +kernel : ∀ t : Fin grid3.N, _)

/-- Every row block of the output is some point's. -/
theorem idx_onto : ∀ q0 : Fin 20, ∃ t : Fin cfg3.N, win3_6.index t = ![q0.val, 0] :=
  (by decide +kernel : ∀ q0 : Fin 20, ∃ t : Fin grid3.N, win3_6.index t = ![q0.val, 0])

variable (V : (c : Dev nD) → (b : Ref sig .tc) → Buf (Elt Ideal) ((c : Thread nD τ).loc b))

set_option maxHeartbeats 2000000 in
/-- What point `t` writes back is block `t` of the reference's term of the arrays the region finds. -/
theorem flushed_eq (c : Dev nD) (t : Fin cfg3.N) (a : Vec Ideal S100000x64 .f32) (b g be rm rv : Vec Ideal S64 .f32)
    (ha : V c main_v63 = a) (hb : ∀ j : Fin 64, V c main_v64 (ix2 (0 : Fin 1) j) = b (ix1 j))
    (hg : ∀ j : Fin 64, V c main_v65 (ix2 (0 : Fin 1) j) = g (ix1 j)) (hbe : ∀ j : Fin 64, V c main_v66 (ix2 (0 : Fin 1) j) = be (ix1 j))
    (hrm : ∀ j : Fin 64, V c main_v67 (ix2 (0 : Fin 1) j) = rm (ix1 j)) (hrv : ∀ j : Fin 64, V c main_v68 (ix2 (0 : Fin 1) j) = rv (ix1 j)) :
    (Act2.dat (F := Ideal) V c).flushed 6 t = ((cfg3.win 6).blk t).view.read (Elt Ideal) (actRef a b g be rm rv) := by
  show (cfg3.win 6).cut (grid3.coords t) ((Act2.dat V c).after 6 t) = _
  rw [Act2.after_out]
  unfold Act2.act
  rw [View.canon_unit_zero hz2]
  simp only [View.ld_unit_zero (S := S5000x64) hz2, View.ld_unit_zero (S := S1x64) hz2]
  obtain ⟨e0, e01, e61, e10, e11, e20, e21, e30, e31, e40, e41, e50, e51, e6⟩ := idx_facts t
  funext j
  obtain ⟨p, q, rfl⟩ : ∃ (p : Fin 5000) (q : Fin 64), j = ix2 p q := ⟨j 0, j 1, eq_ix2 j⟩
  have hR : win3_6.index t (0 : Fin 2) * 5000 + p.val < 100000 := by have := p.isLt; omega
  have he6 : ((cfg3.win 6).blk t).view.emb (ix2 p q) = ix2 (⟨win3_6.index t (0 : Fin 2) * 5000 + p.val, hR⟩ : Fin 100000) q := by
    funext ax; apply Fin.ext
    match ax with
    | ⟨0, _⟩ => show win3_6.index t (0 : Fin 2) * 5000 + 1 * p.val = win3_6.index t (0 : Fin 2) * 5000 + p.val; omega
    | ⟨1, _⟩ => show win3_6.index t (1 : Fin 2) * 64 + 1 * q.val = q.val; omega
  have h0 : Act2.tile V c 0 t (ix2 p q) = a (ix2 (⟨win3_6.index t (0 : Fin 2) * 5000 + p.val, hR⟩ : Fin 100000) q) := by
    show V c main_v63 (((cfg3.win 0).blk t).view.emb (ix2 p q)) = _
    rw [ha]
    refine congrArg _ ?_
    funext ax; apply Fin.ext
    match ax with
    | ⟨0, _⟩ => show win3_0.index t (0 : Fin 2) * 5000 + 1 * p.val = win3_6.index t (0 : Fin 2) * 5000 + p.val; omega
    | ⟨1, _⟩ => show win3_0.index t (1 : Fin 2) * 64 + 1 * q.val = q.val; omega
  have h1 : Act2.tile V c 1 t (ix2 (0 : Fin 1) q) = b (ix1 q) := by
    show V c main_v64 (((cfg3.win 1).blk t).view.emb (ix2 (0 : Fin 1) q)) = _
    rw [← hb q]
    refine congrArg _ ?_
    funext ax; apply Fin.ext
    match ax with
    | ⟨0, _⟩ => show win3_1.index t (0 : Fin 2) * 1 + 1 * 0 = 0; omega
    | ⟨1, _⟩ => show win3_1.index t (1 : Fin 2) * 64 + 1 * q.val = q.val; omega
  have h2 : Act2.tile V c 2 t (ix2 (0 : Fin 1) q) = g (ix1 q) := by
    show V c main_v65 (((cfg3.win 2).blk t).view.emb (ix2 (0 : Fin 1) q)) = _
    rw [← hg q]
    refine congrArg _ ?_
    funext ax; apply Fin.ext
    match ax with
    | ⟨0, _⟩ => show win3_2.index t (0 : Fin 2) * 1 + 1 * 0 = 0; omega
    | ⟨1, _⟩ => show win3_2.index t (1 : Fin 2) * 64 + 1 * q.val = q.val; omega
  have h3 : Act2.tile V c 3 t (ix2 (0 : Fin 1) q) = be (ix1 q) := by
    show V c main_v66 (((cfg3.win 3).blk t).view.emb (ix2 (0 : Fin 1) q)) = _
    rw [← hbe q]
    refine congrArg _ ?_
    funext ax; apply Fin.ext
    match ax with
    | ⟨0, _⟩ => show win3_3.index t (0 : Fin 2) * 1 + 1 * 0 = 0; omega
    | ⟨1, _⟩ => show win3_3.index t (1 : Fin 2) * 64 + 1 * q.val = q.val; omega
  have h4 : Act2.tile V c 4 t (ix2 (0 : Fin 1) q) = rm (ix1 q) := by
    show V c main_v67 (((cfg3.win 4).blk t).view.emb (ix2 (0 : Fin 1) q)) = _
    rw [← hrm q]
    refine congrArg _ ?_
    funext ax; apply Fin.ext
    match ax with
    | ⟨0, _⟩ => show win3_4.index t (0 : Fin 2) * 1 + 1 * 0 = 0; omega
    | ⟨1, _⟩ => show win3_4.index t (1 : Fin 2) * 64 + 1 * q.val = q.val; omega
  have h5 : Act2.tile V c 5 t (ix2 (0 : Fin 1) q) = rv (ix1 q) := by
    show V c main_v68 (((cfg3.win 5).blk t).view.emb (ix2 (0 : Fin 1) q)) = _
    rw [← hrv q]
    refine congrArg _ ?_
    funext ax; apply Fin.ext
    match ax with
    | ⟨0, _⟩ => show win3_5.index t (0 : Fin 2) * 1 + 1 * 0 = 0; omega
    | ⟨1, _⟩ => show win3_5.index t (1 : Fin 2) * 64 + 1 * q.val = q.val; omega
  show k3_pay1 (Act2.tile V c 0 t) (Act2.tile V c 1 t) (Act2.tile V c 5 t) (Act2.tile V c 4 t) (Act2.tile V c 2 t) (Act2.tile V c 3 t) (ix2 p q)
    = actRef a b g be rm rv (((cfg3.win 6).blk t).view.emb (ix2 p q))
  rw [he6, actRef_apply, pay_apply, h0, h1, h2, h3, h4, h5]

/-! ## The output's blocks tile the array -/

/-- An index of the array is in point `t`'s block iff each coordinate is in the block's range on its axis. -/
theorem mem_blk (t : Fin cfg3.N) (i : S100000x64.Idx) :
    i ∈ ((cfg3.win 6).blk t).view.set ↔ ∀ ax : Fin 2, win3_6.index t ax * S5000x64.size ax ≤ (i ax).val
      ∧ (i ax).val < win3_6.index t ax * S5000x64.size ax + S5000x64.size ax := by
  show i ∈ ((View.whole main_v69).slice (win3_6.rect t)).set ↔ _
  rw [View.set_slice_whole, Rect.mem_set_unit]
  exact Iff.rfl

/-- Row `r` lies in the tile of point `r / 5000`: every index of the array is in some point's block. -/
theorem covered (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro ax
  match ax with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

/-! ## The array after the run -/

/-- The output array of the region, after its twenty points, is the reference's term of the arrays the region finds:
    the feature array whole, and the five parameter rows read as vectors of 64. -/
theorem value (c : Dev nD) (a : Vec Ideal S100000x64 .f32) (b g be rm rv : Vec Ideal S64 .f32)
    (ha : V c main_v63 = a) (hb : ∀ j : Fin 64, V c main_v64 (ix2 (0 : Fin 1) j) = b (ix1 j))
    (hg : ∀ j : Fin 64, V c main_v65 (ix2 (0 : Fin 1) j) = g (ix1 j)) (hbe : ∀ j : Fin 64, V c main_v66 (ix2 (0 : Fin 1) j) = be (ix1 j))
    (hrm : ∀ j : Fin 64, V c main_v67 (ix2 (0 : Fin 1) j) = rm (ix1 j)) (hrv : ∀ j : Fin 64, V c main_v68 (ix2 (0 : Fin 1) j) = rv (ix1 j)) :
    (Act2.dat (F := Ideal) V c).arrAt 6 cfg3.N = actRef a b g be rm rv :=
  (Act2.dat (F := Ideal) V c).arrAt_eq_of_cover 6 (actRef a b g be rm rv)
    (fun t _ => flushed_eq V c t a b g be rm rv ha hb hg hbe hrm hrv) covered

end Cert.KernelIdeal.Act2Val

end
-- ==== Proof.KernelIdeal.Act3Val.lean ====
/-
  The value of the bias / batch-norm / ReLU region at the ideal instance, where floats are extended reals and every
  operation is exact. `actRef` is the reference's term for the layer, operation for operation in the printed order:
  max (((((a + b) − μ) · rsqrt (σ² + ε)) · γ) + β, 0), each parameter vector broadcast [64] → [1, 64] → [100000, 64].
  The region's output array after its twenty points is that term of the arrays the region finds: at row `r`, column `q`
  both sides are the same expression of a (r, q), b q, μ q, σ² q, γ q, β q, so no algebra is needed; the tiles of 5000
  rows cover the array, row `r` lying in tile `r / 5000`.
-/
import proofs.«412454_j38594576122130_1_alg».proof.Proof.KernelIdeal.Act3
import proofs.«412454_j38594576122130_1_alg».proof.ReferenceIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Act3Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

/-- The reference's bias, batch-norm and ReLU of one layer, operation for operation as the reference program prints it. -/
def actRef (a : Vec Ideal S100000x64 .f32) (b g be rm rv : Vec Ideal S64 .f32) : Vec Ideal S100000x64 .f32 :=
  maximumf
    (addf
      (mulf
        (mulf
          (subf
            (addf a
              (broadcastInDim Cert.ReferenceIdeal.S100000x64 ![0, 1] Cert.ReferenceIdeal.Facts₀.bcast_S1x64_S100000x64_0_1
                (broadcastInDim Cert.ReferenceIdeal.S1x64 ![1] Cert.ReferenceIdeal.Facts₀.bcast_S64_S1x64_1 b)))
            (broadcastInDim Cert.ReferenceIdeal.S100000x64 ![0, 1] Cert.ReferenceIdeal.Facts₀.bcast_S1x64_S100000x64_0_1
              (broadcastInDim Cert.ReferenceIdeal.S1x64 ![1] Cert.ReferenceIdeal.Facts₀.bcast_S64_S1x64_1 rm)))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (Host.rsqrt (F := Ideal)
                (addf rv (broadcastInDim Cert.ReferenceIdeal.S64 ![] Cert.ReferenceIdeal.Facts₀.bcast_S_S64
                  (constant (F := Ideal) Cert.ReferenceIdeal.S_ .f32 0x3727C5AC#32)))))))
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 g)))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 be)))
    (broadcastInDim Cert.ReferenceIdeal.S100000x64 ![] Cert.ReferenceIdeal.Facts₀.bcast_S_S100000x64
      (constant (F := Ideal) Cert.ReferenceIdeal.S_ .f32 0x00000000#32))

/-! ## The reference's broadcasts read at an index -/

/-- A vector of 64 made a 1 × 64 row reads, at `(z, q)`, the vector at `q`. -/
theorem row_apply {α : Type} (x : S64.Idx → α) (z : Fin 1) (q : Fin 64) :
    broadcastInDim Cert.ReferenceIdeal.S1x64 ![1] Cert.ReferenceIdeal.Facts₀.bcast_S64_S1x64_1 x (ix2 z q) = x (ix1 q) :=
  broadcastInDim_apply _ _ x (ix2 z q) (ix1 q) (fun a => match a with
    | ⟨0, _⟩ => by show q.val = if (64 : Nat) = 1 then 0 else q.val; rw [if_neg (by decide)])

/-- A 1 × 64 row repeated over 100000 rows reads, at `(r, q)`, the row at `(0, q)`. -/
theorem rows_apply {α : Type} (y : S1x64.Idx → α) (r : Fin 100000) (q : Fin 64) :
    broadcastInDim Cert.ReferenceIdeal.S100000x64 ![0, 1] Cert.ReferenceIdeal.Facts₀.bcast_S1x64_S100000x64_0_1 y (ix2 r q)
      = y (ix2 (0 : Fin 1) q) :=
  broadcastInDim_apply _ _ y (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- A scalar repeated over a vector of 64 reads the scalar everywhere. -/
theorem splat64_apply {α : Type} (x : S_.Idx → α) (i : S64.Idx) :
    broadcastInDim Cert.ReferenceIdeal.S64 ![] Cert.ReferenceIdeal.Facts₀.bcast_S_S64 x i = x ix0 :=
  broadcastInDim_apply _ _ x i ix0 (fun a => a.elim0)

/-- A scalar repeated over the whole 100000 × 64 array reads the scalar everywhere. -/
theorem splat_apply {α : Type} (x : S_.Idx → α) (i : S100000x64.Idx) :
    broadcastInDim Cert.ReferenceIdeal.S100000x64 ![] Cert.ReferenceIdeal.Facts₀.bcast_S_S100000x64 x i = x ix0 :=
  broadcastInDim_apply _ _ x i ix0 (fun a => a.elim0)

/-- The reference's term at row `r`, column `q`. -/
theorem actRef_apply (a : Vec Ideal S100000x64 .f32) (b g be rm rv : Vec Ideal S64 .f32) (r : Fin 100000) (q : Fin 64) :
    actRef a b g be rm rv (ix2 r q)
      = max (((((a (ix2 r q) + b (ix1 q)) - rm (ix1 q)) * Ideal.rsqrt (rv (ix1 q) + Ideal.ofBits .f32 0x3727C5AC#32)) * g (ix1 q)) + be (ix1 q))
          (Ideal.ofBits .f32 0x00000000#32) := by
  unfold actRef
  simp only [maximumf_apply, addf_apply, mulf_apply, subf_apply]
  rw [rows_apply, rows_apply, rows_apply, rows_apply, rows_apply, row_apply, row_apply, row_apply, row_apply, row_apply, splat_apply]
  rfl

/-! ## The body's payload read at an index -/

/-- The payload at row `p`, column `q` of the tile: the same tree of operations, each parameter row read at `(0, q)`. -/
theorem pay_apply (v0 : Vec Ideal S5000x64 .f32) (v2 v6 v11 v17 v21 : Vec Ideal S1x64 .f32) (p : Fin 5000) (q : Fin 64) :
    k5_pay1 v0 v2 v6 v11 v17 v21 (ix2 p q)
      = max (((((v0 (ix2 p q) + v2 (ix2 (0 : Fin 1) q)) - v11 (ix2 (0 : Fin 1) q))
              * Ideal.rsqrt (v6 (ix2 (0 : Fin 1) q) + Ideal.ofBits .f32 0x3727C5AC#32)) * v17 (ix2 (0 : Fin 1) q)) + v21 (ix2 (0 : Fin 1) q))
          (Ideal.ofBits .f32 0x00000000#32) := by
  unfold k5_pay1
  simp only [shapeCast_self]
  simp only [maximumf_apply, addf_apply, mulf_apply, subf_apply]
  rw [broadcastTo_1b_ab_apply, broadcastTo_1b_ab_apply, broadcastTo_1b_ab_apply, broadcastTo_1b_ab_apply, broadcastTo_1b_ab_apply]
  rfl

/-! ## What each point writes back -/

theorem hz2 : (![0, 0] : Fin 2 → Nat) = fun _ => 0 := funext fun a => by fin_cases a <;> rfl

/-- The printed index maps, decided over the grid: the feature tile moves with the output tile along the rows, the
    five parameter rows stay at block (0, 0), and the output's row-block index stays below twenty. -/
theorem idx_facts : ∀ t : Fin cfg5.N,
    win5_0.index t (0 : Fin 2) = win5_6.index t (0 : Fin 2) ∧ win5_0.index t (1 : Fin 2) = 0 ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) ≤ 19 :=
  (by decide +kernel : ∀ t : Fin grid5.N, _)

/-- Every row block of the output is some point's. -/
theorem idx_onto : ∀ q0 : Fin 20, ∃ t : Fin cfg5.N, win5_6.index t = ![q0.val, 0] :=
  (by decide +kernel : ∀ q0 : Fin 20, ∃ t : Fin grid5.N, win5_6.index t = ![q0.val, 0])

variable (V : (c : Dev nD) → (b : Ref sig .tc) → Buf (Elt Ideal) ((c : Thread nD τ).loc b))

set_option maxHeartbeats 2000000 in
/-- What point `t` writes back is block `t` of the reference's term of the arrays the region finds. -/
theorem flushed_eq (c : Dev nD) (t : Fin cfg5.N) (a : Vec Ideal S100000x64 .f32) (b g be rm rv : Vec Ideal S64 .f32)
    (ha : V c main_v83 = a) (hb : ∀ j : Fin 64, V c main_v84 (ix2 (0 : Fin 1) j) = b (ix1 j))
    (hg : ∀ j : Fin 64, V c main_v85 (ix2 (0 : Fin 1) j) = g (ix1 j)) (hbe : ∀ j : Fin 64, V c main_v86 (ix2 (0 : Fin 1) j) = be (ix1 j))
    (hrm : ∀ j : Fin 64, V c main_v87 (ix2 (0 : Fin 1) j) = rm (ix1 j)) (hrv : ∀ j : Fin 64, V c main_v88 (ix2 (0 : Fin 1) j) = rv (ix1 j)) :
    (Act3.dat (F := Ideal) V c).flushed 6 t = ((cfg5.win 6).blk t).view.read (Elt Ideal) (actRef a b g be rm rv) := by
  show (cfg5.win 6).cut (grid5.coords t) ((Act3.dat V c).after 6 t) = _
  rw [Act3.after_out]
  unfold Act3.act
  rw [View.canon_unit_zero hz2]
  simp only [View.ld_unit_zero (S := S5000x64) hz2, View.ld_unit_zero (S := S1x64) hz2]
  obtain ⟨e0, e01, e61, e10, e11, e20, e21, e30, e31, e40, e41, e50, e51, e6⟩ := idx_facts t
  funext j
  obtain ⟨p, q, rfl⟩ : ∃ (p : Fin 5000) (q : Fin 64), j = ix2 p q := ⟨j 0, j 1, eq_ix2 j⟩
  have hR : win5_6.index t (0 : Fin 2) * 5000 + p.val < 100000 := by have := p.isLt; omega
  have he6 : ((cfg5.win 6).blk t).view.emb (ix2 p q) = ix2 (⟨win5_6.index t (0 : Fin 2) * 5000 + p.val, hR⟩ : Fin 100000) q := by
    funext ax; apply Fin.ext
    match ax with
    | ⟨0, _⟩ => show win5_6.index t (0 : Fin 2) * 5000 + 1 * p.val = win5_6.index t (0 : Fin 2) * 5000 + p.val; omega
    | ⟨1, _⟩ => show win5_6.index t (1 : Fin 2) * 64 + 1 * q.val = q.val; omega
  have h0 : Act3.tile V c 0 t (ix2 p q) = a (ix2 (⟨win5_6.index t (0 : Fin 2) * 5000 + p.val, hR⟩ : Fin 100000) q) := by
    show V c main_v83 (((cfg5.win 0).blk t).view.emb (ix2 p q)) = _
    rw [ha]
    refine congrArg _ ?_
    funext ax; apply Fin.ext
    match ax with
    | ⟨0, _⟩ => show win5_0.index t (0 : Fin 2) * 5000 + 1 * p.val = win5_6.index t (0 : Fin 2) * 5000 + p.val; omega
    | ⟨1, _⟩ => show win5_0.index t (1 : Fin 2) * 64 + 1 * q.val = q.val; omega
  have h1 : Act3.tile V c 1 t (ix2 (0 : Fin 1) q) = b (ix1 q) := by
    show V c main_v84 (((cfg5.win 1).blk t).view.emb (ix2 (0 : Fin 1) q)) = _
    rw [← hb q]
    refine congrArg _ ?_
    funext ax; apply Fin.ext
    match ax with
    | ⟨0, _⟩ => show win5_1.index t (0 : Fin 2) * 1 + 1 * 0 = 0; omega
    | ⟨1, _⟩ => show win5_1.index t (1 : Fin 2) * 64 + 1 * q.val = q.val; omega
  have h2 : Act3.tile V c 2 t (ix2 (0 : Fin 1) q) = g (ix1 q) := by
    show V c main_v85 (((cfg5.win 2).blk t).view.emb (ix2 (0 : Fin 1) q)) = _
    rw [← hg q]
    refine congrArg _ ?_
    funext ax; apply Fin.ext
    match ax with
    | ⟨0, _⟩ => show win5_2.index t (0 : Fin 2) * 1 + 1 * 0 = 0; omega
    | ⟨1, _⟩ => show win5_2.index t (1 : Fin 2) * 64 + 1 * q.val = q.val; omega
  have h3 : Act3.tile V c 3 t (ix2 (0 : Fin 1) q) = be (ix1 q) := by
    show V c main_v86 (((cfg5.win 3).blk t).view.emb (ix2 (0 : Fin 1) q)) = _
    rw [← hbe q]
    refine congrArg _ ?_
    funext ax; apply Fin.ext
    match ax with
    | ⟨0, _⟩ => show win5_3.index t (0 : Fin 2) * 1 + 1 * 0 = 0; omega
    | ⟨1, _⟩ => show win5_3.index t (1 : Fin 2) * 64 + 1 * q.val = q.val; omega
  have h4 : Act3.tile V c 4 t (ix2 (0 : Fin 1) q) = rm (ix1 q) := by
    show V c main_v87 (((cfg5.win 4).blk t).view.emb (ix2 (0 : Fin 1) q)) = _
    rw [← hrm q]
    refine congrArg _ ?_
    funext ax; apply Fin.ext
    match ax with
    | ⟨0, _⟩ => show win5_4.index t (0 : Fin 2) * 1 + 1 * 0 = 0; omega
    | ⟨1, _⟩ => show win5_4.index t (1 : Fin 2) * 64 + 1 * q.val = q.val; omega
  have h5 : Act3.tile V c 5 t (ix2 (0 : Fin 1) q) = rv (ix1 q) := by
    show V c main_v88 (((cfg5.win 5).blk t).view.emb (ix2 (0 : Fin 1) q)) = _
    rw [← hrv q]
    refine congrArg _ ?_
    funext ax; apply Fin.ext
    match ax with
    | ⟨0, _⟩ => show win5_5.index t (0 : Fin 2) * 1 + 1 * 0 = 0; omega
    | ⟨1, _⟩ => show win5_5.index t (1 : Fin 2) * 64 + 1 * q.val = q.val; omega
  show k5_pay1 (Act3.tile V c 0 t) (Act3.tile V c 1 t) (Act3.tile V c 5 t) (Act3.tile V c 4 t) (Act3.tile V c 2 t) (Act3.tile V c 3 t) (ix2 p q)
    = actRef a b g be rm rv (((cfg5.win 6).blk t).view.emb (ix2 p q))
  rw [he6, actRef_apply, pay_apply, h0, h1, h2, h3, h4, h5]

/-! ## The output's blocks tile the array -/

/-- An index of the array is in point `t`'s block iff each coordinate is in the block's range on its axis. -/
theorem mem_blk (t : Fin cfg5.N) (i : S100000x64.Idx) :
    i ∈ ((cfg5.win 6).blk t).view.set ↔ ∀ ax : Fin 2, win5_6.index t ax * S5000x64.size ax ≤ (i ax).val
      ∧ (i ax).val < win5_6.index t ax * S5000x64.size ax + S5000x64.size ax := by
  show i ∈ ((View.whole main_v89).slice (win5_6.rect t)).set ↔ _
  rw [View.set_slice_whole, Rect.mem_set_unit]
  exact Iff.rfl

/-- Row `r` lies in the tile of point `r / 5000`: every index of the array is in some point's block. -/
theorem covered (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  obtain ⟨t, ht⟩ := idx_onto ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_blk]
  intro ax
  match ax with
  | ⟨0, _⟩ =>
    show win5_6.index t (0 : Fin 2) * 5000 ≤ (i 0).val ∧ (i 0).val < win5_6.index t (0 : Fin 2) * 5000 + 5000
    omega
  | ⟨1, _⟩ =>
    show win5_6.index t (1 : Fin 2) * 64 ≤ (i 1).val ∧ (i 1).val < win5_6.index t (1 : Fin 2) * 64 + 64
    omega

/-! ## The array after the run -/

/-- The output array of the region, after its twenty points, is the reference's term of the arrays the region finds:
    the feature array whole, and the five parameter rows read as vectors of 64. -/
theorem value (c : Dev nD) (a : Vec Ideal S100000x64 .f32) (b g be rm rv : Vec Ideal S64 .f32)
    (ha : V c main_v83 = a) (hb : ∀ j : Fin 64, V c main_v84 (ix2 (0 : Fin 1) j) = b (ix1 j))
    (hg : ∀ j : Fin 64, V c main_v85 (ix2 (0 : Fin 1) j) = g (ix1 j)) (hbe : ∀ j : Fin 64, V c main_v86 (ix2 (0 : Fin 1) j) = be (ix1 j))
    (hrm : ∀ j : Fin 64, V c main_v87 (ix2 (0 : Fin 1) j) = rm (ix1 j)) (hrv : ∀ j : Fin 64, V c main_v88 (ix2 (0 : Fin 1) j) = rv (ix1 j)) :
    (Act3.dat (F := Ideal) V c).arrAt 6 cfg5.N = actRef a b g be rm rv :=
  (Act3.dat (F := Ideal) V c).arrAt_eq_of_cover 6 (actRef a b g be rm rv)
    (fun t _ => flushed_eq V c t a b g be rm rv ha hb hg hbe hrm hrv) covered

end Cert.KernelIdeal.Act3Val

end
-- ==== Proof.LibRowOps.lean ====
/-
  The host's accumulating scatter and its gather, read at an element, for the dimension numbers an indexed row
  update and an indexed row read lower to (one index word per row, the index vector on axis 1).

  Scatter, operand [N, W], indices [E, 1], updates [E, W] (or operand [N], updates [E]): update row e lands on the
  operand row its index word names, the word read signed and not clamped, so element (i, j) of the result is the
  operand's plus the sum over the rows e whose word is i of the update's (e, j); a row whose word is negative or
  at least N lands nowhere.

  Gather, operand [N, W], start indices [E, 1], result [E, W] (or operand [N], result [E]): result row e is the
  operand row its index word names, the word read signed and clamped into [0, N − 1].

  General lemmas over any sizes; they import no program.
-/
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

/-! ## The host's accumulating scatter at the extended reals -/

/-- The host's accumulating scatter at the extended reals is the exact sum, for any dimension numbers. -/
theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-! ## Where an update lands -/

/-- An update lands at operand index i exactly when, on every operand axis, its start plus its window coordinate is
    i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

/-! ## A row scatter -/

/-- The row-scatter's dimension numbers over any well-formedness proof. -/
abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

/-- The start on the row axis is update row e's index word, read signed … -/
theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

/-- … the start on the column axis is 0 … -/
theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

/-- … the window coordinate on the row axis is 0 … -/
theorem rows_window_0 (e : Fin E) (j : Fin W) : (rowsScatter N E W wf).window (ix2 e j) 0 = 0 := by
  unfold ScatterDims.window
  rw [dif_neg (by simp [ScatterDims.sKept, Shape.kept, List.mem_filter])]

/-- … and on the column axis it is the update's column. -/
theorem rows_window_1 (e : Fin E) (j : Fin W) : (rowsScatter N E W wf).window (ix2 e j) 1 = j.val := by
  unfold ScatterDims.window
  rw [dif_pos (by simp [ScatterDims.sKept, Shape.kept, List.mem_filter])]
  rfl

/-- An update element (e, j') of a row scatter lands at (i, j) exactly when row e's index word, read signed, is i and
    the columns agree. -/
theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

/-- The sum of the updates landing at (i, j), re-indexed by the update's row. -/
theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

/-- A row-scatter's dimension numbers: operand [N, W], indices [E, 1], updates [E, W]. Element (i, j) of the
    accumulating scatter is the operand's plus the sum, over the update rows e whose index word read signed is i,
    of the update's (e, j); a row whose word is negative or at least N lands nowhere. -/
theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

/-! ## A flat scatter -/

/-- The flat scatter's dimension numbers over any well-formedness proof. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E : Nat} (wf : ScatterDims.WF ⟨1, ![N]⟩ ⟨2, ![E, 1]⟩ ⟨1, ![E]⟩ [] [0] [0] 1)

/-- The start on the one operand axis is update e's index word, read signed … -/
theorem vec_start (idx : IVec ⟨2, ![E, 1]⟩ 32) (e : Fin E) :
    (vecScatter N E wf).start (ix1 e) idx 0 = (idx (ix2 e 0)).toInt := by
  unfold ScatterDims.start
  rw [dif_pos (show (0 : Fin (⟨1, ![N]⟩ : Shape).rank) ∈ (vecScatter N E wf).scatterDimsToOperandDims from List.mem_singleton.mpr rfl)]
  congr 2
  funext b; refine Fin.ext ?_
  match b with
  | ⟨0, _⟩ => rfl
  | ⟨1, _⟩ => rfl

/-- … and there is no window coordinate. -/
theorem vec_window (e : Fin E) : (vecScatter N E wf).window (ix1 e) 0 = 0 := by
  unfold ScatterDims.window
  rw [dif_neg (by simp [ScatterDims.sKept, Shape.kept, List.mem_filter])]

/-- Update e of a flat scatter lands at i exactly when its index word, read signed, is i. -/
theorem vec_lands (idx : IVec ⟨2, ![E, 1]⟩ 32) (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h 0
    rw [vec_start, vec_window] at h0
    change (idx (ix2 e 0)).toInt + ((0 : ℕ) : ℤ) = (i.val : ℤ) at h0
    simpa using h0
  · intro h0 a
    obtain rfl : a = 0 := Subsingleton.elim _ _
    rw [vec_start, vec_window]
    show (idx (ix2 e 0)).toInt + ((0 : ℕ) : ℤ) = (i.val : ℤ)
    simpa using h0

/-- The sum of the updates landing at i, re-indexed by the update's position. -/
theorem vec_sum (idx : IVec ⟨2, ![E, 1]⟩ 32) (upd : (⟨1, ![E]⟩ : Shape).Idx → EReal) (i : Fin N) :
    ∑ u ∈ Finset.univ.filter (fun u => (vecScatter N E wf).resultIdx? u idx = some (ix1 i)), upd u
      = ∑ e : Fin E, (if (idx (ix2 e 0)).toInt = (i.val : ℤ) then upd (ix1 e) else 0) := by
  rw [Finset.sum_filter, ← Equiv.sum_comp (idxEquiv1 (n := E)).symm]
  refine Finset.sum_congr rfl fun e _ => ?_
  show (if (vecScatter N E wf).resultIdx? (ix1 e) idx = some (ix1 i) then upd (ix1 e) else 0) = _
  simp only [vec_lands]

/-- A flat scatter's dimension numbers: operand [N], indices [E, 1], updates [E]. Element i of the accumulating
    scatter is the operand's plus the sum of the updates e whose index word read signed is i; an update whose word
    is negative or at least N lands nowhere. -/
theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [← vec_sum wf' idx upd i]

end

/-! ## A row gather and a flat gather -/

/-- The row an index word reads on an axis of extent N: the word read signed, clamped into [0, N − 1]. -/
def clampRow (N : Nat) (hN : 0 < N) (v : BitVec 32) : Fin N := ⟨min v.toInt.toNat (N - 1), by omega⟩

/-- The row-gather's dimension numbers over any well-formedness proof. -/
abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section
variable {N E W : Nat} (wf : GatherDims.WF ⟨2, ![N, W]⟩ ⟨2, ![E, 1]⟩ ⟨2, ![E, W]⟩ [1] [0] [] [0] [] 1 ![1, W])

/-- Result element (e, j) of a row gather reads the operand at (row e's index word clamped, j). -/
theorem rows_operandIdx (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

end

/-- A row-gather's dimension numbers: operand [N, W], start indices [E, 1], result [E, W]. Result element (e, j) is
    the operand's at (row e's index word read signed and clamped into [0, N − 1], j). -/
theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  unfold Host.gather
  rw [← rows_operandIdx wf' hN idx e j]

/-- The flat gather's dimension numbers over any well-formedness proof. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element e of a flat gather reads the operand at e's index word clamped. -/
theorem vec_operandIdx {N E : Nat} (wf : GatherDims.WF ⟨1, ![N]⟩ ⟨2, ![E, 1]⟩ ⟨1, ![E]⟩ [] [0] [] [0] [] 1 ![1]) (hN : 0 < N)
    (idx : IVec ⟨2, ![E, 1]⟩ 32) (e : Fin E) :
    (vecGather N E wf).operandIdx (ix1 e) idx = ix1 (clampRow N hN (idx (ix2 e 0))) := by
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin (⟨1, ![N]⟩ : Shape).rank) ∈ (vecGather N E wf).startIndexMap from List.mem_singleton.mpr rfl)]
  have hsi : (vecGather N E wf).siIdx (ix1 e) ⟨List.idxOf (0 : Fin (⟨1, ![N]⟩ : Shape).rank) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A flat gather's dimension numbers: operand [N], start indices [E, 1], result [E]. Result element e is the
    operand's at e's index word read signed and clamped into [0, N − 1]. -/
theorem gather_vec_apply {α : Type} {N E : Nat} (hN : 0 < N) (d : GatherDims ⟨1, ![N]⟩ ⟨2, ![E, 1]⟩ ⟨1, ![E]⟩)
    (h : d.offsetDims = []) (h' : d.collapsedSliceDims = [0]) (hb : d.operandBatchingDims = [])
    (hb' : d.startIndicesBatchingDims = []) (hm : d.startIndexMap = [0]) (hv : d.indexVectorDim = 1)
    (hs : d.sliceSizes = ![1])
    (a : (⟨1, ![N]⟩ : Shape).Idx → α) (idx : IVec ⟨2, ![E, 1]⟩ 32) (e : Fin E) :
    Host.gather d a idx (ix1 e) = a (ix1 (clampRow N hN (idx (ix2 e 0)))) := by
  obtain ⟨od, cd, ob, sb, sm, iv, ss, wf'⟩ := d
  dsimp only at h h' hb hb' hm hv hs
  subst h h' hb hb' hm hv hs
  unfold Host.gather
  rw [← vec_operandIdx wf' hN idx e]

end Idealize.ShloMosaic.RowOps

end
-- ==== Proof.KernelIdeal.PoolSum.lean ====
/-
  The pooling region's running sum is the reference's segment sum.

  At the extended reals the region's payload adds, per tile of 5000 rows, the one-hot of the tile's graph ids contracted
  with the tile's rows over the row axis: element (g, f) of the accumulator grows by the sum of the tile's entries
  (r, f) over the rows r whose id word is g's (the one-hot entry is exactly 1 or 0, and 1 · x = x, 0 · x = 0 for every
  extended real, the infinities included). Over the twenty tiles this is the sum over all 100000 rows whose id word is
  g's. The reference's segment sum into 256 zero rows has the same element: a row lands on the row its id, read
  signed, names, and an id that is negative or at least 256 lands nowhere, as it matches no one-hot column. Addition on
  the extended reals is commutative and associative, so no finiteness is asked anywhere.
-/
import proofs.«412454_j38594576122130_1_alg».proof.Proof.KernelIdeal.PoolAcc
import proofs.«412454_j38594576122130_1_alg».proof.Proof.LibRowOps
import proofs.«412454_j38594576122130_1_alg».proof.ReferenceIdeal
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Mathlib.Algebra.BigOperators.Fin
import Mathlib.Logic.Equiv.Fin.Basic

noncomputable section

open scoped BigOperators

namespace Cert.KernelIdeal.PoolSum

open Cert.KernelIdeal Cert.KernelIdeal.Gen
open Idealize.ShloMosaic Idealize.ShloMosaic.ValueIdx Idealize.ShloMosaic.TcCoe Idealize.SL.Sem

/-! ## Words -/

/-- The one-hot entry: the comparison's bit, widened and converted, is 1 where the two words agree and 0 elsewhere. -/
theorem onehot_word (x y : BitVec 32) :
    FloatOps.sitofp (F := Ideal) .f32 ((IntOp.cmpi .eq x y).setWidth 32) = if x = y then (1 : EReal) else 0 := by
  by_cases hxy : x = y
  · rw [if_pos hxy, IntOp.cmpi_eq.mpr hxy]
    show ((((1#1 : BitVec 1).setWidth 32).toInt : ℝ) : EReal) = 1
    have : ((1#1 : BitVec 1).setWidth 32).toInt = 1 := by decide
    rw [this]; simp
  · rw [if_neg hxy]
    have h0 : IntOp.cmpi .eq x y = 0#1 := eq_zero_of_ne_one (fun h => hxy (IntOp.cmpi_eq.mp h))
    rw [h0]
    show ((((0#1 : BitVec 1).setWidth 32).toInt : ℝ) : EReal) = 0
    have : ((0#1 : BitVec 1).setWidth 32).toInt = 0 := by decide
    rw [this]; simp

/-- A word read signed is the number g, below 2^31, exactly when it is g's 32-bit word. -/
theorem toInt_eq_iff (x : BitVec 32) (g : ℕ) (hg : g < 2147483648) : x.toInt = (g : ℤ) ↔ x = BitVec.ofNat 32 g := by
  constructor
  · intro h
    apply BitVec.eq_of_toNat_eq
    rw [BitVec.toNat_ofNat]
    rw [BitVec.toInt_eq_toNat_cond] at h
    have := x.isLt
    split at h <;> omega
  · rintro rfl
    rw [BitVec.toInt_eq_toNat_cond, BitVec.toNat_ofNat]
    have : g % 2 ^ 32 = g := Nat.mod_eq_of_lt (by omega)
    rw [this]
    split <;> omega

/-! ## One tile: the one-hot of the ids contracted with the rows over the row axis -/

theorem lhs_axis0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_axis1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_axis0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_axis1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The id column broadcast along the graph axis reads the row's id in every column. -/
theorem ids_bcast_apply (ids : IVec S5000x1 32) (r : Fin 5000) (g : Fin 256) :
    broadcastTo S5000x256 ids broadcasts_S5000x1_S5000x256 (ix2 r g) = ids (ix2 r 0) := by
  refine broadcastTo_apply ids _ (ix2 r g) (ix2 r 0) fun ax => ?_
  match ax with
  | ⟨0, _⟩ => rfl
  | ⟨1, _⟩ => rfl

/-- The graph axis's iota reads the column's number as a word. -/
theorem iota_apply (r : Fin 5000) (g : Fin 256) :
    iota .tc S5000x256 32 [1] iota_S5000x256_d1_w32 (ix2 r g) = BitVec.ofNat 32 g.val :=
  iota_single_apply .tc S5000x256 32 1 iota_S5000x256_d1_w32 (ix2 r g)

/-- One tile's payload at (g, f): the accumulator there plus the sum of the tile's rows whose id word is g. -/
theorem pay2_apply (ids : Vec Ideal S5000x1 .i32) (rows : Vec Ideal S5000x64 .f32) (a : Vec Ideal S256x64 .f32) (g : Fin 256) (f : Fin 64) :
    k6_pay2 (F := Ideal) ids rows a (ix2 g f)
      = a (ix2 g f) + ∑ r : Fin 5000, (if ids (ix2 r 0) = BitVec.ofNat 32 g.val then rows (ix2 r f) else 0) := by
  unfold k6_pay2
  simp only [shapeCast_self, matmul]
  rw [addf_apply, Ideal.matmul_constant_zero_apply, ← Equiv.sum_comp (contrEquiv1 dot_S5000x256_S5000x64_S256x64_0_0_1_1_n_n 5000 rfl rfl).symm]
  congr 1
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g f) ((contrEquiv1 dot_S5000x256_S5000x64_S256x64_0_0_1_1_n_n 5000 rfl rfl).symm k) = ix2 k g := funext fun a => Fin.ext (by
    match a with
    | ⟨0, _⟩ => exact (lhs_axis0 _ _).trans hk
    | ⟨1, _⟩ => exact lhs_axis1 _ _)
  have er : dot_S5000x256_S5000x64_S256x64_0_0_1_1_n_n.rhsIdx (ix2 g f) ((contrEquiv1 dot_S5000x256_S5000x64_S256x64_0_0_1_1_n_n 5000 rfl rfl).symm k) = ix2 k f := funext fun a => Fin.ext (by
    match a with
    | ⟨0, _⟩ => exact (rhs_axis0 _ _).trans hk
    | ⟨1, _⟩ => exact rhs_axis1 _ _)
  rw [el, er, truncf_apply, truncf_apply, sitofp_apply, extui_apply]
  show FloatOps.sitofp (F := Ideal) .f32 ((IntOp.cmpi .eq (broadcastTo S5000x256 ids broadcasts_S5000x1_S5000x256 (ix2 k g))
      (iota .tc S5000x256 32 [1] iota_S5000x256_d1_w32 (ix2 k g))).setWidth 32) * rows (ix2 k f) = _
  rw [ids_bcast_apply, iota_apply, onehot_word]
  split
  · rw [one_mul]
  · rw [zero_mul]

/-- The reset payload is zero everywhere. -/
theorem pay1_apply (j : S256x64.Idx) : k6_pay1 (F := Ideal) j = 0 := by
  unfold k6_pay1
  simp only [shapeCast_self]
  show Ideal.ofBits .f32 0x00000000#32 = 0
  exact Ideal.ofBits_zero_f32

/-! ## A tile's rows and ids are the array's at 5000·t + r -/

/-- Row r of tile t. -/
def row (t : Fin 20) (r : Fin 5000) : Fin 100000 := ⟨r.val + 5000 * t.val, by have := t.isLt; have := r.isLt; omega⟩

/-- The two fetched windows' block index at point t is (t, 0). -/
theorem index_rows : ∀ t : Fin cfg6.N, win6_0.index t (0 : Fin 2) = t.val ∧ win6_0.index t (1 : Fin 2) = 0 :=
  (by decide +kernel : ∀ t : Fin grid6.N, _)
theorem index_ids : ∀ t : Fin cfg6.N, win6_1.index t (0 : Fin 2) = t.val ∧ win6_1.index t (1 : Fin 2) = 0 :=
  (by decide +kernel : ∀ t : Fin grid6.N, _)

theorem rowsAt_apply {F : FTy → Type} [FloatOps F] (h : Vec F S100000x64 .f32) (t : Fin cfg6.N) (r : Fin 5000) (f : Fin 64) :
    PoolAcc.rowsAt h t (ix2 r f) = h (ix2 (row t r) f) := by
  unfold PoolAcc.rowsAt
  rw [View.read_apply]
  show h (((cfg6.win 0).blk t).view.emb (ix2 r f)) = h (ix2 (row t r) f)
  refine congrArg h (funext fun a => Fin.ext ?_)
  match a with
  | ⟨0, _⟩ =>
    show win6_0.index t (0 : Fin 2) * 5000 + 1 * r.val = r.val + 5000 * t.val
    rw [(index_rows t).1]; omega
  | ⟨1, _⟩ =>
    show win6_0.index t (1 : Fin 2) * 64 + 1 * f.val = f.val
    rw [(index_rows t).2]; omega

theorem idsAt_apply {F : FTy → Type} [FloatOps F] (b : Vec F S100000x1 .i32) (t : Fin cfg6.N) (r : Fin 5000) :
    PoolAcc.idsAt b t (ix2 r 0) = b (ix2 (row t r) 0) := by
  unfold PoolAcc.idsAt
  rw [View.read_apply]
  show b (((cfg6.win 1).blk t).view.emb (ix2 r 0)) = b (ix2 (row t r) 0)
  refine congrArg b (funext fun a => Fin.ext ?_)
  match a with
  | ⟨0, _⟩ =>
    show win6_1.index t (0 : Fin 2) * 5000 + 1 * r.val = r.val + 5000 * t.val
    rw [(index_ids t).1]; omega
  | ⟨1, _⟩ =>
    show win6_1.index t (1 : Fin 2) * 1 + 1 * 0 = 0
    rw [(index_ids t).2]

/-! ## The running sum over the tiles -/

/-- What row e adds to element (g, f): its entry in column f if its id word is g's. -/
def term (h : Vec Ideal S100000x64 .f32) (b : Vec Ideal S100000x1 .i32) (g : Fin 256) (f : Fin 64) (e : Fin 100000) : EReal :=
  if b (ix2 e 0) = BitVec.ofNat 32 g.val then h (ix2 e f) else 0

/-- One tile's payload over the whole arrays. -/
theorem tile_apply (h : Vec Ideal S100000x64 .f32) (b : Vec Ideal S100000x1 .i32) (a : Vec Ideal S256x64 .f32) (t : Fin cfg6.N)
    (g : Fin 256) (f : Fin 64) :
    k6_pay2 (F := Ideal) (PoolAcc.idsAt b t) (PoolAcc.rowsAt h t) a (ix2 g f) = a (ix2 g f) + ∑ r : Fin 5000, term h b g f (row t r) := by
  rw [pay2_apply]
  congr 1
  refine Finset.sum_congr rfl fun r _ => ?_
  rw [idsAt_apply, rowsAt_apply]
  rfl

/-- Adding tile n + 1 to the tiles up to n. -/
theorem sum_le_succ (G : Fin 20 → EReal) (n : ℕ) (hn : n + 1 < 20) :
    (∑ t : Fin 20, if t.val ≤ n + 1 then G t else 0) = (∑ t : Fin 20, if t.val ≤ n then G t else 0) + G ⟨n + 1, hn⟩ := by
  have e : ∀ t : Fin 20, (if t.val ≤ n + 1 then G t else 0) = (if t.val ≤ n then G t else 0) + (if t = ⟨n + 1, hn⟩ then G t else 0) := by
    intro t
    by_cases h1 : t.val ≤ n
    · have h2 : t ≠ ⟨n + 1, hn⟩ := fun h => by rw [h] at h1; simp at h1
      rw [if_pos h1, if_pos (Nat.le_succ_of_le h1), if_neg h2, add_zero]
    · by_cases h2 : t = ⟨n + 1, hn⟩
      · subst h2
        rw [if_pos (Nat.le_refl _), if_neg h1, if_pos rfl, zero_add]
      · have h3 : ¬ t.val ≤ n + 1 := fun h => h2 (Fin.ext (by simp only; omega))
        rw [if_neg h3, if_neg h1, if_neg h2, add_zero]
  rw [Finset.sum_congr rfl fun t _ => e t, Finset.sum_add_distrib, Finset.sum_ite_eq' Finset.univ (⟨n + 1, hn⟩ : Fin 20) G,
    if_pos (Finset.mem_univ _)]

/-- After tile n, element (g, f) is the sum over the rows of tiles 0 … n whose id word is g. -/
theorem accum_apply (h : Vec Ideal S100000x64 .f32) (b : Vec Ideal S100000x1 .i32) (g : Fin 256) (f : Fin 64) :
    ∀ (n : ℕ) (hn : n < cfg6.N), PoolAcc.accum (F := Ideal) h b n hn (ix2 g f)
      = ∑ t : Fin 20, if t.val ≤ n then ∑ r : Fin 5000, term h b g f (row t r) else 0
  | 0, hn => by
    rw [PoolAcc.accum_zero, tile_apply, pay1_apply, zero_add, Finset.sum_eq_single (⟨0, hn⟩ : Fin 20)]
    · rw [if_pos (Nat.le_refl _)]
      rfl
    · intro t _ ht
      rw [if_neg]
      intro h0
      exact ht (Fin.ext (Nat.le_zero.mp h0))
    · intro h0; exact absurd (Finset.mem_univ _) h0
  | n + 1, hn => by
    rw [PoolAcc.accum_succ, tile_apply, accum_apply h b g f n (Nat.lt_of_succ_lt hn),
      sum_le_succ (fun t => ∑ r : Fin 5000, term h b g f (row t r)) n hn]
    rfl

/-- The 100000 rows are the 20 tiles of 5000. -/
theorem sum_rows (G : Fin 100000 → EReal) : ∑ e : Fin 100000, G e = ∑ t : Fin 20, ∑ r : Fin 5000, G (row t r) := by
  rw [← Fintype.sum_prod_type' (f := fun t r => G (row t r))]
  exact (Equiv.sum_comp (finProdFinEquiv (m := 20) (n := 5000)) G).symm

/-- After the last tile, element (g, f) is the sum over all rows whose id word is g. -/
theorem accum_last_apply (h : Vec Ideal S100000x64 .f32) (b : Vec Ideal S100000x1 .i32) (hn : 19 < cfg6.N) (g : Fin 256) (f : Fin 64) :
    PoolAcc.accum (F := Ideal) h b 19 hn (ix2 g f) = ∑ e : Fin 100000, term h b g f e := by
  rw [accum_apply, sum_rows]
  refine Finset.sum_congr rfl fun t _ => ?_
  rw [if_pos (by have := t.isLt; omega)]

/-! ## The reference's segment sum at an element, and the two together -/

/-- Element (g, f) of the segment sum is the sum over all rows whose id word is g: a row whose id is negative or at
    least 256 lands nowhere. -/
theorem segment_sum_apply [Cert.ReferenceIdeal.Facts₀] (h : Vec Ideal S100000x64 .f32) (b : Vec Ideal S100000x1 .i32)
    (g : Fin 256) (f : Fin 64) :
    Host.scatterAdd (F := Ideal) Cert.ReferenceIdeal.scatter_S256x64_S100000x1_S100000x64_1_0_0_1
      (broadcastInDim Cert.ReferenceIdeal.S256x64 ![] Cert.ReferenceIdeal.Facts₀.bcast_S_S256x64
        (constant (F := Ideal) Cert.ReferenceIdeal.S_ .f32 0x00000000#32)) b h (ix2 g f)
      = ∑ e : Fin 100000, term h b g f e := by
  rw [RowOps.hostScatterAdd_eq, RowOps.scatterAdd_rows_apply _ rfl rfl rfl rfl,
    broadcastInDim_apply _ _ _ _ ix0 (fun a => a.elim0), constant_apply, Ideal.ofBits_zero_f32, zero_add]
  refine Finset.sum_congr rfl fun e _ => ?_
  unfold term
  simp only [toInt_eq_iff (b (ix2 e 0)) g.val (by have := g.isLt; omega)]

/-- The pooling region's accumulator after its last tile is the reference's segment sum of the node array by the
    id column into 256 zero rows. -/
theorem accum_last [Cert.ReferenceIdeal.Facts₀] (h : Vec Ideal S100000x64 .f32) (b : Vec Ideal S100000x1 .i32) :
    PoolAcc.accum (F := Ideal) h b 19 (by decide)
      = Host.scatterAdd (F := Ideal) Cert.ReferenceIdeal.scatter_S256x64_S100000x1_S100000x64_1_0_0_1
          (broadcastInDim Cert.ReferenceIdeal.S256x64 ![] Cert.ReferenceIdeal.Facts₀.bcast_S_S256x64
            (constant (F := Ideal) Cert.ReferenceIdeal.S_ .f32 0x00000000#32)) b h := by
  funext j
  obtain ⟨g, f, rfl⟩ : ∃ (g : Fin 256) (f : Fin 64), j = ix2 g f := ⟨j 0, j 1, eq_ix2 j⟩
  rw [accum_last_apply, segment_sum_apply]

end Cert.KernelIdeal.PoolSum

end
-- ==== Proof.KernelIdeal.HeadVal.lean ====
/-
  The value of the classifier head at the ideal instance, where every float operation is exact on the extended reals.
  At row r and class s both the kernel's stored payload and the reference's read-out are
      (∑ k, max ((∑ l, p (r,l) · W₁ (l,k)) + b₁ k) 0 · W₂ (k,s)) + b₂ s :
  the roundings to bf16 are the identity, a matrix product into a zero accumulator is the plain sum of products, and a
  bias row broadcast over the rows reads its one row. The region has one grid point whose output block is the whole
  [256,2] array, so the array ends holding that function.
-/
import proofs.«412454_j38594576122130_1_alg».proof.Proof.KernelIdeal.Head
import proofs.«412454_j38594576122130_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadVal

open Cert.KernelIdeal Cert.KernelIdeal.Gen
open Idealize.ShloMosaic Idealize.ShloMosaic.TcCoe Idealize.SL.Sem
open Idealize.ShloMosaic.ValueIdx
open Idealize.ShloMosaic.Pipeline (Dat)

/-! ### The kernel's first product, [256,64] × [64,64] -/

theorem lhs_k1_0 (i : (⟨2, ![256, 64]⟩ : Shape).Idx) (q : Cert.KernelIdeal.dot_S256x64_S64x64_S256x64_1_0_0_1_n_n.contr.Idx) :
    (Cert.KernelIdeal.dot_S256x64_S64x64_S256x64_1_0_0_1_n_n.lhsIdx i q 0).val = (i 0).val := by
  unfold DotDims.lhsIdx
  rw [dif_neg (show ¬(0 : Fin (⟨2, ![256, 64]⟩ : Shape).rank) ∈ Cert.KernelIdeal.dot_S256x64_S64x64_S256x64_1_0_0_1_n_n.lhsBatch by decide), dif_pos (show (0 : Fin (⟨2, ![256, 64]⟩ : Shape).rank) ∈ Cert.KernelIdeal.dot_S256x64_S64x64_S256x64_1_0_0_1_n_n.lhsNonContracting by decide)]
  rfl
theorem lhs_k1_1 (i : (⟨2, ![256, 64]⟩ : Shape).Idx) (q : Cert.KernelIdeal.dot_S256x64_S64x64_S256x64_1_0_0_1_n_n.contr.Idx) :
    (Cert.KernelIdeal.dot_S256x64_S64x64_S256x64_1_0_0_1_n_n.lhsIdx i q 1).val = (q ⟨0, by decide⟩).val :=
  Cert.KernelIdeal.dot_S256x64_S64x64_S256x64_1_0_0_1_n_n.lhsIdx_val_of_single rfl i q
theorem rhs_k1_0 (i : (⟨2, ![256, 64]⟩ : Shape).Idx) (q : Cert.KernelIdeal.dot_S256x64_S64x64_S256x64_1_0_0_1_n_n.contr.Idx) :
    (Cert.KernelIdeal.dot_S256x64_S64x64_S256x64_1_0_0_1_n_n.rhsIdx i q 0).val = (q ⟨0, by decide⟩).val :=
  Cert.KernelIdeal.dot_S256x64_S64x64_S256x64_1_0_0_1_n_n.rhsIdx_val_of_single rfl i q
theorem rhs_k1_1 (i : (⟨2, ![256, 64]⟩ : Shape).Idx) (q : Cert.KernelIdeal.dot_S256x64_S64x64_S256x64_1_0_0_1_n_n.contr.Idx) :
    (Cert.KernelIdeal.dot_S256x64_S64x64_S256x64_1_0_0_1_n_n.rhsIdx i q 1).val = (i 1).val := by
  unfold DotDims.rhsIdx
  rw [dif_neg (show ¬(1 : Fin (⟨2, ![64, 64]⟩ : Shape).rank) ∈ Cert.KernelIdeal.dot_S256x64_S64x64_S256x64_1_0_0_1_n_n.rhsBatch by decide), dif_pos (show (1 : Fin (⟨2, ![64, 64]⟩ : Shape).rank) ∈ Cert.KernelIdeal.dot_S256x64_S64x64_S256x64_1_0_0_1_n_n.rhsNonContracting by decide)]
  rfl

/-- The sum over the one contracted axis, re-indexed by its coordinate: row r of the left operand against column s of the right. -/
theorem sum_k1 (L : (⟨2, ![256, 64]⟩ : Shape).Idx → EReal) (R : (⟨2, ![64, 64]⟩ : Shape).Idx → EReal) (r : Fin 256) (s : Fin 64) :
    ∑ q : Cert.KernelIdeal.dot_S256x64_S64x64_S256x64_1_0_0_1_n_n.contr.Idx, L (Cert.KernelIdeal.dot_S256x64_S64x64_S256x64_1_0_0_1_n_n.lhsIdx (ix2 r s) q) * R (Cert.KernelIdeal.dot_S256x64_S64x64_S256x64_1_0_0_1_n_n.rhsIdx (ix2 r s) q)
      = ∑ k : Fin 64, L (ix2 r k) * R (ix2 k s) := by
  rw [← Equiv.sum_comp (ValueIdx.contrEquiv1 Cert.KernelIdeal.dot_S256x64_S64x64_S256x64_1_0_0_1_n_n 64 rfl rfl).symm]
  refine Finset.sum_congr rfl fun k _ => ?_
  have hk := ValueIdx.contrEquiv1_symm_val Cert.KernelIdeal.dot_S256x64_S64x64_S256x64_1_0_0_1_n_n 64 rfl rfl k
  have el : Cert.KernelIdeal.dot_S256x64_S64x64_S256x64_1_0_0_1_n_n.lhsIdx (ix2 r s) ((ValueIdx.contrEquiv1 Cert.KernelIdeal.dot_S256x64_S64x64_S256x64_1_0_0_1_n_n 64 rfl rfl).symm k) = ix2 r k := funext fun a => Fin.ext (by
    match a with
    | ⟨0, _⟩ => exact lhs_k1_0 _ _
    | ⟨1, _⟩ => exact (lhs_k1_1 _ _).trans hk)
  have er : Cert.KernelIdeal.dot_S256x64_S64x64_S256x64_1_0_0_1_n_n.rhsIdx (ix2 r s) ((ValueIdx.contrEquiv1 Cert.KernelIdeal.dot_S256x64_S64x64_S256x64_1_0_0_1_n_n 64 rfl rfl).symm k) = ix2 k s := funext fun a => Fin.ext (by
    match a with
    | ⟨0, _⟩ => exact (rhs_k1_0 _ _).trans hk
    | ⟨1, _⟩ => exact rhs_k1_1 _ _)
  rw [el, er]

/-! ### The kernel's second product, [256,64] × [64,2] -/

theorem lhs_k2_0 (i : (⟨2, ![256, 2]⟩ : Shape).Idx) (q : Cert.KernelIdeal.dot_S256x64_S64x2_S256x2_1_0_0_1_n_n.contr.Idx) :
    (Cert.KernelIdeal.dot_S256x64_S64x2_S256x2_1_0_0_1_n_n.lhsIdx i q 0).val = (i 0).val := by
  unfold DotDims.lhsIdx
  rw [dif_neg (show ¬(0 : Fin (⟨2, ![256, 64]⟩ : Shape).rank) ∈ Cert.KernelIdeal.dot_S256x64_S64x2_S256x2_1_0_0_1_n_n.lhsBatch by decide), dif_pos (show (0 : Fin (⟨2, ![256, 64]⟩ : Shape).rank) ∈ Cert.KernelIdeal.dot_S256x64_S64x2_S256x2_1_0_0_1_n_n.lhsNonContracting by decide)]
  rfl
theorem lhs_k2_1 (i : (⟨2, ![256, 2]⟩ : Shape).Idx) (q : Cert.KernelIdeal.dot_S256x64_S64x2_S256x2_1_0_0_1_n_n.contr.Idx) :
    (Cert.KernelIdeal.dot_S256x64_S64x2_S256x2_1_0_0_1_n_n.lhsIdx i q 1).val = (q ⟨0, by decide⟩).val :=
  Cert.KernelIdeal.dot_S256x64_S64x2_S256x2_1_0_0_1_n_n.lhsIdx_val_of_single rfl i q
theorem rhs_k2_0 (i : (⟨2, ![256, 2]⟩ : Shape).Idx) (q : Cert.KernelIdeal.dot_S256x64_S64x2_S256x2_1_0_0_1_n_n.contr.Idx) :
    (Cert.KernelIdeal.dot_S256x64_S64x2_S256x2_1_0_0_1_n_n.rhsIdx i q 0).val = (q ⟨0, by decide⟩).val :=
  Cert.KernelIdeal.dot_S256x64_S64x2_S256x2_1_0_0_1_n_n.rhsIdx_val_of_single rfl i q
theorem rhs_k2_1 (i : (⟨2, ![256, 2]⟩ : Shape).Idx) (q : Cert.KernelIdeal.dot_S256x64_S64x2_S256x2_1_0_0_1_n_n.contr.Idx) :
    (Cert.KernelIdeal.dot_S256x64_S64x2_S256x2_1_0_0_1_n_n.rhsIdx i q 1).val = (i 1).val := by
  unfold DotDims.rhsIdx
  rw [dif_neg (show ¬(1 : Fin (⟨2, ![64, 2]⟩ : Shape).rank) ∈ Cert.KernelIdeal.dot_S256x64_S64x2_S256x2_1_0_0_1_n_n.rhsBatch by decide), dif_pos (show (1 : Fin (⟨2, ![64, 2]⟩ : Shape).rank) ∈ Cert.KernelIdeal.dot_S256x64_S64x2_S256x2_1_0_0_1_n_n.rhsNonContracting by decide)]
  rfl

/-- The sum over the one contracted axis, re-indexed by its coordinate: row r of the left operand against column s of the right. -/
theorem sum_k2 (L : (⟨2, ![256, 64]⟩ : Shape).Idx → EReal) (R : (⟨2, ![64, 2]⟩ : Shape).Idx → EReal) (r : Fin 256) (s : Fin 2) :
    ∑ q : Cert.KernelIdeal.dot_S256x64_S64x2_S256x2_1_0_0_1_n_n.contr.Idx, L (Cert.KernelIdeal.dot_S256x64_S64x2_S256x2_1_0_0_1_n_n.lhsIdx (ix2 r s) q) * R (Cert.KernelIdeal.dot_S256x64_S64x2_S256x2_1_0_0_1_n_n.rhsIdx (ix2 r s) q)
      = ∑ k : Fin 64, L (ix2 r k) * R (ix2 k s) := by
  rw [← Equiv.sum_comp (ValueIdx.contrEquiv1 Cert.KernelIdeal.dot_S256x64_S64x2_S256x2_1_0_0_1_n_n 64 rfl rfl).symm]
  refine Finset.sum_congr rfl fun k _ => ?_
  have hk := ValueIdx.contrEquiv1_symm_val Cert.KernelIdeal.dot_S256x64_S64x2_S256x2_1_0_0_1_n_n 64 rfl rfl k
  have el : Cert.KernelIdeal.dot_S256x64_S64x2_S256x2_1_0_0_1_n_n.lhsIdx (ix2 r s) ((ValueIdx.contrEquiv1 Cert.KernelIdeal.dot_S256x64_S64x2_S256x2_1_0_0_1_n_n 64 rfl rfl).symm k) = ix2 r k := funext fun a => Fin.ext (by
    match a with
    | ⟨0, _⟩ => exact lhs_k2_0 _ _
    | ⟨1, _⟩ => exact (lhs_k2_1 _ _).trans hk)
  have er : Cert.KernelIdeal.dot_S256x64_S64x2_S256x2_1_0_0_1_n_n.rhsIdx (ix2 r s) ((ValueIdx.contrEquiv1 Cert.KernelIdeal.dot_S256x64_S64x2_S256x2_1_0_0_1_n_n 64 rfl rfl).symm k) = ix2 k s := funext fun a => Fin.ext (by
    match a with
    | ⟨0, _⟩ => exact (rhs_k2_0 _ _).trans hk
    | ⟨1, _⟩ => exact rhs_k2_1 _ _)
  rw [el, er]

/-! ### The reference's first product, [256,64] × [64,64] -/

theorem lhs_r1_0 (i : (⟨2, ![256, 64]⟩ : Shape).Idx) (q : Cert.ReferenceIdeal.dot_S256x64_S64x64_S256x64_1_0_0_1_n_n.contr.Idx) :
    (Cert.ReferenceIdeal.dot_S256x64_S64x64_S256x64_1_0_0_1_n_n.lhsIdx i q 0).val = (i 0).val := by
  unfold DotDims.lhsIdx
  rw [dif_neg (show ¬(0 : Fin (⟨2, ![256, 64]⟩ : Shape).rank) ∈ Cert.ReferenceIdeal.dot_S256x64_S64x64_S256x64_1_0_0_1_n_n.lhsBatch by decide), dif_pos (show (0 : Fin (⟨2, ![256, 64]⟩ : Shape).rank) ∈ Cert.ReferenceIdeal.dot_S256x64_S64x64_S256x64_1_0_0_1_n_n.lhsNonContracting by decide)]
  rfl
theorem lhs_r1_1 (i : (⟨2, ![256, 64]⟩ : Shape).Idx) (q : Cert.ReferenceIdeal.dot_S256x64_S64x64_S256x64_1_0_0_1_n_n.contr.Idx) :
    (Cert.ReferenceIdeal.dot_S256x64_S64x64_S256x64_1_0_0_1_n_n.lhsIdx i q 1).val = (q ⟨0, by decide⟩).val :=
  Cert.ReferenceIdeal.dot_S256x64_S64x64_S256x64_1_0_0_1_n_n.lhsIdx_val_of_single rfl i q
theorem rhs_r1_0 (i : (⟨2, ![256, 64]⟩ : Shape).Idx) (q : Cert.ReferenceIdeal.dot_S256x64_S64x64_S256x64_1_0_0_1_n_n.contr.Idx) :
    (Cert.ReferenceIdeal.dot_S256x64_S64x64_S256x64_1_0_0_1_n_n.rhsIdx i q 0).val = (q ⟨0, by decide⟩).val :=
  Cert.ReferenceIdeal.dot_S256x64_S64x64_S256x64_1_0_0_1_n_n.rhsIdx_val_of_single rfl i q
theorem rhs_r1_1 (i : (⟨2, ![256, 64]⟩ : Shape).Idx) (q : Cert.ReferenceIdeal.dot_S256x64_S64x64_S256x64_1_0_0_1_n_n.contr.Idx) :
    (Cert.ReferenceIdeal.dot_S256x64_S64x64_S256x64_1_0_0_1_n_n.rhsIdx i q 1).val = (i 1).val := by
  unfold DotDims.rhsIdx
  rw [dif_neg (show ¬(1 : Fin (⟨2, ![64, 64]⟩ : Shape).rank) ∈ Cert.ReferenceIdeal.dot_S256x64_S64x64_S256x64_1_0_0_1_n_n.rhsBatch by decide), dif_pos (show (1 : Fin (⟨2, ![64, 64]⟩ : Shape).rank) ∈ Cert.ReferenceIdeal.dot_S256x64_S64x64_S256x64_1_0_0_1_n_n.rhsNonContracting by decide)]
  rfl

/-- The sum over the one contracted axis, re-indexed by its coordinate: row r of the left operand against column s of the right. -/
theorem sum_r1 (L : (⟨2, ![256, 64]⟩ : Shape).Idx → EReal) (R : (⟨2, ![64, 64]⟩ : Shape).Idx → EReal) (r : Fin 256) (s : Fin 64) :
    ∑ q : Cert.ReferenceIdeal.dot_S256x64_S64x64_S256x64_1_0_0_1_n_n.contr.Idx, L (Cert.ReferenceIdeal.dot_S256x64_S64x64_S256x64_1_0_0_1_n_n.lhsIdx (ix2 r s) q) * R (Cert.ReferenceIdeal.dot_S256x64_S64x64_S256x64_1_0_0_1_n_n.rhsIdx (ix2 r s) q)
      = ∑ k : Fin 64, L (ix2 r k) * R (ix2 k s) := by
  rw [← Equiv.sum_comp (ValueIdx.contrEquiv1 Cert.ReferenceIdeal.dot_S256x64_S64x64_S256x64_1_0_0_1_n_n 64 rfl rfl).symm]
  refine Finset.sum_congr rfl fun k _ => ?_
  have hk := ValueIdx.contrEquiv1_symm_val Cert.ReferenceIdeal.dot_S256x64_S64x64_S256x64_1_0_0_1_n_n 64 rfl rfl k
  have el : Cert.ReferenceIdeal.dot_S256x64_S64x64_S256x64_1_0_0_1_n_n.lhsIdx (ix2 r s) ((ValueIdx.contrEquiv1 Cert.ReferenceIdeal.dot_S256x64_S64x64_S256x64_1_0_0_1_n_n 64 rfl rfl).symm k) = ix2 r k := funext fun a => Fin.ext (by
    match a with
    | ⟨0, _⟩ => exact lhs_r1_0 _ _
    | ⟨1, _⟩ => exact (lhs_r1_1 _ _).trans hk)
  have er : Cert.ReferenceIdeal.dot_S256x64_S64x64_S256x64_1_0_0_1_n_n.rhsIdx (ix2 r s) ((ValueIdx.contrEquiv1 Cert.ReferenceIdeal.dot_S256x64_S64x64_S256x64_1_0_0_1_n_n 64 rfl rfl).symm k) = ix2 k s := funext fun a => Fin.ext (by
    match a with
    | ⟨0, _⟩ => exact (rhs_r1_0 _ _).trans hk
    | ⟨1, _⟩ => exact rhs_r1_1 _ _)
  rw [el, er]

/-! ### The reference's second product, [256,64] × [64,2] -/

theorem lhs_r2_0 (i : (⟨2, ![256, 2]⟩ : Shape).Idx) (q : Cert.ReferenceIdeal.dot_S256x64_S64x2_S256x2_1_0_0_1_n_n.contr.Idx) :
    (Cert.ReferenceIdeal.dot_S256x64_S64x2_S256x2_1_0_0_1_n_n.lhsIdx i q 0).val = (i 0).val := by
  unfold DotDims.lhsIdx
  rw [dif_neg (show ¬(0 : Fin (⟨2, ![256, 64]⟩ : Shape).rank) ∈ Cert.ReferenceIdeal.dot_S256x64_S64x2_S256x2_1_0_0_1_n_n.lhsBatch by decide), dif_pos (show (0 : Fin (⟨2, ![256, 64]⟩ : Shape).rank) ∈ Cert.ReferenceIdeal.dot_S256x64_S64x2_S256x2_1_0_0_1_n_n.lhsNonContracting by decide)]
  rfl
theorem lhs_r2_1 (i : (⟨2, ![256, 2]⟩ : Shape).Idx) (q : Cert.ReferenceIdeal.dot_S256x64_S64x2_S256x2_1_0_0_1_n_n.contr.Idx) :
    (Cert.ReferenceIdeal.dot_S256x64_S64x2_S256x2_1_0_0_1_n_n.lhsIdx i q 1).val = (q ⟨0, by decide⟩).val :=
  Cert.ReferenceIdeal.dot_S256x64_S64x2_S256x2_1_0_0_1_n_n.lhsIdx_val_of_single rfl i q
theorem rhs_r2_0 (i : (⟨2, ![256, 2]⟩ : Shape).Idx) (q : Cert.ReferenceIdeal.dot_S256x64_S64x2_S256x2_1_0_0_1_n_n.contr.Idx) :
    (Cert.ReferenceIdeal.dot_S256x64_S64x2_S256x2_1_0_0_1_n_n.rhsIdx i q 0).val = (q ⟨0, by decide⟩).val :=
  Cert.ReferenceIdeal.dot_S256x64_S64x2_S256x2_1_0_0_1_n_n.rhsIdx_val_of_single rfl i q
theorem rhs_r2_1 (i : (⟨2, ![256, 2]⟩ : Shape).Idx) (q : Cert.ReferenceIdeal.dot_S256x64_S64x2_S256x2_1_0_0_1_n_n.contr.Idx) :
    (Cert.ReferenceIdeal.dot_S256x64_S64x2_S256x2_1_0_0_1_n_n.rhsIdx i q 1).val = (i 1).val := by
  unfold DotDims.rhsIdx
  rw [dif_neg (show ¬(1 : Fin (⟨2, ![64, 2]⟩ : Shape).rank) ∈ Cert.ReferenceIdeal.dot_S256x64_S64x2_S256x2_1_0_0_1_n_n.rhsBatch by decide), dif_pos (show (1 : Fin (⟨2, ![64, 2]⟩ : Shape).rank) ∈ Cert.ReferenceIdeal.dot_S256x64_S64x2_S256x2_1_0_0_1_n_n.rhsNonContracting by decide)]
  rfl

/-- The sum over the one contracted axis, re-indexed by its coordinate: row r of the left operand against column s of the right. -/
theorem sum_r2 (L : (⟨2, ![256, 64]⟩ : Shape).Idx → EReal) (R : (⟨2, ![64, 2]⟩ : Shape).Idx → EReal) (r : Fin 256) (s : Fin 2) :
    ∑ q : Cert.ReferenceIdeal.dot_S256x64_S64x2_S256x2_1_0_0_1_n_n.contr.Idx, L (Cert.ReferenceIdeal.dot_S256x64_S64x2_S256x2_1_0_0_1_n_n.lhsIdx (ix2 r s) q) * R (Cert.ReferenceIdeal.dot_S256x64_S64x2_S256x2_1_0_0_1_n_n.rhsIdx (ix2 r s) q)
      = ∑ k : Fin 64, L (ix2 r k) * R (ix2 k s) := by
  rw [← Equiv.sum_comp (ValueIdx.contrEquiv1 Cert.ReferenceIdeal.dot_S256x64_S64x2_S256x2_1_0_0_1_n_n 64 rfl rfl).symm]
  refine Finset.sum_congr rfl fun k _ => ?_
  have hk := ValueIdx.contrEquiv1_symm_val Cert.ReferenceIdeal.dot_S256x64_S64x2_S256x2_1_0_0_1_n_n 64 rfl rfl k
  have el : Cert.ReferenceIdeal.dot_S256x64_S64x2_S256x2_1_0_0_1_n_n.lhsIdx (ix2 r s) ((ValueIdx.contrEquiv1 Cert.ReferenceIdeal.dot_S256x64_S64x2_S256x2_1_0_0_1_n_n 64 rfl rfl).symm k) = ix2 r k := funext fun a => Fin.ext (by
    match a with
    | ⟨0, _⟩ => exact lhs_r2_0 _ _
    | ⟨1, _⟩ => exact (lhs_r2_1 _ _).trans hk)
  have er : Cert.ReferenceIdeal.dot_S256x64_S64x2_S256x2_1_0_0_1_n_n.rhsIdx (ix2 r s) ((ValueIdx.contrEquiv1 Cert.ReferenceIdeal.dot_S256x64_S64x2_S256x2_1_0_0_1_n_n 64 rfl rfl).symm k) = ix2 k s := funext fun a => Fin.ext (by
    match a with
    | ⟨0, _⟩ => exact (rhs_r2_0 _ _).trans hk
    | ⟨1, _⟩ => exact rhs_r2_1 _ _)
  rw [el, er]

/-! ## The products at an index -/

theorem matmul_k1_apply (A : FVec Ideal S256x64 .bf16) (B : FVec Ideal S64x64 .bf16) (r : Fin 256) (s : Fin 64) :
    matmul Cert.KernelIdeal.dot_S256x64_S64x64_S256x64_1_0_0_1_n_n none A B (constant S256x64 .f32 0x00000000#32) (ix2 r s) = ∑ k : Fin 64, A (ix2 r k) * B (ix2 k s) := by
  simp only [matmul]
  rw [Ideal.matmul_constant_zero_apply]
  exact sum_k1 A B r s

theorem matmul_k2_apply (A : FVec Ideal S256x64 .bf16) (B : FVec Ideal S64x2 .bf16) (r : Fin 256) (s : Fin 2) :
    matmul Cert.KernelIdeal.dot_S256x64_S64x2_S256x2_1_0_0_1_n_n none A B (constant S256x2 .f32 0x00000000#32) (ix2 r s) = ∑ k : Fin 64, A (ix2 r k) * B (ix2 k s) := by
  simp only [matmul]
  rw [Ideal.matmul_constant_zero_apply]
  exact sum_k2 A B r s

theorem dot_r1_apply (A : FVec Ideal S256x64 .f32) (B : FVec Ideal S64x64 .f32) (r : Fin 256) (s : Fin 64) :
    Host.dotGeneral (F := Ideal) Cert.ReferenceIdeal.dot_S256x64_S64x64_S256x64_1_0_0_1_n_n none A B (ix2 r s) = ∑ k : Fin 64, A (ix2 r k) * B (ix2 k s) := by
  simp only [Host.dotGeneral]
  rw [Ideal.dotGeneral_apply]
  exact sum_r1 A B r s

theorem dot_r2_apply (A : FVec Ideal S256x64 .f32) (B : FVec Ideal S64x2 .f32) (r : Fin 256) (s : Fin 2) :
    Host.dotGeneral (F := Ideal) Cert.ReferenceIdeal.dot_S256x64_S64x2_S256x2_1_0_0_1_n_n none A B (ix2 r s) = ∑ k : Fin 64, A (ix2 r k) * B (ix2 k s) := by
  simp only [Host.dotGeneral]
  rw [Ideal.dotGeneral_apply]
  exact sum_r2 A B r s

/-! ## The reference's read-out -/

/-- The reference's read-out, operation for operation in the printed order: the pooled features times the first
    weight, plus the first bias broadcast to a row and then over the rows, clamped below at zero; that times the
    second weight, plus the second bias broadcast the same way. -/
def headRef (p : Vec Ideal S256x64 .f32) (w1 : Vec Ideal S64x64 .f32) (b1 : Vec Ideal S64 .f32)
    (w2 : Vec Ideal S64x2 .f32) (b2 : Vec Ideal S2 .f32) : Vec Ideal S256x2 .f32 :=
  addf (F := Ideal) (φ := .f32)
    (Host.dotGeneral (F := Ideal) (φ₁ := .f32) (φ₂ := .f32) Cert.ReferenceIdeal.dot_S256x64_S64x2_S256x2_1_0_0_1_n_n none
      (maximumf (F := Ideal) (φ := .f32)
        (addf (F := Ideal) (φ := .f32) (Host.dotGeneral (F := Ideal) (φ₁ := .f32) (φ₂ := .f32) Cert.ReferenceIdeal.dot_S256x64_S64x64_S256x64_1_0_0_1_n_n none p w1)
          (broadcastInDim Cert.ReferenceIdeal.S256x64 ![0, 1] Cert.ReferenceIdeal.Gen.bcast_S1x64_S256x64_0_1
            (broadcastInDim Cert.ReferenceIdeal.S1x64 ![1] Cert.ReferenceIdeal.Gen.bcast_S64_S1x64_1 b1)))
        (broadcastInDim Cert.ReferenceIdeal.S256x64 ![] Cert.ReferenceIdeal.Gen.bcast_S_S256x64
          (constant (F := Ideal) Cert.ReferenceIdeal.S_ .f32 0x00000000#32)))
      w2)
    (broadcastInDim Cert.ReferenceIdeal.S256x2 ![0, 1] Cert.ReferenceIdeal.Gen.bcast_S1x2_S256x2_0_1
      (broadcastInDim Cert.ReferenceIdeal.S1x2 ![1] Cert.ReferenceIdeal.Gen.bcast_S2_S1x2_1 b2))

/-- The head at row r and class s, as one term of the extended reals. -/
def headAt (p : Vec Ideal S256x64 .f32) (w1 : Vec Ideal S64x64 .f32) (b1 : Fin 64 → EReal)
    (w2 : Vec Ideal S64x2 .f32) (b2 : Fin 2 → EReal) (r : Fin 256) (s : Fin 2) : EReal :=
  (∑ k : Fin 64, max ((∑ l : Fin 64, p (ix2 r l) * w1 (ix2 l k)) + b1 k) 0 * w2 (ix2 k s)) + b2 s

/-! ### The reference's broadcasts at an index -/

theorem bcast_rows64 (y : Vec Ideal S1x64 .f32) (r : Fin 256) (k : Fin 64) :
    broadcastInDim Cert.ReferenceIdeal.S256x64 ![0, 1] Cert.ReferenceIdeal.Gen.bcast_S1x64_S256x64_0_1 y (ix2 r k) = y (ix2 (0 : Fin 1) k) :=
  broadcastInDim_apply _ Cert.ReferenceIdeal.Gen.bcast_S1x64_S256x64_0_1 y (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])

theorem bcast_row64 (b : Vec Ideal S64 .f32) (k : Fin 64) :
    broadcastInDim Cert.ReferenceIdeal.S1x64 ![1] Cert.ReferenceIdeal.Gen.bcast_S64_S1x64_1 b (ix2 (0 : Fin 1) k) = b (ix1 k) :=
  broadcastInDim_apply _ Cert.ReferenceIdeal.Gen.bcast_S64_S1x64_1 b (ix2 (0 : Fin 1) k) (ix1 k) (fun a => match a with
    | ⟨0, _⟩ => by show k.val = if (64 : Nat) = 1 then 0 else k.val; rw [if_neg (by decide)])

theorem bcast_rows2 (y : Vec Ideal S1x2 .f32) (r : Fin 256) (s : Fin 2) :
    broadcastInDim Cert.ReferenceIdeal.S256x2 ![0, 1] Cert.ReferenceIdeal.Gen.bcast_S1x2_S256x2_0_1 y (ix2 r s) = y (ix2 (0 : Fin 1) s) :=
  broadcastInDim_apply _ Cert.ReferenceIdeal.Gen.bcast_S1x2_S256x2_0_1 y (ix2 r s) (ix2 (0 : Fin 1) s) (fun a => match a with
    | ⟨0, _⟩ => by show 0 = if (1 : Nat) = 1 then 0 else r.val; rw [if_pos rfl]
    | ⟨1, _⟩ => by show s.val = if (2 : Nat) = 1 then 0 else s.val; rw [if_neg (by decide)])

theorem bcast_row2 (b : Vec Ideal S2 .f32) (s : Fin 2) :
    broadcastInDim Cert.ReferenceIdeal.S1x2 ![1] Cert.ReferenceIdeal.Gen.bcast_S2_S1x2_1 b (ix2 (0 : Fin 1) s) = b (ix1 s) :=
  broadcastInDim_apply _ Cert.ReferenceIdeal.Gen.bcast_S2_S1x2_1 b (ix2 (0 : Fin 1) s) (ix1 s) (fun a => match a with
    | ⟨0, _⟩ => by show s.val = if (2 : Nat) = 1 then 0 else s.val; rw [if_neg (by decide)])

theorem bcast_zero (i : S256x64.Idx) :
    broadcastInDim Cert.ReferenceIdeal.S256x64 ![] Cert.ReferenceIdeal.Gen.bcast_S_S256x64
      (constant (F := Ideal) Cert.ReferenceIdeal.S_ .f32 0x00000000#32) i = 0 := by
  rw [broadcastInDim_apply _ Cert.ReferenceIdeal.Gen.bcast_S_S256x64 _ i (fun a => a.elim0) (fun a => a.elim0), constant_apply,
    Ideal.ofBits_zero_f32]

/-- The reference's read-out at an index. -/
theorem headRef_apply (p : Vec Ideal S256x64 .f32) (w1 : Vec Ideal S64x64 .f32) (b1 : Vec Ideal S64 .f32)
    (w2 : Vec Ideal S64x2 .f32) (b2 : Vec Ideal S2 .f32) (r : Fin 256) (s : Fin 2) :
    headRef p w1 b1 w2 b2 (ix2 r s) = headAt p w1 (fun k => b1 (ix1 k)) w2 (fun s => b2 (ix1 s)) r s := by
  unfold headRef headAt
  rw [addf_apply, dot_r2_apply, bcast_rows2, bcast_row2]
  congr 1
  refine Finset.sum_congr rfl fun k _ => ?_
  rw [maximumf_apply, addf_apply, dot_r1_apply, bcast_rows64, bcast_row64, bcast_zero]

/-! ## The kernel's payload at an index -/

theorem pay_apply (x : Vec Ideal S256x64 .f32) (w1 : Vec Ideal S64x64 .f32) (b1 : Vec Ideal S1x64 .f32)
    (w2 : Vec Ideal S64x2 .f32) (b2 : Vec Ideal S1x2 .f32) (r : Fin 256) (s : Fin 2) :
    k7_pay1 (F := Ideal) x w1 b1 w2 b2 (ix2 r s)
      = headAt x w1 (fun k => b1 (ix2 (0 : Fin 1) k)) w2 (fun s => b2 (ix2 (0 : Fin 1) s)) r s := by
  unfold k7_pay1 headAt
  dsimp only
  rw [addf_apply, matmul_k2_apply, shapeCast_self, broadcastTo_1b_ab_apply]
  simp only [truncf_apply, maximumf_apply, addf_apply, matmul_k1_apply, shapeCast_self, broadcastTo_1b_ab_apply,
    broadcast_apply]
  rw [show (FloatOps.ofBits (F := Ideal) .f32 0x00000000#32 : EReal) = 0 from Ideal.ofBits_zero_f32]

/-! ## From the one block to the array -/

variable (V : (c : Dev nD) → (b : Ref sig .tc) → Buf (Elt Ideal) ((c : Thread nD τ).loc b))

/-- At the one grid point every window's block index is (0,0): each block is its whole array. -/
theorem idx7_0 : win7_0.index t7_0 (0 : Fin 2) = 0 ∧ win7_0.index t7_0 (1 : Fin 2) = 0 := by decide +kernel
theorem idx7_1 : win7_1.index t7_0 (0 : Fin 2) = 0 ∧ win7_1.index t7_0 (1 : Fin 2) = 0 := by decide +kernel
theorem idx7_2 : win7_2.index t7_0 (0 : Fin 2) = 0 ∧ win7_2.index t7_0 (1 : Fin 2) = 0 := by decide +kernel
theorem idx7_3 : win7_3.index t7_0 (0 : Fin 2) = 0 ∧ win7_3.index t7_0 (1 : Fin 2) = 0 := by decide +kernel
theorem idx7_4 : win7_4.index t7_0 (0 : Fin 2) = 0 ∧ win7_4.index t7_0 (1 : Fin 2) = 0 := by decide +kernel
theorem idx7_5 : win7_5.index t7_0 (0 : Fin 2) = 0 ∧ win7_5.index t7_0 (1 : Fin 2) = 0 := by decide +kernel

/-- The pooled features' tile is the whole array. -/
theorem tile_x (c : Dev nD) (t : Fin cfg7.N) : (Head.tile V c 0 t : Vec Ideal S256x64 .f32) = V c main_v100 := by
  obtain rfl := fin_N7 t
  funext y
  unfold Head.tile
  rw [View.read_apply]
  show V c main_v100 _ = V c main_v100 y
  congr 1
  funext a
  apply Fin.ext
  match a with
  | ⟨0, _⟩ =>
    show win7_0.index t7_0 (0 : Fin 2) * 256 + 1 * (y 0).val = (y 0).val
    rw [idx7_0.1]; omega
  | ⟨1, _⟩ =>
    show win7_0.index t7_0 (1 : Fin 2) * 64 + 1 * (y 1).val = (y 1).val
    rw [idx7_0.2]; omega

/-- The first weight's tile is the whole array. -/
theorem tile_w1 (c : Dev nD) (t : Fin cfg7.N) : (Head.tile V c 1 t : Vec Ideal S64x64 .f32) = V c main_arg21 := by
  obtain rfl := fin_N7 t
  funext y
  unfold Head.tile
  rw [View.read_apply]
  show V c main_arg21 _ = V c main_arg21 y
  congr 1
  funext a
  apply Fin.ext
  match a with
  | ⟨0, _⟩ =>
    show win7_1.index t7_0 (0 : Fin 2) * 64 + 1 * (y 0).val = (y 0).val
    rw [idx7_1.1]; omega
  | ⟨1, _⟩ =>
    show win7_1.index t7_0 (1 : Fin 2) * 64 + 1 * (y 1).val = (y 1).val
    rw [idx7_1.2]; omega

/-- The first bias row's tile is the whole array. -/
theorem tile_b1 (c : Dev nD) (t : Fin cfg7.N) : (Head.tile V c 2 t : Vec Ideal S1x64 .f32) = V c main_v101 := by
  obtain rfl := fin_N7 t
  funext y
  unfold Head.tile
  rw [View.read_apply]
  show V c main_v101 _ = V c main_v101 y
  congr 1
  funext a
  apply Fin.ext
  match a with
  | ⟨0, _⟩ =>
    show win7_2.index t7_0 (0 : Fin 2) * 1 + 1 * (y 0).val = (y 0).val
    rw [idx7_2.1]; omega
  | ⟨1, _⟩ =>
    show win7_2.index t7_0 (1 : Fin 2) * 64 + 1 * (y 1).val = (y 1).val
    rw [idx7_2.2]; omega

/-- The second weight's tile is the whole array. -/
theorem tile_w2 (c : Dev nD) (t : Fin cfg7.N) : (Head.tile V c 3 t : Vec Ideal S64x2 .f32) = V c main_arg23 := by
  obtain rfl := fin_N7 t
  funext y
  unfold Head.tile
  rw [View.read_apply]
  show V c main_arg23 _ = V c main_arg23 y
  congr 1
  funext a
  apply Fin.ext
  match a with
  | ⟨0, _⟩ =>
    show win7_3.index t7_0 (0 : Fin 2) * 64 + 1 * (y 0).val = (y 0).val
    rw [idx7_3.1]; omega
  | ⟨1, _⟩ =>
    show win7_3.index t7_0 (1 : Fin 2) * 2 + 1 * (y 1).val = (y 1).val
    rw [idx7_3.2]; omega

/-- The second bias row's tile is the whole array. -/
theorem tile_b2 (c : Dev nD) (t : Fin cfg7.N) : (Head.tile V c 4 t : Vec Ideal S1x2 .f32) = V c main_v102 := by
  obtain rfl := fin_N7 t
  funext y
  unfold Head.tile
  rw [View.read_apply]
  show V c main_v102 _ = V c main_v102 y
  congr 1
  funext a
  apply Fin.ext
  match a with
  | ⟨0, _⟩ =>
    show win7_4.index t7_0 (0 : Fin 2) * 1 + 1 * (y 0).val = (y 0).val
    rw [idx7_4.1]; omega
  | ⟨1, _⟩ =>
    show win7_4.index t7_0 (1 : Fin 2) * 2 + 1 * (y 1).val = (y 1).val
    rw [idx7_4.2]; omega

theorem hz : (![0, 0] : Fin 2 → Nat) = fun _ => 0 := funext fun a => by fin_cases a <;> rfl

/-- An element of the output's one block sits at its own index in the array. -/
theorem emb_out (j : S256x2.Idx) : ((cfg7.win 5).blk t7_0).view.emb j = j := by
  funext a
  apply Fin.ext
  match a with
  | ⟨0, _⟩ =>
    show win7_5.index t7_0 (0 : Fin 2) * 256 + 1 * (j 0).val = (j 0).val
    rw [idx7_5.1]; omega
  | ⟨1, _⟩ =>
    show win7_5.index t7_0 (1 : Fin 2) * 2 + 1 * (j 1).val = (j 1).val
    rw [idx7_5.2]; omega

/-- Every index of the output array is in the one point's block. -/
theorem mem_out (i : S256x2.Idx) : i ∈ ((cfg7.win 5).blk t7_0).view.set := by
  show i ∈ ((View.whole main_v103).slice (win7_5.rect t7_0)).set
  rw [View.set_slice_whole, Rect.mem_set_unit]
  intro a
  match a with
  | ⟨0, _⟩ =>
    show win7_5.index t7_0 (0 : Fin 2) * 256 ≤ (i 0).val ∧ (i 0).val < win7_5.index t7_0 (0 : Fin 2) * 256 + 256
    have hi : (i 0).val < 256 := (i 0).isLt
    rw [idx7_5.1]; omega
  | ⟨1, _⟩ =>
    show win7_5.index t7_0 (1 : Fin 2) * 2 ≤ (i 1).val ∧ (i 1).val < win7_5.index t7_0 (1 : Fin 2) * 2 + 2
    have hi : (i 1).val < 2 := (i 1).isLt
    rw [idx7_5.2]; omega

/-- THE OUTPUT ARRAY after the region: the reference's read-out of the arrays the region finds — the pooled features,
    the two weights, and the two biases through their [1,n] reshapes. -/
theorem value (c : Dev nD) (p : Vec Ideal S256x64 .f32) (w1 : Vec Ideal S64x64 .f32) (b1 : Vec Ideal S64 .f32)
    (w2 : Vec Ideal S64x2 .f32) (b2 : Vec Ideal S2 .f32)
    (hp : V c main_v100 = p) (hw1 : V c main_arg21 = w1) (hb1 : ∀ j : Fin 64, V c main_v101 (ix2 0 j) = b1 (ix1 j))
    (hw2 : V c main_arg23 = w2) (hb2 : ∀ j : Fin 2, V c main_v102 (ix2 0 j) = b2 (ix1 j)) :
    (Cert.KernelIdeal.Head.dat (F := Ideal) V c).arrAt 5 cfg7.N = headRef p w1 b1 w2 b2 := by
  refine (Cert.KernelIdeal.Head.dat (F := Ideal) V c).arrAt_eq_of_cover 5 (headRef p w1 b1 w2 b2) (fun t _ => ?_)
    (fun i => ⟨t7_0, flush7_5 t7_0, mem_out i⟩)
  show (cfg7.win 5).cut (grid7.coords t) ((Cert.KernelIdeal.Head.dat (F := Ideal) V c).after 5 t) = _
  rw [Head.after_out, tile_x, tile_w1, tile_b1, tile_w2, tile_b2, hp, hw1, hw2]
  obtain rfl := fin_N7 t
  unfold Head.head
  rw [View.canon_unit_zero hz]
  simp only [View.ld_unit_zero (S := S256x64) hz, View.ld_unit_zero (S := S64x64) hz, View.ld_unit_zero (S := S1x64) hz,
    View.ld_unit_zero (S := S64x2) hz, View.ld_unit_zero (S := S1x2) hz]
  funext j
  show k7_pay1 (F := Ideal) p w1 (V c main_v101) w2 (V c main_v102) j = headRef p w1 b1 w2 b2 (((cfg7.win 5).blk t7_0).view.emb j)
  rw [emb_out]
  obtain ⟨r, s, rfl⟩ : ∃ (r : Fin 256) (s : Fin 2), j = ix2 r s := ⟨j 0, j 1, eq_ix2 j⟩
  rw [pay_apply, headRef_apply]
  simp only [hb1, hb2]

end Cert.KernelIdeal.HeadVal

end
-- ==== Proof.KernelIdeal.HostChain.lean ====
/-
  The host operations of the graph network's main function, between its eight pipelined regions, as named pure
  functions over any float instance, and what the buffers hold between the program's items in terms of them.

  The edge list (2 × 3,200,000 node ids) is split into sources and destinations and one self-loop per node is appended
  (3,300,000 edges). The in-degree is a scatter-add of ones at the destinations; dinv is deg^(-1/2) where deg > 0 and 0
  elsewhere; an edge's normalization is dinv[src] · dinv[dst]. Each of the three layers gathers the source rows of the
  linear region's output, scales them by the edge normalization and scatter-adds them at the destinations
  (`aggregate`), and hands the five 64-vectors of its bias / batch-norm parameters on as 1 × 64 rows. Before pooling
  the graph ids become a column; after it the per-graph sums are divided by max(count, 1); the head's two biases
  become rows. Gathers, scatters and concatenations stay opaque symbols throughout: every proof is a rewriting of one
  stretch's operations followed by reflexivity.
-/
import proofs.«412454_j38594576122130_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostChain

open Cert.KernelIdeal Cert.KernelIdeal.Gen
open Idealize.ShloMosaic Idealize.ShloMosaic.TcCoe
open Idealize.ShloMosaic.StableHlo

variable {F : FTy → Type} [FloatOps F]

/-! ## The host operations as pure functions

Every definition below is the composition of the library's tensor operations that the program's host lines apply,
kept as opaque symbols: nothing here is ever evaluated at these extents. -/

/-- The edge list's first row (the sources) as a vector of 3,200,000 node ids. -/
def edgeRow0 (ei : Vec F S2x3200000 .i32) : Vec F S3200000 .i32 :=
  shapeCast S3200000 (extractStridedSlice S1x3200000 ![0, 0] ei Gen.slices_S2x3200000_S1x3200000_0_0) Gen.shapeCasts_S1x3200000_S3200000
/-- The edge list's second row (the destinations) as a vector of 3,200,000 node ids. -/
def edgeRow1 (ei : Vec F S2x3200000 .i32) : Vec F S3200000 .i32 :=
  shapeCast S3200000 (extractStridedSlice S1x3200000 ![1, 0] ei Gen.slices_S2x3200000_S1x3200000_1_0) Gen.shapeCasts_S1x3200000_S3200000

/-- The node ids 0 … 99,999: the self-loops' sources and destinations. -/
def selfLoops : Vec F S100000 .i32 := iotaInDim S100000 32 0

/-- The sources of the 3,300,000 edges: the edge list's first row, then one self-loop per node. -/
def srcIdx (ei : Vec F S2x3200000 .i32) : Vec F S3300000 .i32 :=
  concatenate S3300000 0 [⟨S3200000, edgeRow0 ei⟩, ⟨S100000, selfLoops (F := F)⟩] Gen.concatenates_S3200000_S100000_S3300000_d0
/-- The destinations of the 3,300,000 edges: the edge list's second row, then one self-loop per node. -/
def dstIdx (ei : Vec F S2x3200000 .i32) : Vec F S3300000 .i32 :=
  concatenate S3300000 0 [⟨S3200000, edgeRow1 ei⟩, ⟨S100000, selfLoops (F := F)⟩] Gen.concatenates_S3200000_S100000_S3300000_d0

/-- An edge-indexed vector of node ids as a column of scatter / gather indices. -/
def idxCol (i : Vec F S3300000 .i32) : Vec F S3300000x1 .i32 :=
  broadcastInDim S3300000x1 ![0] Gen.bcast_S3300000_S3300000x1_0 i

/-- The zero vector over the nodes. -/
def zeroNodes : Vec F S100000 .f32 :=
  broadcastInDim S100000 ![] Gen.bcast_S_S100000 (constant (F := F) S_ .f32 0x00000000#32)

/-- Ones summed at the destinations `dst`: the in-degree of every node. -/
def degreeOf (dst : Vec F S3300000 .i32) : Vec F S100000 .f32 :=
  Host.scatterAdd scatter_S100000_S3300000x1_S3300000_n_0_0_1 (zeroNodes (F := F)) (idxCol dst)
    (broadcastInDim S3300000 ![] Gen.bcast_S_S3300000 (constant (F := F) S_ .f32 0x3F800000#32))

/-- deg^(-1/2) where the degree is positive, 0 elsewhere; `z` is the scalar zero the selection falls back to. -/
def dinvOf (pos : Vec F S100000 .i1) (rs : Vec F S100000 .f32) (z : Vec F S_ .f32) : Vec F S100000 .f32 :=
  select pos rs (broadcastInDim S100000 ![] Gen.bcast_S_S100000 (id z))

/-- An index vector with its negative entries wrapped by the number of nodes (the gather's index normalization). -/
def wrapIdx (i : Vec F S3300000 .i32) : Vec F S3300000 .i32 :=
  select (cmpi .slt i (broadcastInDim S3300000 ![] Gen.bcast_S_S3300000 (constantI S_ 32 0#32)))
    (addi i (broadcastInDim S3300000 ![] Gen.bcast_S_S3300000 (constantI S_ 32 100000#32)))
    i

/-- The per-edge product d[src] · d[dst] of a node vector `d`. -/
def normOf (src dst : Vec F S3300000 .i32) (d : Vec F S100000 .f32) : Vec F S3300000 .f32 :=
  mulf (Host.gather gather_S100000_S3300000x1_S3300000_n_0_n_n_0_1_1 d (idxCol (wrapIdx src)))
       (Host.gather gather_S100000_S3300000x1_S3300000_n_0_n_n_0_1_1 d (idxCol (wrapIdx dst)))

/-- One round of message passing over given endpoints and edge weights: every edge carries its source's feature row
    scaled by the edge's weight, and the rows are summed at the destinations. -/
def aggOf (src dst : Vec F S3300000 .i32) (w : Vec F S3300000 .f32) (h : Vec F S100000x64 .f32) : Vec F S100000x64 .f32 :=
  Host.scatterAdd scatter_S100000x64_S3300000x1_S3300000x64_1_0_0_1
    (broadcastInDim S100000x64 ![] Gen.bcast_S_S100000x64 (constant (F := F) S_ .f32 0x00000000#32))
    (idxCol dst)
    (mulf (Host.gather gather_S100000x64_S3300000x1_S3300000x64_1_0_n_n_0_1_164 h (idxCol (wrapIdx src)))
          (broadcastInDim S3300000x64 ![0, 1] Gen.bcast_S3300000x1_S3300000x64_0_1
            (broadcastInDim S3300000x1 ![0] Gen.bcast_S3300000_S3300000x1_0 w)))

/-- The in-degree of every node (self-loop included). -/
def degree (ei : Vec F S2x3200000 .i32) : Vec F S100000 .f32 := degreeOf (dstIdx ei)

/-- deg^(-1/2) where the degree is positive, 0 elsewhere. -/
def dinv (ei : Vec F S2x3200000 .i32) : Vec F S100000 .f32 :=
  dinvOf (cmpf .ogt (degree ei) (zeroNodes (F := F))) (Host.rsqrt (degree ei)) (constant (F := F) S_ .f32 0x00000000#32)

/-- The per-edge normalization dinv[src] · dinv[dst]. -/
def edgeNorm (ei : Vec F S2x3200000 .i32) : Vec F S3300000 .f32 := normOf (srcIdx ei) (dstIdx ei) (dinv ei)

/-- One round of normalized message passing over the graph's edges. -/
def aggregate (ei : Vec F S2x3200000 .i32) (h : Vec F S100000x64 .f32) : Vec F S100000x64 .f32 :=
  aggOf (srcIdx ei) (dstIdx ei) (edgeNorm ei) h

/-- A 64-vector as a 1 × 64 row. -/
def row64 (b : Vec F S64 .f32) : Vec F S1x64 .f32 := shapeCast S1x64 b Gen.shapeCasts_S64_S1x64
/-- A 2-vector as a 1 × 2 row. -/
def row2 (b : Vec F S2 .f32) : Vec F S1x2 .f32 := shapeCast S1x2 b Gen.shapeCasts_S2_S1x2
/-- The graph id of every node as a 100000 × 1 column. -/
def idCol (batch : Vec F S100000 .i32) : Vec F S100000x1 .i32 := shapeCast S100000x1 batch Gen.shapeCasts_S100000_S100000x1

/-- The number of nodes of every graph: ones summed at the graph ids. -/
def counts (batch : Vec F S100000 .i32) : Vec F S256 .f32 :=
  Host.scatterAdd scatter_S256_S100000x1_S100000_n_0_0_1
    (broadcastInDim S256 ![] Gen.bcast_S_S256 (constant (F := F) S_ .f32 0x00000000#32))
    (broadcastInDim S100000x1 ![0] Gen.bcast_S100000_S100000x1_0 batch)
    (broadcastInDim S100000 ![] Gen.bcast_S_S100000 (constant (F := F) S_ .f32 0x3F800000#32))

/-- The per-graph sums divided by max(count, 1), row by row. -/
def meanOf (batch : Vec F S100000 .i32) (s : Vec F S256x64 .f32) : Vec F S256x64 .f32 :=
  Host.divf s
    (broadcastInDim S256x64 ![0, 1] Gen.bcast_S256x1_S256x64_0_1
      (broadcastInDim S256x1 ![0] Gen.bcast_S256_S256x1_0
        (maximumf (counts batch) (broadcastInDim S256 ![] Gen.bcast_S_S256 (constant (F := F) S_ .f32 0x3F800000#32)))))

/-! ## Each host stretch at any contents

What a stretch leaves in the buffers this proof reads, as a function of what the buffers it reads held before it. -/

section Stretches
variable (W : Valuation τ sig (Elt F))

theorem ops0_v3 : StableHlo.after hostOps0 W (Proc.devRef .tc main_v3) = srcIdx (W (Proc.devRef .tc main_arg1)) := by
  after_results; rfl
theorem ops0_v6 : StableHlo.after hostOps0 W (Proc.devRef .tc main_v6) = dstIdx (W (Proc.devRef .tc main_arg1)) := by
  after_results; rfl
theorem ops0_v12 : StableHlo.after hostOps0 W (Proc.devRef .tc main_v12)
    = cmpf .ogt (degree (W (Proc.devRef .tc main_arg1))) (zeroNodes (F := F)) := by
  after_results; rfl
theorem ops0_v13 : StableHlo.after hostOps0 W (Proc.devRef .tc main_v13) = Host.rsqrt (degree (W (Proc.devRef .tc main_arg1))) := by
  after_results; rfl
theorem ops0_cst2 : StableHlo.after hostOps0 W (Proc.devRef .tc main_cst_2) = constant (F := F) S_ .f32 0x00000000#32 := by
  after_results

theorem ops01_v14 : StableHlo.after hostOps0_1 W (Proc.devRef .tc main_v14)
    = dinvOf (W (Proc.devRef .tc main_v12)) (W (Proc.devRef .tc main_v13)) (W (Proc.devRef .tc main_cst_2)) := by
  after_results; rfl

set_option maxHeartbeats 2000000 in
theorem ops02_v29 : StableHlo.after hostOps0_2 W (Proc.devRef .tc main_v29)
    = normOf (W (Proc.devRef .tc main_v3)) (W (Proc.devRef .tc main_v6)) (W (Proc.devRef .tc main_v14)) := by
  after_results_simp; rfl

set_option maxHeartbeats 2000000 in
theorem ops1_v43 : StableHlo.after hostOps1 W (Proc.devRef .tc main_v43)
    = aggOf (W (Proc.devRef .tc main_v3)) (W (Proc.devRef .tc main_v6)) (W (Proc.devRef .tc main_v29)) (W (Proc.devRef .tc main_v30)) := by
  after_results; rfl
set_option maxHeartbeats 2000000 in
theorem ops1_v44 : StableHlo.after hostOps1 W (Proc.devRef .tc main_v44) = row64 (W (Proc.devRef .tc main_arg4)) := by
  after_results; rfl
set_option maxHeartbeats 2000000 in
theorem ops1_v45 : StableHlo.after hostOps1 W (Proc.devRef .tc main_v45) = row64 (W (Proc.devRef .tc main_arg5)) := by
  after_results; rfl
set_option maxHeartbeats 2000000 in
theorem ops1_v46 : StableHlo.after hostOps1 W (Proc.devRef .tc main_v46) = row64 (W (Proc.devRef .tc main_arg6)) := by
  after_results; rfl
set_option maxHeartbeats 2000000 in
theorem ops1_v47 : StableHlo.after hostOps1 W (Proc.devRef .tc main_v47) = row64 (W (Proc.devRef .tc main_arg7)) := by
  after_results; rfl
set_option maxHeartbeats 2000000 in
theorem ops1_v48 : StableHlo.after hostOps1 W (Proc.devRef .tc main_v48) = row64 (W (Proc.devRef .tc main_arg8)) := by
  after_results; rfl

set_option maxHeartbeats 2000000 in
theorem ops3_v63 : StableHlo.after hostOps3 W (Proc.devRef .tc main_v63)
    = aggOf (W (Proc.devRef .tc main_v3)) (W (Proc.devRef .tc main_v6)) (W (Proc.devRef .tc main_v29)) (W (Proc.devRef .tc main_v50)) := by
  after_results; rfl
set_option maxHeartbeats 2000000 in
theorem ops3_v64 : StableHlo.after hostOps3 W (Proc.devRef .tc main_v64) = row64 (W (Proc.devRef .tc main_arg10)) := by
  after_results; rfl
set_option maxHeartbeats 2000000 in
theorem ops3_v65 : StableHlo.after hostOps3 W (Proc.devRef .tc main_v65) = row64 (W (Proc.devRef .tc main_arg11)) := by
  after_results; rfl
set_option maxHeartbeats 2000000 in
theorem ops3_v66 : StableHlo.after hostOps3 W (Proc.devRef .tc main_v66) = row64 (W (Proc.devRef .tc main_arg12)) := by
  after_results; rfl
set_option maxHeartbeats 2000000 in
theorem ops3_v67 : StableHlo.after hostOps3 W (Proc.devRef .tc main_v67) = row64 (W (Proc.devRef .tc main_arg13)) := by
  after_results; rfl
set_option maxHeartbeats 2000000 in
theorem ops3_v68 : StableHlo.after hostOps3 W (Proc.devRef .tc main_v68) = row64 (W (Proc.devRef .tc main_arg14)) := by
  after_results; rfl

set_option maxHeartbeats 2000000 in
theorem ops5_v83 : StableHlo.after hostOps5 W (Proc.devRef .tc main_v83)
    = aggOf (W (Proc.devRef .tc main_v3)) (W (Proc.devRef .tc main_v6)) (W (Proc.devRef .tc main_v29)) (W (Proc.devRef .tc main_v70)) := by
  after_results; rfl
set_option maxHeartbeats 2000000 in
theorem ops5_v84 : StableHlo.after hostOps5 W (Proc.devRef .tc main_v84) = row64 (W (Proc.devRef .tc main_arg16)) := by
  after_results; rfl
set_option maxHeartbeats 2000000 in
theorem ops5_v85 : StableHlo.after hostOps5 W (Proc.devRef .tc main_v85) = row64 (W (Proc.devRef .tc main_arg17)) := by
  after_results; rfl
set_option maxHeartbeats 2000000 in
theorem ops5_v86 : StableHlo.after hostOps5 W (Proc.devRef .tc main_v86) = row64 (W (Proc.devRef .tc main_arg18)) := by
  after_results; rfl
set_option maxHeartbeats 2000000 in
theorem ops5_v87 : StableHlo.after hostOps5 W (Proc.devRef .tc main_v87) = row64 (W (Proc.devRef .tc main_arg19)) := by
  after_results; rfl
set_option maxHeartbeats 2000000 in
theorem ops5_v88 : StableHlo.after hostOps5 W (Proc.devRef .tc main_v88) = row64 (W (Proc.devRef .tc main_arg20)) := by
  after_results; rfl

theorem ops6_v90 : StableHlo.after hostOps6 W (Proc.devRef .tc main_v90) = idCol (W (Proc.devRef .tc main_arg2)) := by
  after_results; rfl

set_option maxHeartbeats 2000000 in
theorem ops7_v100 : StableHlo.after hostOps7 W (Proc.devRef .tc main_v100) = meanOf (W (Proc.devRef .tc main_arg2)) (W (Proc.devRef .tc main_v91)) := by
  after_results; rfl
theorem ops7_v101 : StableHlo.after hostOps7 W (Proc.devRef .tc main_v101) = row64 (W (Proc.devRef .tc main_arg22)) := by
  after_results; rfl
theorem ops7_v102 : StableHlo.after hostOps7 W (Proc.devRef .tc main_v102) = row2 (W (Proc.devRef .tc main_arg24)) := by
  after_results; rfl
end Stretches

/-! ## The buffers between the program's items

For every memory `m`, whatever the regions leave (`outs`), on every core: what the host stretches have put in the
buffers the regions read, and what they read of the regions' outputs. -/

section Facts
variable (m : (ℓ : Loc nD τ sig) → Buf (Elt F) ℓ) (outs : Outs (F := F)) (c : Dev nD)

/-! ### The edge endpoints, the degree and the normalization (the first three stretches) -/

theorem src_V1 : V1 m c main_v3 = srcIdx (m ((c : Thread nD τ).loc main_arg1)) := ops0_v3 (V0 m c)
theorem dst_V1 : V1 m c main_v6 = dstIdx (m ((c : Thread nD τ).loc main_arg1)) := ops0_v6 (V0 m c)
theorem pos_V1 : V1 m c main_v12 = cmpf .ogt (degree (m ((c : Thread nD τ).loc main_arg1))) (zeroNodes (F := F)) := ops0_v12 (V0 m c)
theorem rs_V1 : V1 m c main_v13 = Host.rsqrt (degree (m ((c : Thread nD τ).loc main_arg1))) := ops0_v13 (V0 m c)
theorem zero_V1 : V1 m c main_cst_2 = constant (F := F) S_ .f32 0x00000000#32 := ops0_cst2 (V0 m c)

theorem src_V2 : V2 m c main_v3 = srcIdx (m ((c : Thread nD τ).loc main_arg1)) := (V2_of m c main_v3 (by decide)).trans <| src_V1 m c
theorem dst_V2 : V2 m c main_v6 = dstIdx (m ((c : Thread nD τ).loc main_arg1)) := (V2_of m c main_v6 (by decide)).trans <| dst_V1 m c
theorem dinv_V2 : V2 m c main_v14 = dinv (m ((c : Thread nD τ).loc main_arg1)) :=
  (ops01_v14 (V1 m c)).trans (by rw [pos_V1 m c, rs_V1 m c, zero_V1 m c]; rfl)

theorem src_V3 : V3 m c main_v3 = srcIdx (m ((c : Thread nD τ).loc main_arg1)) := (V3_of m c main_v3 (by decide)).trans <| src_V2 m c
theorem dst_V3 : V3 m c main_v6 = dstIdx (m ((c : Thread nD τ).loc main_arg1)) := (V3_of m c main_v6 (by decide)).trans <| dst_V2 m c
theorem norm_V3 : V3 m c main_v29 = edgeNorm (m ((c : Thread nD τ).loc main_arg1)) :=
  (ops02_v29 (V2 m c)).trans (by rw [src_V2 m c, dst_V2 m c, dinv_V2 m c]; rfl)

/-- The node features and the first weight matrix are as launched when region 0 starts. -/
theorem x_V3 : V3 m c main_arg0 = (m ((c : Thread nD τ).loc main_arg0)) := (V3_of m c main_arg0 (by decide)).trans <| (V2_of m c main_arg0 (by decide)).trans <| (V1_of m c main_arg0 (by decide)).trans <| rfl
theorem w1_V3 : V3 m c main_arg3 = (m ((c : Thread nD τ).loc main_arg3)) := (V3_of m c main_arg3 (by decide)).trans <| (V2_of m c main_arg3 (by decide)).trans <| (V1_of m c main_arg3 (by decide)).trans <| rfl

/-! ### Layer 1 -/

theorem src_V4 : V4 m outs c main_v3 = srcIdx (m ((c : Thread nD τ).loc main_arg1)) := (V4_of m outs c main_v3 (by decide)).trans <| src_V3 m c
theorem dst_V4 : V4 m outs c main_v6 = dstIdx (m ((c : Thread nD τ).loc main_arg1)) := (V4_of m outs c main_v6 (by decide)).trans <| dst_V3 m c
theorem norm_V4 : V4 m outs c main_v29 = edgeNorm (m ((c : Thread nD τ).loc main_arg1)) := (V4_of m outs c main_v29 (by decide)).trans <| norm_V3 m c
/-- What region 0 leaves is what the next stretch reads. -/
theorem lin1_out : V4 m outs c main_v30 = outs 4 main_v30 c := Function.update_self ..

/-- Layer 1's aggregation: the message passing applied to what the linear region left. -/
theorem agg1 : V5 m outs c main_v43 = aggregate (m ((c : Thread nD τ).loc main_arg1)) (outs 4 main_v30 c) :=
  (ops1_v43 (V4 m outs c)).trans (by rw [src_V4 m outs c, dst_V4 m outs c, norm_V4 m outs c, lin1_out m outs c]; rfl)
theorem params1_0 : V5 m outs c main_v44 = row64 (m ((c : Thread nD τ).loc main_arg4)) :=
  (ops1_v44 (V4 m outs c)).trans (congrArg row64 ((V4_of m outs c main_arg4 (by decide)).trans <| (V3_of m c main_arg4 (by decide)).trans <| (V2_of m c main_arg4 (by decide)).trans <| (V1_of m c main_arg4 (by decide)).trans <| rfl))
theorem params1_1 : V5 m outs c main_v45 = row64 (m ((c : Thread nD τ).loc main_arg5)) :=
  (ops1_v45 (V4 m outs c)).trans (congrArg row64 ((V4_of m outs c main_arg5 (by decide)).trans <| (V3_of m c main_arg5 (by decide)).trans <| (V2_of m c main_arg5 (by decide)).trans <| (V1_of m c main_arg5 (by decide)).trans <| rfl))
theorem params1_2 : V5 m outs c main_v46 = row64 (m ((c : Thread nD τ).loc main_arg6)) :=
  (ops1_v46 (V4 m outs c)).trans (congrArg row64 ((V4_of m outs c main_arg6 (by decide)).trans <| (V3_of m c main_arg6 (by decide)).trans <| (V2_of m c main_arg6 (by decide)).trans <| (V1_of m c main_arg6 (by decide)).trans <| rfl))
theorem params1_3 : V5 m outs c main_v47 = row64 (m ((c : Thread nD τ).loc main_arg7)) :=
  (ops1_v47 (V4 m outs c)).trans (congrArg row64 ((V4_of m outs c main_arg7 (by decide)).trans <| (V3_of m c main_arg7 (by decide)).trans <| (V2_of m c main_arg7 (by decide)).trans <| (V1_of m c main_arg7 (by decide)).trans <| rfl))
theorem params1_4 : V5 m outs c main_v48 = row64 (m ((c : Thread nD τ).loc main_arg8)) :=
  (ops1_v48 (V4 m outs c)).trans (congrArg row64 ((V4_of m outs c main_arg8 (by decide)).trans <| (V3_of m c main_arg8 (by decide)).trans <| (V2_of m c main_arg8 (by decide)).trans <| (V1_of m c main_arg8 (by decide)).trans <| rfl))

/-- What region 1 leaves is what region 2 reads, beside the second weight matrix as launched. -/
theorem act1_out : V6 m outs c main_v49 = outs 6 main_v49 c := Function.update_self ..
theorem w2_V6 : V6 m outs c main_arg9 = (m ((c : Thread nD τ).loc main_arg9)) := (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide)).trans <| rfl

/-! ### Layer 2 -/

theorem src_V7 : V7 m outs c main_v3 = srcIdx (m ((c : Thread nD τ).loc main_arg1)) := (V7_of m outs c main_v3 (by decide)).trans <| (V6_of m outs c main_v3 (by decide)).trans <| (V5_of m outs c main_v3 (by decide)).trans <| src_V4 m outs c
theorem dst_V7 : V7 m outs c main_v6 = dstIdx (m ((c : Thread nD τ).loc main_arg1)) := (V7_of m outs c main_v6 (by decide)).trans <| (V6_of m outs c main_v6 (by decide)).trans <| (V5_of m outs c main_v6 (by decide)).trans <| dst_V4 m outs c
theorem norm_V7 : V7 m outs c main_v29 = edgeNorm (m ((c : Thread nD τ).loc main_arg1)) := (V7_of m outs c main_v29 (by decide)).trans <| (V6_of m outs c main_v29 (by decide)).trans <| (V5_of m outs c main_v29 (by decide)).trans <| norm_V4 m outs c
/-- What region 2 leaves is what the next stretch reads. -/
theorem lin2_out : V7 m outs c main_v50 = outs 7 main_v50 c := Function.update_self ..

/-- Layer 2's aggregation: the message passing applied to what the linear region left. -/
theorem agg2 : V8 m outs c main_v63 = aggregate (m ((c : Thread nD τ).loc main_arg1)) (outs 7 main_v50 c) :=
  (ops3_v63 (V7 m outs c)).trans (by rw [src_V7 m outs c, dst_V7 m outs c, norm_V7 m outs c, lin2_out m outs c]; rfl)
theorem params2_0 : V8 m outs c main_v64 = row64 (m ((c : Thread nD τ).loc main_arg10)) :=
  (ops3_v64 (V7 m outs c)).trans (congrArg row64 ((V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans <| rfl))
theorem params2_1 : V8 m outs c main_v65 = row64 (m ((c : Thread nD τ).loc main_arg11)) :=
  (ops3_v65 (V7 m outs c)).trans (congrArg row64 ((V7_of m outs c main_arg11 (by decide)).trans <| (V6_of m outs c main_arg11 (by decide)).trans <| (V5_of m outs c main_arg11 (by decide)).trans <| (V4_of m outs c main_arg11 (by decide)).trans <| (V3_of m c main_arg11 (by decide)).trans <| (V2_of m c main_arg11 (by decide)).trans <| (V1_of m c main_arg11 (by decide)).trans <| rfl))
theorem params2_2 : V8 m outs c main_v66 = row64 (m ((c : Thread nD τ).loc main_arg12)) :=
  (ops3_v66 (V7 m outs c)).trans (congrArg row64 ((V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide)).trans <| rfl))
theorem params2_3 : V8 m outs c main_v67 = row64 (m ((c : Thread nD τ).loc main_arg13)) :=
  (ops3_v67 (V7 m outs c)).trans (congrArg row64 ((V7_of m outs c main_arg13 (by decide)).trans <| (V6_of m outs c main_arg13 (by decide)).trans <| (V5_of m outs c main_arg13 (by decide)).trans <| (V4_of m outs c main_arg13 (by decide)).trans <| (V3_of m c main_arg13 (by decide)).trans <| (V2_of m c main_arg13 (by decide)).trans <| (V1_of m c main_arg13 (by decide)).trans <| rfl))
theorem params2_4 : V8 m outs c main_v68 = row64 (m ((c : Thread nD τ).loc main_arg14)) :=
  (ops3_v68 (V7 m outs c)).trans (congrArg row64 ((V7_of m outs c main_arg14 (by decide)).trans <| (V6_of m outs c main_arg14 (by decide)).trans <| (V5_of m outs c main_arg14 (by decide)).trans <| (V4_of m outs c main_arg14 (by decide)).trans <| (V3_of m c main_arg14 (by decide)).trans <| (V2_of m c main_arg14 (by decide)).trans <| (V1_of m c main_arg14 (by decide)).trans <| rfl))

/-- What region 3 leaves is what region 4 reads, beside the third weight matrix as launched. -/
theorem act2_out : V9 m outs c main_v69 = outs 9 main_v69 c := Function.update_self ..
theorem w3_V9 : V9 m outs c main_arg15 = (m ((c : Thread nD τ).loc main_arg15)) := (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide)).trans <| rfl

/-! ### Layer 3 -/

theorem src_V10 : V10 m outs c main_v3 = srcIdx (m ((c : Thread nD τ).loc main_arg1)) := (V10_of m outs c main_v3 (by decide)).trans <| (V9_of m outs c main_v3 (by decide)).trans <| (V8_of m outs c main_v3 (by decide)).trans <| src_V7 m outs c
theorem dst_V10 : V10 m outs c main_v6 = dstIdx (m ((c : Thread nD τ).loc main_arg1)) := (V10_of m outs c main_v6 (by decide)).trans <| (V9_of m outs c main_v6 (by decide)).trans <| (V8_of m outs c main_v6 (by decide)).trans <| dst_V7 m outs c
theorem norm_V10 : V10 m outs c main_v29 = edgeNorm (m ((c : Thread nD τ).loc main_arg1)) := (V10_of m outs c main_v29 (by decide)).trans <| (V9_of m outs c main_v29 (by decide)).trans <| (V8_of m outs c main_v29 (by decide)).trans <| norm_V7 m outs c
/-- What region 4 leaves is what the next stretch reads. -/
theorem lin3_out : V10 m outs c main_v70 = outs 10 main_v70 c := Function.update_self ..

/-- Layer 3's aggregation: the message passing applied to what the linear region left. -/
theorem agg3 : V11 m outs c main_v83 = aggregate (m ((c : Thread nD τ).loc main_arg1)) (outs 10 main_v70 c) :=
  (ops5_v83 (V10 m outs c)).trans (by rw [src_V10 m outs c, dst_V10 m outs c, norm_V10 m outs c, lin3_out m outs c]; rfl)
theorem params3_0 : V11 m outs c main_v84 = row64 (m ((c : Thread nD τ).loc main_arg16)) :=
  (ops5_v84 (V10 m outs c)).trans (congrArg row64 ((V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m c main_arg16 (by decide)).trans <| (V2_of m c main_arg16 (by decide)).trans <| (V1_of m c main_arg16 (by decide)).trans <| rfl))
theorem params3_1 : V11 m outs c main_v85 = row64 (m ((c : Thread nD τ).loc main_arg17)) :=
  (ops5_v85 (V10 m outs c)).trans (congrArg row64 ((V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m c main_arg17 (by decide)).trans <| (V2_of m c main_arg17 (by decide)).trans <| (V1_of m c main_arg17 (by decide)).trans <| rfl))
theorem params3_2 : V11 m outs c main_v86 = row64 (m ((c : Thread nD τ).loc main_arg18)) :=
  (ops5_v86 (V10 m outs c)).trans (congrArg row64 ((V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m c main_arg18 (by decide)).trans <| (V2_of m c main_arg18 (by decide)).trans <| (V1_of m c main_arg18 (by decide)).trans <| rfl))
theorem params3_3 : V11 m outs c main_v87 = row64 (m ((c : Thread nD τ).loc main_arg19)) :=
  (ops5_v87 (V10 m outs c)).trans (congrArg row64 ((V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m c main_arg19 (by decide)).trans <| (V2_of m c main_arg19 (by decide)).trans <| (V1_of m c main_arg19 (by decide)).trans <| rfl))
theorem params3_4 : V11 m outs c main_v88 = row64 (m ((c : Thread nD τ).loc main_arg20)) :=
  (ops5_v88 (V10 m outs c)).trans (congrArg row64 ((V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m outs c main_arg20 (by decide)).trans <| (V4_of m outs c main_arg20 (by decide)).trans <| (V3_of m c main_arg20 (by decide)).trans <| (V2_of m c main_arg20 (by decide)).trans <| (V1_of m c main_arg20 (by decide)).trans <| rfl))

/-! ### The pooling and the head -/

/-- What region 5 leaves is still there when the pooling region starts, beside the graph ids as a column. -/
theorem act3_out : V13 m outs c main_v89 = outs 12 main_v89 c :=
  (V13_of m outs c main_v89 (by decide)).trans (Function.update_self ..)
theorem ids_V13 : V13 m outs c main_v90 = idCol (m ((c : Thread nD τ).loc main_arg2)) :=
  (ops6_v90 (V12 m outs c)).trans (congrArg idCol ((V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl))

/-- What the pooling region leaves is what the last stretch reads. -/
theorem pool_out : V14 m outs c main_v91 = outs 14 main_v91 c := Function.update_self ..
/-- The per-graph means of what the pooling region summed. -/
theorem pooled : V15 m outs c main_v100 = meanOf (m ((c : Thread nD τ).loc main_arg2)) (outs 14 main_v91 c) :=
  (ops7_v100 (V14 m outs c)).trans (congrArg₂ meanOf ((V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl) (pool_out m outs c))
theorem headW1_V15 : V15 m outs c main_arg21 = (m ((c : Thread nD τ).loc main_arg21)) := (V15_of m outs c main_arg21 (by decide)).trans <| (V14_of m outs c main_arg21 (by decide)).trans <| (V13_of m outs c main_arg21 (by decide)).trans <| (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m outs c main_arg21 (by decide)).trans <| (V5_of m outs c main_arg21 (by decide)).trans <| (V4_of m outs c main_arg21 (by decide)).trans <| (V3_of m c main_arg21 (by decide)).trans <| (V2_of m c main_arg21 (by decide)).trans <| (V1_of m c main_arg21 (by decide)).trans <| rfl
theorem headB1_V15 : V15 m outs c main_v101 = row64 (m ((c : Thread nD τ).loc main_arg22)) :=
  (ops7_v101 (V14 m outs c)).trans (congrArg row64 ((V14_of m outs c main_arg22 (by decide)).trans <| (V13_of m outs c main_arg22 (by decide)).trans <| (V12_of m outs c main_arg22 (by decide)).trans <| (V11_of m outs c main_arg22 (by decide)).trans <| (V10_of m outs c main_arg22 (by decide)).trans <| (V9_of m outs c main_arg22 (by decide)).trans <| (V8_of m outs c main_arg22 (by decide)).trans <| (V7_of m outs c main_arg22 (by decide)).trans <| (V6_of m outs c main_arg22 (by decide)).trans <| (V5_of m outs c main_arg22 (by decide)).trans <| (V4_of m outs c main_arg22 (by decide)).trans <| (V3_of m c main_arg22 (by decide)).trans <| (V2_of m c main_arg22 (by decide)).trans <| (V1_of m c main_arg22 (by decide)).trans <| rfl))
theorem headW2_V15 : V15 m outs c main_arg23 = (m ((c : Thread nD τ).loc main_arg23)) := (V15_of m outs c main_arg23 (by decide)).trans <| (V14_of m outs c main_arg23 (by decide)).trans <| (V13_of m outs c main_arg23 (by decide)).trans <| (V12_of m outs c main_arg23 (by decide)).trans <| (V11_of m outs c main_arg23 (by decide)).trans <| (V10_of m outs c main_arg23 (by decide)).trans <| (V9_of m outs c main_arg23 (by decide)).trans <| (V8_of m outs c main_arg23 (by decide)).trans <| (V7_of m outs c main_arg23 (by decide)).trans <| (V6_of m outs c main_arg23 (by decide)).trans <| (V5_of m outs c main_arg23 (by decide)).trans <| (V4_of m outs c main_arg23 (by decide)).trans <| (V3_of m c main_arg23 (by decide)).trans <| (V2_of m c main_arg23 (by decide)).trans <| (V1_of m c main_arg23 (by decide)).trans <| rfl
theorem headB2_V15 : V15 m outs c main_v102 = row2 (m ((c : Thread nD τ).loc main_arg24)) :=
  (ops7_v102 (V14 m outs c)).trans (congrArg row2 ((V14_of m outs c main_arg24 (by decide)).trans <| (V13_of m outs c main_arg24 (by decide)).trans <| (V12_of m outs c main_arg24 (by decide)).trans <| (V11_of m outs c main_arg24 (by decide)).trans <| (V10_of m outs c main_arg24 (by decide)).trans <| (V9_of m outs c main_arg24 (by decide)).trans <| (V8_of m outs c main_arg24 (by decide)).trans <| (V7_of m outs c main_arg24 (by decide)).trans <| (V6_of m outs c main_arg24 (by decide)).trans <| (V5_of m outs c main_arg24 (by decide)).trans <| (V4_of m outs c main_arg24 (by decide)).trans <| (V3_of m c main_arg24 (by decide)).trans <| (V2_of m c main_arg24 (by decide)).trans <| (V1_of m c main_arg24 (by decide)).trans <| rfl))

/-- The program's result is what the last region leaves. -/
theorem result : V16 m outs c main_v103 = outs 16 main_v103 c := Function.update_self ..
end Facts

/-! ## The parameter rows at an index -/

theorem row64_apply (b : Vec F S64 .f32) (j : Fin 64) : row64 b (ValueIdx.ix2 (0 : Fin 1) j) = b (ValueIdx.ix1 j) :=
  ValueIdx.shapeCast_a_1a_apply b Gen.shapeCasts_S64_S1x64 0 j
theorem row2_apply (b : Vec F S2 .f32) (j : Fin 2) : row2 b (ValueIdx.ix2 (0 : Fin 1) j) = b (ValueIdx.ix1 j) :=
  ValueIdx.shapeCast_a_1a_apply b Gen.shapeCasts_S2_S1x2 0 j

end Cert.KernelIdeal.HostChain
-- ==== Proof.RefStages.lean ====
/-
  The reference program's stages restated over the functions the kernel program's host lines are stated with.

  The reference is a three-layer graph convolution followed by a mean pooling over graphs and a two-layer read-out.
  Each layer is a linear map, an aggregation over the edges (gather the source rows, scale them by the edge's
  normalization dinv[src] · dinv[dst], sum them at the destination rows) and a bias + batch-norm + ReLU. The reference
  prints every operation of every layer anew; the index vectors, the normalization and the aggregation are, operation
  for operation, the same functions of the edge list in each layer. The two printed programs' shapes are the same
  literals and their dimension records have the same fields, so each equation below holds by unfolding the names on both
  sides down to the same operations; no gather, scatter or concatenation is evaluated.

  The one place where the two programs differ is the column of graph ids: the reference broadcasts the id vector along a
  new unit axis and the kernel program reshapes it. At (n, 0) both read the id of node n.
-/
import proofs.«412454_j38594576122130_1_alg».proof.Proof.RefRead
import proofs.«412454_j38594576122130_1_alg».proof.Proof.KernelIdeal.HostChain
import proofs.«412454_j38594576122130_1_alg».proof.Proof.KernelIdeal.Act1Val
import proofs.«412454_j38594576122130_1_alg».proof.Proof.KernelIdeal.HeadVal
import Idealize.ShloMosaic.Lib.Pipeline.Value
import Idealize.ShloMosaic.Lib.ValueIdx

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The edge list's two index vectors and the per-edge normalization

The reference builds the sources, the destinations, the degree, its inverse square root and the per-edge product once;
each is, operation for operation, the function of the edge list that the kernel program's host lines build. -/

/-- The sources: the edge list's first row followed by one self-loop per node. -/
theorem src_eq (x1 : (⟨S2x3200000, .i32⟩ : BufTy).Contents (Elt F)) :
    val_main_v3 (F := F) x1 = Cert.KernelIdeal.HostChain.srcIdx x1 := rfl

/-- The destinations: the edge list's second row followed by one self-loop per node. -/
theorem dst_eq (x1 : (⟨S2x3200000, .i32⟩ : BufTy).Contents (Elt F)) :
    val_main_v6 (F := F) x1 = Cert.KernelIdeal.HostChain.dstIdx x1 := rfl

/-- The degree: ones summed at the destinations. -/
theorem degree_eq (x1 : (⟨S2x3200000, .i32⟩ : BufTy).Contents (Elt F)) :
    val_main_v10 (F := F) x1 = Cert.KernelIdeal.HostChain.degree x1 := rfl

/-- deg^(-1/2) where the degree is positive, zero elsewhere. -/
theorem dinv_eq (x1 : (⟨S2x3200000, .i32⟩ : BufTy).Contents (Elt F)) :
    val_main_v14 (F := F) x1 = Cert.KernelIdeal.HostChain.dinv x1 := rfl

/-- The per-edge normalization dinv[src] · dinv[dst]. -/
theorem norm_eq (x1 : (⟨S2x3200000, .i32⟩ : BufTy).Contents (Elt F)) :
    val_main_v29 (F := F) x1 = Cert.KernelIdeal.HostChain.edgeNorm x1 := rfl

/-! ## Layer 1 -/

/-- The first linear map: the node features times W₁. -/
theorem stage30 (x0 : (⟨S100000x8, .f32⟩ : BufTy).Contents (Elt F)) (x3 : (⟨S8x64, .f32⟩ : BufTy).Contents (Elt F)) :
    val_main_v30 (F := F) x0 x3
      = Host.dotGeneral Cert.ReferenceIdeal.dot_S100000x8_S8x64_S100000x64_1_0_0_1_n_n none x0 x3 := rfl

/-- The first aggregation: gather at the sources, scale by the edge's normalization, sum at the destinations. -/
theorem stage43 (x0 : (⟨S100000x8, .f32⟩ : BufTy).Contents (Elt F)) (x1 : (⟨S2x3200000, .i32⟩ : BufTy).Contents (Elt F)) (x3 : (⟨S8x64, .f32⟩ : BufTy).Contents (Elt F)) :
    val_main_v43 (F := F) x0 x1 x3 = Cert.KernelIdeal.HostChain.aggregate x1 (val_main_v30 (F := F) x0 x3) := rfl

/-- The first layer's bias, batch-norm and ReLU. -/
theorem stage62 (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 x5 x6 x7 x8 : (⟨S64, .f32⟩ : BufTy).Contents (Elt Ideal)) :
    val_main_v62 (F := Ideal) x0 x1 x3 x4 x5 x6 x7 x8
      = Cert.KernelIdeal.Act1Val.actRef (val_main_v43 (F := Ideal) x0 x1 x3) x4 x5 x6 x7 x8 := rfl

/-! ## Layer 2 -/

/-- The second linear map: the first layer's output times W₂. -/
theorem stage63 (x0 : (⟨S100000x8, .f32⟩ : BufTy).Contents (Elt F)) (x1 : (⟨S2x3200000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) :
    val_main_v63 (F := F) x0 x1 x3 x4 x5 x6 x7 x8 x9
      = Host.dotGeneral Cert.ReferenceIdeal.dot_S100000x64_S64x64_S100000x64_1_0_0_1_n_n none (val_main_v62 (F := F) x0 x1 x3 x4 x5 x6 x7 x8) x9 := rfl

/-- The second aggregation. -/
theorem stage76 (x0 : (⟨S100000x8, .f32⟩ : BufTy).Contents (Elt F)) (x1 : (⟨S2x3200000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) :
    val_main_v76 (F := F) x0 x1 x3 x4 x5 x6 x7 x8 x9 = Cert.KernelIdeal.HostChain.aggregate x1 (val_main_v63 (F := F) x0 x1 x3 x4 x5 x6 x7 x8 x9) := rfl

/-- The second layer's bias, batch-norm and ReLU. -/
theorem stage95 (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) :
    val_main_v95 (F := Ideal) x0 x1 x3 x4 x5 x6 x7 x8 x9 x10 x11 x12 x13 x14
      = Cert.KernelIdeal.Act1Val.actRef (val_main_v76 (F := Ideal) x0 x1 x3 x4 x5 x6 x7 x8 x9) x10 x11 x12 x13 x14 := rfl

/-! ## Layer 3 -/

/-- The third linear map: the second layer's output times W₃. -/
theorem stage96 (x0 : (⟨S100000x8, .f32⟩ : BufTy).Contents (Elt F)) (x1 : (⟨S2x3200000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) (x10 x11 x12 x13 x14 : (⟨S64, .f32⟩ : BufTy).Contents (Elt F)) (x15 : (⟨S64x64, .f32⟩ : BufTy).Contents (Elt F)) :
    val_main_v96 (F := F) x0 x1 x3 x4 x5 x6 x7 x8 x9 x10 x11 x12 x13 x14 x15
      = Host.dotGeneral Cert.ReferenceIdeal.dot_S100000x64_S64x64_S100000x64_1_0_0_1_n_n none (val_main_v95 (F := F) x0 x1 x3 x4 x5 x6 x7 x8 x9 x10 x11 x12 x13 x14) x15 := rfl

/-- The third aggregation. -/
theorem stage109 (x0 : (⟨S100000x8, .f32⟩ : BufTy).Contents (Elt F)) (x1 : (⟨S2x3200000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) (x10 x11 x12 x13 x14 : (⟨S64, .f32⟩ : BufTy).Contents (Elt F)) (x15 : (⟨S64x64, .f32⟩ : BufTy).Contents (Elt F)) :
    val_main_v109 (F := F) x0 x1 x3 x4 x5 x6 x7 x8 x9 x10 x11 x12 x13 x14 x15 = Cert.KernelIdeal.HostChain.aggregate x1 (val_main_v96 (F := F) x0 x1 x3 x4 x5 x6 x7 x8 x9 x10 x11 x12 x13 x14 x15) := rfl

/-- The third layer's bias, batch-norm and ReLU. -/
theorem stage128 (x0 : (⟨S100000x8, .f32⟩ : BufTy).Contents (Elt Ideal)) (x1 : (⟨S2x3200000, .i32⟩ : BufTy).Contents (Elt Ideal)) (x3 : (⟨S8x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) :
    val_main_v128 (F := Ideal) x0 x1 x3 x4 x5 x6 x7 x8 x9 x10 x11 x12 x13 x14 x15 x16 x17 x18 x19 x20
      = Cert.KernelIdeal.Act1Val.actRef (val_main_v109 (F := Ideal) x0 x1 x3 x4 x5 x6 x7 x8 x9 x10 x11 x12 x13 x14 x15) x16 x17 x18 x19 x20 := rfl

/-! ## Pooling and read-out -/

/-- The graph ids as a column: the reference broadcasts the id vector along a new unit axis, the kernel program
    reshapes it; at (n, 0) both read the id of node n. -/
theorem idCol_eq (x2 : (⟨S100000, .i32⟩ : BufTy).Contents (Elt F)) :
    Cert.KernelIdeal.HostChain.idCol x2 = val_main_v130 (F := F) x2 := by
  funext i
  rw [val_main_v130_apply]
  unfold Cert.KernelIdeal.HostChain.idCol
  exact shapeCast_apply x2 Cert.KernelIdeal.Gen.shapeCasts_S100000_S100000x1 i (idx_main_v130 i)
    (by rewrite [Shape.rowMajor_val_two, Shape.rowMajor_val_one]
        have h1 : (i 1).val < 1 := (i 1).isLt
        show (i 0).val = (i 0).val * 1 + (i 1).val
        omega)

/-- The per-graph sums: the third layer's rows summed at their graph ids. -/
theorem stage131 (x0 : (⟨S100000x8, .f32⟩ : BufTy).Contents (Elt F)) (x1 : (⟨S2x3200000, .i32⟩ : BufTy).Contents (Elt F)) (x2 : (⟨S100000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) (x10 x11 x12 x13 x14 : (⟨S64, .f32⟩ : BufTy).Contents (Elt F)) (x15 : (⟨S64x64, .f32⟩ : BufTy).Contents (Elt F)) (x16 x17 x18 x19 x20 : (⟨S64, .f32⟩ : BufTy).Contents (Elt F)) :
    val_main_v131 (F := F) x0 x1 x2 x3 x4 x5 x6 x7 x8 x9 x10 x11 x12 x13 x14 x15 x16 x17 x18 x19 x20
      = Host.scatterAdd Cert.ReferenceIdeal.scatter_S256x64_S100000x1_S100000x64_1_0_0_1
          (broadcastInDim S256x64 ![] bcast_S_S256x64 (constant (F := F) S_ .f32 0x00000000#32))
          (Cert.KernelIdeal.HostChain.idCol x2)
          (val_main_v128 (F := F) x0 x1 x3 x4 x5 x6 x7 x8 x9 x10 x11 x12 x13 x14 x15 x16 x17 x18 x19 x20) := by
  rw [idCol_eq]
  rfl

/-- The per-graph means: the sums divided by max(count, 1). -/
theorem stage140 (x0 : (⟨S100000x8, .f32⟩ : BufTy).Contents (Elt F)) (x1 : (⟨S2x3200000, .i32⟩ : BufTy).Contents (Elt F)) (x2 : (⟨S100000, .i32⟩ : BufTy).Contents (Elt F)) (x3 : (⟨S8x64, .f32⟩ : BufTy).Contents (Elt F)) (x4 x5 x6 x7 x8 : (⟨S64, .f32⟩ : BufTy).Contents (Elt F)) (x9 : (⟨S64x64, .f32⟩ : BufTy).Contents (Elt F)) (x10 x11 x12 x13 x14 : (⟨S64, .f32⟩ : BufTy).Contents (Elt F)) (x15 : (⟨S64x64, .f32⟩ : BufTy).Contents (Elt F)) (x16 x17 x18 x19 x20 : (⟨S64, .f32⟩ : BufTy).Contents (Elt F)) :
    val_main_v140 (F := F) x0 x1 x2 x3 x4 x5 x6 x7 x8 x9 x10 x11 x12 x13 x14 x15 x16 x17 x18 x19 x20
      = Cert.KernelIdeal.HostChain.meanOf x2 (val_main_v131 (F := F) x0 x1 x2 x3 x4 x5 x6 x7 x8 x9 x10 x11 x12 x13 x14 x15 x16 x17 x18 x19 x20) := rfl

/-- The two-layer read-out of the pooled features. -/
theorem stage149 (x0 : (⟨S100000x8, .f32⟩ : BufTy).Contents (Elt Ideal)) (x1 : (⟨S2x3200000, .i32⟩ : BufTy).Contents (Elt Ideal)) (x2 : (⟨S100000, .i32⟩ : BufTy).Contents (Elt Ideal)) (x3 : (⟨S8x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x2, .f32⟩ : BufTy).Contents (Elt Ideal)) (x24 : (⟨S2, .f32⟩ : BufTy).Contents (Elt Ideal)) :
    val_main_v149 (F := Ideal) x0 x1 x2 x3 x4 x5 x6 x7 x8 x9 x10 x11 x12 x13 x14 x15 x16 x17 x18 x19 x20 x21 x22 x23 x24
      = Cert.KernelIdeal.HeadVal.headRef (val_main_v140 (F := Ideal) x0 x1 x2 x3 x4 x5 x6 x7 x8 x9 x10 x11 x12 x13 x14 x15 x16 x17 x18 x19 x20) x21 x22 x23 x24 := rfl

/-! ## The program's result -/

/-- What the reference's run leaves in its result buffer is the last stage, as a function of the arguments' contents
    at the launch. -/
theorem result (m : (ℓ : Loc nD τ sig) → Buf (Elt Ideal) ℓ) (c : Dev nD) :
    Cert.ReferenceIdeal.ValueP.res_main_v149 (F := Ideal) m c
      = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  val_main_v149_eq (F := Ideal) m c

end Cert.ReferenceIdeal.Stages

end
-- ==== Proof.Bridge.lean ====
/-
  The kernel program's result and the reference's are one function of the arguments, on exact extended reals.
  Walking @main: each pipelined region's output array, computed from the contents it is entered with, is the
  reference's stage of the same name in the mathematics — a product, a normalised activation, the sum per graph,
  the read-out — and each stretch of host operations between two regions applies the same operations as the
  reference does to the same operands.
-/
import proofs.«412454_j38594576122130_1_alg».proof.Defs
import proofs.«412454_j38594576122130_1_alg».proof.Proof.KernelIdeal.Run
import proofs.«412454_j38594576122130_1_alg».proof.Proof.KernelIdeal.Lin1Val
import proofs.«412454_j38594576122130_1_alg».proof.Proof.KernelIdeal.Lin2Val
import proofs.«412454_j38594576122130_1_alg».proof.Proof.KernelIdeal.Lin3Val
import proofs.«412454_j38594576122130_1_alg».proof.Proof.KernelIdeal.Act1Val
import proofs.«412454_j38594576122130_1_alg».proof.Proof.KernelIdeal.Act2Val
import proofs.«412454_j38594576122130_1_alg».proof.Proof.KernelIdeal.Act3Val
import proofs.«412454_j38594576122130_1_alg».proof.Proof.KernelIdeal.PoolSum
import proofs.«412454_j38594576122130_1_alg».proof.Proof.KernelIdeal.HeadVal
import proofs.«412454_j38594576122130_1_alg».proof.Proof.KernelIdeal.HostChain
import proofs.«412454_j38594576122130_1_alg».proof.Proof.RefStages

set_option maxRecDepth 16384

noncomputable section

namespace Cert.Proof.Bridge

open Cert.KernelIdeal Cert.KernelIdeal.Gen Cert.KernelIdeal.Run
open Idealize.ShloMosaic Idealize.ShloMosaic.TcCoe Idealize.SL.Sem
open Cert.ReferenceIdeal.ReadP

variable (m : (ℓ : Loc nD τ sig) → Buf (Elt Ideal) ℓ) (c : Dev nD)

/-- The arguments as the kernel program is launched with them. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)
abbrev a19 := m ((c : Thread nD τ).loc main_arg19)
abbrev a20 := m ((c : Thread nD τ).loc main_arg20)
abbrev a21 := m ((c : Thread nD τ).loc main_arg21)
abbrev a22 := m ((c : Thread nD τ).loc main_arg22)
abbrev a23 := m ((c : Thread nD τ).loc main_arg23)
abbrev a24 := m ((c : Thread nD τ).loc main_arg24)

/-- Linear layer 1: the tiled product is the reference's whole product. -/
theorem lin1 : W4 m c main_v30 = val_main_v30 (a0 m c) (a3 m c) := by
  have h1 : W4 m c main_v30 = (Lin1.dat (rd (V3 m)) c).arrAt 2 cfg0.N := by unfold W4; exact upd_self _ _ _
  rw [h1, Lin1Val.value (rd (V3 m)) c, Cert.ReferenceIdeal.Stages.stage30]
  dsimp only [rd]
  rw [HostChain.x_V3 m c, HostChain.w1_V3 m c]

/-- The neighbour sum after linear layer 1: the same host operations on both sides. -/
theorem agg1 : W5 m c main_v43 = val_main_v43 (a0 m c) (a1 m c) (a3 m c) := by
  rw [show W5 m c main_v43 = V5 m (outs m) c main_v43 from (congrFun (V5_eq m c) _).symm, HostChain.agg1 m (outs m) c,
    show outs m 4 main_v30 c = W4 m c main_v30 from rfl, lin1 m c]
  exact (Cert.ReferenceIdeal.Stages.stage43 (a0 m c) (a1 m c) (a3 m c)).symm

/-- Layer 1's bias / batch-norm / ReLU block: the region's output is the reference's stage. -/
theorem act1 : W6 m c main_v49 = val_main_v62 (a0 m c) (a1 m c) (a3 m c) (a4 m c) (a5 m c) (a6 m c) (a7 m c) (a8 m c) := by
  have h1 : W6 m c main_v49 = (Act1.dat (rd (W5 m)) c).arrAt 6 cfg1.N := by unfold W6; exact upd_self _ _ _
  have hp : ∀ (r : Ref sig .tc), W5 m c r = V5 m (outs m) c r := fun r => (congrFun (V5_eq m c) _).symm
  rw [h1, Act1Val.value (rd (W5 m)) c (val_main_v43 (a0 m c) (a1 m c) (a3 m c)) (a4 m c) (a5 m c) (a6 m c) (a7 m c) (a8 m c) (agg1 m c)
    (fun j => by show W5 m c main_v44 _ = _; rw [hp, HostChain.params1_0 m (outs m) c]; exact HostChain.row64_apply _ j)
    (fun j => by show W5 m c main_v45 _ = _; rw [hp, HostChain.params1_1 m (outs m) c]; exact HostChain.row64_apply _ j)
    (fun j => by show W5 m c main_v46 _ = _; rw [hp, HostChain.params1_2 m (outs m) c]; exact HostChain.row64_apply _ j)
    (fun j => by show W5 m c main_v47 _ = _; rw [hp, HostChain.params1_3 m (outs m) c]; exact HostChain.row64_apply _ j)
    (fun j => by show W5 m c main_v48 _ = _; rw [hp, HostChain.params1_4 m (outs m) c]; exact HostChain.row64_apply _ j)]
  exact (Cert.ReferenceIdeal.Stages.stage62 (a0 m c) (a1 m c) (a3 m c) (a4 m c) (a5 m c) (a6 m c) (a7 m c) (a8 m c)).symm

theorem w2_W6 : W6 m c main_arg9 = a9 m c := (congrFun (V6_eq m c) _).symm.trans (HostChain.w2_V6 m (outs m) c)
theorem w3_W9 : W9 m c main_arg15 = a15 m c := (congrFun (V9_eq m c) _).symm.trans (HostChain.w3_V9 m (outs m) c)

/-- Linear layer 2: the tiled product is the reference's whole product. -/
theorem lin2 : W7 m c main_v50 = val_main_v63 (a0 m c) (a1 m c) (a3 m c) (a4 m c) (a5 m c) (a6 m c) (a7 m c) (a8 m c) (a9 m c) := by
  have h1 : W7 m c main_v50 = (Lin2.dat (rd (W6 m)) c).arrAt 2 cfg2.N := by unfold W7; exact upd_self _ _ _
  rw [h1, Lin2Val.value (rd (W6 m)) c, Cert.ReferenceIdeal.Stages.stage63]
  dsimp only [rd]
  rw [act1 m c, w2_W6 m c]

/-- The neighbour sum after linear layer 2: the same host operations on both sides. -/
theorem agg2 : W8 m c main_v63 = val_main_v76 (a0 m c) (a1 m c) (a3 m c) (a4 m c) (a5 m c) (a6 m c) (a7 m c) (a8 m c) (a9 m c) := by
  rw [show W8 m c main_v63 = V8 m (outs m) c main_v63 from (congrFun (V8_eq m c) _).symm, HostChain.agg2 m (outs m) c,
    show outs m 7 main_v50 c = W7 m c main_v50 from rfl, lin2 m c]
  exact (Cert.ReferenceIdeal.Stages.stage76 (a0 m c) (a1 m c) (a3 m c) (a4 m c) (a5 m c) (a6 m c) (a7 m c) (a8 m c) (a9 m c)).symm

/-- Layer 2's bias / batch-norm / ReLU block: the region's output is the reference's stage. -/
theorem act2 : W9 m c main_v69 = val_main_v95 (a0 m c) (a1 m c) (a3 m c) (a4 m c) (a5 m c) (a6 m c) (a7 m c) (a8 m c) (a9 m c) (a10 m c) (a11 m c) (a12 m c) (a13 m c) (a14 m c) := by
  have h1 : W9 m c main_v69 = (Act2.dat (rd (W8 m)) c).arrAt 6 cfg3.N := by unfold W9; exact upd_self _ _ _
  have hp : ∀ (r : Ref sig .tc), W8 m c r = V8 m (outs m) c r := fun r => (congrFun (V8_eq m c) _).symm
  rw [h1, Act2Val.value (rd (W8 m)) c (val_main_v76 (a0 m c) (a1 m c) (a3 m c) (a4 m c) (a5 m c) (a6 m c) (a7 m c) (a8 m c) (a9 m c)) (a10 m c) (a11 m c) (a12 m c) (a13 m c) (a14 m c) (agg2 m c)
    (fun j => by show W8 m c main_v64 _ = _; rw [hp, HostChain.params2_0 m (outs m) c]; exact HostChain.row64_apply _ j)
    (fun j => by show W8 m c main_v65 _ = _; rw [hp, HostChain.params2_1 m (outs m) c]; exact HostChain.row64_apply _ j)
    (fun j => by show W8 m c main_v66 _ = _; rw [hp, HostChain.params2_2 m (outs m) c]; exact HostChain.row64_apply _ j)
    (fun j => by show W8 m c main_v67 _ = _; rw [hp, HostChain.params2_3 m (outs m) c]; exact HostChain.row64_apply _ j)
    (fun j => by show W8 m c main_v68 _ = _; rw [hp, HostChain.params2_4 m (outs m) c]; exact HostChain.row64_apply _ j)]
  exact (Cert.ReferenceIdeal.Stages.stage95 (a0 m c) (a1 m c) (a3 m c) (a4 m c) (a5 m c) (a6 m c) (a7 m c) (a8 m c) (a9 m c) (a10 m c) (a11 m c) (a12 m c) (a13 m c) (a14 m c)).symm

/-- Linear layer 3: the tiled product is the reference's whole product. -/
theorem lin3 : W10 m c main_v70 = val_main_v96 (a0 m c) (a1 m c) (a3 m c) (a4 m c) (a5 m c) (a6 m c) (a7 m c) (a8 m c) (a9 m c) (a10 m c) (a11 m c) (a12 m c) (a13 m c) (a14 m c) (a15 m c) := by
  have h1 : W10 m c main_v70 = (Lin3.dat (rd (W9 m)) c).arrAt 2 cfg4.N := by unfold W10; exact upd_self _ _ _
  rw [h1, Lin3Val.value (rd (W9 m)) c, Cert.ReferenceIdeal.Stages.stage96]
  dsimp only [rd]
  rw [act2 m c, w3_W9 m c]

/-- The neighbour sum after linear layer 3: the same host operations on both sides. -/
theorem agg3 : W11 m c main_v83 = val_main_v109 (a0 m c) (a1 m c) (a3 m c) (a4 m c) (a5 m c) (a6 m c) (a7 m c) (a8 m c) (a9 m c) (a10 m c) (a11 m c) (a12 m c) (a13 m c) (a14 m c) (a15 m c) := by
  rw [show W11 m c main_v83 = V11 m (outs m) c main_v83 from (congrFun (V11_eq m c) _).symm, HostChain.agg3 m (outs m) c,
    show outs m 10 main_v70 c = W10 m c main_v70 from rfl, lin3 m c]
  exact (Cert.ReferenceIdeal.Stages.stage109 (a0 m c) (a1 m c) (a3 m c) (a4 m c) (a5 m c) (a6 m c) (a7 m c) (a8 m c) (a9 m c) (a10 m c) (a11 m c) (a12 m c) (a13 m c) (a14 m c) (a15 m c)).symm

/-- Layer 3's bias / batch-norm / ReLU block: the region's output is the reference's stage. -/
theorem act3 : W12 m c main_v89 = val_main_v128 (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) := by
  have h1 : W12 m c main_v89 = (Act3.dat (rd (W11 m)) c).arrAt 6 cfg5.N := by unfold W12; exact upd_self _ _ _
  have hp : ∀ (r : Ref sig .tc), W11 m c r = V11 m (outs m) c r := fun r => (congrFun (V11_eq m c) _).symm
  rw [h1, Act3Val.value (rd (W11 m)) c (val_main_v109 (a0 m c) (a1 m c) (a3 m c) (a4 m c) (a5 m c) (a6 m c) (a7 m c) (a8 m c) (a9 m c) (a10 m c) (a11 m c) (a12 m c) (a13 m c) (a14 m c) (a15 m c)) (a16 m c) (a17 m c) (a18 m c) (a19 m c) (a20 m c) (agg3 m c)
    (fun j => by show W11 m c main_v84 _ = _; rw [hp, HostChain.params3_0 m (outs m) c]; exact HostChain.row64_apply _ j)
    (fun j => by show W11 m c main_v85 _ = _; rw [hp, HostChain.params3_1 m (outs m) c]; exact HostChain.row64_apply _ j)
    (fun j => by show W11 m c main_v86 _ = _; rw [hp, HostChain.params3_2 m (outs m) c]; exact HostChain.row64_apply _ j)
    (fun j => by show W11 m c main_v87 _ = _; rw [hp, HostChain.params3_3 m (outs m) c]; exact HostChain.row64_apply _ j)
    (fun j => by show W11 m c main_v88 _ = _; rw [hp, HostChain.params3_4 m (outs m) c]; exact HostChain.row64_apply _ j)]
  exact (Cert.ReferenceIdeal.Stages.stage128 (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)).symm

/-- The pooling region: twenty tiles of one-hot products add up to the scatter-add over graph ids. -/
theorem pool : W14 m c main_v91 = val_main_v131 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) := by
  have h1 : W14 m c main_v91 = (Pool.dat (rd (W13 m)) c).arrAt 2 cfg6.N := by unfold W14; exact upd_self _ _ _
  have hp : ∀ (r : Ref sig .tc), W13 m c r = V13 m (outs m) c r := fun r => (congrFun (V13_eq m c) _).symm
  rw [h1, Pool.final (rd (W13 m)) c]
  show PoolAcc.accum (W13 m c main_v89) (W13 m c main_v90) 19 _ = _
  rw [Cert.KernelIdeal.PoolSum.accum_last, hp main_v89, hp main_v90, HostChain.act3_out m (outs m) c, HostChain.ids_V13 m (outs m) c,
    show outs m 12 main_v89 c = W12 m c main_v89 from rfl, act3 m c]
  exact (Cert.ReferenceIdeal.Stages.stage131 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)).symm

/-- The mean per graph: the same host operations on both sides. -/
theorem mean : W15 m c main_v100 = val_main_v140 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) := by
  rw [show W15 m c main_v100 = V15 m (outs m) c main_v100 from (congrFun (V15_eq m c) _).symm, HostChain.pooled m (outs m) c,
    show outs m 14 main_v91 c = W14 m c main_v91 from rfl, pool m c]
  exact (Cert.ReferenceIdeal.Stages.stage140 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)).symm

/-- The read-out region is the reference's two products with bias and ReLU. -/
theorem readout : W16 m c main_v103 = val_main_v149 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) := by
  have h1 : W16 m c main_v103 = (Head.dat (rd (W15 m)) c).arrAt 5 cfg7.N := by unfold W16; exact upd_self _ _ _
  have hp : ∀ (r : Ref sig .tc), W15 m c r = V15 m (outs m) c r := fun r => (congrFun (V15_eq m c) _).symm
  rw [h1, HeadVal.value (rd (W15 m)) c (val_main_v140 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)) (a21 m c) (a22 m c) (a23 m c) (a24 m c) (mean m c)
    ((hp main_arg21).trans (HostChain.headW1_V15 m (outs m) c))
    (fun j => by show W15 m c main_v101 _ = _; rw [hp, HostChain.headB1_V15 m (outs m) c]; exact HostChain.row64_apply _ j)
    ((hp main_arg23).trans (HostChain.headW2_V15 m (outs m) c))
    (fun j => by show W15 m c main_v102 _ = _; rw [hp, HostChain.headB2_V15 m (outs m) c]; exact HostChain.row2_apply _ j)]
  exact (Cert.ReferenceIdeal.Stages.stage149 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c)).symm

/-- The reference's composed result, from a memory that agrees with the kernel's on the arguments, is the kernel
    program's last output array. -/
theorem reference_eq (m' : (ℓ : Loc Cert.ReferenceIdeal.nD Cert.ReferenceIdeal.τ Cert.ReferenceIdeal.sig) → Buf (Elt Ideal) ℓ) (c' : Dev Cert.ReferenceIdeal.nD)
    (h : m' ((c'.tc : Thread Cert.ReferenceIdeal.nD Cert.ReferenceIdeal.τ).loc Cert.ReferenceIdeal.main_arg0) = m ((c'.tc : Thread nD τ).loc main_arg0)
      ∧ m' ((c'.tc : Thread Cert.ReferenceIdeal.nD Cert.ReferenceIdeal.τ).loc Cert.ReferenceIdeal.main_arg1) = m ((c'.tc : Thread nD τ).loc main_arg1)
      ∧ m' ((c'.tc : Thread Cert.ReferenceIdeal.nD Cert.ReferenceIdeal.τ).loc Cert.ReferenceIdeal.main_arg2) = m ((c'.tc : Thread nD τ).loc main_arg2)
      ∧ m' ((c'.tc : Thread Cert.ReferenceIdeal.nD Cert.ReferenceIdeal.τ).loc Cert.ReferenceIdeal.main_arg3) = m ((c'.tc : Thread nD τ).loc main_arg3)
      ∧ m' ((c'.tc : Thread Cert.ReferenceIdeal.nD Cert.ReferenceIdeal.τ).loc Cert.ReferenceIdeal.main_arg4) = m ((c'.tc : Thread nD τ).loc main_arg4)
      ∧ m' ((c'.tc : Thread Cert.ReferenceIdeal.nD Cert.ReferenceIdeal.τ).loc Cert.ReferenceIdeal.main_arg5) = m ((c'.tc : Thread nD τ).loc main_arg5)
      ∧ m' ((c'.tc : Thread Cert.ReferenceIdeal.nD Cert.ReferenceIdeal.τ).loc Cert.ReferenceIdeal.main_arg6) = m ((c'.tc : Thread nD τ).loc main_arg6)
      ∧ m' ((c'.tc : Thread Cert.ReferenceIdeal.nD Cert.ReferenceIdeal.τ).loc Cert.ReferenceIdeal.main_arg7) = m ((c'.tc : Thread nD τ).loc main_arg7)
      ∧ m' ((c'.tc : Thread Cert.ReferenceIdeal.nD Cert.ReferenceIdeal.τ).loc Cert.ReferenceIdeal.main_arg8) = m ((c'.tc : Thread nD τ).loc main_arg8)
      ∧ m' ((c'.tc : Thread Cert.ReferenceIdeal.nD Cert.ReferenceIdeal.τ).loc Cert.ReferenceIdeal.main_arg9) = m ((c'.tc : Thread nD τ).loc main_arg9)
      ∧ m' ((c'.tc : Thread Cert.ReferenceIdeal.nD Cert.ReferenceIdeal.τ).loc Cert.ReferenceIdeal.main_arg10) = m ((c'.tc : Thread nD τ).loc main_arg10)
      ∧ m' ((c'.tc : Thread Cert.ReferenceIdeal.nD Cert.ReferenceIdeal.τ).loc Cert.ReferenceIdeal.main_arg11) = m ((c'.tc : Thread nD τ).loc main_arg11)
      ∧ m' ((c'.tc : Thread Cert.ReferenceIdeal.nD Cert.ReferenceIdeal.τ).loc Cert.ReferenceIdeal.main_arg12) = m ((c'.tc : Thread nD τ).loc main_arg12)
      ∧ m' ((c'.tc : Thread Cert.ReferenceIdeal.nD Cert.ReferenceIdeal.τ).loc Cert.ReferenceIdeal.main_arg13) = m ((c'.tc : Thread nD τ).loc main_arg13)
      ∧ m' ((c'.tc : Thread Cert.ReferenceIdeal.nD Cert.ReferenceIdeal.τ).loc Cert.ReferenceIdeal.main_arg14) = m ((c'.tc : Thread nD τ).loc main_arg14)
      ∧ m' ((c'.tc : Thread Cert.ReferenceIdeal.nD Cert.ReferenceIdeal.τ).loc Cert.ReferenceIdeal.main_arg15) = m ((c'.tc : Thread nD τ).loc main_arg15)
      ∧ m' ((c'.tc : Thread Cert.ReferenceIdeal.nD Cert.ReferenceIdeal.τ).loc Cert.ReferenceIdeal.main_arg16) = m ((c'.tc : Thread nD τ).loc main_arg16)
      ∧ m' ((c'.tc : Thread Cert.ReferenceIdeal.nD Cert.ReferenceIdeal.τ).loc Cert.ReferenceIdeal.main_arg17) = m ((c'.tc : Thread nD τ).loc main_arg17)
      ∧ m' ((c'.tc : Thread Cert.ReferenceIdeal.nD Cert.ReferenceIdeal.τ).loc Cert.ReferenceIdeal.main_arg18) = m ((c'.tc : Thread nD τ).loc main_arg18)
      ∧ m' ((c'.tc : Thread Cert.ReferenceIdeal.nD Cert.ReferenceIdeal.τ).loc Cert.ReferenceIdeal.main_arg19) = m ((c'.tc : Thread nD τ).loc main_arg19)
      ∧ m' ((c'.tc : Thread Cert.ReferenceIdeal.nD Cert.ReferenceIdeal.τ).loc Cert.ReferenceIdeal.main_arg20) = m ((c'.tc : Thread nD τ).loc main_arg20)
      ∧ m' ((c'.tc : Thread Cert.ReferenceIdeal.nD Cert.ReferenceIdeal.τ).loc Cert.ReferenceIdeal.main_arg21) = m ((c'.tc : Thread nD τ).loc main_arg21)
      ∧ m' ((c'.tc : Thread Cert.ReferenceIdeal.nD Cert.ReferenceIdeal.τ).loc Cert.ReferenceIdeal.main_arg22) = m ((c'.tc : Thread nD τ).loc main_arg22)
      ∧ m' ((c'.tc : Thread Cert.ReferenceIdeal.nD Cert.ReferenceIdeal.τ).loc Cert.ReferenceIdeal.main_arg23) = m ((c'.tc : Thread nD τ).loc main_arg23)
      ∧ m' ((c'.tc : Thread Cert.ReferenceIdeal.nD Cert.ReferenceIdeal.τ).loc Cert.ReferenceIdeal.main_arg24) = m ((c'.tc : Thread nD τ).loc main_arg24)) :
    Cert.ReferenceIdeal.ValueP.res_main_v149 (F := Ideal) m' c' = W16 m c' main_v103 := by
  obtain ⟨h0, h1, h2, h3, h4, h5, h6, h7, h8, h9, h10, h11, h12, h13, h14, h15, h16, h17, h18, h19, h20, h21, h22, h23, h24⟩ := h
  rw [Cert.ReferenceIdeal.Stages.result m' c', h0, h1, h2, h3, h4, h5, h6, h7, h8, h9, h10, h11, h12, h13, h14, h15, h16, h17, h18, h19, h20, h21, h22, h23, h24]
  exact (readout m c').symm

end Cert.Proof.Bridge

end
-- ==== Proof.lean ====
/-
  A three-layer graph convolution network (linear map, normalised neighbour sum, bias / batch-norm / ReLU),
  a mean pool over graphs and a two-layer read-out, against its plain reference.

  The kernel program runs the three linear maps, the three bias / batch-norm / ReLU blocks, the pooling sum and
  the read-out as pipelined regions, and the neighbour sums, the degree normalisation, the graph sizes and the
  mean's division as host operations — the same host operations as the reference. Each region's output array is
  computed from the arrays it is entered with (the `Run` modules); on exact extended reals each equals the
  reference's stage: a row-tiled matrix product is the whole product, the tiled elementwise block is the
  reference's elementwise chain, the tile-by-tile sum of one-hot products is the scatter-add over graph ids, and
  the read-out is the reference's two products with bias and ReLU (the `…Val` modules). The host operations
  between the regions are the same terms on both sides (`HostChain`, `RefStages`), so the two results are one
  function of the arguments (`Bridge`). No algebraic law beyond  0 · x = 0,  1 · x = x  and the reordering of
  finite sums is used, so the finiteness of the inputs is never opened.
-/
import proofs.«412454_j38594576122130_1_alg».proof.Defs
import proofs.«412454_j38594576122130_1_alg».proof.Proof.Gen.Kernel
import proofs.«412454_j38594576122130_1_alg».proof.Proof.Gen.KernelIdeal
import proofs.«412454_j38594576122130_1_alg».proof.Proof.Gen.ReferenceIdeal
import proofs.«412454_j38594576122130_1_alg».proof.Proof.Gen.Pre_finite_inputs
import proofs.«412454_j38594576122130_1_alg».proof.Proof.Kernel.Run
import proofs.«412454_j38594576122130_1_alg».proof.Proof.KernelIdeal.Run
import proofs.«412454_j38594576122130_1_alg».proof.Proof.RefRun
import proofs.«412454_j38594576122130_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_word : Cert.frame_Kernel := fun m ρ _ => Cert.Kernel.Run.frame (F := Bits) m ρ

/-- So does the program read on exact values. -/
theorem frame_exact : Cert.frame_KernelIdeal := fun m ρ _ => Cert.KernelIdeal.Run.frame (F := Ideal) m ρ

/-- The reference is host operations only: its run, with the result forgotten. -/
theorem frame_ref : Cert.frame_ReferenceIdeal := fun m ρ _ =>
  (θ_run Cert.ReferenceIdeal.defs _ _).mono (fun _ h c => (h c).2) (Cert.ReferenceIdeal.ValueP.run (F := Ideal) m ρ)

/-- On exact values both programs end with the same [256, 2] result: the kernel's is the last region's output
    array, the reference's its composed term, and the two are one function of the arguments. -/
theorem same_result : Cert.algebraic_KernelIdeal_ReferenceIdeal := by
  intro m ρ m' ρ' _ hagree
  refine ⟨fun c => Cert.KernelIdeal.Run.W16 m c Cert.KernelIdeal.main_v103, Cert.KernelIdeal.Run.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Proof.Bridge.reference_eq m m' c (hagree c)

theorem claim : Cert.Claim := ⟨Cert.Kernel.Gen.facts, Cert.KernelIdeal.Gen.facts, Cert.ReferenceIdeal.Gen.facts, Cert.Pre_finite_inputs.Gen.facts,
  frame_word, frame_exact, frame_ref, trivial, same_result⟩

end Cert.Proof

end
